-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048 : Shape := ⟨2, ![2048, 2048]⟩
abbrev S2048x4096 : Shape := ⟨2, ![2048, 4096]⟩
abbrev S32000x2048 : Shape := ⟨2, ![32000, 2048]⟩
abbrev S32000x4096 : Shape := ⟨2, ![32000, 4096]⟩
abbrev S2048 : Shape := ⟨1, ![2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S32000x2048 : S_.BroadcastsInDim S32000x2048 (![] : Fin 0 → Fin S32000x2048.rank)
  reducesTo_S32000x2048_S_d0_1 : S32000x2048.ReducesTo [0, 1] S_
  bcast_S_S32000x4096 : S_.BroadcastsInDim S32000x4096 (![] : Fin 0 → Fin S32000x4096.rank)
  reducesTo_S32000x4096_S_d0_1 : S32000x4096.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : IVec S2048 32) (main_v13 : IVec S_ 1) (main_v16 : IVec S32000x4096 1) : IVec S_ 1 :=
  let main_c_5 : IVec S_ 1 := constantI S_ 1 1#1
  let main_v17 : IVec S_ 1 := (fun x v => Host.reduce IntOp.andi x v reducesTo_S32000x4096_S_d0_1 h_S_) main_v16 main_c_5
  let main_v18 : IVec S_ 1 := andi main_v13 main_v17
  let main_c_6 : IVec S_ 32 := constantI S_ 32 4294967196#32
  let main_v19 : IVec S2048 32 := broadcastInDim S2048 ![] bcast_S_S2048 main_c_6
  let main_v20 : IVec S2048 1 := cmpi .eq main_arg4 main_v19
  let main_c_7 : IVec S_ 32 := constantI S_ 32 0#32
  let main_v21 : IVec S2048 32 := broadcastInDim S2048 ![] bcast_S_S2048 main_c_7
  let main_v22 : IVec S2048 1 := cmpi .sge main_arg4 main_v21
  let main_c_8 : IVec S_ 32 := constantI S_ 32 32000#32
  let main_v23 : IVec S2048 32 := broadcastInDim S2048 ![] bcast_S_S2048 main_c_8
  let main_v24 : IVec S2048 1 := cmpi .slt main_arg4 main_v23
  let main_v25 : IVec S2048 1 := andi main_v22 main_v24
  let main_v26 : IVec S2048 1 := ori main_v20 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v18 main_v27
  main_v28

def fn {F : FTy → Type} [FloatOps F] (main_arg0 : FVec F S2048x2048 .f32) (main_arg1 : FVec F S2048x4096 .f32) (main_arg2 : FVec F S32000x2048 .f32) (main_arg3 : FVec F S32000x4096 .f32) (main_arg4 : IVec S2048 32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x4096 .f32 := Host.absf main_arg1
  let main_cst_0 : FVec F S_ .f32 := constant S_ .f32 0x7F800000#32
  let main_v5 : FVec F S2048x4096 .f32 := broadcastInDim S2048x4096 ![] bcast_S_S2048x4096 main_cst_0
  let main_v6 : IVec S2048x4096 1 := cmpf .olt main_v4 main_v5
  let main_c_1 : IVec S_ 1 := constantI S_ 1 1#1
  let main_v7 : IVec S_ 1 := (fun x v => Host.reduce IntOp.andi x v reducesTo_S2048x4096_S_d0_1 h_S_) main_v6 main_c_1
  let main_v8 : IVec S_ 1 := andi main_v3 main_v7
  let main_v9 : FVec F S32000x2048 .f32 := Host.absf main_arg2
  let main_cst_2 : FVec F S_ .f32 := constant S_ .f32 0x7F800000#32
  let main_v10 : FVec F S32000x2048 .f32 := broadcastInDim S32000x2048 ![] bcast_S_S32000x2048 main_cst_2
  let main_v11 : IVec S32000x2048 1 := cmpf .olt main_v9 main_v10
  let main_c_3 : IVec S_ 1 := constantI S_ 1 1#1
  let main_v12 : IVec S_ 1 := (fun x v => Host.reduce IntOp.andi x v reducesTo_S32000x2048_S_d0_1 h_S_) main_v11 main_c_3
  let main_v13 : IVec S_ 1 := andi main_v8 main_v12
  let main_v14 : FVec F S32000x4096 .f32 := Host.absf main_arg3
  let main_cst_4 : FVec F S_ .f32 := constant S_ .f32 0x7F800000#32
  let main_v15 : FVec F S32000x4096 .f32 := broadcastInDim S32000x4096 ![] bcast_S_S32000x4096 main_cst_4
  let main_v16 : IVec S32000x4096 1 := cmpf .olt main_v14 main_v15
  fn_part1 (F := F) main_arg4 main_v13 main_v16
-- ==== Kernel.lean ====
abbrev S2048x2048 : Shape := ⟨2, ![2048, 2048]⟩
abbrev S2048x4096 : Shape := ⟨2, ![2048, 4096]⟩
abbrev S32000x2048 : Shape := ⟨2, ![32000, 2048]⟩
abbrev S32000x4096 : Shape := ⟨2, ![32000, 4096]⟩
abbrev S2048 : Shape := ⟨1, ![2048]⟩
abbrev S_ : Shape := ⟨0, ![]⟩
abbrev S2048x1 : Shape := ⟨2, ![2048, 1]⟩
abbrev S2048x32000 : Shape := ⟨2, ![2048, 32000]⟩
abbrev S512x2048 : Shape := ⟨2, ![512, 2048]⟩
abbrev S512x4096 : Shape := ⟨2, ![512, 4096]⟩
abbrev S256x2048 : Shape := ⟨2, ![256, 2048]⟩
abbrev S256x4096 : Shape := ⟨2, ![256, 4096]⟩
abbrev S512x1 : Shape := ⟨2, ![512, 1]⟩
abbrev S512x256 : Shape := ⟨2, ![512, 256]⟩
abbrev S512 : Shape := ⟨1, ![512]⟩

abbrev nBuf : Space → Nat
  | .hbm => 58
  | .vmem => 38
  | .smem => 0
  | _ => 0

abbrev bufTy : (tb : Table) → Fin (tcTables nBuf tb) → BufTy
  | .hbm, ⟨0, _⟩ => ⟨S2048x2048, .f32⟩
  | .hbm, ⟨1, _⟩ => ⟨S2048x4096, .f32⟩
  | .hbm, ⟨2, _⟩ => ⟨S32000x2048, .f32⟩
  | .hbm, ⟨3, _⟩ => ⟨S32000x4096, .f32⟩
  | .hbm, ⟨4, _⟩ => ⟨S2048, .i32⟩
  | .hbm, ⟨5, _⟩ => ⟨S2048x2048, .bf16⟩
  | .hbm, ⟨6, _⟩ => ⟨S2048x4096, .bf16⟩
  | .hbm, ⟨7, _⟩ => ⟨S32000x2048, .bf16⟩
  | .hbm, ⟨8, _⟩ => ⟨S32000x4096, .bf16⟩
  | .hbm, ⟨9, _⟩ => ⟨S_, .i32⟩
  | .hbm, ⟨10, _⟩ => ⟨S2048, .i32⟩
  | .hbm, ⟨11, _⟩ => ⟨S2048, .i1⟩
  | .hbm, ⟨12, _⟩ => ⟨S_, .i32⟩
  | .hbm, ⟨13, _⟩ => ⟨S_, .i32⟩
  | .hbm, ⟨14, _⟩ => ⟨S2048, .i32⟩
  | .hbm, ⟨15, _⟩ => ⟨S2048, .i32⟩
  | .hbm, ⟨16, _⟩ => ⟨S2048x1, .i32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S2048x32000, .f32⟩
  | .hbm, ⟨25, _⟩ => ⟨S2048x32000, .f32⟩
  | .hbm, ⟨26, _⟩ => ⟨S2048x1, .f32⟩
  | .hbm, ⟨27, _⟩ => ⟨S2048x1, .f32⟩
  | .hbm, ⟨28, _⟩ => ⟨S2048x1, .f32⟩
  | .hbm, ⟨29, _⟩ => ⟨S2048x1, .f32⟩
  | .hbm, ⟨30, _⟩ => ⟨S2048x1, .f32⟩
  | .hbm, ⟨31, _⟩ => ⟨S2048x1, .f32⟩
  | .hbm, ⟨32, _⟩ => ⟨S2048x1, .f32⟩
  | .hbm, ⟨33, _⟩ => ⟨S2048, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .f32⟩
  | .hbm, ⟨39, _⟩ => ⟨S2048x1, .i1⟩
  | .hbm, ⟨40, _⟩ => ⟨S_, .f32⟩
  | .hbm, ⟨41, _⟩ => ⟨S_, .f32⟩
  | .hbm, ⟨42, _⟩ => ⟨S2048x1, .f32⟩
  | .hbm, ⟨43, _⟩ => ⟨S2048x1, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S2048x1, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .local _ .vmem, ⟨0, _⟩ => ⟨S512x2048, .bf16⟩
  | .local _ .vmem, ⟨1, _⟩ => ⟨S512x2048, .bf16⟩
  | .local _ .vmem, ⟨2, _⟩ => ⟨S512x4096, .bf16⟩
  | .local _ .vmem, ⟨3, _⟩ => ⟨S512x4096, .bf16⟩
  | .local _ .vmem, ⟨4, _⟩ => ⟨S256x2048, .bf16⟩
  | .local _ .vmem, ⟨5, _⟩ => ⟨S256x2048, .bf16⟩
  | .local _ .vmem, ⟨6, _⟩ => ⟨S256x4096, .bf16⟩
  | .local _ .vmem, ⟨7, _⟩ => ⟨S256x4096, .bf16⟩
  | .local _ .vmem, ⟨8, _⟩ => ⟨S512x1, .i32⟩
  | .local _ .vmem, ⟨9, _⟩ => ⟨S512x1, .i32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S512x1, .f32⟩
  | .local _ .vmem, ⟨15, _⟩ => ⟨S512x1, .f32⟩
  | .local _ .vmem, ⟨16, _⟩ => ⟨S512x1, .f32⟩
  | .local _ .vmem, ⟨17, _⟩ => ⟨S512x1, .f32⟩
  | .local _ .vmem, ⟨18, _⟩ => ⟨S512x1, .f32⟩
  | .local _ .vmem, ⟨19, _⟩ => ⟨S512x1, .f32⟩
  | .local _ .vmem, ⟨20, _⟩ => ⟨S512x1, .f32⟩
  | .local _ .vmem, ⟨21, _⟩ => ⟨S512x1, .f32⟩
  | .local _ .vmem, ⟨22, _⟩ => ⟨S512x1, .f32⟩
  | .local _ .vmem, ⟨23, _⟩ => ⟨S512x1, .f32⟩
  | .local _ .vmem, ⟨24, _⟩ => ⟨S512x256, .f32⟩
  | .local _ .vmem, ⟨25, _⟩ => ⟨S512x256, .f32⟩
  | .local _ .vmem, ⟨26, _⟩ => ⟨S512x256, .f32⟩
  | .local _ .vmem, ⟨27, _⟩ => ⟨S512x256, .f32⟩
  | .local _ .vmem, ⟨28, _⟩ => ⟨S512x256, .f32⟩
  | .local _ .vmem, ⟨29, _⟩ => ⟨S512x256, .f32⟩
  | .local _ .vmem, ⟨30, _⟩ => ⟨S512x256, .f32⟩
  | .local _ .vmem, ⟨31, _⟩ => ⟨S512x256, .f32⟩
  | .local _ .vmem, ⟨32, _⟩ => ⟨S512x1, .f32⟩
  | .local _ .vmem, ⟨33, _⟩ => ⟨S512x1, .f32⟩
  | .local _ .vmem, ⟨34, _⟩ => ⟨S512x1, .f32⟩
  | .local _ .vmem, ⟨35, _⟩ => ⟨S512x1, .f32⟩
  | .local _ .vmem, ⟨36, _⟩ => ⟨S512x1, .f32⟩
  | .local _ .vmem, ⟨37, _⟩ => ⟨S512x1, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev main_v8_4 : Ref sig .tc := ⟨.hbm, 21, rfl⟩
abbrev main_v8_5 : Ref sig .tc := ⟨.hbm, 22, rfl⟩
abbrev main_v8_6 : Ref sig .tc := ⟨.hbm, 23, rfl⟩
abbrev main_v8_7 : Ref sig .tc := ⟨.hbm, 24, rfl⟩
abbrev main_v8_8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_1 : Ref sig .tc := ⟨.hbm, 34, rfl⟩
abbrev main_v17 : Ref sig .tc := ⟨.hbm, 35, rfl⟩
abbrev main_c_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst : Ref sig .tc := ⟨.hbm, 40, rfl⟩
abbrev main_call1_v0 : Ref sig .tc := ⟨.hbm, 41, rfl⟩
abbrev main_call1_v1 : Ref sig .tc := ⟨.hbm, 42, rfl⟩
abbrev main_v21 : Ref sig .tc := ⟨.hbm, 43, rfl⟩
abbrev main_cst_3 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_4 : Ref sig .tc := ⟨.hbm, 49, rfl⟩
abbrev main_v26 : Ref sig .tc := ⟨.hbm, 50, rfl⟩
abbrev main_cst_5 : Ref sig .tc := ⟨.hbm, 51, rfl⟩
abbrev main_v27 : Ref sig .tc := ⟨.hbm, 52, rfl⟩
abbrev main_cst_6 : Ref sig .tc := ⟨.hbm, 53, rfl⟩
abbrev main_v28 : Ref sig .tc := ⟨.hbm, 54, rfl⟩
abbrev main_cst_7 : Ref sig .tc := ⟨.hbm, 55, rfl⟩
abbrev main_v29 : Ref sig .tc := ⟨.hbm, 56, rfl⟩
abbrev main_v30 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc1_stg0_0 : Ref sig .tc := ⟨.vmem, 28, rfl⟩
abbrev cc1_stg0_1 : Ref sig .tc := ⟨.vmem, 29, rfl⟩
abbrev cc1_stg1_0 : Ref sig .tc := ⟨.vmem, 30, rfl⟩
abbrev cc1_stg1_1 : Ref sig .tc := ⟨.vmem, 31, rfl⟩
abbrev cc1_stg2_0 : Ref sig .tc := ⟨.vmem, 32, rfl⟩
abbrev cc1_stg2_1 : Ref sig .tc := ⟨.vmem, 33, rfl⟩
abbrev cc1_stg3_0 : Ref sig .tc := ⟨.vmem, 34, rfl⟩
abbrev cc1_stg3_1 : Ref sig .tc := ⟨.vmem, 35, rfl⟩
abbrev cc1_stg4_0 : Ref sig .tc := ⟨.vmem, 36, rfl⟩
abbrev cc1_stg4_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc1_sem0_0 : DmaSem sig := 28
abbrev cc1_sem0_1 : DmaSem sig := 29
abbrev cc1_sem1_0 : DmaSem sig := 30
abbrev cc1_sem1_1 : DmaSem sig := 31
abbrev cc1_sem2_0 : DmaSem sig := 32
abbrev cc1_sem2_1 : DmaSem sig := 33
abbrev cc1_sem3_0 : DmaSem sig := 34
abbrev cc1_sem3_1 : DmaSem sig := 35
abbrev cc1_sem4_0 : DmaSem sig := 36
abbrev cc1_sem4_1 : DmaSem sig := 37

abbrev nD : Nat := 1
abbrev τ : Topo := Topo.v7x

variable {F : FTy → Type} [FloatOps F]

abbrev grid0 : Pipeline.Grid := ⟨2, ![4, 125], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev grid1 : Pipeline.Grid := ⟨2, ![4, 125], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  bitsLt_bf16_f32 : FTy.bits .bf16 < FTy.bits .f32
  bcast_S_S2048 : S_.BroadcastsInDim S2048 (![] : Fin 0 → Fin S2048.rank)
  shapeCasts_S2048_S2048x1 : S2048.ShapeCasts S2048x1
  inb_S512x1_S512x1_0_0 : ∀ a, (![0, 0] : Fin 2 → Nat) a + S512x1.size a ≤ S512x1.size a
  h_S512x1 : 0 < S512x1.numel
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  reduces_S512x256_S512 : S512x256.Reduces [1] S512
  shapeCasts_S512_S512x1 : S512.ShapeCasts S512x1
  shapeCasts_S512x1_S512x1 : S512x1.ShapeCasts S512x1
  broadcasts_S512x1_S512x256 : S512x1.Broadcasts S512x256
  iota_S512x256_d1_w32 : S512x256.Iotas .tc 32 [1]
  inb_S512x256_S512x256_0_0 : ∀ a, (![0, 0] : Fin 2 → Nat) a + S512x256.size a ≤ S512x256.size a
  h_S512x256 : 0 < S512x256.numel
  natLt_1_32 : 1 < 32
  reducesTo_S2048_S_d0 : S2048.ReducesTo [0] S_
  h_S_ : 0 < S_.numel
  bcast_S_S2048x1 : S_.BroadcastsInDim S2048x1 (![] : Fin 0 → Fin S2048x1.rank)
  reducesTo_S2048x1_S_d0_1 : S2048x1.ReducesTo [0, 1] S_
  shapeCasts_S512x256_S512x256 : S512x256.ShapeCasts S512x256
  dot_S512x2048_S256x2048_S512x256_1_1_0_0_n_n_wf : DotDims.WF S512x2048 S256x2048 S512x256 [1] [1] [0] [0] [] []
  dot_S512x4096_S256x4096_S512x256_1_1_0_0_n_n_wf : DotDims.WF S512x4096 S256x4096 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S2048x2048.size a
  hwx0_0 : ∀ i : grid0.Coords, EltTy.bits .bf16 = 32 ∨ (Rect.block (s := S2048x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S2048x4096.size a
  hwx0_1 : ∀ i : grid0.Coords, EltTy.bits .bf16 = 32 ∨ (Rect.block (s := S2048x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S32000x2048.size a
  hwx0_2 : ∀ i : grid0.Coords, EltTy.bits .bf16 = 32 ∨ (Rect.block (s := S32000x2048) S256x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S32000x4096.size a
  hwx0_3 : ∀ i : grid0.Coords, EltTy.bits .bf16 = 32 ∨ (Rect.block (s := S32000x4096) S256x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S2048x1.size a
  hwx0_4 : ∀ i : grid0.Coords, EltTy.bits .i32 = 32 ∨ (Rect.block (s := S2048x1) S512x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S2048x1.size a
  hwx0_5 : ∀ i : grid0.Coords, EltTy.bits .f32 = 32 ∨ (Rect.block (s := S2048x1) S512x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S2048x1.size a
  hwx0_6 : ∀ i : grid0.Coords, EltTy.bits .f32 = 32 ∨ (Rect.block (s := S2048x1) S512x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1.size a ≤ S2048x1.size a
  hwx0_7 : ∀ i : grid0.Coords, EltTy.bits .f32 = 32 ∨ (Rect.block (s := S2048x1) S512x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1.size a ≤ S2048x1.size a
  hwx0_8 : ∀ i : grid0.Coords, EltTy.bits .f32 = 32 ∨ (Rect.block (s := S2048x1) S512x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1.size a ≤ S2048x1.size a
  hwx0_9 : ∀ i : grid0.Coords, EltTy.bits .f32 = 32 ∨ (Rect.block (s := S2048x1) S512x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x1.size a ≤ S2048x1.size a
  hwx0_10 : ∀ i : grid0.Coords, EltTy.bits .f32 = 32 ∨ (Rect.block (s := S2048x1) S512x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x1.size a ≤ S2048x1.size a
  hwx0_11 : ∀ i : grid0.Coords, EltTy.bits .f32 = 32 ∨ (Rect.block (s := S2048x1) S512x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x256.size a ≤ S2048x32000.size a
  hwx0_12 : ∀ i : grid0.Coords, EltTy.bits .f32 = 32 ∨ (Rect.block (s := S2048x32000) S512x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S512x256.size a ≤ S2048x32000.size a
  hwx0_13 : ∀ i : grid0.Coords, EltTy.bits .f32 = 32 ∨ (Rect.block (s := S2048x32000) S512x256.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S2048x32000.size a
  hwx1_0 : ∀ i : grid1.Coords, EltTy.bits .f32 = 32 ∨ (Rect.block (s := S2048x32000) S512x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S2048x32000.size a
  hwx1_1 : ∀ i : grid1.Coords, EltTy.bits .f32 = 32 ∨ (Rect.block (s := S2048x32000) S512x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S2048x1.size a
  hwx1_2 : ∀ i : grid1.Coords, EltTy.bits .f32 = 32 ∨ (Rect.block (s := S2048x1) S512x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1.size a ≤ S2048x1.size a
  hwx1_3 : ∀ i : grid1.Coords, EltTy.bits .f32 = 32 ∨ (Rect.block (s := S2048x1) S512x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1.size a ≤ S2048x1.size a
  hwx1_4 : ∀ i : grid1.Coords, EltTy.bits .f32 = 32 ∨ (Rect.block (s := S2048x1) S512x1.size (cc1_transform_4 i) (hinb1_4 i)).WholeWords (EltTy.packing .f32)

variable [Facts₀]

def dot_S512x2048_S256x2048_S512x256_1_1_0_0_n_n : DotDims S512x2048 S256x2048 S512x256 where
  lhsContracting := [1]
  rhsContracting := [1]
  lhsNonContracting := [0]
  rhsNonContracting := [0]
  lhsBatch := []
  rhsBatch := []
  wf := dot_S512x2048_S256x2048_S512x256_1_1_0_0_n_n_wf
def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8_0) S512x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8_1) S512x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v8_2) S512x1.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v8_3) S512x1.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v8_4) S512x1.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v8_5) S512x1.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v8_6) S512x1.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v8_7) S512x256.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v8_8) S512x256.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_v8_7) S512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8_8) S512x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S512x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v25) S512x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S2048x2048 : Shape := ⟨2, ![2048, 2048]⟩
abbrev S2048x4096 : Shape := ⟨2, ![2048, 4096]⟩
abbrev S32000x2048 : Shape := ⟨2, ![32000, 2048]⟩
abbrev S32000x4096 : Shape := ⟨2, ![32000, 4096]⟩
abbrev S2048 : Shape := ⟨1, ![2048]⟩
abbrev S2048x32000 : Shape := ⟨2, ![2048, 32000]⟩
abbrev S_ : Shape := ⟨0, ![]⟩
abbrev S2048x1 : Shape := ⟨2, ![2048, 1]⟩
abbrev S2048x1x1 : Shape := ⟨3, ![2048, 1, 1]⟩
abbrev S1 : Shape := ⟨1, ![1]⟩
abbrev S1x1x1 : Shape := ⟨3, ![1, 1, 1]⟩

abbrev nBuf : Space → Nat
  | .hbm => 159
  | .vmem => 0
  | .smem => 0
  | _ => 0

abbrev hbmTy0_0 (i : Nat) : BufTy := match i % 128 with
  | 0 => ⟨S2048x2048, .f32⟩
  | 1 => ⟨S2048x4096, .f32⟩
  | 2 => ⟨S32000x2048, .f32⟩
  | 3 => ⟨S32000x4096, .f32⟩
  | 4 => ⟨S2048, .i32⟩
  | 5 => ⟨S2048x32000, .f32⟩
  | 6 => ⟨S2048x32000, .f32⟩
  | 7 => ⟨S_, .i32⟩
  | 8 => ⟨S2048, .i32⟩
  | 9 => ⟨S2048, .i1⟩
  | 10 => ⟨S_, .i32⟩
  | 11 => ⟨S_, .i32⟩
  | 12 => ⟨S2048, .i32⟩
  | 13 => ⟨S2048, .i32⟩
  | 14 => ⟨S_, .f32⟩
  | 15 => ⟨S2048, .f32⟩
  | 16 => ⟨S_, .f32⟩
  | 17 => ⟨S2048, .f32⟩
  | 18 => ⟨S2048, .f32⟩
  | 19 => ⟨S2048x1, .f32⟩
  | 20 => ⟨S2048x32000, .f32⟩
  | 21 => ⟨S2048x32000, .f32⟩
  | 22 => ⟨S2048x32000, .f32⟩
  | 23 => ⟨S_, .f32⟩
  | 24 => ⟨S2048, .f32⟩
  | 25 => ⟨S2048x1, .f32⟩
  | 26 => ⟨S2048x1, .f32⟩
  | 27 => ⟨S2048x32000, .f32⟩
  | 28 => ⟨S2048x32000, .f32⟩
  | 29 => ⟨S2048x1, .i32⟩
  | 30 => ⟨S_, .i32⟩
  | 31 => ⟨S2048x1, .i32⟩
  | 32 => ⟨S2048x1, .i1⟩
  | 33 => ⟨S_, .i32⟩
  | 34 => ⟨S2048x1, .i32⟩
  | 35 => ⟨S2048x1, .i32⟩
  | 36 => ⟨S2048x1, .i32⟩
  | 37 => ⟨S2048x1x1, .i32⟩
  | 38 => ⟨S1, .i32⟩
  | 39 => ⟨S_, .i32⟩
  | 40 => ⟨S2048x1x1, .i32⟩
  | 41 => ⟨S2048x1x1, .i1⟩
  | 42 => ⟨S1x1x1, .i32⟩
  | 43 => ⟨S2048x1x1, .i32⟩
  | 44 => ⟨S2048x1x1, .i1⟩
  | 45 => ⟨S2048x1x1, .i1⟩
  | 46 => ⟨S_, .i1⟩
  | 47 => ⟨S2048x1, .i1⟩
  | 48 => ⟨S2048x1, .f32⟩
  | 49 => ⟨S_, .f32⟩
  | 50 => ⟨S2048x1, .f32⟩
  | 51 => ⟨S2048x1, .f32⟩
  | 52 => ⟨S2048, .f32⟩
  | 53 => ⟨S2048, .i32⟩
  | 54 => ⟨S_, .i32⟩
  | 55 => ⟨S_, .i32⟩
  | 56 => ⟨S_, .i32⟩
  | 57 => ⟨S_, .i32⟩
  | 58 => ⟨S_, .f32⟩
  | 59 => ⟨S_, .f32⟩
  | 60 => ⟨S2048, .f32⟩
  | 61 => ⟨S2048, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S2048x32000, .f32⟩
  | 69 => ⟨S2048x32000, .f32⟩
  | 70 => ⟨S_, .f32⟩
  | 71 => ⟨S2048, .f32⟩
  | 72 => ⟨S_, .f32⟩
  | 73 => ⟨S2048, .f32⟩
  | 74 => ⟨S2048, .f32⟩
  | 75 => ⟨S2048x1, .f32⟩
  | 76 => ⟨S2048x32000, .f32⟩
  | 77 => ⟨S2048x32000, .f32⟩
  | 78 => ⟨S2048x32000, .f32⟩
  | 79 => ⟨S_, .f32⟩
  | 80 => ⟨S2048, .f32⟩
  | 81 => ⟨S2048x1, .f32⟩
  | 82 => ⟨S2048x1, .f32⟩
  | 83 => ⟨S2048x32000, .f32⟩
  | 84 => ⟨S2048x32000, .f32⟩
  | 85 => ⟨S_, .f32⟩
  | 86 => ⟨S2048x32000, .f32⟩
  | 87 => ⟨S2048x32000, .f32⟩
  | 88 => ⟨S_, .f32⟩
  | 89 => ⟨S2048, .f32⟩
  | 90 => ⟨S_, .f32⟩
  | 91 => ⟨S2048, .f32⟩
  | 92 => ⟨S2048, .f32⟩
  | 93 => ⟨S2048x1, .f32⟩
  | 94 => ⟨S2048x32000, .f32⟩
  | 95 => ⟨S2048x32000, .f32⟩
  | 96 => ⟨S2048x32000, .f32⟩
  | 97 => ⟨S_, .f32⟩
  | 98 => ⟨S2048, .f32⟩
  | 99 => ⟨S2048x1, .f32⟩
  | 100 => ⟨S2048x1, .f32⟩
  | 101 => ⟨S2048x32000, .f32⟩
  | 102 => ⟨S2048x32000, .f32⟩
  | 103 => ⟨S2048x32000, .f32⟩
  | 104 => ⟨S2048x32000, .f32⟩
  | 105 => ⟨S2048x32000, .f32⟩
  | 106 => ⟨S_, .f32⟩
  | 107 => ⟨S2048x32000, .f32⟩
  | 108 => ⟨S2048x32000, .f32⟩
  | 109 => ⟨S_, .f32⟩
  | 110 => ⟨S2048x32000, .f32⟩
  | 111 => ⟨S2048x32000, .i1⟩
  | 112 => ⟨S_, .f32⟩
  | 113 => ⟨S_, .f32⟩
  | 114 => ⟨S2048x32000, .f32⟩
  | 115 => ⟨S2048x32000, .f32⟩
  | 116 => ⟨S2048x32000, .f32⟩
  | 117 => ⟨S_, .f32⟩
  | 118 => ⟨S2048x32000, .f32⟩
  | 119 => ⟨S2048x32000, .i1⟩
  | 120 => ⟨S2048x32000, .f32⟩
  | 121 => ⟨S2048x32000, .f32⟩
  | 122 => ⟨S_, .f32⟩
  | 123 => ⟨S_, .f32⟩
  | 124 => ⟨S2048x32000, .f32⟩
  | 125 => ⟨S2048x32000, .f32⟩
  | 126 => ⟨S_, .f32⟩
  | 127 => ⟨S_, .f32⟩
  | _ => ⟨S2048x2048, .f32⟩

abbrev hbmTy0_1 (i : Nat) : BufTy := match i % 128 with
  | 0 => ⟨S_, .f32⟩
  | 1 => ⟨S_, .f32⟩
  | 2 => ⟨S_, .f32⟩
  | 3 => ⟨S2048x32000, .f32⟩
  | 4 => ⟨S2048x32000, .i1⟩
  | 5 => ⟨S_, .f32⟩
  | 6 => ⟨S_, .f32⟩
  | 7 => ⟨S2048x32000, .f32⟩
  | 8 => ⟨S2048x32000, .f32⟩
  | 9 => ⟨S2048x32000, .f32⟩
  | 10 => ⟨S_, .f32⟩
  | 11 => ⟨S2048x32000, .f32⟩
  | 12 => ⟨S2048x32000, .i1⟩
  | 13 => ⟨S2048x32000, .f32⟩
  | 14 => ⟨S2048x32000, .f32⟩
  | 15 => ⟨S_, .f32⟩
  | 16 => ⟨S_, .f32⟩
  | 17 => ⟨S2048x32000, .f32⟩
  | 18 => ⟨S2048x32000, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | _ => ⟨S2048x2048, .f32⟩

abbrev hbmTy (i : Nat) : BufTy := match i / 128 with
  | 0 => hbmTy0_0 i
  | 1 => hbmTy0_1 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_v4 : Ref sig .tc := ⟨.hbm, 13, rfl⟩
abbrev main_call1_cst : Ref sig .tc := ⟨.hbm, 14, rfl⟩
abbrev main_call1_v0 : Ref sig .tc := ⟨.hbm, 15, rfl⟩
abbrev main_call1_cst_0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_call1_v5 : Ref sig .tc := ⟨.hbm, 21, rfl⟩
abbrev main_call1_v6 : Ref sig .tc := ⟨.hbm, 22, rfl⟩
abbrev main_call1_cst_1 : Ref sig .tc := ⟨.hbm, 23, rfl⟩
abbrev main_call1_v7 : Ref sig .tc := ⟨.hbm, 24, rfl⟩
abbrev main_call1_v8 : Ref sig .tc := ⟨.hbm, 25, rfl⟩
abbrev main_call1_v9 : Ref sig .tc := ⟨.hbm, 26, rfl⟩
abbrev main_call1_v10 : Ref sig .tc := ⟨.hbm, 27, rfl⟩
abbrev main_v5 : Ref sig .tc := ⟨.hbm, 28, rfl⟩
abbrev main_v6 : Ref sig .tc := ⟨.hbm, 29, rfl⟩
abbrev main_call2_c : Ref sig .tc := ⟨.hbm, 30, rfl⟩
abbrev main_call2_v0 : Ref sig .tc := ⟨.hbm, 31, rfl⟩
abbrev main_call2_v1 : Ref sig .tc := ⟨.hbm, 32, rfl⟩
abbrev main_call2_c_0 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_call2_v5 : Ref sig .tc := ⟨.hbm, 37, rfl⟩
abbrev main_call2_c_1 : Ref sig .tc := ⟨.hbm, 38, rfl⟩
abbrev main_call2_c_2 : Ref sig .tc := ⟨.hbm, 39, rfl⟩
abbrev main_call2_v6 : Ref sig .tc := ⟨.hbm, 40, rfl⟩
abbrev main_call2_v7 : Ref sig .tc := ⟨.hbm, 41, rfl⟩
abbrev main_call2_v8 : Ref sig .tc := ⟨.hbm, 42, rfl⟩
abbrev main_call2_v9 : Ref sig .tc := ⟨.hbm, 43, rfl⟩
abbrev main_call2_v10 : Ref sig .tc := ⟨.hbm, 44, rfl⟩
abbrev main_call2_v11 : Ref sig .tc := ⟨.hbm, 45, rfl⟩
abbrev main_call2_c_3 : Ref sig .tc := ⟨.hbm, 46, rfl⟩
abbrev main_call2_v12 : Ref sig .tc := ⟨.hbm, 47, rfl⟩
abbrev main_call2_v13 : Ref sig .tc := ⟨.hbm, 48, rfl⟩
abbrev main_call2_cst : Ref sig .tc := ⟨.hbm, 49, rfl⟩
abbrev main_call2_v14 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_c_1 : Ref sig .tc := ⟨.hbm, 54, rfl⟩
abbrev main_v10 : Ref sig .tc := ⟨.hbm, 55, rfl⟩
abbrev main_c_2 : Ref sig .tc := ⟨.hbm, 56, rfl⟩
abbrev main_v11 : Ref sig .tc := ⟨.hbm, 57, rfl⟩
abbrev main_cst : Ref sig .tc := ⟨.hbm, 58, rfl⟩
abbrev main_call3_v0 : Ref sig .tc := ⟨.hbm, 59, rfl⟩
abbrev main_call3_v1 : Ref sig .tc := ⟨.hbm, 60, rfl⟩
abbrev main_v12 : Ref sig .tc := ⟨.hbm, 61, rfl⟩
abbrev main_cst_3 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_cst_4 : Ref sig .tc := ⟨.hbm, 67, rfl⟩
abbrev main_v17 : Ref sig .tc := ⟨.hbm, 68, rfl⟩
abbrev main_v18 : Ref sig .tc := ⟨.hbm, 69, rfl⟩
abbrev main_call4_cst : Ref sig .tc := ⟨.hbm, 70, rfl⟩
abbrev main_call4_v0 : Ref sig .tc := ⟨.hbm, 71, rfl⟩
abbrev main_call4_cst_0 : Ref sig .tc := ⟨.hbm, 72, rfl⟩
abbrev main_call4_v1 : Ref sig .tc := ⟨.hbm, 73, rfl⟩
abbrev main_call4_v2 : Ref sig .tc := ⟨.hbm, 74, rfl⟩
abbrev main_call4_v3 : Ref sig .tc := ⟨.hbm, 75, rfl⟩
abbrev main_call4_v4 : Ref sig .tc := ⟨.hbm, 76, rfl⟩
abbrev main_call4_v5 : Ref sig .tc := ⟨.hbm, 77, rfl⟩
abbrev main_call4_v6 : Ref sig .tc := ⟨.hbm, 78, rfl⟩
abbrev main_call4_cst_1 : Ref sig .tc := ⟨.hbm, 79, rfl⟩
abbrev main_call4_v7 : Ref sig .tc := ⟨.hbm, 80, rfl⟩
abbrev main_call4_v8 : Ref sig .tc := ⟨.hbm, 81, rfl⟩
abbrev main_call4_v9 : Ref sig .tc := ⟨.hbm, 82, rfl⟩
abbrev main_call4_v10 : Ref sig .tc := ⟨.hbm, 83, rfl⟩
abbrev main_v19 : Ref sig .tc := ⟨.hbm, 84, rfl⟩
abbrev main_cst_5 : Ref sig .tc := ⟨.hbm, 85, rfl⟩
abbrev main_v20 : Ref sig .tc := ⟨.hbm, 86, rfl⟩
abbrev main_v21 : Ref sig .tc := ⟨.hbm, 87, rfl⟩
abbrev main_call5_cst : Ref sig .tc := ⟨.hbm, 88, rfl⟩
abbrev main_call5_v0 : Ref sig .tc := ⟨.hbm, 89, rfl⟩
abbrev main_call5_cst_0 : Ref sig .tc := ⟨.hbm, 90, rfl⟩
abbrev main_call5_v1 : Ref sig .tc := ⟨.hbm, 91, rfl⟩
abbrev main_call5_v2 : Ref sig .tc := ⟨.hbm, 92, rfl⟩
abbrev main_call5_v3 : Ref sig .tc := ⟨.hbm, 93, rfl⟩
abbrev main_call5_v4 : Ref sig .tc := ⟨.hbm, 94, rfl⟩
abbrev main_call5_v5 : Ref sig .tc := ⟨.hbm, 95, rfl⟩
abbrev main_call5_v6 : Ref sig .tc := ⟨.hbm, 96, rfl⟩
abbrev main_call5_cst_1 : Ref sig .tc := ⟨.hbm, 97, rfl⟩
abbrev main_call5_v7 : Ref sig .tc := ⟨.hbm, 98, rfl⟩
abbrev main_call5_v8 : Ref sig .tc := ⟨.hbm, 99, rfl⟩
abbrev main_call5_v9 : Ref sig .tc := ⟨.hbm, 100, rfl⟩
abbrev main_call5_v10 : Ref sig .tc := ⟨.hbm, 101, rfl⟩
abbrev main_v22 : Ref sig .tc := ⟨.hbm, 102, rfl⟩
abbrev main_v23 : Ref sig .tc := ⟨.hbm, 103, rfl⟩
abbrev main_v24 : Ref sig .tc := ⟨.hbm, 104, rfl⟩
abbrev main_v25 : Ref sig .tc := ⟨.hbm, 105, rfl⟩
abbrev main_cst_6 : Ref sig .tc := ⟨.hbm, 106, rfl⟩
abbrev main_v26 : Ref sig .tc := ⟨.hbm, 107, rfl⟩
abbrev main_v27 : Ref sig .tc := ⟨.hbm, 108, rfl⟩
abbrev main_cst_7 : Ref sig .tc := ⟨.hbm, 109, rfl⟩
abbrev main_v28 : Ref sig .tc := ⟨.hbm, 110, rfl⟩
abbrev main_v29 : Ref sig .tc := ⟨.hbm, 111, rfl⟩
abbrev main_cst_8 : Ref sig .tc := ⟨.hbm, 112, rfl⟩
abbrev main_call6_v0 : Ref sig .tc := ⟨.hbm, 113, rfl⟩
abbrev main_call6_v1 : Ref sig .tc := ⟨.hbm, 114, rfl⟩
abbrev main_v30 : Ref sig .tc := ⟨.hbm, 115, rfl⟩
abbrev main_v31 : Ref sig .tc := ⟨.hbm, 116, rfl⟩
abbrev main_cst_9 : Ref sig .tc := ⟨.hbm, 117, rfl⟩
abbrev main_v32 : Ref sig .tc := ⟨.hbm, 118, rfl⟩
abbrev main_v33 : Ref sig .tc := ⟨.hbm, 119, rfl⟩
abbrev main_v34 : Ref sig .tc := ⟨.hbm, 120, rfl⟩
abbrev main_v35 : Ref sig .tc := ⟨.hbm, 121, rfl⟩
abbrev main_cst_10 : Ref sig .tc := ⟨.hbm, 122, rfl⟩
abbrev main_call7_v0 : Ref sig .tc := ⟨.hbm, 123, rfl⟩
abbrev main_call7_v1 : Ref sig .tc := ⟨.hbm, 124, rfl⟩
abbrev main_v36 : Ref sig .tc := ⟨.hbm, 125, rfl⟩
abbrev main_cst_11 : Ref sig .tc := ⟨.hbm, 126, rfl⟩
abbrev main_v37 : Ref sig .tc := ⟨.hbm, 127, rfl⟩
abbrev main_cst_12 : Ref sig .tc := ⟨.hbm, 128, rfl⟩
abbrev main_v38 : Ref sig .tc := ⟨.hbm, 129, rfl⟩
abbrev main_cst_13 : Ref sig .tc := ⟨.hbm, 130, rfl⟩
abbrev main_v39 : Ref sig .tc := ⟨.hbm, 131, rfl⟩
abbrev main_v40 : Ref sig .tc := ⟨.hbm, 132, rfl⟩
abbrev main_cst_14 : Ref sig .tc := ⟨.hbm, 133, rfl⟩
abbrev main_call8_v0 : Ref sig .tc := ⟨.hbm, 134, rfl⟩
abbrev main_call8_v1 : Ref sig .tc := ⟨.hbm, 135, rfl⟩
abbrev main_v41 : Ref sig .tc := ⟨.hbm, 136, rfl⟩
abbrev main_v42 : Ref sig .tc := ⟨.hbm, 137, rfl⟩
abbrev main_cst_15 : Ref sig .tc := ⟨.hbm, 138, rfl⟩
abbrev main_v43 : Ref sig .tc := ⟨.hbm, 139, rfl⟩
abbrev main_v44 : Ref sig .tc := ⟨.hbm, 140, rfl⟩
abbrev main_v45 : Ref sig .tc := ⟨.hbm, 141, rfl⟩
abbrev main_v46 : Ref sig .tc := ⟨.hbm, 142, rfl⟩
abbrev main_cst_16 : Ref sig .tc := ⟨.hbm, 143, rfl⟩
abbrev main_call9_v0 : Ref sig .tc := ⟨.hbm, 144, rfl⟩
abbrev main_call9_v1 : Ref sig .tc := ⟨.hbm, 145, rfl⟩
abbrev main_v47 : Ref sig .tc := ⟨.hbm, 146, rfl⟩
abbrev main_cst_17 : Ref sig .tc := ⟨.hbm, 147, rfl⟩
abbrev main_v48 : Ref sig .tc := ⟨.hbm, 148, rfl⟩
abbrev main_cst_18 : Ref sig .tc := ⟨.hbm, 149, rfl⟩
abbrev main_v49 : Ref sig .tc := ⟨.hbm, 150, rfl⟩
abbrev main_v50 : Ref sig .tc := ⟨.hbm, 151, rfl⟩
abbrev main_cst_19 : Ref sig .tc := ⟨.hbm, 152, rfl⟩
abbrev main_v51 : Ref sig .tc := ⟨.hbm, 153, rfl⟩
abbrev main_cst_20 : Ref sig .tc := ⟨.hbm, 154, rfl⟩
abbrev main_v52 : Ref sig .tc := ⟨.hbm, 155, rfl⟩
abbrev main_cst_21 : Ref sig .tc := ⟨.hbm, 156, rfl⟩
abbrev main_v53 : Ref sig .tc := ⟨.hbm, 157, rfl⟩
abbrev main_v54 : Ref sig .tc := ⟨.hbm, 158, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  reducesTo_S2048x32000_S2048_d1 : S2048x32000.ReducesTo [1] S2048
  h_S_ : 0 < S_.numel
  bcast_S2048_S2048x1_0 : S2048.BroadcastsInDim S2048x1 (![0] : Fin 1 → Fin S2048x1.rank)
  bcast_S2048x1_S2048x32000_0_1 : S2048x1.BroadcastsInDim S2048x32000 (![0, 1] : Fin 2 → Fin S2048x32000.rank)
  bcast_S_S2048x1 : S_.BroadcastsInDim S2048x1 (![] : Fin 0 → Fin S2048x1.rank)
  shapeCasts_S2048x1_S2048x1x1 : S2048x1.ShapeCasts S2048x1x1
  bcast_S_S2048x1x1 : S_.BroadcastsInDim S2048x1x1 (![] : Fin 0 → Fin S2048x1x1.rank)
  bcast_S1_S1x1x1_2 : S1.BroadcastsInDim S1x1x1 (![2] : Fin 1 → Fin S1x1x1.rank)
  bcast_S1x1x1_S2048x1x1_0_1_2 : S1x1x1.BroadcastsInDim S2048x1x1 (![0, 1, 2] : Fin 3 → Fin S2048x1x1.rank)
  reducesTo_S2048x1x1_S2048x1_d2 : S2048x1x1.ReducesTo [2] S2048x1
  shapeCasts_S2048x1_S2048 : S2048x1.ShapeCasts S2048
  natLt_1_32 : 1 < 32
  reducesTo_S2048_S_d0 : S2048.ReducesTo [0] S_
  bcast_S_S2048x32000 : S_.BroadcastsInDim S2048x32000 (![] : Fin 0 → Fin S2048x32000.rank)
  reducesTo_S2048x32000_S_d0_1 : S2048x32000.ReducesTo [0, 1] S_
  dot_S2048x2048_S32000x2048_S2048x32000_1_1_0_0_n_n_wf : DotDims.WF S2048x2048 S32000x2048 S2048x32000 [1] [1] [0] [0] [] []
  dot_S2048x4096_S32000x4096_S2048x32000_1_1_0_0_n_n_wf : DotDims.WF S2048x4096 S32000x4096 S2048x32000 [1] [1] [0] [0] [] []
  gather_S2048x32000_S2048x1x1_S2048x1_n_1_0_0_1_2_11_wf : GatherDims.WF S2048x32000 S2048x1x1 S2048x1 [] [1] [0] [1] [0] 2 ![1, 1]

variable [Facts₀]

def dot_S2048x2048_S32000x2048_S2048x32000_1_1_0_0_n_n : DotDims S2048x2048 S32000x2048 S2048x32000 where
  lhsContracting := [1]
  rhsContracting := [1]
  lhsNonContracting := [0]
  rhsNonContracting := [0]
  lhsBatch := []
  rhsBatch := []
  wf := dot_S2048x2048_S32000x2048_S2048x32000_1_1_0_0_n_n_wf
def dot_S2048x4096_S32000x4096_S2048x32000_1_1_0_0_n_n : DotDims S2048x4096 S32000x4096 S2048x32000 where
  lhsContracting := [1]
  rhsContracting := [1]
  lhsNonContracting := [0]
  rhsNonContracting := [0]
  lhsBatch := []
  rhsBatch := []
  wf := dot_S2048x4096_S32000x4096_S2048x32000_1_1_0_0_n_n_wf
def gather_S2048x32000_S2048x1x1_S2048x1_n_1_0_0_1_2_11 : GatherDims S2048x32000 S2048x1x1 S2048x1 where
  offsetDims := []
  collapsedSliceDims := [1]
  operandBatchingDims := [0]
  startIndicesBatchingDims := [0]
  startIndexMap := [1]
  indexVectorDim := 2
  sliceSizes := ![1, 1]
  wf := gather_S2048x32000_S2048x1x1_S2048x1_n_1_0_0_1_2_11_wf

class Facts : Prop extends Facts₀ where

variable [Facts]
-- ==== Proof.R0Body.lean ====
import proofs.«430291_j37958920962546_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.R0

open Cert.KernelIdeal Cert.KernelIdeal.Gen

variable {F : FTy → Type} [FloatOps F]

/-- One grid point of the first pass: from the point's five input blocks (student rows, teacher rows, student weight
    rows, teacher weight rows, label column), the column tile's number as a word, and the seven running statistics as the
    point before left them, the nine output blocks the body leaves. -/
def step (wd : BitVec 32) (x0 : Vec F S512x2048 .bf16) (x1 : Vec F S512x4096 .bf16) (x2 : Vec F S256x2048 .bf16)
    (x3 : Vec F S256x4096 .bf16) (x4 : Vec F S512x1 .i32) (p5 p6 p7 p8 p9 p10 p11 : Vec F S512x1 .f32) :
    Vec F S512x1 .f32 × Vec F S512x1 .f32 × Vec F S512x1 .f32 × Vec F S512x1 .f32 × Vec F S512x1 .f32 × Vec F S512x1 .f32
      × Vec F S512x1 .f32 × Vec F S512x256 .f32 × Vec F S512x256 .f32 :=
  (k0_pay12 x0 x2 p5,
   k0_pay13 x0 x2 p5 p6 p5,
   k0_pay16 (k0_pay10 x0 x2) p7,
   k0_pay17 (k0_pay10 x0 x2) p7 p8 p7,
   k0_pay18 (k0_pay11 x1 x3) p9,
   k0_pay1 (k0_pay15 (k0_pay11 x1 x3)) (k0_pay18 (k0_pay11 x1 x3) p9) (k0_pay19 p10) (k0_pay20 (k0_pay11 x1 x3) p9 p9),
   k0_pay2 wd (k0_pay10 x0 x2) x4 p11,
   k0_pay14 (k0_pay10 x0 x2),
   k0_pay15 (k0_pay11 x1 x3))

/-! ### The nine blocks, one by one

Each output block is written by one store that covers it (at a first column tile, after the store of its reset), and every
value that store's operand reads is a whole input block, a whole statistic as the point before left it, or the reset
written just before. So each block is the corresponding component of `step`. -/

private theorem hz : (![0, 0] : Fin 2 → Nat) = fun _ => 0 := funext fun a => by fin_cases a <;> rfl

section Pieces

variable (c : Dev nD) (i : grid0.Coords) (arg2 : Memref sig .tc .vmem S512x2048 .bf16) (harg2 : arg2.IsWhole) (arg3 : Memref sig .tc .vmem S512x4096 .bf16) (harg3 : arg3.IsWhole) (arg4 : Memref sig .tc .vmem S256x2048 .bf16) (harg4 : arg4.IsWhole) (arg5 : Memref sig .tc .vmem S256x4096 .bf16) (harg5 : arg5.IsWhole) (arg6 : Memref sig .tc .vmem S512x1 .i32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x256 .f32) (harg14 : arg14.IsWhole) (arg15 : Memref sig .tc .vmem S512x256 .f32) (harg15 : arg15.IsWhole)
  (x0 : Vec F S512x2048 .bf16) (x1 : Vec F S512x4096 .bf16) (x2 : Vec F S256x2048 .bf16) (x3 : Vec F S256x4096 .bf16) (x4 : Vec F S512x1 .i32)

/-- Continuing, output 1 is the student logits' running maximum: the larger of the one before and this tile's row maximum. -/
private theorem out_B_5 (hc0 : ¬cond0_0 i) (p5 p6 p7 p8 p9 p10 p11 : Vec F S512x1 .f32) :
    out0_B_5 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 p5 p6 p7 p8 p9 p10 p11
      = k0_pay12 x0 x2 p5 := by
  unfold out0_B_5
  rw [View.read_writes_eq_canon _ _ _ (cover0_B_5 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 p5 p6 p7 p8 p9 p10 p11)]
  unfold kernelRun0_B
  dsimp only
  sl_unfold_words
  rw [View.canon_unit_zero hz]
  simp only [View.readAt_eq_ld, harg2.read_unread, harg3.read_unread, harg4.read_unread, harg5.read_unread, harg6.read_unread,
    harg7.read_unread, harg8.read_unread, harg9.read_unread, harg10.read_unread, harg11.read_unread, harg12.read_unread, harg13.read_unread,
    View.ld_unit_zero (S := S512x1) hz, View.ld_unit_zero (S := S512x256) hz, View.ld_unit_zero (S := S512x2048) hz,
    View.ld_unit_zero (S := S512x4096) hz, View.ld_unit_zero (S := S256x2048) hz, View.ld_unit_zero (S := S256x4096) hz]

/-- Continuing, output 2 is the student logits' running sum of exponentials, rescaled to the new maximum, plus this tile's. -/
private theorem out_B_6 (hc0 : ¬cond0_0 i) (p5 p6 p7 p8 p9 p10 p11 : Vec F S512x1 .f32) :
    out0_B_6 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 p5 p6 p7 p8 p9 p10 p11
      = k0_pay13 x0 x2 p5 p6 p5 := by
  unfold out0_B_6
  rw [View.read_writes_eq_canon _ _ _ (cover0_B_6 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 p5 p6 p7 p8 p9 p10 p11)]
  unfold kernelRun0_B
  dsimp only
  sl_unfold_words
  rw [View.canon_unit_zero hz]
  simp only [View.readAt_eq_ld, harg2.read_unread, harg3.read_unread, harg4.read_unread, harg5.read_unread, harg6.read_unread,
    harg7.read_unread, harg8.read_unread, harg9.read_unread, harg10.read_unread, harg11.read_unread, harg12.read_unread, harg13.read_unread,
    View.ld_unit_zero (S := S512x1) hz, View.ld_unit_zero (S := S512x256) hz, View.ld_unit_zero (S := S512x2048) hz,
    View.ld_unit_zero (S := S512x4096) hz, View.ld_unit_zero (S := S256x2048) hz, View.ld_unit_zero (S := S256x4096) hz]

/-- Continuing, output 3 is the scaled student logits' running maximum. -/
private theorem out_B_7 (hc0 : ¬cond0_0 i) (p5 p6 p7 p8 p9 p10 p11 : Vec F S512x1 .f32) :
    out0_B_7 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 p5 p6 p7 p8 p9 p10 p11
      = k0_pay16 (k0_pay10 x0 x2) p7 := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 p5 p6 p7 p8 p9 p10 p11)]
  unfold kernelRun0_B
  dsimp only
  sl_unfold_words
  rw [View.canon_unit_zero hz]
  simp only [View.readAt_eq_ld, harg2.read_unread, harg3.read_unread, harg4.read_unread, harg5.read_unread, harg6.read_unread,
    harg7.read_unread, harg8.read_unread, harg9.read_unread, harg10.read_unread, harg11.read_unread, harg12.read_unread, harg13.read_unread,
    View.ld_unit_zero (S := S512x1) hz, View.ld_unit_zero (S := S512x256) hz, View.ld_unit_zero (S := S512x2048) hz,
    View.ld_unit_zero (S := S512x4096) hz, View.ld_unit_zero (S := S256x2048) hz, View.ld_unit_zero (S := S256x4096) hz]

/-- Continuing, output 4 is the scaled student logits' running sum of exponentials, rescaled to the new maximum, plus this tile's. -/
private theorem out_B_8 (hc0 : ¬cond0_0 i) (p5 p6 p7 p8 p9 p10 p11 : Vec F S512x1 .f32) :
    out0_B_8 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 p5 p6 p7 p8 p9 p10 p11
      = k0_pay17 (k0_pay10 x0 x2) p7 p8 p7 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 p5 p6 p7 p8 p9 p10 p11)]
  unfold kernelRun0_B
  dsimp only
  sl_unfold_words
  rw [View.canon_unit_zero hz]
  simp only [View.readAt_eq_ld, harg2.read_unread, harg3.read_unread, harg4.read_unread, harg5.read_unread, harg6.read_unread,
    harg7.read_unread, harg8.read_unread, harg9.read_unread, harg10.read_unread, harg11.read_unread, harg12.read_unread, harg13.read_unread,
    View.ld_unit_zero (S := S512x1) hz, View.ld_unit_zero (S := S512x256) hz, View.ld_unit_zero (S := S512x2048) hz,
    View.ld_unit_zero (S := S512x4096) hz, View.ld_unit_zero (S := S256x2048) hz, View.ld_unit_zero (S := S256x4096) hz]

/-- Continuing, output 5 is the scaled teacher logits' running maximum. -/
private theorem out_B_9 (hc0 : ¬cond0_0 i) (p5 p6 p7 p8 p9 p10 p11 : Vec F S512x1 .f32) :
    out0_B_9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 p5 p6 p7 p8 p9 p10 p11
      = k0_pay18 (k0_pay11 x1 x3) p9 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 p5 p6 p7 p8 p9 p10 p11)]
  unfold kernelRun0_B
  dsimp only
  sl_unfold_words
  rw [View.canon_unit_zero hz]
  simp only [View.readAt_eq_ld, harg2.read_unread, harg3.read_unread, harg4.read_unread, harg5.read_unread, harg6.read_unread,
    harg7.read_unread, harg8.read_unread, harg9.read_unread, harg10.read_unread, harg11.read_unread, harg12.read_unread, harg13.read_unread,
    View.ld_unit_zero (S := S512x1) hz, View.ld_unit_zero (S := S512x256) hz, View.ld_unit_zero (S := S512x2048) hz,
    View.ld_unit_zero (S := S512x4096) hz, View.ld_unit_zero (S := S256x2048) hz, View.ld_unit_zero (S := S256x4096) hz]

/-- Continuing, output 6 is the scaled teacher logits' running sum of exponentials, rescaled to the new maximum, plus this tile's. -/
private theorem out_B_10 (hc0 : ¬cond0_0 i) (p5 p6 p7 p8 p9 p10 p11 : Vec F S512x1 .f32) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 p5 p6 p7 p8 p9 p10 p11
      = k0_pay1 (k0_pay15 (k0_pay11 x1 x3)) (k0_pay18 (k0_pay11 x1 x3) p9) (k0_pay19 p10) (k0_pay20 (k0_pay11 x1 x3) p9 p9) := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 p5 p6 p7 p8 p9 p10 p11)]
  unfold kernelRun0_B
  dsimp only
  sl_unfold_words
  rw [View.canon_unit_zero hz]
  simp only [View.readAt_eq_ld, harg2.read_unread, harg3.read_unread, harg4.read_unread, harg5.read_unread, harg6.read_unread,
    harg7.read_unread, harg8.read_unread, harg9.read_unread, harg10.read_unread, harg11.read_unread, harg12.read_unread, harg13.read_unread,
    View.ld_unit_zero (S := S512x1) hz, View.ld_unit_zero (S := S512x256) hz, View.ld_unit_zero (S := S512x2048) hz,
    View.ld_unit_zero (S := S512x4096) hz, View.ld_unit_zero (S := S256x2048) hz, View.ld_unit_zero (S := S256x4096) hz]

/-- Continuing, output 7 is the label's logit so far, plus this tile's entry in the label's column if the column falls in this tile. -/
private theorem out_B_11 (hc0 : ¬cond0_0 i) (p5 p6 p7 p8 p9 p10 p11 : Vec F S512x1 .f32) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 p5 p6 p7 p8 p9 p10 p11
      = k0_pay2 (BitVec.ofNat 32 (i 1).val) (k0_pay10 x0 x2) x4 p11 := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 p5 p6 p7 p8 p9 p10 p11)]
  unfold kernelRun0_B
  dsimp only
  sl_unfold_words
  rw [View.canon_unit_zero hz]
  simp only [View.readAt_eq_ld, harg2.read_unread, harg3.read_unread, harg4.read_unread, harg5.read_unread, harg6.read_unread,
    harg7.read_unread, harg8.read_unread, harg9.read_unread, harg10.read_unread, harg11.read_unread, harg12.read_unread, harg13.read_unread,
    View.ld_unit_zero (S := S512x1) hz, View.ld_unit_zero (S := S512x256) hz, View.ld_unit_zero (S := S512x2048) hz,
    View.ld_unit_zero (S := S512x4096) hz, View.ld_unit_zero (S := S256x2048) hz, View.ld_unit_zero (S := S256x4096) hz]

/-- Continuing, output 8 is this tile of the scaled student logits. -/
private theorem out_B_12 (hc0 : ¬cond0_0 i) (p5 p6 p7 p8 p9 p10 p11 : Vec F S512x1 .f32) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 p5 p6 p7 p8 p9 p10 p11
      = k0_pay14 (k0_pay10 x0 x2) := by
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 p5 p6 p7 p8 p9 p10 p11)]
  unfold kernelRun0_B
  dsimp only
  sl_unfold_words
  rw [View.canon_unit_zero hz]
  simp only [View.readAt_eq_ld, harg2.read_unread, harg3.read_unread, harg4.read_unread, harg5.read_unread, harg6.read_unread,
    harg7.read_unread, harg8.read_unread, harg9.read_unread, harg10.read_unread, harg11.read_unread, harg12.read_unread, harg13.read_unread,
    View.ld_unit_zero (S := S512x1) hz, View.ld_unit_zero (S := S512x256) hz, View.ld_unit_zero (S := S512x2048) hz,
    View.ld_unit_zero (S := S512x4096) hz, View.ld_unit_zero (S := S256x2048) hz, View.ld_unit_zero (S := S256x4096) hz]

/-- Continuing, output 9 is this tile of the scaled teacher logits. -/
private theorem out_B_13 (hc0 : ¬cond0_0 i) (p5 p6 p7 p8 p9 p10 p11 : Vec F S512x1 .f32) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 p5 p6 p7 p8 p9 p10 p11
      = k0_pay15 (k0_pay11 x1 x3) := by
  unfold out0_B_13
  rw [View.read_writes_eq_canon _ _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 p5 p6 p7 p8 p9 p10 p11)]
  unfold kernelRun0_B
  dsimp only
  sl_unfold_words
  rw [View.canon_unit_zero hz]
  simp only [View.readAt_eq_ld, harg2.read_unread, harg3.read_unread, harg4.read_unread, harg5.read_unread, harg6.read_unread,
    harg7.read_unread, harg8.read_unread, harg9.read_unread, harg10.read_unread, harg11.read_unread, harg12.read_unread, harg13.read_unread,
    View.ld_unit_zero (S := S512x1) hz, View.ld_unit_zero (S := S512x256) hz, View.ld_unit_zero (S := S512x2048) hz,
    View.ld_unit_zero (S := S512x4096) hz, View.ld_unit_zero (S := S256x2048) hz, View.ld_unit_zero (S := S256x4096) hz]

/-- From the resets, output 1 is the student logits' running maximum: the larger of the one before and this tile's row maximum. -/
private theorem out_A_5 (hc0 : cond0_0 i) :
    out0_A_5 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4
      = k0_pay12 x0 x2 k0_pay3 := by
  unfold out0_A_5
  rw [View.read_writes_eq_canon _ _ _ (cover0_A_5 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4)]
  unfold kernelRun0_A
  dsimp only
  sl_unfold_words
  rw [View.canon_cons_unit_zero (S := S512x1) hz]
  simp only [View.readAt_eq_ld, harg2.read_unread, harg3.read_unread, harg4.read_unread, harg5.read_unread, harg6.read_unread,
    harg7.read_unread, harg8.read_unread, harg9.read_unread, harg10.read_unread, harg11.read_unread, harg12.read_unread, harg13.read_unread,
    View.ld_unit_zero (S := S512x1) hz, View.ld_unit_zero (S := S512x256) hz, View.ld_unit_zero (S := S512x2048) hz,
    View.ld_unit_zero (S := S512x4096) hz, View.ld_unit_zero (S := S256x2048) hz, View.ld_unit_zero (S := S256x4096) hz,
    View.readCov_unit_zero (S := S512x1) _ hz]

/-- From the resets, output 2 is the student logits' running sum of exponentials, rescaled to the new maximum, plus this tile's. -/
private theorem out_A_6 (hc0 : cond0_0 i) :
    out0_A_6 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4
      = k0_pay13 x0 x2 k0_pay3 k0_pay4 k0_pay3 := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4)]
  unfold kernelRun0_A
  dsimp only
  sl_unfold_words
  rw [View.canon_cons_unit_zero (S := S512x1) hz]
  simp only [View.readAt_eq_ld, harg2.read_unread, harg3.read_unread, harg4.read_unread, harg5.read_unread, harg6.read_unread,
    harg7.read_unread, harg8.read_unread, harg9.read_unread, harg10.read_unread, harg11.read_unread, harg12.read_unread, harg13.read_unread,
    View.ld_unit_zero (S := S512x1) hz, View.ld_unit_zero (S := S512x256) hz, View.ld_unit_zero (S := S512x2048) hz,
    View.ld_unit_zero (S := S512x4096) hz, View.ld_unit_zero (S := S256x2048) hz, View.ld_unit_zero (S := S256x4096) hz,
    View.readCov_unit_zero (S := S512x1) _ hz]

/-- From the resets, output 3 is the scaled student logits' running maximum. -/
private theorem out_A_7 (hc0 : cond0_0 i) :
    out0_A_7 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4
      = k0_pay16 (k0_pay10 x0 x2) k0_pay5 := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4)]
  unfold kernelRun0_A
  dsimp only
  sl_unfold_words
  rw [View.canon_cons_unit_zero (S := S512x1) hz]
  simp only [View.readAt_eq_ld, harg2.read_unread, harg3.read_unread, harg4.read_unread, harg5.read_unread, harg6.read_unread,
    harg7.read_unread, harg8.read_unread, harg9.read_unread, harg10.read_unread, harg11.read_unread, harg12.read_unread, harg13.read_unread,
    View.ld_unit_zero (S := S512x1) hz, View.ld_unit_zero (S := S512x256) hz, View.ld_unit_zero (S := S512x2048) hz,
    View.ld_unit_zero (S := S512x4096) hz, View.ld_unit_zero (S := S256x2048) hz, View.ld_unit_zero (S := S256x4096) hz,
    View.readCov_unit_zero (S := S512x1) _ hz]

/-- From the resets, output 4 is the scaled student logits' running sum of exponentials, rescaled to the new maximum, plus this tile's. -/
private theorem out_A_8 (hc0 : cond0_0 i) :
    out0_A_8 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4
      = k0_pay17 (k0_pay10 x0 x2) k0_pay5 k0_pay6 k0_pay5 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4)]
  unfold kernelRun0_A
  dsimp only
  sl_unfold_words
  rw [View.canon_cons_unit_zero (S := S512x1) hz]
  simp only [View.readAt_eq_ld, harg2.read_unread, harg3.read_unread, harg4.read_unread, harg5.read_unread, harg6.read_unread,
    harg7.read_unread, harg8.read_unread, harg9.read_unread, harg10.read_unread, harg11.read_unread, harg12.read_unread, harg13.read_unread,
    View.ld_unit_zero (S := S512x1) hz, View.ld_unit_zero (S := S512x256) hz, View.ld_unit_zero (S := S512x2048) hz,
    View.ld_unit_zero (S := S512x4096) hz, View.ld_unit_zero (S := S256x2048) hz, View.ld_unit_zero (S := S256x4096) hz,
    View.readCov_unit_zero (S := S512x1) _ hz]

/-- From the resets, output 5 is the scaled teacher logits' running maximum. -/
private theorem out_A_9 (hc0 : cond0_0 i) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4
      = k0_pay18 (k0_pay11 x1 x3) k0_pay7 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4)]
  unfold kernelRun0_A
  dsimp only
  sl_unfold_words
  rw [View.canon_cons_unit_zero (S := S512x1) hz]
  simp only [View.readAt_eq_ld, harg2.read_unread, harg3.read_unread, harg4.read_unread, harg5.read_unread, harg6.read_unread,
    harg7.read_unread, harg8.read_unread, harg9.read_unread, harg10.read_unread, harg11.read_unread, harg12.read_unread, harg13.read_unread,
    View.ld_unit_zero (S := S512x1) hz, View.ld_unit_zero (S := S512x256) hz, View.ld_unit_zero (S := S512x2048) hz,
    View.ld_unit_zero (S := S512x4096) hz, View.ld_unit_zero (S := S256x2048) hz, View.ld_unit_zero (S := S256x4096) hz,
    View.readCov_unit_zero (S := S512x1) _ hz]

/-- From the resets, output 6 is the scaled teacher logits' running sum of exponentials, rescaled to the new maximum, plus this tile's. -/
private theorem out_A_10 (hc0 : cond0_0 i) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4
      = k0_pay1 (k0_pay15 (k0_pay11 x1 x3)) (k0_pay18 (k0_pay11 x1 x3) k0_pay7) (k0_pay19 k0_pay8) (k0_pay20 (k0_pay11 x1 x3) k0_pay7 k0_pay7) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4)]
  unfold kernelRun0_A
  dsimp only
  sl_unfold_words
  rw [View.canon_cons_unit_zero (S := S512x1) hz]
  simp only [View.readAt_eq_ld, harg2.read_unread, harg3.read_unread, harg4.read_unread, harg5.read_unread, harg6.read_unread,
    harg7.read_unread, harg8.read_unread, harg9.read_unread, harg10.read_unread, harg11.read_unread, harg12.read_unread, harg13.read_unread,
    View.ld_unit_zero (S := S512x1) hz, View.ld_unit_zero (S := S512x256) hz, View.ld_unit_zero (S := S512x2048) hz,
    View.ld_unit_zero (S := S512x4096) hz, View.ld_unit_zero (S := S256x2048) hz, View.ld_unit_zero (S := S256x4096) hz,
    View.readCov_unit_zero (S := S512x1) _ hz]

/-- From the resets, output 7 is the label's logit so far, plus this tile's entry in the label's column if the column falls in this tile. -/
private theorem out_A_11 (hc0 : cond0_0 i) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4
      = k0_pay2 (BitVec.ofNat 32 (i 1).val) (k0_pay10 x0 x2) x4 k0_pay9 := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4)]
  unfold kernelRun0_A
  dsimp only
  sl_unfold_words
  rw [View.canon_cons_unit_zero (S := S512x1) hz]
  simp only [View.readAt_eq_ld, harg2.read_unread, harg3.read_unread, harg4.read_unread, harg5.read_unread, harg6.read_unread,
    harg7.read_unread, harg8.read_unread, harg9.read_unread, harg10.read_unread, harg11.read_unread, harg12.read_unread, harg13.read_unread,
    View.ld_unit_zero (S := S512x1) hz, View.ld_unit_zero (S := S512x256) hz, View.ld_unit_zero (S := S512x2048) hz,
    View.ld_unit_zero (S := S512x4096) hz, View.ld_unit_zero (S := S256x2048) hz, View.ld_unit_zero (S := S256x4096) hz,
    View.readCov_unit_zero (S := S512x1) _ hz]

/-- From the resets, output 8 is this tile of the scaled student logits. -/
private theorem out_A_12 (hc0 : cond0_0 i) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4
      = k0_pay14 (k0_pay10 x0 x2) := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4)]
  unfold kernelRun0_A
  dsimp only
  sl_unfold_words
  rw [View.canon_unit_zero hz]
  simp only [View.readAt_eq_ld, harg2.read_unread, harg3.read_unread, harg4.read_unread, harg5.read_unread, harg6.read_unread,
    harg7.read_unread, harg8.read_unread, harg9.read_unread, harg10.read_unread, harg11.read_unread, harg12.read_unread, harg13.read_unread,
    View.ld_unit_zero (S := S512x1) hz, View.ld_unit_zero (S := S512x256) hz, View.ld_unit_zero (S := S512x2048) hz,
    View.ld_unit_zero (S := S512x4096) hz, View.ld_unit_zero (S := S256x2048) hz, View.ld_unit_zero (S := S256x4096) hz,
    View.readCov_unit_zero (S := S512x1) _ hz]

/-- From the resets, output 9 is this tile of the scaled teacher logits. -/
private theorem out_A_13 (hc0 : cond0_0 i) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4
      = k0_pay15 (k0_pay11 x1 x3) := by
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4)]
  unfold kernelRun0_A
  dsimp only
  sl_unfold_words
  rw [View.canon_unit_zero hz]
  simp only [View.readAt_eq_ld, harg2.read_unread, harg3.read_unread, harg4.read_unread, harg5.read_unread, harg6.read_unread,
    harg7.read_unread, harg8.read_unread, harg9.read_unread, harg10.read_unread, harg11.read_unread, harg12.read_unread, harg13.read_unread,
    View.ld_unit_zero (S := S512x1) hz, View.ld_unit_zero (S := S512x256) hz, View.ld_unit_zero (S := S512x2048) hz,
    View.ld_unit_zero (S := S512x4096) hz, View.ld_unit_zero (S := S256x2048) hz, View.ld_unit_zero (S := S256x4096) hz,
    View.readCov_unit_zero (S := S512x1) _ hz]

end Pieces

variable (V : (c : Dev nD) → (b : Ref sig .tc) → Buf (Elt F) ((c : Thread nD τ).loc b))

/-- At the first column tile of a row tile the statistics start from their resets: -∞ for the maxima, 0 for the sums. -/
theorem outsAt_A (c : Dev nD) (t : Fin cfg0.N) (h0 : t.val % 125 = 0) :
    outsAt0 V c t.val t.isLt
      = step (BitVec.ofNat 32 ((grid0.coords t) 1).val) (iblk0 V c 0 t) (iblk0 V c 1 t) (iblk0 V c 2 t) (iblk0 V c 3 t) (iblk0 V c 4 t)
          k0_pay3 k0_pay4 k0_pay5 k0_pay6 k0_pay7 k0_pay8 k0_pay9 := by
  rw [outsAt0_A V c t h0]
  unfold step
  rw [out_A_5, out_A_6, out_A_7, out_A_8, out_A_9, out_A_10, out_A_11, out_A_12, out_A_13]

/-- At every other column tile they continue from what the point before left. -/
theorem outsAt_B (c : Dev nD) (t : Fin cfg0.N) (h0 : ¬t.val % 125 = 0) :
    outsAt0 V c t.val t.isLt
      = step (BitVec.ofNat 32 ((grid0.coords t) 1).val) (iblk0 V c 0 t) (iblk0 V c 1 t) (iblk0 V c 2 t) (iblk0 V c 3 t) (iblk0 V c 4 t)
          (outsAt0 V c (t.val - 1) (Nat.lt_of_le_of_lt (Nat.sub_le _ _) t.isLt)).1
          (outsAt0 V c (t.val - 1) (Nat.lt_of_le_of_lt (Nat.sub_le _ _) t.isLt)).2.1
          (outsAt0 V c (t.val - 1) (Nat.lt_of_le_of_lt (Nat.sub_le _ _) t.isLt)).2.2.1
          (outsAt0 V c (t.val - 1) (Nat.lt_of_le_of_lt (Nat.sub_le _ _) t.isLt)).2.2.2.1
          (outsAt0 V c (t.val - 1) (Nat.lt_of_le_of_lt (Nat.sub_le _ _) t.isLt)).2.2.2.2.1
          (outsAt0 V c (t.val - 1) (Nat.lt_of_le_of_lt (Nat.sub_le _ _) t.isLt)).2.2.2.2.2.1
          (outsAt0 V c (t.val - 1) (Nat.lt_of_le_of_lt (Nat.sub_le _ _) t.isLt)).2.2.2.2.2.2.1 := by
  rw [outsAt0_B V c t h0]
  unfold step
  rw [out_B_5, out_B_6, out_B_7, out_B_8, out_B_9, out_B_10, out_B_11, out_B_12, out_B_13]

end Cert.KernelIdeal.R0

end
-- ==== Proof.Spec.lean ====
/-
  The mathematics both programs compute, as functions over the extended reals indexed by natural numbers.

  A distillation loss over N = 2048 tokens and a vocabulary of V = 32000: student logits S = Xs · Wsᵀ, teacher logits
  T = Xt · Wtᵀ; the hard loss is the mean cross-entropy of the student's log-softmax at the target column over the
  tokens whose target is not the ignore index; the soft loss is the Jensen–Shannon divergence between the two
  softmax distributions, summed over the vocabulary and averaged over tokens.

  The tiled program walks the vocabulary in 125 tiles of 256 columns and keeps, per row, a running maximum M, a running
  sum L of exp (a - M), and a running one-hot pick G of the target column; a second pass accumulates the divergence
  integrand tile by tile.  These recursions are written out here (`Mrun`, `Lrun`, `Grun`, `Rrun`) exactly as the
  tiles compute them, beside the one-pass forms the whole-array program computes (`rMax`, `rLogSm`, …), so that each
  program's value can be identified with one of them without any analysis, and the analysis (that the two agree on
  finite inputs with targets in range) is a statement about these definitions alone.
-/
import Idealize.ShloMosaic.PureOps.Ideal
import Idealize.ShloMosaic.PureOps.Ideal.Laws
import Idealize.ShloMosaic.Lib.ValueIdx

noncomputable section

namespace Cert.Distill

open Idealize.ShloMosaic

/-! ## Arrays as functions of row and column numbers -/

/-- A rank-2 array as a function of its row and column numbers (zero outside the array). -/
def nat2 {a b : ℕ} (f : (⟨2, ![a, b]⟩ : Shape).Idx → EReal) (p q : ℕ) : EReal :=
  if h : p < a ∧ q < b then f (ValueIdx.ix2 ⟨p, h.1⟩ ⟨q, h.2⟩) else 0

theorem nat2_apply {a b : ℕ} (f : (⟨2, ![a, b]⟩ : Shape).Idx → EReal) (i : (⟨2, ![a, b]⟩ : Shape).Idx) :
    nat2 f (i 0).val (i 1).val = f i := by
  unfold nat2
  rw [dif_pos ⟨(i 0).isLt, (i 1).isLt⟩]
  exact congrArg f (ValueIdx.eq_ix2 i).symm

/-- A vector of 32-bit words as a function of its position (zero outside). -/
def nat1 {n : ℕ} (t : (⟨1, ![n]⟩ : Shape).Idx → BitVec 32) (p : ℕ) : BitVec 32 :=
  if h : p < n then t (ValueIdx.ix1 ⟨p, h⟩) else 0#32

theorem nat1_apply {n : ℕ} (t : (⟨1, ![n]⟩ : Shape).Idx → BitVec 32) (i : (⟨1, ![n]⟩ : Shape).Idx) :
    nat1 t (i 0).val = t i := by
  unfold nat1
  have h : (i 0).val < n := (i 0).isLt
  rw [dif_pos h]
  exact congrArg t (ValueIdx.eq_ix1 i).symm

/-! ## Logits -/

/-- Row `n` of `X` against row `v` of `W`, contracted over a hidden axis of extent `H`. -/
def dotRow (H : ℕ) (X W : ℕ → ℕ → EReal) (n v : ℕ) : EReal := ∑ k : Fin H, X n k.val * W v k.val

/-! ## The label words -/

/-- A target word is valid when it is not the ignore index -100. -/
def validBit (w : BitVec 32) : BitVec 1 := IntOp.cmpi .ne w 4294967196#32

/-- The column actually looked up: the target when valid, column 0 otherwise. -/
def safeLab (w : BitVec 32) : BitVec 32 := Scalar.select (validBit w) w 0#32

/-! ## The tiled recursions (one row's logits `a`, 256 columns a tile) -/

/-- The maximum of tile `j`. -/
def tileMax (a : ℕ → EReal) (j : ℕ) : EReal :=
  (Finset.univ : Finset (Fin 256)).fold max ⊥ (fun l => a (256 * j + l.val))

/-- The sum over tile `j` of exp (a - μ). -/
def tileSumExp (a : ℕ → EReal) (μ : EReal) (j : ℕ) : EReal :=
  ∑ l : Fin 256, Ideal.exp (a (256 * j + l.val) - μ)

/-- The running maximum after tiles 0 … j. -/
def Mrun (a : ℕ → EReal) : ℕ → EReal
  | 0 => tileMax a 0
  | j + 1 => max (Mrun a j) (tileMax a (j + 1))

/-- The running sum of exp (a - M) after tiles 0 … j, rescaled at each tile to the new running maximum. -/
def Lrun (a : ℕ → EReal) : ℕ → EReal
  | 0 => tileSumExp a (Mrun a 0) 0
  | j + 1 => Lrun a j * Ideal.exp (Mrun a j - Mrun a (j + 1)) + tileSumExp a (Mrun a (j + 1)) (j + 1)

/-- Tile `j`'s share of the one-hot pick of column `lab`: the logit where the column's word is `lab`, else zero. -/
def tileHot (a : ℕ → EReal) (lab : BitVec 32) (j : ℕ) : EReal :=
  ∑ l : Fin 256, if BitVec.ofNat 32 (256 * j + l.val) = lab then a (256 * j + l.val) else 0

/-- The running one-hot pick after tiles 0 … j. -/
def Grun (a : ℕ → EReal) (lab : BitVec 32) : ℕ → EReal
  | 0 => tileHot a lab 0
  | j + 1 => Grun a lab j + tileHot a lab (j + 1)

/-- The tiled log-sum-exp of a row: the last running maximum plus the log of the last running sum. -/
def kLse (a : ℕ → EReal) : EReal := Mrun a 124 + Ideal.log (Lrun a 124)

/-! ## The divergence integrand, as the second pass computes it at one (row, column) -/

/-- The mean of the two probabilities exp (cs - ls) and exp (ct - lt). -/
def kMean (cs ls ct lt : EReal) : EReal :=
  (Ideal.exp (cs - ls) + Ideal.exp (ct - lt)) * ((1 / 2 : ℝ) : EReal)

/-- mean · (2 log mean - log ps - log pt), guarded by mean > 0 as the program guards it. -/
def jsdTerm (cs ls ct lt : EReal) : EReal :=
  Scalar.select (Ideal.cmp .ogt (kMean cs ls ct lt) 0)
    (kMean cs ls ct lt * ((((2 : ℝ) : EReal) * Ideal.log (Scalar.select (Ideal.cmp .ogt (kMean cs ls ct lt) 0) (kMean cs ls ct lt) 1)
      - (cs - ls)) - (ct - lt)))
    0

/-- Tile `j`'s share of a row's divergence sum. -/
def tileTerm (cs ct : ℕ → EReal) (ls lt : EReal) (j : ℕ) : EReal :=
  ∑ l : Fin 256, jsdTerm (cs (256 * j + l.val)) ls (ct (256 * j + l.val)) lt

/-- A row's running divergence sum after tiles 0 … j. -/
def Rrun (cs ct : ℕ → EReal) (ls lt : EReal) : ℕ → EReal
  | 0 => tileTerm cs ct ls lt 0
  | j + 1 => Rrun cs ct ls lt j + tileTerm cs ct ls lt (j + 1)

/-! ## The tiled program's result -/

/-- The hard loss's numerator: over valid rows, the picked logit minus the row's log-sum-exp. -/
def kHardNum (S : ℕ → ℕ → EReal) (tgt : ℕ → BitVec 32) : EReal :=
  ∑ n : Fin 2048, Scalar.select (validBit (tgt n.val)) (Grun (S n.val) (safeLab (tgt n.val)) 124 - kLse (S n.val)) 0

/-- The soft loss's numerator: the divergence sums of all rows. -/
def kJsdNum (S T : ℕ → ℕ → EReal) : EReal :=
  ∑ n : Fin 2048, Rrun (S n.val) (T n.val) (kLse (S n.val)) (kLse (T n.val)) 124

/-- The tiled program's scalar: ½ · (-(hard numerator) / D) + ½ · (soft numerator / 4096), D the count of valid rows
    (at least one) as the program converts it. -/
def kResult (S T : ℕ → ℕ → EReal) (tgt : ℕ → BitVec 32) (D : EReal) : EReal :=
  ((1 / 2 : ℝ) : EReal) * Ideal.div (-(kHardNum S tgt)) D
    + ((1 / 2 : ℝ) : EReal) * Ideal.div (kJsdNum S T) ((4096 : ℝ) : EReal)

/-! ## The whole-array program's result -/

/-- A row's maximum over the whole vocabulary. -/
def rMax (a : ℕ → EReal) : EReal := (Finset.univ : Finset (Fin 32000)).fold max ⊥ (fun v => a v.val)

/-- log-softmax of a row at column `v`: (a v - max) - log Σ exp (a - max). -/
def rLogSm (a : ℕ → EReal) (v : ℕ) : EReal :=
  (a v - rMax a) - Ideal.log (∑ u : Fin 32000, Ideal.exp (a u.val - rMax a))

/-- The hard loss's numerator: over valid rows, the row's log-softmax at the looked-up column. -/
def rHardNum (S : ℕ → ℕ → EReal) (tgt : ℕ → BitVec 32) : EReal :=
  ∑ n : Fin 2048, Scalar.select (validBit (tgt n.val)) (rLogSm (S n.val) (safeLab (tgt n.val)).toNat) 0

/-- The mean of the two probabilities exp sl and exp tl. -/
def rMean (sl tl : EReal) : EReal := Ideal.div (Ideal.exp sl + Ideal.exp tl) ((2 : ℝ) : EReal)

/-- One Kullback–Leibler integrand mean · (log mean - lp), guarded by mean > 0. -/
def rKlTerm (mean lp : EReal) : EReal :=
  Scalar.select (Ideal.cmp .ogt mean 0) (mean * (Ideal.log (Scalar.select (Ideal.cmp .ogt mean 0) mean 1) - lp)) 0

/-- One batch-mean Kullback–Leibler sum against the mean distribution; `lp` is the log-probability it is taken from. -/
def rKl (S T : ℕ → ℕ → EReal) (lp : ℕ → ℕ → EReal) : EReal :=
  Ideal.div (∑ n : Fin 2048, ∑ v : Fin 32000,
      rKlTerm (rMean (rLogSm (S n.val) v.val) (rLogSm (T n.val) v.val)) (lp n.val v.val)) ((2048 : ℝ) : EReal)

/-- The whole-array program's scalar. -/
def rResult (S T : ℕ → ℕ → EReal) (tgt : ℕ → BitVec 32) (D : EReal) : EReal :=
  ((1 / 2 : ℝ) : EReal) * Ideal.div (-(rHardNum S tgt)) D
    + ((1 / 2 : ℝ) : EReal) * Ideal.div (rKl S T (fun n v => rLogSm (S n) v) + rKl S T (fun n v => rLogSm (T n) v)) ((2 : ℝ) : EReal)

/-! ## The two results as functions of the five argument arrays -/

/-- Student logits from the student input [2048, 2048] and the student weight [32000, 2048]. -/
def logitsS (x0 : (⟨2, ![2048, 2048]⟩ : Shape).Idx → EReal) (x2 : (⟨2, ![32000, 2048]⟩ : Shape).Idx → EReal) : ℕ → ℕ → EReal :=
  fun n v => dotRow 2048 (nat2 x0) (nat2 x2) n v

/-- Teacher logits from the teacher input [2048, 4096] and the teacher weight [32000, 4096]. -/
def logitsT (x1 : (⟨2, ![2048, 4096]⟩ : Shape).Idx → EReal) (x3 : (⟨2, ![32000, 4096]⟩ : Shape).Idx → EReal) : ℕ → ℕ → EReal :=
  fun n v => dotRow 4096 (nat2 x1) (nat2 x3) n v

/-- The target words by row number. -/
def targets (x4 : (⟨1, ![2048]⟩ : Shape).Idx → BitVec 32) : ℕ → BitVec 32 := nat1 x4

/-- The count of valid targets, at least one, converted to a float: the hard loss's denominator, exactly as both programs
    compute it (a 32-bit sum of the widened validity bits, a signed maximum with 1, a signed conversion). -/
def denom (x4 : (⟨1, ![2048]⟩ : Shape).Idx → BitVec 32) (h : (⟨1, ![2048]⟩ : Shape).ReducesTo [0] ⟨0, ![]⟩)
    (h0 : 0 < (⟨0, ![]⟩ : Shape).numel) : EReal :=
  FloatOps.sitofp (F := Ideal) .f32
    (IntOp.maxsi (Host.reduce IntOp.addi (fun i => (validBit (x4 i)).setWidth 32) (fun _ => 0#32) h h0 ValueIdx.ix0) 1#32)

/-- The tiled program's scalar as a function of the argument arrays. -/
def kernelValue (x0 : (⟨2, ![2048, 2048]⟩ : Shape).Idx → EReal) (x1 : (⟨2, ![2048, 4096]⟩ : Shape).Idx → EReal)
    (x2 : (⟨2, ![32000, 2048]⟩ : Shape).Idx → EReal) (x3 : (⟨2, ![32000, 4096]⟩ : Shape).Idx → EReal)
    (x4 : (⟨1, ![2048]⟩ : Shape).Idx → BitVec 32) (h : (⟨1, ![2048]⟩ : Shape).ReducesTo [0] ⟨0, ![]⟩)
    (h0 : 0 < (⟨0, ![]⟩ : Shape).numel) : EReal :=
  kResult (logitsS x0 x2) (logitsT x1 x3) (targets x4) (denom x4 h h0)

/-- The whole-array program's scalar as a function of the argument arrays. -/
def referenceValue (x0 : (⟨2, ![2048, 2048]⟩ : Shape).Idx → EReal) (x1 : (⟨2, ![2048, 4096]⟩ : Shape).Idx → EReal)
    (x2 : (⟨2, ![32000, 2048]⟩ : Shape).Idx → EReal) (x3 : (⟨2, ![32000, 4096]⟩ : Shape).Idx → EReal)
    (x4 : (⟨1, ![2048]⟩ : Shape).Idx → BitVec 32) (h : (⟨1, ![2048]⟩ : Shape).ReducesTo [0] ⟨0, ![]⟩)
    (h0 : 0 < (⟨0, ![]⟩ : Shape).numel) : EReal :=
  rResult (logitsS x0 x2) (logitsT x1 x3) (targets x4) (denom x4 h h0)

/-- Every entry of an array is a real number. -/
def FiniteArr {s : Shape} (x : s.Idx → EReal) : Prop := ∀ i, x i ≠ ⊤ ∧ x i ≠ ⊥

/-- Every target is the ignore index or a column number of the vocabulary. -/
def LabelsOk (x4 : (⟨1, ![2048]⟩ : Shape).Idx → BitVec 32) : Prop :=
  ∀ i, x4 i = 4294967196#32 ∨ (x4 i).toNat < 32000

end Cert.Distill

end
-- ==== Proof.Consts.lean ====
/-
  The float literals the two programs carry, read as extended reals: -∞, 0, ½, 1, 2, 2048, 4096, and the quiet-NaN
  pattern (which the extended reals read as ⊥).  One module holds them so that the literal reader is unfolded once.
-/
import Idealize.ShloMosaic.PureOps.Ideal
import Idealize.ShloMosaic.PureOps.Ideal.Laws

noncomputable section

namespace Cert.Distill.Consts

open Idealize.ShloMosaic

theorem ofBits_neg_inf : Ideal.ofBits .f32 0xFF800000#32 = ⊥ := by
  simp [Ideal.ofBits, Ideal.ieee]
theorem ofBits_zero : Ideal.ofBits .f32 0x00000000#32 = 0 := Ideal.ofBits_zero_f32
theorem ofBits_half : Ideal.ofBits .f32 0x3F000000#32 = ((1 / 2 : ℝ) : EReal) := by
  simp [Ideal.ofBits, Ideal.ieee, -EReal.coe_mul]; norm_num
theorem ofBits_one : Ideal.ofBits .f32 0x3F800000#32 = 1 := by
  rw [← EReal.coe_one]; simp [Ideal.ofBits, Ideal.ieee, -EReal.coe_mul, -EReal.coe_one]; norm_num
theorem ofBits_two : Ideal.ofBits .f32 0x40000000#32 = ((2 : ℝ) : EReal) := by
  simp [Ideal.ofBits, Ideal.ieee, -EReal.coe_mul]; norm_num
theorem ofBits_2048 : Ideal.ofBits .f32 0x45000000#32 = ((2048 : ℝ) : EReal) := by
  simp [Ideal.ofBits, Ideal.ieee, -EReal.coe_mul]; norm_num
theorem ofBits_4096 : Ideal.ofBits .f32 0x45800000#32 = ((4096 : ℝ) : EReal) := by
  simp [Ideal.ofBits, Ideal.ieee, -EReal.coe_mul]; norm_num
theorem ofBits_nan : Ideal.ofBits .f32 0x7FC00000#32 = ⊥ := by
  simp [Ideal.ofBits, Ideal.ieee]

end Cert.Distill.Consts

end
-- ==== Proof.R0Tile.lean ====
import proofs.«430291_j37958920962546_2_alg».proof.Proof.R0Body
import proofs.«430291_j37958920962546_2_alg».proof.Proof.Spec
import proofs.«430291_j37958920962546_2_alg».proof.Proof.Consts
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx

namespace Cert.KernelIdeal.R0

open Cert.KernelIdeal Cert.KernelIdeal.Gen Cert.Distill

/-- Row `r` of a 512-row block against row `l` of a 256-row weight block, over a hidden axis of extent `H`: one logit. -/
def blkDot (H : ℕ) (x : (⟨2, ![512, H]⟩ : Shape).Idx → EReal) (w : (⟨2, ![256, H]⟩ : Shape).Idx → EReal) (r : Fin 512) (l : Fin 256) : EReal :=
  ∑ k : Fin H, x (ix2 r k) * w (ix2 l k)

/-- The tile's maximum of a row joined with the running maximum. -/
def newMax (a : Fin 256 → EReal) (m : EReal) : EReal := max m ((Finset.univ : Finset (Fin 256)).fold max ⊥ a)

/-- The running sum rescaled to the new maximum, plus the tile's sum of exp (a - new maximum). -/
def newSum (a : Fin 256 → EReal) (m s : EReal) : EReal :=
  s * Ideal.exp (m - newMax a m) + ∑ l : Fin 256, Ideal.exp (a l - newMax a m)

/-! ## Layout: a column `[a]` seen as `[a, 1]`, and a column broadcast along the lanes -/

/-- An `[a]` array cast to `[a, 1]` reads, at `(i, u)`, the operand at `i`, whatever the unit coordinate `u`. -/
private theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p` at its one column. -/
private theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A row's lane sum and lane maximum, kept as a column -/

/-- The lane sum of a `[512, 256]` block kept as a `[512, 1]` column: at row `r`, the sum over the 256 lanes. -/
private theorem rowSum_apply (v : FVec Ideal S512x256 .f32) (h : S512x256.Reduces [1] S512) (hφ : FKind.Formats .f32)
    (hacc : (0x00000000#32 : BitVec 32) = FKind.add.neutral .f32 hφ) (hc : S512.ShapeCasts S512x1) (r : Fin 512) :
    shapeCast S512x1 (multiReduction (F := Ideal) .add [1] S512 v 0x00000000#32 h hφ hacc) hc (ix2 r (0 : Fin 1))
      = ∑ l : Fin 256, v (ix2 r l) := by
  refine (shapeCast_a_a1_apply _ hc r 0).trans ?_
  refine (Ideal.multiReduction_add_single v 0x00000000#32 h hφ hacc (ix1 r)).trans ?_
  refine Finset.sum_congr rfl fun l _ => congrArg v ?_
  funext c
  match c with
  | ⟨0, _⟩ => rfl
  | ⟨1, _⟩ => rfl

/-- The lane maximum of a `[512, 256]` block kept as a `[512, 1]` column: at row `r`, the fold of `max` from `-∞` over
    the 256 lanes. -/
private theorem rowMax_apply (v : FVec Ideal S512x256 .f32) (h : S512x256.Reduces [1] S512) (hφ : FKind.Formats .f32)
    (hacc : (0xFF800000#32 : BitVec 32) = FKind.maximumf.neutral .f32 hφ) (hc : S512.ShapeCasts S512x1) (r : Fin 512) :
    shapeCast S512x1 (multiReduction (F := Ideal) .maximumf [1] S512 v 0xFF800000#32 h hφ hacc) hc (ix2 r (0 : Fin 1))
      = (Finset.univ : Finset (Fin 256)).fold max ⊥ (fun l => v (ix2 r l)) := by
  refine (shapeCast_a_a1_apply _ hc r 0).trans ?_
  refine (Ideal.multiReduction_maximumf_single v 0xFF800000#32 h hφ hacc (ix1 r)).trans ?_
  show (Finset.univ : Finset (Fin 256)).fold max (Ideal.ofBits .f32 0xFF800000#32) (v ∘ h.lift (ix1 r)) = _
  rw [Consts.ofBits_neg_inf]
  refine congrArg (Finset.fold max ⊥ · Finset.univ) (funext fun l => congrArg v ?_)
  funext c
  match c with
  | ⟨0, _⟩ => rfl
  | ⟨1, _⟩ => rfl

/-! ### The `[512, 2048] × [256, 2048]` product, contracted over the hidden axis -/

private theorem lhs_2048_0 (i : S512x256.Idx) (q : dot_S512x2048_S256x2048_S512x256_1_1_0_0_n_n.contr.Idx) :
    (dot_S512x2048_S256x2048_S512x256_1_1_0_0_n_n.lhsIdx i q 0).val = (i 0).val := by
  unfold DotDims.lhsIdx
  rw [dif_neg (show ¬(0 : Fin S512x2048.rank) ∈ dot_S512x2048_S256x2048_S512x256_1_1_0_0_n_n.lhsBatch by decide), dif_pos (show (0 : Fin S512x2048.rank) ∈ dot_S512x2048_S256x2048_S512x256_1_1_0_0_n_n.lhsNonContracting by decide)]
  rfl
private theorem lhs_2048_1 (i : S512x256.Idx) (q : dot_S512x2048_S256x2048_S512x256_1_1_0_0_n_n.contr.Idx) :
    (dot_S512x2048_S256x2048_S512x256_1_1_0_0_n_n.lhsIdx i q 1).val = (q ⟨0, by decide⟩).val :=
  dot_S512x2048_S256x2048_S512x256_1_1_0_0_n_n.lhsIdx_val_of_single rfl i q
private theorem rhs_2048_0 (i : S512x256.Idx) (q : dot_S512x2048_S256x2048_S512x256_1_1_0_0_n_n.contr.Idx) :
    (dot_S512x2048_S256x2048_S512x256_1_1_0_0_n_n.rhsIdx i q 0).val = (i 1).val := by
  unfold DotDims.rhsIdx
  rw [dif_neg (show ¬(0 : Fin S256x2048.rank) ∈ dot_S512x2048_S256x2048_S512x256_1_1_0_0_n_n.rhsBatch by decide), dif_pos (show (0 : Fin S256x2048.rank) ∈ dot_S512x2048_S256x2048_S512x256_1_1_0_0_n_n.rhsNonContracting by decide)]
  rfl
private theorem rhs_2048_1 (i : S512x256.Idx) (q : dot_S512x2048_S256x2048_S512x256_1_1_0_0_n_n.contr.Idx) :
    (dot_S512x2048_S256x2048_S512x256_1_1_0_0_n_n.rhsIdx i q 1).val = (q ⟨0, by decide⟩).val :=
  dot_S512x2048_S256x2048_S512x256_1_1_0_0_n_n.rhsIdx_val_of_single rfl i q

/-- The product block at `(r, l)`: row `r` of the rows' block against row `l` of the weights' block. -/
private theorem matmul_2048_apply (x0 : FVec Ideal S512x2048 .bf16) (x2 : FVec Ideal S256x2048 .bf16) (r : Fin 512) (l : Fin 256) :
    FloatOps.matmul dot_S512x2048_S256x2048_S512x256_1_1_0_0_n_n none x0 x2 (constant (F := Ideal) S512x256 .f32 0x00000000#32) (ix2 r l)
      = blkDot 2048 x0 x2 r l := by
  rw [Ideal.matmul_constant_zero_apply, ← Equiv.sum_comp (ValueIdx.contrEquiv1 dot_S512x2048_S256x2048_S512x256_1_1_0_0_n_n 2048 rfl rfl).symm]
  unfold blkDot
  refine Finset.sum_congr rfl fun k _ => ?_
  have hk := ValueIdx.contrEquiv1_symm_val dot_S512x2048_S256x2048_S512x256_1_1_0_0_n_n 2048 rfl rfl k
  have el : dot_S512x2048_S256x2048_S512x256_1_1_0_0_n_n.lhsIdx (ix2 r l) ((ValueIdx.contrEquiv1 dot_S512x2048_S256x2048_S512x256_1_1_0_0_n_n 2048 rfl rfl).symm k) = ix2 r k := funext fun a => Fin.ext (by
    match a with
    | ⟨0, _⟩ => exact lhs_2048_0 _ _
    | ⟨1, _⟩ => exact (lhs_2048_1 _ _).trans hk)
  have er : dot_S512x2048_S256x2048_S512x256_1_1_0_0_n_n.rhsIdx (ix2 r l) ((ValueIdx.contrEquiv1 dot_S512x2048_S256x2048_S512x256_1_1_0_0_n_n 2048 rfl rfl).symm k) = ix2 l k := funext fun a => Fin.ext (by
    match a with
    | ⟨0, _⟩ => exact rhs_2048_0 _ _
    | ⟨1, _⟩ => exact (rhs_2048_1 _ _).trans hk)
  rw [el, er]

/-- The product block of the first pass at `(r, l)`. -/
private theorem pay_mat_2048_apply (x0 : Vec Ideal S512x2048 .bf16) (x2 : Vec Ideal S256x2048 .bf16) (r : Fin 512) (l : Fin 256) :
    k0_pay10 x0 x2 (ix2 r l) = blkDot 2048 x0 x2 r l := by
  unfold k0_pay10
  rw [shapeCast_self, shapeCast_self]
  exact matmul_2048_apply x0 x2 r l

/-! ### The `[512, 4096] × [256, 4096]` product, contracted over the hidden axis -/

private theorem lhs_4096_0 (i : S512x256.Idx) (q : dot_S512x4096_S256x4096_S512x256_1_1_0_0_n_n.contr.Idx) :
    (dot_S512x4096_S256x4096_S512x256_1_1_0_0_n_n.lhsIdx i q 0).val = (i 0).val := by
  unfold DotDims.lhsIdx
  rw [dif_neg (show ¬(0 : Fin S512x4096.rank) ∈ dot_S512x4096_S256x4096_S512x256_1_1_0_0_n_n.lhsBatch by decide), dif_pos (show (0 : Fin S512x4096.rank) ∈ dot_S512x4096_S256x4096_S512x256_1_1_0_0_n_n.lhsNonContracting by decide)]
  rfl
private theorem lhs_4096_1 (i : S512x256.Idx) (q : dot_S512x4096_S256x4096_S512x256_1_1_0_0_n_n.contr.Idx) :
    (dot_S512x4096_S256x4096_S512x256_1_1_0_0_n_n.lhsIdx i q 1).val = (q ⟨0, by decide⟩).val :=
  dot_S512x4096_S256x4096_S512x256_1_1_0_0_n_n.lhsIdx_val_of_single rfl i q
private theorem rhs_4096_0 (i : S512x256.Idx) (q : dot_S512x4096_S256x4096_S512x256_1_1_0_0_n_n.contr.Idx) :
    (dot_S512x4096_S256x4096_S512x256_1_1_0_0_n_n.rhsIdx i q 0).val = (i 1).val := by
  unfold DotDims.rhsIdx
  rw [dif_neg (show ¬(0 : Fin S256x4096.rank) ∈ dot_S512x4096_S256x4096_S512x256_1_1_0_0_n_n.rhsBatch by decide), dif_pos (show (0 : Fin S256x4096.rank) ∈ dot_S512x4096_S256x4096_S512x256_1_1_0_0_n_n.rhsNonContracting by decide)]
  rfl
private theorem rhs_4096_1 (i : S512x256.Idx) (q : dot_S512x4096_S256x4096_S512x256_1_1_0_0_n_n.contr.Idx) :
    (dot_S512x4096_S256x4096_S512x256_1_1_0_0_n_n.rhsIdx i q 1).val = (q ⟨0, by decide⟩).val :=
  dot_S512x4096_S256x4096_S512x256_1_1_0_0_n_n.rhsIdx_val_of_single rfl i q

/-- The product block at `(r, l)`: row `r` of the rows' block against row `l` of the weights' block. -/
private theorem matmul_4096_apply (x1 : FVec Ideal S512x4096 .bf16) (x3 : FVec Ideal S256x4096 .bf16) (r : Fin 512) (l : Fin 256) :
    FloatOps.matmul dot_S512x4096_S256x4096_S512x256_1_1_0_0_n_n none x1 x3 (constant (F := Ideal) S512x256 .f32 0x00000000#32) (ix2 r l)
      = blkDot 4096 x1 x3 r l := by
  rw [Ideal.matmul_constant_zero_apply, ← Equiv.sum_comp (ValueIdx.contrEquiv1 dot_S512x4096_S256x4096_S512x256_1_1_0_0_n_n 4096 rfl rfl).symm]
  unfold blkDot
  refine Finset.sum_congr rfl fun k _ => ?_
  have hk := ValueIdx.contrEquiv1_symm_val dot_S512x4096_S256x4096_S512x256_1_1_0_0_n_n 4096 rfl rfl k
  have el : dot_S512x4096_S256x4096_S512x256_1_1_0_0_n_n.lhsIdx (ix2 r l) ((ValueIdx.contrEquiv1 dot_S512x4096_S256x4096_S512x256_1_1_0_0_n_n 4096 rfl rfl).symm k) = ix2 r k := funext fun a => Fin.ext (by
    match a with
    | ⟨0, _⟩ => exact lhs_4096_0 _ _
    | ⟨1, _⟩ => exact (lhs_4096_1 _ _).trans hk)
  have er : dot_S512x4096_S256x4096_S512x256_1_1_0_0_n_n.rhsIdx (ix2 r l) ((ValueIdx.contrEquiv1 dot_S512x4096_S256x4096_S512x256_1_1_0_0_n_n 4096 rfl rfl).symm k) = ix2 l k := funext fun a => Fin.ext (by
    match a with
    | ⟨0, _⟩ => exact rhs_4096_0 _ _
    | ⟨1, _⟩ => exact (rhs_4096_1 _ _).trans hk)
  rw [el, er]

/-- The product block of the first pass at `(r, l)`. -/
private theorem pay_mat_4096_apply (x1 : Vec Ideal S512x4096 .bf16) (x3 : Vec Ideal S256x4096 .bf16) (r : Fin 512) (l : Fin 256) :
    k0_pay11 x1 x3 (ix2 r l) = blkDot 4096 x1 x3 r l := by
  unfold k0_pay11
  rw [shapeCast_self, shapeCast_self]
  exact matmul_4096_apply x1 x3 r l

/-! ## The running statistics read at a row -/

/-- The scale by the literal one leaves a block as it is. -/
private theorem pay14_eq (v : FVec Ideal S512x256 .f32) : k0_pay14 v = v := funext fun i => by
  unfold k0_pay14
  show v i * Ideal.ofBits .f32 0x3F800000#32 = v i
  rw [Consts.ofBits_one, mul_one]

private theorem pay15_eq (v : FVec Ideal S512x256 .f32) : k0_pay15 v = v := funext fun i => by
  unfold k0_pay15
  show v i * Ideal.ofBits .f32 0x3F800000#32 = v i
  rw [Consts.ofBits_one, mul_one]

/-- The running maximum joined with a block's row maximum. -/
private theorem max_col_apply (v : FVec Ideal S512x256 .f32) (p : FVec Ideal S512x1 .f32) (h : S512x256.Reduces [1] S512) (hφ : FKind.Formats .f32)
    (hacc : (0xFF800000#32 : BitVec 32) = FKind.maximumf.neutral .f32 hφ) (hc : S512.ShapeCasts S512x1) (hs : S512x1.ShapeCasts S512x1)
    (r : Fin 512) :
    maximumf (shapeCast S512x1 p hs) (shapeCast S512x1 (multiReduction (F := Ideal) .maximumf [1] S512 v 0xFF800000#32 h hφ hacc) hc)
        (ix2 r (0 : Fin 1))
      = newMax (fun l => v (ix2 r l)) (p (ix2 r (0 : Fin 1))) := by
  rw [maximumf_apply, shapeCast_self, rowMax_apply]
  rfl

/-- The running sum rescaled by exp (old maximum - new maximum), plus the row sum of exp (block - new maximum). -/
private theorem sum_col_apply (v : FVec Ideal S512x256 .f32) (s m M : FVec Ideal S512x1 .f32) (h : S512x256.Reduces [1] S512)
    (hφ : FKind.Formats .f32) (hacc : (0x00000000#32 : BitVec 32) = FKind.add.neutral .f32 hφ) (hc : S512.ShapeCasts S512x1)
    (hs1 hs2 : S512x1.ShapeCasts S512x1) (hb : S512x1.Broadcasts S512x256) (r : Fin 512) :
    addf (mulf (shapeCast S512x1 s hs1) (exp (subf (shapeCast S512x1 m hs2) M)))
        (shapeCast S512x1 (multiReduction (F := Ideal) .add [1] S512 (exp (subf v (broadcastTo S512x256 M hb))) 0x00000000#32 h hφ hacc) hc)
        (ix2 r (0 : Fin 1))
      = s (ix2 r (0 : Fin 1)) * Ideal.exp (m (ix2 r (0 : Fin 1)) - M (ix2 r (0 : Fin 1)))
        + ∑ l : Fin 256, Ideal.exp (v (ix2 r l) - M (ix2 r (0 : Fin 1))) := by
  rw [addf_apply, shapeCast_self, shapeCast_self, rowSum_apply]
  refine congrArg (s (ix2 r (0 : Fin 1)) * Ideal.exp (m (ix2 r (0 : Fin 1)) - M (ix2 r (0 : Fin 1))) + ·) (Finset.sum_congr rfl fun l _ => ?_)
  show Ideal.exp (v (ix2 r l) - broadcastTo S512x256 M hb (ix2 r l)) = _
  rw [broadcastTo_a1_ab_apply]

/-- A select on a word equality is the `if` on it. -/
private theorem select_cmpi_eq {α : Type} (x y : BitVec 32) (a b : α) :
    Scalar.select (IntOp.cmpi .eq x y) a b = if x = y then a else b := by
  show (if BitVec.ofBool (x == y) = 1#1 then a else b) = _
  by_cases hxy : x = y
  · subst hxy
    rw [if_pos rfl, if_pos]
    rw [beq_self_eq_true]
    rfl
  · rw [if_neg hxy, if_neg]
    rw [beq_eq_false_iff_ne.mpr hxy]
    decide

/-- The one-hot pick of a block's row: the lanes carry the words `wd · 256 + l`, and the lane whose word is the row's label is kept. -/
private theorem pick_apply (wd : BitVec 32) (v : FVec Ideal S512x256 .f32) (lab : Vec Ideal S512x1 .i32) (p : Vec Ideal S512x1 .f32) (r : Fin 512) :
    k0_pay2 wd v lab p (ix2 r (0 : Fin 1))
      = p (ix2 r (0 : Fin 1)) + ∑ l : Fin 256, if wd * 256#32 + BitVec.ofNat 32 l.val = lab (ix2 r (0 : Fin 1)) then v (ix2 r l) else 0 := by
  unfold k0_pay2
  dsimp only
  rw [addf_apply, shapeCast_self]
  refine (congrArg (p (ix2 r (0 : Fin 1)) + ·) (rowSum_apply _ _ _ _ _ r)).trans ?_
  refine congrArg (p (ix2 r (0 : Fin 1)) + ·) (Finset.sum_congr rfl fun l _ => ?_)
  show Scalar.select (IntOp.cmpi .eq (Scalar.muli wd 256#32 + iota .tc S512x256 32 [1] iota_S512x256_d1_w32 (ix2 r l))
      (broadcastTo S512x256 (shapeCast S512x1 lab shapeCasts_S512x1_S512x1) broadcasts_S512x1_S512x256 (ix2 r l)))
      (v (ix2 r l)) (Ideal.ofBits .f32 0x00000000#32) = _
  rw [iota_single_apply, shapeCast_self, broadcastTo_a1_ab_apply, Consts.ofBits_zero, select_cmpi_eq]
  rfl

private theorem pay12_raw (x0 : Vec Ideal S512x2048 .bf16) (x2 : Vec Ideal S256x2048 .bf16) (p : Vec Ideal S512x1 .f32) (r : Fin 512) :
    k0_pay12 x0 x2 p (ix2 r (0 : Fin 1)) = newMax (fun l => k0_pay10 x0 x2 (ix2 r l)) (p (ix2 r (0 : Fin 1))) := by
  unfold k0_pay12
  exact max_col_apply (k0_pay10 x0 x2) p _ _ _ _ _ r

private theorem pay13_raw (x0 : Vec Ideal S512x2048 .bf16) (x2 : Vec Ideal S256x2048 .bf16) (m s : Vec Ideal S512x1 .f32) (r : Fin 512) :
    k0_pay13 x0 x2 m s m (ix2 r (0 : Fin 1))
      = newSum (fun l => k0_pay10 x0 x2 (ix2 r l)) (m (ix2 r (0 : Fin 1))) (s (ix2 r (0 : Fin 1))) := by
  unfold k0_pay13
  refine (sum_col_apply (k0_pay10 x0 x2) s m (k0_pay12 x0 x2 m) _ _ _ _ _ _ _ r).trans ?_
  rw [pay12_raw]
  rfl

private theorem pay16_apply (v : FVec Ideal S512x256 .f32) (p : Vec Ideal S512x1 .f32) (r : Fin 512) :
    k0_pay16 v p (ix2 r (0 : Fin 1)) = newMax (fun l => v (ix2 r l)) (p (ix2 r (0 : Fin 1))) := by
  unfold k0_pay16
  refine (max_col_apply (k0_pay14 v) p _ _ _ _ _ r).trans ?_
  rw [pay14_eq]

private theorem pay17_apply (v : FVec Ideal S512x256 .f32) (m s : Vec Ideal S512x1 .f32) (r : Fin 512) :
    k0_pay17 v m s m (ix2 r (0 : Fin 1))
      = newSum (fun l => v (ix2 r l)) (m (ix2 r (0 : Fin 1))) (s (ix2 r (0 : Fin 1))) := by
  unfold k0_pay17
  refine (sum_col_apply (k0_pay14 v) s m (k0_pay16 v m) _ _ _ _ _ _ _ r).trans ?_
  rw [pay16_apply, pay14_eq]
  rfl

private theorem pay18_apply (v : FVec Ideal S512x256 .f32) (p : Vec Ideal S512x1 .f32) (r : Fin 512) :
    k0_pay18 v p (ix2 r (0 : Fin 1)) = newMax (fun l => v (ix2 r l)) (p (ix2 r (0 : Fin 1))) := by
  unfold k0_pay18
  refine (max_col_apply (k0_pay15 v) p _ _ _ _ _ r).trans ?_
  rw [pay15_eq]

private theorem pay1_apply (v : FVec Ideal S512x256 .f32) (m s : Vec Ideal S512x1 .f32) (r : Fin 512) :
    k0_pay1 (k0_pay15 v) (k0_pay18 v m) (k0_pay19 s) (k0_pay20 v m m) (ix2 r (0 : Fin 1))
      = newSum (fun l => v (ix2 r l)) (m (ix2 r (0 : Fin 1))) (s (ix2 r (0 : Fin 1))) := by
  unfold k0_pay1 k0_pay19 k0_pay20
  refine (sum_col_apply (k0_pay15 v) s m (k0_pay18 v m) _ _ _ _ _ _ _ r).trans ?_
  rw [pay18_apply, pay15_eq]
  rfl

private theorem row_2048 (x0 : Vec Ideal S512x2048 .bf16) (x2 : Vec Ideal S256x2048 .bf16) (r : Fin 512) :
    (fun l => k0_pay10 x0 x2 (ix2 r l)) = blkDot 2048 x0 x2 r := funext fun l => pay_mat_2048_apply x0 x2 r l

private theorem row_4096 (x1 : Vec Ideal S512x4096 .bf16) (x3 : Vec Ideal S256x4096 .bf16) (r : Fin 512) :
    (fun l => k0_pay11 x1 x3 (ix2 r l)) = blkDot 4096 x1 x3 r := funext fun l => pay_mat_4096_apply x1 x3 r l

variable (wd : BitVec 32) (x0 : Vec Ideal S512x2048 .bf16) (x1 : Vec Ideal S512x4096 .bf16) (x2 : Vec Ideal S256x2048 .bf16)
  (x3 : Vec Ideal S256x4096 .bf16) (x4 : Vec Ideal S512x1 .i32) (p5 p6 p7 p8 p9 p10 p11 : Vec Ideal S512x1 .f32)

theorem step_5 (r : Fin 512) :
    (step wd x0 x1 x2 x3 x4 p5 p6 p7 p8 p9 p10 p11).1 (ix2 r (0 : Fin 1))
      = newMax (blkDot 2048 x0 x2 r) (p5 (ix2 r (0 : Fin 1))) := by
  show k0_pay12 x0 x2 p5 (ix2 r (0 : Fin 1)) = _
  exact (pay12_raw x0 x2 p5 r).trans (congrArg (newMax · (p5 (ix2 r (0 : Fin 1)))) (row_2048 x0 x2 r))

theorem step_6 (r : Fin 512) :
    (step wd x0 x1 x2 x3 x4 p5 p6 p7 p8 p9 p10 p11).2.1 (ix2 r (0 : Fin 1))
      = newSum (blkDot 2048 x0 x2 r) (p5 (ix2 r (0 : Fin 1))) (p6 (ix2 r (0 : Fin 1))) := by
  show k0_pay13 x0 x2 p5 p6 p5 (ix2 r (0 : Fin 1)) = _
  exact (pay13_raw x0 x2 p5 p6 r).trans
    (congrArg (newSum · (p5 (ix2 r (0 : Fin 1))) (p6 (ix2 r (0 : Fin 1)))) (row_2048 x0 x2 r))

theorem step_7 (r : Fin 512) :
    (step wd x0 x1 x2 x3 x4 p5 p6 p7 p8 p9 p10 p11).2.2.1 (ix2 r (0 : Fin 1))
      = newMax (blkDot 2048 x0 x2 r) (p7 (ix2 r (0 : Fin 1))) := by
  show k0_pay16 (k0_pay10 x0 x2) p7 (ix2 r (0 : Fin 1)) = _
  exact (pay16_apply (k0_pay10 x0 x2) p7 r).trans (congrArg (newMax · (p7 (ix2 r (0 : Fin 1)))) (row_2048 x0 x2 r))

theorem step_8 (r : Fin 512) :
    (step wd x0 x1 x2 x3 x4 p5 p6 p7 p8 p9 p10 p11).2.2.2.1 (ix2 r (0 : Fin 1))
      = newSum (blkDot 2048 x0 x2 r) (p7 (ix2 r (0 : Fin 1))) (p8 (ix2 r (0 : Fin 1))) := by
  show k0_pay17 (k0_pay10 x0 x2) p7 p8 p7 (ix2 r (0 : Fin 1)) = _
  exact (pay17_apply (k0_pay10 x0 x2) p7 p8 r).trans
    (congrArg (newSum · (p7 (ix2 r (0 : Fin 1))) (p8 (ix2 r (0 : Fin 1)))) (row_2048 x0 x2 r))

theorem step_9 (r : Fin 512) :
    (step wd x0 x1 x2 x3 x4 p5 p6 p7 p8 p9 p10 p11).2.2.2.2.1 (ix2 r (0 : Fin 1))
      = newMax (blkDot 4096 x1 x3 r) (p9 (ix2 r (0 : Fin 1))) := by
  show k0_pay18 (k0_pay11 x1 x3) p9 (ix2 r (0 : Fin 1)) = _
  exact (pay18_apply (k0_pay11 x1 x3) p9 r).trans (congrArg (newMax · (p9 (ix2 r (0 : Fin 1)))) (row_4096 x1 x3 r))

theorem step_10 (r : Fin 512) :
    (step wd x0 x1 x2 x3 x4 p5 p6 p7 p8 p9 p10 p11).2.2.2.2.2.1 (ix2 r (0 : Fin 1))
      = newSum (blkDot 4096 x1 x3 r) (p9 (ix2 r (0 : Fin 1))) (p10 (ix2 r (0 : Fin 1))) := by
  show k0_pay1 (k0_pay15 (k0_pay11 x1 x3)) (k0_pay18 (k0_pay11 x1 x3) p9) (k0_pay19 p10) (k0_pay20 (k0_pay11 x1 x3) p9 p9)
    (ix2 r (0 : Fin 1)) = _
  exact (pay1_apply (k0_pay11 x1 x3) p9 p10 r).trans
    (congrArg (newSum · (p9 (ix2 r (0 : Fin 1))) (p10 (ix2 r (0 : Fin 1)))) (row_4096 x1 x3 r))

/-- The one-hot pick: the tile's columns carry the words `wd · 256 + l`. -/
theorem step_11 (r : Fin 512) :
    (step wd x0 x1 x2 x3 x4 p5 p6 p7 p8 p9 p10 p11).2.2.2.2.2.2.1 (ix2 r (0 : Fin 1))
      = p11 (ix2 r (0 : Fin 1))
        + ∑ l : Fin 256, if wd * 256#32 + BitVec.ofNat 32 l.val = x4 (ix2 r (0 : Fin 1)) then blkDot 2048 x0 x2 r l else 0 := by
  show k0_pay2 wd (k0_pay10 x0 x2) x4 p11 (ix2 r (0 : Fin 1)) = _
  refine (pick_apply wd (k0_pay10 x0 x2) x4 p11 r).trans ?_
  refine congrArg (p11 (ix2 r (0 : Fin 1)) + ·) (Finset.sum_congr rfl fun l _ => ?_)
  rw [pay_mat_2048_apply]

theorem step_12 (r : Fin 512) (l : Fin 256) :
    (step wd x0 x1 x2 x3 x4 p5 p6 p7 p8 p9 p10 p11).2.2.2.2.2.2.2.1 (ix2 r l) = blkDot 2048 x0 x2 r l := by
  show k0_pay14 (k0_pay10 x0 x2) (ix2 r l) = _
  rw [pay14_eq]
  exact pay_mat_2048_apply x0 x2 r l

theorem step_13 (r : Fin 512) (l : Fin 256) :
    (step wd x0 x1 x2 x3 x4 p5 p6 p7 p8 p9 p10 p11).2.2.2.2.2.2.2.2 (ix2 r l) = blkDot 4096 x1 x3 r l := by
  show k0_pay15 (k0_pay11 x1 x3) (ix2 r l) = _
  rw [pay15_eq]
  exact pay_mat_4096_apply x1 x3 r l

/-- The resets read at a row: -∞ and 0. -/
theorem reset_max (r : Fin 512) : (k0_pay3 (F := Ideal)) (ix2 r (0 : Fin 1)) = ⊥ ∧ (k0_pay5 (F := Ideal)) (ix2 r (0 : Fin 1)) = ⊥
    ∧ (k0_pay7 (F := Ideal)) (ix2 r (0 : Fin 1)) = ⊥ := by
  exact ⟨Consts.ofBits_neg_inf, Consts.ofBits_neg_inf, Consts.ofBits_neg_inf⟩

theorem reset_sum (r : Fin 512) : (k0_pay4 (F := Ideal)) (ix2 r (0 : Fin 1)) = 0 ∧ (k0_pay6 (F := Ideal)) (ix2 r (0 : Fin 1)) = 0
    ∧ (k0_pay8 (F := Ideal)) (ix2 r (0 : Fin 1)) = 0 ∧ (k0_pay9 (F := Ideal)) (ix2 r (0 : Fin 1)) = 0 := by
  exact ⟨Consts.ofBits_zero, Consts.ofBits_zero, Consts.ofBits_zero, Consts.ofBits_zero⟩

end Cert.KernelIdeal.R0

end
-- ==== Proof.R0Blocks.lean ====
import proofs.«430291_j37958920962546_2_alg».proof.Proof.Gen.KernelIdeal.Frame
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.R0

open Cert.KernelIdeal Cert.KernelIdeal.Gen

variable (V : (c : Dev nD) → (b : Ref sig .tc) → Buf (Elt Ideal) ((c : Thread nD τ).loc b)) (c : Dev nD)

/-- Point `t` of the 4 × 125 grid is row tile `t / 125`, column tile `t % 125`. -/
theorem coord1 (t : Fin cfg0.N) : ((grid0.coords t) 1).val = t.val % 125 :=
  (by decide +kernel : ∀ t : Fin grid0.N, ((grid0.coords t) 1).val = t.val % 125) t

/-! ## The input blocks at a point, read off the arrays as the region finds them -/

/-- The block indices of the five input windows at point `t`: the row-tiled ones sit at row tile `t / 125`, the
    weight windows at column tile `t % 125`; every one spans its array's whole second axis. -/
private theorem idx_in : ∀ t : Fin cfg0.N,
    win0_0.index t (0 : Fin 2) = t.val / 125 ∧ win0_0.index t (1 : Fin 2) = 0
    ∧ win0_1.index t (0 : Fin 2) = t.val / 125 ∧ win0_1.index t (1 : Fin 2) = 0
    ∧ win0_2.index t (0 : Fin 2) = t.val % 125 ∧ win0_2.index t (1 : Fin 2) = 0
    ∧ win0_3.index t (0 : Fin 2) = t.val % 125 ∧ win0_3.index t (1 : Fin 2) = 0
    ∧ win0_4.index t (0 : Fin 2) = t.val / 125 ∧ win0_4.index t (1 : Fin 2) = 0 :=
  (by decide +kernel : ∀ t : Fin grid0.N, _)

theorem iblk_0 (Xs : ℕ → ℕ → EReal) (h : (V c main_v0 : S2048x2048.Idx → EReal) = fun i => Xs (i 0).val (i 1).val) (t : Fin cfg0.N) :
    (iblk0 V c 0 t : S512x2048.Idx → EReal) = fun y => Xs (512 * (t.val / 125) + (y 0).val) (y 1).val := by
  obtain ⟨e0, e1, -⟩ := idx_in t
  funext y
  unfold iblk0
  rw [View.read_apply]
  show V c main_v0 (((cfg0.win 0).blk t).view.emb y) = _
  refine (congrFun h (((cfg0.win 0).blk t).view.emb y)).trans ?_
  have a0 : ((((cfg0.win 0).blk t).view.emb y) 0).val = 512 * (t.val / 125) + (y 0).val := by
    show win0_0.index t (0 : Fin 2) * 512 + 1 * (y 0).val = _
    rw [e0]; omega
  have a1 : ((((cfg0.win 0).blk t).view.emb y) 1).val = (y 1).val := by
    show win0_0.index t (1 : Fin 2) * 2048 + 1 * (y 1).val = _
    rw [e1]; omega
  show Xs ((((cfg0.win 0).blk t).view.emb y) 0).val ((((cfg0.win 0).blk t).view.emb y) 1).val = _
  rw [a0, a1]

theorem iblk_1 (Xt : ℕ → ℕ → EReal) (h : (V c main_v1 : S2048x4096.Idx → EReal) = fun i => Xt (i 0).val (i 1).val) (t : Fin cfg0.N) :
    (iblk0 V c 1 t : S512x4096.Idx → EReal) = fun y => Xt (512 * (t.val / 125) + (y 0).val) (y 1).val := by
  obtain ⟨-, -, e0, e1, -⟩ := idx_in t
  funext y
  unfold iblk0
  rw [View.read_apply]
  show V c main_v1 (((cfg0.win 1).blk t).view.emb y) = _
  refine (congrFun h (((cfg0.win 1).blk t).view.emb y)).trans ?_
  have a0 : ((((cfg0.win 1).blk t).view.emb y) 0).val = 512 * (t.val / 125) + (y 0).val := by
    show win0_1.index t (0 : Fin 2) * 512 + 1 * (y 0).val = _
    rw [e0]; omega
  have a1 : ((((cfg0.win 1).blk t).view.emb y) 1).val = (y 1).val := by
    show win0_1.index t (1 : Fin 2) * 4096 + 1 * (y 1).val = _
    rw [e1]; omega
  show Xt ((((cfg0.win 1).blk t).view.emb y) 0).val ((((cfg0.win 1).blk t).view.emb y) 1).val = _
  rw [a0, a1]

theorem iblk_2 (Ws : ℕ → ℕ → EReal) (h : (V c main_v2 : S32000x2048.Idx → EReal) = fun i => Ws (i 0).val (i 1).val) (t : Fin cfg0.N) :
    (iblk0 V c 2 t : S256x2048.Idx → EReal) = fun y => Ws (256 * (t.val % 125) + (y 0).val) (y 1).val := by
  obtain ⟨-, -, -, -, e0, e1, -⟩ := idx_in t
  funext y
  unfold iblk0
  rw [View.read_apply]
  show V c main_v2 (((cfg0.win 2).blk t).view.emb y) = _
  refine (congrFun h (((cfg0.win 2).blk t).view.emb y)).trans ?_
  have a0 : ((((cfg0.win 2).blk t).view.emb y) 0).val = 256 * (t.val % 125) + (y 0).val := by
    show win0_2.index t (0 : Fin 2) * 256 + 1 * (y 0).val = _
    rw [e0]; omega
  have a1 : ((((cfg0.win 2).blk t).view.emb y) 1).val = (y 1).val := by
    show win0_2.index t (1 : Fin 2) * 2048 + 1 * (y 1).val = _
    rw [e1]; omega
  show Ws ((((cfg0.win 2).blk t).view.emb y) 0).val ((((cfg0.win 2).blk t).view.emb y) 1).val = _
  rw [a0, a1]

theorem iblk_3 (Wt : ℕ → ℕ → EReal) (h : (V c main_v3 : S32000x4096.Idx → EReal) = fun i => Wt (i 0).val (i 1).val) (t : Fin cfg0.N) :
    (iblk0 V c 3 t : S256x4096.Idx → EReal) = fun y => Wt (256 * (t.val % 125) + (y 0).val) (y 1).val := by
  obtain ⟨-, -, -, -, -, -, e0, e1, -⟩ := idx_in t
  funext y
  unfold iblk0
  rw [View.read_apply]
  show V c main_v3 (((cfg0.win 3).blk t).view.emb y) = _
  refine (congrFun h (((cfg0.win 3).blk t).view.emb y)).trans ?_
  have a0 : ((((cfg0.win 3).blk t).view.emb y) 0).val = 256 * (t.val % 125) + (y 0).val := by
    show win0_3.index t (0 : Fin 2) * 256 + 1 * (y 0).val = _
    rw [e0]; omega
  have a1 : ((((cfg0.win 3).blk t).view.emb y) 1).val = (y 1).val := by
    show win0_3.index t (1 : Fin 2) * 4096 + 1 * (y 1).val = _
    rw [e1]; omega
  show Wt ((((cfg0.win 3).blk t).view.emb y) 0).val ((((cfg0.win 3).blk t).view.emb y) 1).val = _
  rw [a0, a1]

theorem iblk_4 (lab : ℕ → BitVec 32) (h : (V c main_v7 : S2048x1.Idx → BitVec 32) = fun i => lab (i 0).val) (t : Fin cfg0.N) :
    (iblk0 V c 4 t : S512x1.Idx → BitVec 32) = fun y => lab (512 * (t.val / 125) + (y 0).val) := by
  obtain ⟨-, -, -, -, -, -, -, -, e0, e1⟩ := idx_in t
  funext y
  unfold iblk0
  rw [View.read_apply]
  show V c main_v7 (((cfg0.win 4).blk t).view.emb y) = _
  refine (congrFun h (((cfg0.win 4).blk t).view.emb y)).trans ?_
  have a0 : ((((cfg0.win 4).blk t).view.emb y) 0).val = 512 * (t.val / 125) + (y 0).val := by
    show win0_4.index t (0 : Fin 2) * 512 + 1 * (y 0).val = _
    rw [e0]; omega
  show lab ((((cfg0.win 4).blk t).view.emb y) 0).val = _
  rw [a0]

/-! ## From what every point leaves to the arrays after the run

  A statistic's block (row tile i) is written back after the row tile's last column tile, so the array ends at what point
  125 i + 124 leaves; a cache block (i, j) is written back after its own point. -/

/-- The grid has 500 points. -/
private theorem hN : cfg0.N = 500 := N_0

/-- Row `n` of a statistic lies in row tile `n / 512`, whose last column tile is point `125 (n / 512) + 124`. -/
private theorem lastPoint (n : ℕ) (hn : n < 2048) : ∃ t : Fin cfg0.N, t.val = 125 * (n / 512) + 124 :=
  ⟨⟨125 * (n / 512) + 124, by rw [hN]; omega⟩, rfl⟩

/-- Entry `(n, v)` of a cache lies in block `(n / 512, v / 256)`, which is point `125 (n / 512) + v / 256`'s. -/
private theorem ownPoint (n v : ℕ) (hn : n < 2048) (hv : v < 32000) : ∃ t : Fin cfg0.N, t.val = 125 * (n / 512) + v / 256 :=
  ⟨⟨125 * (n / 512) + v / 256, by rw [hN]; omega⟩, rfl⟩

private theorem idx_5 : ∀ t : Fin cfg0.N, win0_5.index t (0 : Fin 2) = t.val / 125 ∧ win0_5.index t (1 : Fin 2) = 0 :=
  (by decide +kernel : ∀ t : Fin grid0.N, _)

private theorem flushed_5 (G : ℕ → ℕ → EReal)
    (hinv : ∀ (t : Fin cfg0.N) (r : Fin 512),
      (outsAt0 V c t.val t.isLt).1 (ix2 r (0 : Fin 1)) = G (512 * (t.val / 125) + r.val) (t.val % 125))
    (t : Fin cfg0.N) (hf : (cfg0.win 5).flush t = true) :
    (dat0 V c).flushed 5 t = ((cfg0.win 5).blk t).view.read (Elt Ideal) (fun i : S2048x1.Idx => G (i 0).val 124) := by
  have h124 : t.val % 125 = 124 := (flush0_5 t).mp hf
  obtain ⟨e0, e1⟩ := idx_5 t
  show (cfg0.win 5).cut (grid0.coords t) ((dat0 V c).after 5 t) = _
  rw [after0_5]
  refine funext fun (y : S512x1.Idx) => ?_
  rw [View.read_apply]
  obtain ⟨r, z, rfl⟩ : ∃ (r : Fin 512) (z : Fin 1), y = ix2 r z := ⟨y 0, y 1, eq_ix2 y⟩
  obtain rfl : z = 0 := Subsingleton.elim _ _
  show (outsAt0 V c t.val t.isLt).1 (ix2 r (0 : Fin 1)) = G ((((cfg0.win 5).blk t).view.emb (ix2 r (0 : Fin 1))) 0).val 124
  have a0 : ((((cfg0.win 5).blk t).view.emb (ix2 r (0 : Fin 1))) 0).val = 512 * (t.val / 125) + r.val := by
    show win0_5.index t (0 : Fin 2) * 512 + 1 * r.val = _
    rw [e0]; omega
  rw [a0, hinv t r, h124]

private theorem mem_blk_5 (t : Fin cfg0.N) (i : S2048x1.Idx) :
    i ∈ ((cfg0.win 5).blk t).view.set ↔ ∀ a : Fin 2, win0_5.index t a * S512x1.size a ≤ (i a).val ∧ (i a).val < win0_5.index t a * S512x1.size a + S512x1.size a := by
  show i ∈ ((View.whole main_v8_0).slice (win0_5.rect t)).set ↔ _
  rw [View.set_slice_whole, Rect.mem_set_unit]
  exact Iff.rfl

private theorem cover_5 (i : S2048x1.Idx) : ∃ t : Fin cfg0.N, (cfg0.win 5).flush t = true ∧ i ∈ ((cfg0.win 5).blk t).view.set := by
  have h0 : (i 0).val < 2048 := (i 0).isLt
  have h1 : (i 1).val < 1 := (i 1).isLt
  obtain ⟨t, ht⟩ := lastPoint (i 0).val h0
  obtain ⟨e0, e1⟩ := idx_5 t
  refine ⟨t, (flush0_5 t).mpr (by omega), ?_⟩
  rw [mem_blk_5]
  intro a
  match a with
  | ⟨0, _⟩ => show win0_5.index t (0 : Fin 2) * 512 ≤ (i 0).val ∧ (i 0).val < win0_5.index t (0 : Fin 2) * 512 + 512
              rw [e0]; omega
  | ⟨1, _⟩ => show win0_5.index t (1 : Fin 2) * 1 ≤ (i 1).val ∧ (i 1).val < win0_5.index t (1 : Fin 2) * 1 + 1
              rw [e1]; omega

theorem final_5 (G : ℕ → ℕ → EReal)
    (hinv : ∀ (t : Fin cfg0.N) (r : Fin 512),
      (outsAt0 V c t.val t.isLt).1 (ix2 r (0 : Fin 1)) = G (512 * (t.val / 125) + r.val) (t.val % 125)) :
    ((dat0 V c).arrAt 5 cfg0.N : S2048x1.Idx → EReal) = fun i => G (i 0).val 124 :=
  (dat0 V c).arrAt_eq_of_cover 5 (fun i : S2048x1.Idx => G (i 0).val 124) (flushed_5 V c G hinv) cover_5

private theorem idx_6 : ∀ t : Fin cfg0.N, win0_6.index t (0 : Fin 2) = t.val / 125 ∧ win0_6.index t (1 : Fin 2) = 0 :=
  (by decide +kernel : ∀ t : Fin grid0.N, _)

private theorem flushed_6 (G : ℕ → ℕ → EReal)
    (hinv : ∀ (t : Fin cfg0.N) (r : Fin 512),
      (outsAt0 V c t.val t.isLt).2.1 (ix2 r (0 : Fin 1)) = G (512 * (t.val / 125) + r.val) (t.val % 125))
    (t : Fin cfg0.N) (hf : (cfg0.win 6).flush t = true) :
    (dat0 V c).flushed 6 t = ((cfg0.win 6).blk t).view.read (Elt Ideal) (fun i : S2048x1.Idx => G (i 0).val 124) := by
  have h124 : t.val % 125 = 124 := (flush0_6 t).mp hf
  obtain ⟨e0, e1⟩ := idx_6 t
  show (cfg0.win 6).cut (grid0.coords t) ((dat0 V c).after 6 t) = _
  rw [after0_6]
  refine funext fun (y : S512x1.Idx) => ?_
  rw [View.read_apply]
  obtain ⟨r, z, rfl⟩ : ∃ (r : Fin 512) (z : Fin 1), y = ix2 r z := ⟨y 0, y 1, eq_ix2 y⟩
  obtain rfl : z = 0 := Subsingleton.elim _ _
  show (outsAt0 V c t.val t.isLt).2.1 (ix2 r (0 : Fin 1)) = G ((((cfg0.win 6).blk t).view.emb (ix2 r (0 : Fin 1))) 0).val 124
  have a0 : ((((cfg0.win 6).blk t).view.emb (ix2 r (0 : Fin 1))) 0).val = 512 * (t.val / 125) + r.val := by
    show win0_6.index t (0 : Fin 2) * 512 + 1 * r.val = _
    rw [e0]; omega
  rw [a0, hinv t r, h124]

private theorem mem_blk_6 (t : Fin cfg0.N) (i : S2048x1.Idx) :
    i ∈ ((cfg0.win 6).blk t).view.set ↔ ∀ a : Fin 2, win0_6.index t a * S512x1.size a ≤ (i a).val ∧ (i a).val < win0_6.index t a * S512x1.size a + S512x1.size a := by
  show i ∈ ((View.whole main_v8_1).slice (win0_6.rect t)).set ↔ _
  rw [View.set_slice_whole, Rect.mem_set_unit]
  exact Iff.rfl

private theorem cover_6 (i : S2048x1.Idx) : ∃ t : Fin cfg0.N, (cfg0.win 6).flush t = true ∧ i ∈ ((cfg0.win 6).blk t).view.set := by
  have h0 : (i 0).val < 2048 := (i 0).isLt
  have h1 : (i 1).val < 1 := (i 1).isLt
  obtain ⟨t, ht⟩ := lastPoint (i 0).val h0
  obtain ⟨e0, e1⟩ := idx_6 t
  refine ⟨t, (flush0_6 t).mpr (by omega), ?_⟩
  rw [mem_blk_6]
  intro a
  match a with
  | ⟨0, _⟩ => show win0_6.index t (0 : Fin 2) * 512 ≤ (i 0).val ∧ (i 0).val < win0_6.index t (0 : Fin 2) * 512 + 512
              rw [e0]; omega
  | ⟨1, _⟩ => show win0_6.index t (1 : Fin 2) * 1 ≤ (i 1).val ∧ (i 1).val < win0_6.index t (1 : Fin 2) * 1 + 1
              rw [e1]; omega

theorem final_6 (G : ℕ → ℕ → EReal)
    (hinv : ∀ (t : Fin cfg0.N) (r : Fin 512),
      (outsAt0 V c t.val t.isLt).2.1 (ix2 r (0 : Fin 1)) = G (512 * (t.val / 125) + r.val) (t.val % 125)) :
    ((dat0 V c).arrAt 6 cfg0.N : S2048x1.Idx → EReal) = fun i => G (i 0).val 124 :=
  (dat0 V c).arrAt_eq_of_cover 6 (fun i : S2048x1.Idx => G (i 0).val 124) (flushed_6 V c G hinv) cover_6

private theorem idx_7 : ∀ t : Fin cfg0.N, win0_7.index t (0 : Fin 2) = t.val / 125 ∧ win0_7.index t (1 : Fin 2) = 0 :=
  (by decide +kernel : ∀ t : Fin grid0.N, _)

private theorem flushed_7 (G : ℕ → ℕ → EReal)
    (hinv : ∀ (t : Fin cfg0.N) (r : Fin 512),
      (outsAt0 V c t.val t.isLt).2.2.1 (ix2 r (0 : Fin 1)) = G (512 * (t.val / 125) + r.val) (t.val % 125))
    (t : Fin cfg0.N) (hf : (cfg0.win 7).flush t = true) :
    (dat0 V c).flushed 7 t = ((cfg0.win 7).blk t).view.read (Elt Ideal) (fun i : S2048x1.Idx => G (i 0).val 124) := by
  have h124 : t.val % 125 = 124 := (flush0_7 t).mp hf
  obtain ⟨e0, e1⟩ := idx_7 t
  show (cfg0.win 7).cut (grid0.coords t) ((dat0 V c).after 7 t) = _
  rw [after0_7]
  refine funext fun (y : S512x1.Idx) => ?_
  rw [View.read_apply]
  obtain ⟨r, z, rfl⟩ : ∃ (r : Fin 512) (z : Fin 1), y = ix2 r z := ⟨y 0, y 1, eq_ix2 y⟩
  obtain rfl : z = 0 := Subsingleton.elim _ _
  show (outsAt0 V c t.val t.isLt).2.2.1 (ix2 r (0 : Fin 1)) = G ((((cfg0.win 7).blk t).view.emb (ix2 r (0 : Fin 1))) 0).val 124
  have a0 : ((((cfg0.win 7).blk t).view.emb (ix2 r (0 : Fin 1))) 0).val = 512 * (t.val / 125) + r.val := by
    show win0_7.index t (0 : Fin 2) * 512 + 1 * r.val = _
    rw [e0]; omega
  rw [a0, hinv t r, h124]

private theorem mem_blk_7 (t : Fin cfg0.N) (i : S2048x1.Idx) :
    i ∈ ((cfg0.win 7).blk t).view.set ↔ ∀ a : Fin 2, win0_7.index t a * S512x1.size a ≤ (i a).val ∧ (i a).val < win0_7.index t a * S512x1.size a + S512x1.size a := by
  show i ∈ ((View.whole main_v8_2).slice (win0_7.rect t)).set ↔ _
  rw [View.set_slice_whole, Rect.mem_set_unit]
  exact Iff.rfl

private theorem cover_7 (i : S2048x1.Idx) : ∃ t : Fin cfg0.N, (cfg0.win 7).flush t = true ∧ i ∈ ((cfg0.win 7).blk t).view.set := by
  have h0 : (i 0).val < 2048 := (i 0).isLt
  have h1 : (i 1).val < 1 := (i 1).isLt
  obtain ⟨t, ht⟩ := lastPoint (i 0).val h0
  obtain ⟨e0, e1⟩ := idx_7 t
  refine ⟨t, (flush0_7 t).mpr (by omega), ?_⟩
  rw [mem_blk_7]
  intro a
  match a with
  | ⟨0, _⟩ => show win0_7.index t (0 : Fin 2) * 512 ≤ (i 0).val ∧ (i 0).val < win0_7.index t (0 : Fin 2) * 512 + 512
              rw [e0]; omega
  | ⟨1, _⟩ => show win0_7.index t (1 : Fin 2) * 1 ≤ (i 1).val ∧ (i 1).val < win0_7.index t (1 : Fin 2) * 1 + 1
              rw [e1]; omega

theorem final_7 (G : ℕ → ℕ → EReal)
    (hinv : ∀ (t : Fin cfg0.N) (r : Fin 512),
      (outsAt0 V c t.val t.isLt).2.2.1 (ix2 r (0 : Fin 1)) = G (512 * (t.val / 125) + r.val) (t.val % 125)) :
    ((dat0 V c).arrAt 7 cfg0.N : S2048x1.Idx → EReal) = fun i => G (i 0).val 124 :=
  (dat0 V c).arrAt_eq_of_cover 7 (fun i : S2048x1.Idx => G (i 0).val 124) (flushed_7 V c G hinv) cover_7

private theorem idx_8 : ∀ t : Fin cfg0.N, win0_8.index t (0 : Fin 2) = t.val / 125 ∧ win0_8.index t (1 : Fin 2) = 0 :=
  (by decide +kernel : ∀ t : Fin grid0.N, _)

private theorem flushed_8 (G : ℕ → ℕ → EReal)
    (hinv : ∀ (t : Fin cfg0.N) (r : Fin 512),
      (outsAt0 V c t.val t.isLt).2.2.2.1 (ix2 r (0 : Fin 1)) = G (512 * (t.val / 125) + r.val) (t.val % 125))
    (t : Fin cfg0.N) (hf : (cfg0.win 8).flush t = true) :
    (dat0 V c).flushed 8 t = ((cfg0.win 8).blk t).view.read (Elt Ideal) (fun i : S2048x1.Idx => G (i 0).val 124) := by
  have h124 : t.val % 125 = 124 := (flush0_8 t).mp hf
  obtain ⟨e0, e1⟩ := idx_8 t
  show (cfg0.win 8).cut (grid0.coords t) ((dat0 V c).after 8 t) = _
  rw [after0_8]
  refine funext fun (y : S512x1.Idx) => ?_
  rw [View.read_apply]
  obtain ⟨r, z, rfl⟩ : ∃ (r : Fin 512) (z : Fin 1), y = ix2 r z := ⟨y 0, y 1, eq_ix2 y⟩
  obtain rfl : z = 0 := Subsingleton.elim _ _
  show (outsAt0 V c t.val t.isLt).2.2.2.1 (ix2 r (0 : Fin 1)) = G ((((cfg0.win 8).blk t).view.emb (ix2 r (0 : Fin 1))) 0).val 124
  have a0 : ((((cfg0.win 8).blk t).view.emb (ix2 r (0 : Fin 1))) 0).val = 512 * (t.val / 125) + r.val := by
    show win0_8.index t (0 : Fin 2) * 512 + 1 * r.val = _
    rw [e0]; omega
  rw [a0, hinv t r, h124]

private theorem mem_blk_8 (t : Fin cfg0.N) (i : S2048x1.Idx) :
    i ∈ ((cfg0.win 8).blk t).view.set ↔ ∀ a : Fin 2, win0_8.index t a * S512x1.size a ≤ (i a).val ∧ (i a).val < win0_8.index t a * S512x1.size a + S512x1.size a := by
  show i ∈ ((View.whole main_v8_3).slice (win0_8.rect t)).set ↔ _
  rw [View.set_slice_whole, Rect.mem_set_unit]
  exact Iff.rfl

private theorem cover_8 (i : S2048x1.Idx) : ∃ t : Fin cfg0.N, (cfg0.win 8).flush t = true ∧ i ∈ ((cfg0.win 8).blk t).view.set := by
  have h0 : (i 0).val < 2048 := (i 0).isLt
  have h1 : (i 1).val < 1 := (i 1).isLt
  obtain ⟨t, ht⟩ := lastPoint (i 0).val h0
  obtain ⟨e0, e1⟩ := idx_8 t
  refine ⟨t, (flush0_8 t).mpr (by omega), ?_⟩
  rw [mem_blk_8]
  intro a
  match a with
  | ⟨0, _⟩ => show win0_8.index t (0 : Fin 2) * 512 ≤ (i 0).val ∧ (i 0).val < win0_8.index t (0 : Fin 2) * 512 + 512
              rw [e0]; omega
  | ⟨1, _⟩ => show win0_8.index t (1 : Fin 2) * 1 ≤ (i 1).val ∧ (i 1).val < win0_8.index t (1 : Fin 2) * 1 + 1
              rw [e1]; omega

theorem final_8 (G : ℕ → ℕ → EReal)
    (hinv : ∀ (t : Fin cfg0.N) (r : Fin 512),
      (outsAt0 V c t.val t.isLt).2.2.2.1 (ix2 r (0 : Fin 1)) = G (512 * (t.val / 125) + r.val) (t.val % 125)) :
    ((dat0 V c).arrAt 8 cfg0.N : S2048x1.Idx → EReal) = fun i => G (i 0).val 124 :=
  (dat0 V c).arrAt_eq_of_cover 8 (fun i : S2048x1.Idx => G (i 0).val 124) (flushed_8 V c G hinv) cover_8

private theorem idx_9 : ∀ t : Fin cfg0.N, win0_9.index t (0 : Fin 2) = t.val / 125 ∧ win0_9.index t (1 : Fin 2) = 0 :=
  (by decide +kernel : ∀ t : Fin grid0.N, _)

private theorem flushed_9 (G : ℕ → ℕ → EReal)
    (hinv : ∀ (t : Fin cfg0.N) (r : Fin 512),
      (outsAt0 V c t.val t.isLt).2.2.2.2.1 (ix2 r (0 : Fin 1)) = G (512 * (t.val / 125) + r.val) (t.val % 125))
    (t : Fin cfg0.N) (hf : (cfg0.win 9).flush t = true) :
    (dat0 V c).flushed 9 t = ((cfg0.win 9).blk t).view.read (Elt Ideal) (fun i : S2048x1.Idx => G (i 0).val 124) := by
  have h124 : t.val % 125 = 124 := (flush0_9 t).mp hf
  obtain ⟨e0, e1⟩ := idx_9 t
  show (cfg0.win 9).cut (grid0.coords t) ((dat0 V c).after 9 t) = _
  rw [after0_9]
  refine funext fun (y : S512x1.Idx) => ?_
  rw [View.read_apply]
  obtain ⟨r, z, rfl⟩ : ∃ (r : Fin 512) (z : Fin 1), y = ix2 r z := ⟨y 0, y 1, eq_ix2 y⟩
  obtain rfl : z = 0 := Subsingleton.elim _ _
  show (outsAt0 V c t.val t.isLt).2.2.2.2.1 (ix2 r (0 : Fin 1)) = G ((((cfg0.win 9).blk t).view.emb (ix2 r (0 : Fin 1))) 0).val 124
  have a0 : ((((cfg0.win 9).blk t).view.emb (ix2 r (0 : Fin 1))) 0).val = 512 * (t.val / 125) + r.val := by
    show win0_9.index t (0 : Fin 2) * 512 + 1 * r.val = _
    rw [e0]; omega
  rw [a0, hinv t r, h124]

private theorem mem_blk_9 (t : Fin cfg0.N) (i : S2048x1.Idx) :
    i ∈ ((cfg0.win 9).blk t).view.set ↔ ∀ a : Fin 2, win0_9.index t a * S512x1.size a ≤ (i a).val ∧ (i a).val < win0_9.index t a * S512x1.size a + S512x1.size a := by
  show i ∈ ((View.whole main_v8_4).slice (win0_9.rect t)).set ↔ _
  rw [View.set_slice_whole, Rect.mem_set_unit]
  exact Iff.rfl

private theorem cover_9 (i : S2048x1.Idx) : ∃ t : Fin cfg0.N, (cfg0.win 9).flush t = true ∧ i ∈ ((cfg0.win 9).blk t).view.set := by
  have h0 : (i 0).val < 2048 := (i 0).isLt
  have h1 : (i 1).val < 1 := (i 1).isLt
  obtain ⟨t, ht⟩ := lastPoint (i 0).val h0
  obtain ⟨e0, e1⟩ := idx_9 t
  refine ⟨t, (flush0_9 t).mpr (by omega), ?_⟩
  rw [mem_blk_9]
  intro a
  match a with
  | ⟨0, _⟩ => show win0_9.index t (0 : Fin 2) * 512 ≤ (i 0).val ∧ (i 0).val < win0_9.index t (0 : Fin 2) * 512 + 512
              rw [e0]; omega
  | ⟨1, _⟩ => show win0_9.index t (1 : Fin 2) * 1 ≤ (i 1).val ∧ (i 1).val < win0_9.index t (1 : Fin 2) * 1 + 1
              rw [e1]; omega

theorem final_9 (G : ℕ → ℕ → EReal)
    (hinv : ∀ (t : Fin cfg0.N) (r : Fin 512),
      (outsAt0 V c t.val t.isLt).2.2.2.2.1 (ix2 r (0 : Fin 1)) = G (512 * (t.val / 125) + r.val) (t.val % 125)) :
    ((dat0 V c).arrAt 9 cfg0.N : S2048x1.Idx → EReal) = fun i => G (i 0).val 124 :=
  (dat0 V c).arrAt_eq_of_cover 9 (fun i : S2048x1.Idx => G (i 0).val 124) (flushed_9 V c G hinv) cover_9

private theorem idx_10 : ∀ t : Fin cfg0.N, win0_10.index t (0 : Fin 2) = t.val / 125 ∧ win0_10.index t (1 : Fin 2) = 0 :=
  (by decide +kernel : ∀ t : Fin grid0.N, _)

private theorem flushed_10 (G : ℕ → ℕ → EReal)
    (hinv : ∀ (t : Fin cfg0.N) (r : Fin 512),
      (outsAt0 V c t.val t.isLt).2.2.2.2.2.1 (ix2 r (0 : Fin 1)) = G (512 * (t.val / 125) + r.val) (t.val % 125))
    (t : Fin cfg0.N) (hf : (cfg0.win 10).flush t = true) :
    (dat0 V c).flushed 10 t = ((cfg0.win 10).blk t).view.read (Elt Ideal) (fun i : S2048x1.Idx => G (i 0).val 124) := by
  have h124 : t.val % 125 = 124 := (flush0_10 t).mp hf
  obtain ⟨e0, e1⟩ := idx_10 t
  show (cfg0.win 10).cut (grid0.coords t) ((dat0 V c).after 10 t) = _
  rw [after0_10]
  refine funext fun (y : S512x1.Idx) => ?_
  rw [View.read_apply]
  obtain ⟨r, z, rfl⟩ : ∃ (r : Fin 512) (z : Fin 1), y = ix2 r z := ⟨y 0, y 1, eq_ix2 y⟩
  obtain rfl : z = 0 := Subsingleton.elim _ _
  show (outsAt0 V c t.val t.isLt).2.2.2.2.2.1 (ix2 r (0 : Fin 1)) = G ((((cfg0.win 10).blk t).view.emb (ix2 r (0 : Fin 1))) 0).val 124
  have a0 : ((((cfg0.win 10).blk t).view.emb (ix2 r (0 : Fin 1))) 0).val = 512 * (t.val / 125) + r.val := by
    show win0_10.index t (0 : Fin 2) * 512 + 1 * r.val = _
    rw [e0]; omega
  rw [a0, hinv t r, h124]

private theorem mem_blk_10 (t : Fin cfg0.N) (i : S2048x1.Idx) :
    i ∈ ((cfg0.win 10).blk t).view.set ↔ ∀ a : Fin 2, win0_10.index t a * S512x1.size a ≤ (i a).val ∧ (i a).val < win0_10.index t a * S512x1.size a + S512x1.size a := by
  show i ∈ ((View.whole main_v8_5).slice (win0_10.rect t)).set ↔ _
  rw [View.set_slice_whole, Rect.mem_set_unit]
  exact Iff.rfl

private theorem cover_10 (i : S2048x1.Idx) : ∃ t : Fin cfg0.N, (cfg0.win 10).flush t = true ∧ i ∈ ((cfg0.win 10).blk t).view.set := by
  have h0 : (i 0).val < 2048 := (i 0).isLt
  have h1 : (i 1).val < 1 := (i 1).isLt
  obtain ⟨t, ht⟩ := lastPoint (i 0).val h0
  obtain ⟨e0, e1⟩ := idx_10 t
  refine ⟨t, (flush0_10 t).mpr (by omega), ?_⟩
  rw [mem_blk_10]
  intro a
  match a with
  | ⟨0, _⟩ => show win0_10.index t (0 : Fin 2) * 512 ≤ (i 0).val ∧ (i 0).val < win0_10.index t (0 : Fin 2) * 512 + 512
              rw [e0]; omega
  | ⟨1, _⟩ => show win0_10.index t (1 : Fin 2) * 1 ≤ (i 1).val ∧ (i 1).val < win0_10.index t (1 : Fin 2) * 1 + 1
              rw [e1]; omega

theorem final_10 (G : ℕ → ℕ → EReal)
    (hinv : ∀ (t : Fin cfg0.N) (r : Fin 512),
      (outsAt0 V c t.val t.isLt).2.2.2.2.2.1 (ix2 r (0 : Fin 1)) = G (512 * (t.val / 125) + r.val) (t.val % 125)) :
    ((dat0 V c).arrAt 10 cfg0.N : S2048x1.Idx → EReal) = fun i => G (i 0).val 124 :=
  (dat0 V c).arrAt_eq_of_cover 10 (fun i : S2048x1.Idx => G (i 0).val 124) (flushed_10 V c G hinv) cover_10

private theorem idx_11 : ∀ t : Fin cfg0.N, win0_11.index t (0 : Fin 2) = t.val / 125 ∧ win0_11.index t (1 : Fin 2) = 0 :=
  (by decide +kernel : ∀ t : Fin grid0.N, _)

private theorem flushed_11 (G : ℕ → ℕ → EReal)
    (hinv : ∀ (t : Fin cfg0.N) (r : Fin 512),
      (outsAt0 V c t.val t.isLt).2.2.2.2.2.2.1 (ix2 r (0 : Fin 1)) = G (512 * (t.val / 125) + r.val) (t.val % 125))
    (t : Fin cfg0.N) (hf : (cfg0.win 11).flush t = true) :
    (dat0 V c).flushed 11 t = ((cfg0.win 11).blk t).view.read (Elt Ideal) (fun i : S2048x1.Idx => G (i 0).val 124) := by
  have h124 : t.val % 125 = 124 := (flush0_11 t).mp hf
  obtain ⟨e0, e1⟩ := idx_11 t
  show (cfg0.win 11).cut (grid0.coords t) ((dat0 V c).after 11 t) = _
  rw [after0_11]
  refine funext fun (y : S512x1.Idx) => ?_
  rw [View.read_apply]
  obtain ⟨r, z, rfl⟩ : ∃ (r : Fin 512) (z : Fin 1), y = ix2 r z := ⟨y 0, y 1, eq_ix2 y⟩
  obtain rfl : z = 0 := Subsingleton.elim _ _
  show (outsAt0 V c t.val t.isLt).2.2.2.2.2.2.1 (ix2 r (0 : Fin 1)) = G ((((cfg0.win 11).blk t).view.emb (ix2 r (0 : Fin 1))) 0).val 124
  have a0 : ((((cfg0.win 11).blk t).view.emb (ix2 r (0 : Fin 1))) 0).val = 512 * (t.val / 125) + r.val := by
    show win0_11.index t (0 : Fin 2) * 512 + 1 * r.val = _
    rw [e0]; omega
  rw [a0, hinv t r, h124]

private theorem mem_blk_11 (t : Fin cfg0.N) (i : S2048x1.Idx) :
    i ∈ ((cfg0.win 11).blk t).view.set ↔ ∀ a : Fin 2, win0_11.index t a * S512x1.size a ≤ (i a).val ∧ (i a).val < win0_11.index t a * S512x1.size a + S512x1.size a := by
  show i ∈ ((View.whole main_v8_6).slice (win0_11.rect t)).set ↔ _
  rw [View.set_slice_whole, Rect.mem_set_unit]
  exact Iff.rfl

private theorem cover_11 (i : S2048x1.Idx) : ∃ t : Fin cfg0.N, (cfg0.win 11).flush t = true ∧ i ∈ ((cfg0.win 11).blk t).view.set := by
  have h0 : (i 0).val < 2048 := (i 0).isLt
  have h1 : (i 1).val < 1 := (i 1).isLt
  obtain ⟨t, ht⟩ := lastPoint (i 0).val h0
  obtain ⟨e0, e1⟩ := idx_11 t
  refine ⟨t, (flush0_11 t).mpr (by omega), ?_⟩
  rw [mem_blk_11]
  intro a
  match a with
  | ⟨0, _⟩ => show win0_11.index t (0 : Fin 2) * 512 ≤ (i 0).val ∧ (i 0).val < win0_11.index t (0 : Fin 2) * 512 + 512
              rw [e0]; omega
  | ⟨1, _⟩ => show win0_11.index t (1 : Fin 2) * 1 ≤ (i 1).val ∧ (i 1).val < win0_11.index t (1 : Fin 2) * 1 + 1
              rw [e1]; omega

theorem final_11 (G : ℕ → ℕ → EReal)
    (hinv : ∀ (t : Fin cfg0.N) (r : Fin 512),
      (outsAt0 V c t.val t.isLt).2.2.2.2.2.2.1 (ix2 r (0 : Fin 1)) = G (512 * (t.val / 125) + r.val) (t.val % 125)) :
    ((dat0 V c).arrAt 11 cfg0.N : S2048x1.Idx → EReal) = fun i => G (i 0).val 124 :=
  (dat0 V c).arrAt_eq_of_cover 11 (fun i : S2048x1.Idx => G (i 0).val 124) (flushed_11 V c G hinv) cover_11

private theorem idx_12 : ∀ t : Fin cfg0.N, win0_12.index t (0 : Fin 2) = t.val / 125 ∧ win0_12.index t (1 : Fin 2) = t.val % 125 :=
  (by decide +kernel : ∀ t : Fin grid0.N, _)

private theorem flushed_12 (G : ℕ → ℕ → EReal)
    (hinv : ∀ (t : Fin cfg0.N) (r : Fin 512) (l : Fin 256),
      (outsAt0 V c t.val t.isLt).2.2.2.2.2.2.2.1 (ix2 r l) = G (512 * (t.val / 125) + r.val) (256 * (t.val % 125) + l.val))
    (t : Fin cfg0.N) (hf : (cfg0.win 12).flush t = true) :
    (dat0 V c).flushed 12 t = ((cfg0.win 12).blk t).view.read (Elt Ideal) (fun i : S2048x32000.Idx => G (i 0).val (i 1).val) := by
  obtain ⟨e0, e1⟩ := idx_12 t
  show (cfg0.win 12).cut (grid0.coords t) ((dat0 V c).after 12 t) = _
  rw [after0_12]
  refine funext fun (y : S512x256.Idx) => ?_
  rw [View.read_apply]
  obtain ⟨r, l, rfl⟩ : ∃ (r : Fin 512) (l : Fin 256), y = ix2 r l := ⟨y 0, y 1, eq_ix2 y⟩
  show (outsAt0 V c t.val t.isLt).2.2.2.2.2.2.2.1 (ix2 r l)
    = G ((((cfg0.win 12).blk t).view.emb (ix2 r l)) 0).val ((((cfg0.win 12).blk t).view.emb (ix2 r l)) 1).val
  have a0 : ((((cfg0.win 12).blk t).view.emb (ix2 r l)) 0).val = 512 * (t.val / 125) + r.val := by
    show win0_12.index t (0 : Fin 2) * 512 + 1 * r.val = _
    rw [e0]; omega
  have a1 : ((((cfg0.win 12).blk t).view.emb (ix2 r l)) 1).val = 256 * (t.val % 125) + l.val := by
    show win0_12.index t (1 : Fin 2) * 256 + 1 * l.val = _
    rw [e1]; omega
  rw [a0, a1, hinv t r l]

private theorem mem_blk_12 (t : Fin cfg0.N) (i : S2048x32000.Idx) :
    i ∈ ((cfg0.win 12).blk t).view.set ↔ ∀ a : Fin 2, win0_12.index t a * S512x256.size a ≤ (i a).val ∧ (i a).val < win0_12.index t a * S512x256.size a + S512x256.size a := by
  show i ∈ ((View.whole main_v8_7).slice (win0_12.rect t)).set ↔ _
  rw [View.set_slice_whole, Rect.mem_set_unit]
  exact Iff.rfl

private theorem cover_12 (i : S2048x32000.Idx) : ∃ t : Fin cfg0.N, (cfg0.win 12).flush t = true ∧ i ∈ ((cfg0.win 12).blk t).view.set := by
  have h0 : (i 0).val < 2048 := (i 0).isLt
  have h1 : (i 1).val < 32000 := (i 1).isLt
  obtain ⟨t, ht⟩ := ownPoint (i 0).val (i 1).val h0 h1
  obtain ⟨e0, e1⟩ := idx_12 t
  refine ⟨t, flush0_12 t, ?_⟩
  rw [mem_blk_12]
  intro a
  match a with
  | ⟨0, _⟩ => show win0_12.index t (0 : Fin 2) * 512 ≤ (i 0).val ∧ (i 0).val < win0_12.index t (0 : Fin 2) * 512 + 512
              rw [e0]; omega
  | ⟨1, _⟩ => show win0_12.index t (1 : Fin 2) * 256 ≤ (i 1).val ∧ (i 1).val < win0_12.index t (1 : Fin 2) * 256 + 256
              rw [e1]; omega

theorem final_12 (G : ℕ → ℕ → EReal)
    (hinv : ∀ (t : Fin cfg0.N) (r : Fin 512) (l : Fin 256),
      (outsAt0 V c t.val t.isLt).2.2.2.2.2.2.2.1 (ix2 r l) = G (512 * (t.val / 125) + r.val) (256 * (t.val % 125) + l.val)) :
    ((dat0 V c).arrAt 12 cfg0.N : S2048x32000.Idx → EReal) = fun i => G (i 0).val (i 1).val :=
  (dat0 V c).arrAt_eq_of_cover 12 (fun i : S2048x32000.Idx => G (i 0).val (i 1).val) (flushed_12 V c G hinv) cover_12

private theorem idx_13 : ∀ t : Fin cfg0.N, win0_13.index t (0 : Fin 2) = t.val / 125 ∧ win0_13.index t (1 : Fin 2) = t.val % 125 :=
  (by decide +kernel : ∀ t : Fin grid0.N, _)

private theorem flushed_13 (G : ℕ → ℕ → EReal)
    (hinv : ∀ (t : Fin cfg0.N) (r : Fin 512) (l : Fin 256),
      (outsAt0 V c t.val t.isLt).2.2.2.2.2.2.2.2 (ix2 r l) = G (512 * (t.val / 125) + r.val) (256 * (t.val % 125) + l.val))
    (t : Fin cfg0.N) (hf : (cfg0.win 13).flush t = true) :
    (dat0 V c).flushed 13 t = ((cfg0.win 13).blk t).view.read (Elt Ideal) (fun i : S2048x32000.Idx => G (i 0).val (i 1).val) := by
  obtain ⟨e0, e1⟩ := idx_13 t
  show (cfg0.win 13).cut (grid0.coords t) ((dat0 V c).after 13 t) = _
  rw [after0_13]
  refine funext fun (y : S512x256.Idx) => ?_
  rw [View.read_apply]
  obtain ⟨r, l, rfl⟩ : ∃ (r : Fin 512) (l : Fin 256), y = ix2 r l := ⟨y 0, y 1, eq_ix2 y⟩
  show (outsAt0 V c t.val t.isLt).2.2.2.2.2.2.2.2 (ix2 r l)
    = G ((((cfg0.win 13).blk t).view.emb (ix2 r l)) 0).val ((((cfg0.win 13).blk t).view.emb (ix2 r l)) 1).val
  have a0 : ((((cfg0.win 13).blk t).view.emb (ix2 r l)) 0).val = 512 * (t.val / 125) + r.val := by
    show win0_13.index t (0 : Fin 2) * 512 + 1 * r.val = _
    rw [e0]; omega
  have a1 : ((((cfg0.win 13).blk t).view.emb (ix2 r l)) 1).val = 256 * (t.val % 125) + l.val := by
    show win0_13.index t (1 : Fin 2) * 256 + 1 * l.val = _
    rw [e1]; omega
  rw [a0, a1, hinv t r l]

private theorem mem_blk_13 (t : Fin cfg0.N) (i : S2048x32000.Idx) :
    i ∈ ((cfg0.win 13).blk t).view.set ↔ ∀ a : Fin 2, win0_13.index t a * S512x256.size a ≤ (i a).val ∧ (i a).val < win0_13.index t a * S512x256.size a + S512x256.size a := by
  show i ∈ ((View.whole main_v8_8).slice (win0_13.rect t)).set ↔ _
  rw [View.set_slice_whole, Rect.mem_set_unit]
  exact Iff.rfl

private theorem cover_13 (i : S2048x32000.Idx) : ∃ t : Fin cfg0.N, (cfg0.win 13).flush t = true ∧ i ∈ ((cfg0.win 13).blk t).view.set := by
  have h0 : (i 0).val < 2048 := (i 0).isLt
  have h1 : (i 1).val < 32000 := (i 1).isLt
  obtain ⟨t, ht⟩ := ownPoint (i 0).val (i 1).val h0 h1
  obtain ⟨e0, e1⟩ := idx_13 t
  refine ⟨t, flush0_13 t, ?_⟩
  rw [mem_blk_13]
  intro a
  match a with
  | ⟨0, _⟩ => show win0_13.index t (0 : Fin 2) * 512 ≤ (i 0).val ∧ (i 0).val < win0_13.index t (0 : Fin 2) * 512 + 512
              rw [e0]; omega
  | ⟨1, _⟩ => show win0_13.index t (1 : Fin 2) * 256 ≤ (i 1).val ∧ (i 1).val < win0_13.index t (1 : Fin 2) * 256 + 256
              rw [e1]; omega

theorem final_13 (G : ℕ → ℕ → EReal)
    (hinv : ∀ (t : Fin cfg0.N) (r : Fin 512) (l : Fin 256),
      (outsAt0 V c t.val t.isLt).2.2.2.2.2.2.2.2 (ix2 r l) = G (512 * (t.val / 125) + r.val) (256 * (t.val % 125) + l.val)) :
    ((dat0 V c).arrAt 13 cfg0.N : S2048x32000.Idx → EReal) = fun i => G (i 0).val (i 1).val :=
  (dat0 V c).arrAt_eq_of_cover 13 (fun i : S2048x32000.Idx => G (i 0).val (i 1).val) (flushed_13 V c G hinv) cover_13

end Cert.KernelIdeal.R0

end
-- ==== Proof.R0Final.lean ====
import proofs.«430291_j37958920962546_2_alg».proof.Proof.R0Body
import proofs.«430291_j37958920962546_2_alg».proof.Proof.R0Tile
import proofs.«430291_j37958920962546_2_alg».proof.Proof.R0Blocks
import proofs.«430291_j37958920962546_2_alg».proof.Proof.Spec

set_option maxRecDepth 16384

noncomputable section

open Idealize.ShloMosaic Idealize.ShloMosaic.TcCoe Idealize.SL.Sem Idealize.ShloMosaic.ValueIdx
open Idealize.ShloMosaic.Pipeline (Dat)

namespace Cert.KernelIdeal.R0

open Cert.KernelIdeal Cert.KernelIdeal.Gen Cert.Distill

/-! ## The column words, the tile's logits, and a tile's share of each recursion -/

/-- Column `l` of column tile `j` carries the word of the column number `256 j + l`. -/
private theorem word_eq (j l : ℕ) :
    BitVec.ofNat 32 j * 256#32 + BitVec.ofNat 32 l = BitVec.ofNat 32 (256 * j + l) := by
  rw [BitVec.ofNat_add, BitVec.ofNat_mul, BitVec.mul_comm]

/-- A block of rows `p …` of `X` against a block of rows `q …` of `W`: the logits at rows `p + r`, columns `q + l`. -/
private theorem blkDot_eq (H : ℕ) (X W : ℕ → ℕ → EReal) (p q : ℕ)
    (x : (⟨2, ![512, H]⟩ : Shape).Idx → EReal) (w : (⟨2, ![256, H]⟩ : Shape).Idx → EReal)
    (hx : x = fun y => X (p + (y 0).val) (y 1).val) (hw : w = fun y => W (q + (y 0).val) (y 1).val)
    (r : Fin 512) (l : Fin 256) : blkDot H x w r l = dotRow H X W (p + r.val) (q + l.val) := by
  subst hx hw
  rfl

private theorem newMax_tile (a : ℕ → EReal) (j : ℕ) (b : Fin 256 → EReal) (hb : b = fun l => a (256 * j + l.val))
    (m : EReal) : newMax b m = max m (tileMax a j) := by
  subst hb
  rfl

private theorem newSum_tile (a : ℕ → EReal) (j : ℕ) (b : Fin 256 → EReal) (hb : b = fun l => a (256 * j + l.val))
    (m s : EReal) :
    newSum b m s = s * Ideal.exp (m - max m (tileMax a j)) + tileSumExp a (max m (tileMax a j)) j := by
  subst hb
  rfl

private theorem hot_tile (a : ℕ → EReal) (j : ℕ) (b : Fin 256 → EReal) (hb : b = fun l => a (256 * j + l.val))
    (lab : BitVec 32) :
    (∑ l : Fin 256, if BitVec.ofNat 32 j * 256#32 + BitVec.ofNat 32 l.val = lab then b l else 0) = tileHot a lab j := by
  subst hb
  unfold tileHot
  simp only [word_eq]

/-! ## What a point leaves, against the recursions -/

/-- The nine blocks a point leaves. -/
private abbrev Outs : Type :=
  Vec Ideal S512x1 .f32 × Vec Ideal S512x1 .f32 × Vec Ideal S512x1 .f32 × Vec Ideal S512x1 .f32 × Vec Ideal S512x1 .f32
    × Vec Ideal S512x1 .f32 × Vec Ideal S512x1 .f32 × Vec Ideal S512x256 .f32 × Vec Ideal S512x256 .f32

/-- Row tile `i`, column tile `j`: per row the running maximum and sum after tiles 0 … j (raw student, scaled student,
    teacher), the running one-hot pick, and the two tiles of logits. -/
private def Leaves (Xs Xt Ws Wt : ℕ → ℕ → EReal) (lab : ℕ → BitVec 32) (i j : ℕ) (o : Outs) : Prop :=
  (∀ r : Fin 512, o.1 (ix2 r (0 : Fin 1)) = Mrun (dotRow 2048 Xs Ws (512 * i + r.val)) j)
  ∧ (∀ r : Fin 512, o.2.1 (ix2 r (0 : Fin 1)) = Lrun (dotRow 2048 Xs Ws (512 * i + r.val)) j)
  ∧ (∀ r : Fin 512, o.2.2.1 (ix2 r (0 : Fin 1)) = Mrun (dotRow 2048 Xs Ws (512 * i + r.val)) j)
  ∧ (∀ r : Fin 512, o.2.2.2.1 (ix2 r (0 : Fin 1)) = Lrun (dotRow 2048 Xs Ws (512 * i + r.val)) j)
  ∧ (∀ r : Fin 512, o.2.2.2.2.1 (ix2 r (0 : Fin 1)) = Mrun (dotRow 4096 Xt Wt (512 * i + r.val)) j)
  ∧ (∀ r : Fin 512, o.2.2.2.2.2.1 (ix2 r (0 : Fin 1)) = Lrun (dotRow 4096 Xt Wt (512 * i + r.val)) j)
  ∧ (∀ r : Fin 512, o.2.2.2.2.2.2.1 (ix2 r (0 : Fin 1))
      = Grun (dotRow 2048 Xs Ws (512 * i + r.val)) (lab (512 * i + r.val)) j)
  ∧ (∀ (r : Fin 512) (l : Fin 256), o.2.2.2.2.2.2.2.1 (ix2 r l) = dotRow 2048 Xs Ws (512 * i + r.val) (256 * j + l.val))
  ∧ (∀ (r : Fin 512) (l : Fin 256), o.2.2.2.2.2.2.2.2 (ix2 r l) = dotRow 4096 Xt Wt (512 * i + r.val) (256 * j + l.val))

section Step

variable (Xs Xt Ws Wt : ℕ → ℕ → EReal) (lab : ℕ → BitVec 32) (i j : ℕ)
  (wd : BitVec 32) (x0 : Vec Ideal S512x2048 .bf16) (x1 : Vec Ideal S512x4096 .bf16) (x2 : Vec Ideal S256x2048 .bf16)
  (x3 : Vec Ideal S256x4096 .bf16) (x4 : Vec Ideal S512x1 .i32)
  (hwd : wd = BitVec.ofNat 32 j)
  (hx0 : (x0 : S512x2048.Idx → EReal) = fun y => Xs (512 * i + (y 0).val) (y 1).val)
  (hx1 : (x1 : S512x4096.Idx → EReal) = fun y => Xt (512 * i + (y 0).val) (y 1).val)
  (hx2 : (x2 : S256x2048.Idx → EReal) = fun y => Ws (256 * j + (y 0).val) (y 1).val)
  (hx3 : (x3 : S256x4096.Idx → EReal) = fun y => Wt (256 * j + (y 0).val) (y 1).val)
  (hx4 : (x4 : S512x1.Idx → BitVec 32) = fun y => lab (512 * i + (y 0).val))

include hwd hx0 hx1 hx2 hx3 hx4

/-- One point's blocks with the tile's logits written as the logits of the arrays: each statistic is the statistic before
    joined with column tile `j`'s share. -/
private theorem step_tile (p5 p6 p7 p8 p9 p10 p11 : Vec Ideal S512x1 .f32) :
    (∀ r : Fin 512, (step wd x0 x1 x2 x3 x4 p5 p6 p7 p8 p9 p10 p11).1 (ix2 r (0 : Fin 1))
        = max (p5 (ix2 r (0 : Fin 1))) (tileMax (dotRow 2048 Xs Ws (512 * i + r.val)) j))
    ∧ (∀ r : Fin 512, (step wd x0 x1 x2 x3 x4 p5 p6 p7 p8 p9 p10 p11).2.1 (ix2 r (0 : Fin 1))
        = p6 (ix2 r (0 : Fin 1))
            * Ideal.exp (p5 (ix2 r (0 : Fin 1)) - max (p5 (ix2 r (0 : Fin 1))) (tileMax (dotRow 2048 Xs Ws (512 * i + r.val)) j))
          + tileSumExp (dotRow 2048 Xs Ws (512 * i + r.val))
              (max (p5 (ix2 r (0 : Fin 1))) (tileMax (dotRow 2048 Xs Ws (512 * i + r.val)) j)) j)
    ∧ (∀ r : Fin 512, (step wd x0 x1 x2 x3 x4 p5 p6 p7 p8 p9 p10 p11).2.2.1 (ix2 r (0 : Fin 1))
        = max (p7 (ix2 r (0 : Fin 1))) (tileMax (dotRow 2048 Xs Ws (512 * i + r.val)) j))
    ∧ (∀ r : Fin 512, (step wd x0 x1 x2 x3 x4 p5 p6 p7 p8 p9 p10 p11).2.2.2.1 (ix2 r (0 : Fin 1))
        = p8 (ix2 r (0 : Fin 1))
            * Ideal.exp (p7 (ix2 r (0 : Fin 1)) - max (p7 (ix2 r (0 : Fin 1))) (tileMax (dotRow 2048 Xs Ws (512 * i + r.val)) j))
          + tileSumExp (dotRow 2048 Xs Ws (512 * i + r.val))
              (max (p7 (ix2 r (0 : Fin 1))) (tileMax (dotRow 2048 Xs Ws (512 * i + r.val)) j)) j)
    ∧ (∀ r : Fin 512, (step wd x0 x1 x2 x3 x4 p5 p6 p7 p8 p9 p10 p11).2.2.2.2.1 (ix2 r (0 : Fin 1))
        = max (p9 (ix2 r (0 : Fin 1))) (tileMax (dotRow 4096 Xt Wt (512 * i + r.val)) j))
    ∧ (∀ r : Fin 512, (step wd x0 x1 x2 x3 x4 p5 p6 p7 p8 p9 p10 p11).2.2.2.2.2.1 (ix2 r (0 : Fin 1))
        = p10 (ix2 r (0 : Fin 1))
            * Ideal.exp (p9 (ix2 r (0 : Fin 1)) - max (p9 (ix2 r (0 : Fin 1))) (tileMax (dotRow 4096 Xt Wt (512 * i + r.val)) j))
          + tileSumExp (dotRow 4096 Xt Wt (512 * i + r.val))
              (max (p9 (ix2 r (0 : Fin 1))) (tileMax (dotRow 4096 Xt Wt (512 * i + r.val)) j)) j)
    ∧ (∀ r : Fin 512, (step wd x0 x1 x2 x3 x4 p5 p6 p7 p8 p9 p10 p11).2.2.2.2.2.2.1 (ix2 r (0 : Fin 1))
        = p11 (ix2 r (0 : Fin 1)) + tileHot (dotRow 2048 Xs Ws (512 * i + r.val)) (lab (512 * i + r.val)) j)
    ∧ (∀ (r : Fin 512) (l : Fin 256), (step wd x0 x1 x2 x3 x4 p5 p6 p7 p8 p9 p10 p11).2.2.2.2.2.2.2.1 (ix2 r l)
        = dotRow 2048 Xs Ws (512 * i + r.val) (256 * j + l.val))
    ∧ (∀ (r : Fin 512) (l : Fin 256), (step wd x0 x1 x2 x3 x4 p5 p6 p7 p8 p9 p10 p11).2.2.2.2.2.2.2.2 (ix2 r l)
        = dotRow 4096 Xt Wt (512 * i + r.val) (256 * j + l.val)) := by
  have hS : ∀ r : Fin 512, blkDot 2048 x0 x2 r = fun l => dotRow 2048 Xs Ws (512 * i + r.val) (256 * j + l.val) :=
    fun r => funext fun l => blkDot_eq 2048 Xs Ws (512 * i) (256 * j) x0 x2 hx0 hx2 r l
  have hT : ∀ r : Fin 512, blkDot 4096 x1 x3 r = fun l => dotRow 4096 Xt Wt (512 * i + r.val) (256 * j + l.val) :=
    fun r => funext fun l => blkDot_eq 4096 Xt Wt (512 * i) (256 * j) x1 x3 hx1 hx3 r l
  have hL : ∀ r : Fin 512, x4 (ix2 r (0 : Fin 1)) = lab (512 * i + r.val) := fun r => congrFun hx4 (ix2 r (0 : Fin 1))
  refine ⟨fun r => ?_, fun r => ?_, fun r => ?_, fun r => ?_, fun r => ?_, fun r => ?_, fun r => ?_, fun r l => ?_, fun r l => ?_⟩
  · exact (step_5 wd x0 x1 x2 x3 x4 p5 p6 p7 p8 p9 p10 p11 r).trans
      (newMax_tile (dotRow 2048 Xs Ws (512 * i + r.val)) j (blkDot 2048 x0 x2 r) (hS r) (p5 (ix2 r (0 : Fin 1))))
  · exact (step_6 wd x0 x1 x2 x3 x4 p5 p6 p7 p8 p9 p10 p11 r).trans
      (newSum_tile (dotRow 2048 Xs Ws (512 * i + r.val)) j (blkDot 2048 x0 x2 r) (hS r) (p5 (ix2 r (0 : Fin 1))) (p6 (ix2 r (0 : Fin 1))))
  · exact (step_7 wd x0 x1 x2 x3 x4 p5 p6 p7 p8 p9 p10 p11 r).trans
      (newMax_tile (dotRow 2048 Xs Ws (512 * i + r.val)) j (blkDot 2048 x0 x2 r) (hS r) (p7 (ix2 r (0 : Fin 1))))
  · exact (step_8 wd x0 x1 x2 x3 x4 p5 p6 p7 p8 p9 p10 p11 r).trans
      (newSum_tile (dotRow 2048 Xs Ws (512 * i + r.val)) j (blkDot 2048 x0 x2 r) (hS r) (p7 (ix2 r (0 : Fin 1))) (p8 (ix2 r (0 : Fin 1))))
  · exact (step_9 wd x0 x1 x2 x3 x4 p5 p6 p7 p8 p9 p10 p11 r).trans
      (newMax_tile (dotRow 4096 Xt Wt (512 * i + r.val)) j (blkDot 4096 x1 x3 r) (hT r) (p9 (ix2 r (0 : Fin 1))))
  · exact (step_10 wd x0 x1 x2 x3 x4 p5 p6 p7 p8 p9 p10 p11 r).trans
      (newSum_tile (dotRow 4096 Xt Wt (512 * i + r.val)) j (blkDot 4096 x1 x3 r) (hT r) (p9 (ix2 r (0 : Fin 1))) (p10 (ix2 r (0 : Fin 1))))
  · rw [step_11 wd x0 x1 x2 x3 x4 p5 p6 p7 p8 p9 p10 p11 r, hL r, hwd,
      hot_tile (dotRow 2048 Xs Ws (512 * i + r.val)) j (blkDot 2048 x0 x2 r) (hS r) (lab (512 * i + r.val))]
  · exact (step_12 wd x0 x1 x2 x3 x4 p5 p6 p7 p8 p9 p10 p11 r l).trans (congrFun (hS r) l)
  · exact (step_13 wd x0 x1 x2 x3 x4 p5 p6 p7 p8 p9 p10 p11 r l).trans (congrFun (hT r) l)

/-- The first column tile of a row tile: from the resets, each recursion at 0. -/
private theorem leaves_first (hj : j = 0) :
    Leaves Xs Xt Ws Wt lab i j (step wd x0 x1 x2 x3 x4 (k0_pay3 (F := Ideal)) (k0_pay4 (F := Ideal)) (k0_pay5 (F := Ideal)) (k0_pay6 (F := Ideal)) (k0_pay7 (F := Ideal)) (k0_pay8 (F := Ideal)) (k0_pay9 (F := Ideal))) := by
  obtain ⟨t5, t6, t7, t8, t9, t10, t11, t12, t13⟩ :=
    step_tile Xs Xt Ws Wt lab i j wd x0 x1 x2 x3 x4 hwd hx0 hx1 hx2 hx3 hx4 (k0_pay3 (F := Ideal)) (k0_pay4 (F := Ideal)) (k0_pay5 (F := Ideal)) (k0_pay6 (F := Ideal)) (k0_pay7 (F := Ideal)) (k0_pay8 (F := Ideal)) (k0_pay9 (F := Ideal))
  subst hj
  refine ⟨fun r => ?_, fun r => ?_, fun r => ?_, fun r => ?_, fun r => ?_, fun r => ?_, fun r => ?_, t12, t13⟩
  · rw [t5 r, (reset_max r).1, max_bot_left]; rfl
  · rw [t6 r, (reset_max r).1, (reset_sum r).1, max_bot_left, zero_mul, zero_add]; rfl
  · rw [t7 r, (reset_max r).2.1, max_bot_left]; rfl
  · rw [t8 r, (reset_max r).2.1, (reset_sum r).2.1, max_bot_left, zero_mul, zero_add]; rfl
  · rw [t9 r, (reset_max r).2.2, max_bot_left]; rfl
  · rw [t10 r, (reset_max r).2.2, (reset_sum r).2.2.1, max_bot_left, zero_mul, zero_add]; rfl
  · rw [t11 r, (reset_sum r).2.2.2, zero_add]; rfl

/-- A later column tile: from what the tile before left, each recursion one step on. -/
private theorem leaves_next (j' : ℕ) (hj : j = j' + 1) (o : Outs) (ho : Leaves Xs Xt Ws Wt lab i j' o) :
    Leaves Xs Xt Ws Wt lab i j
      (step wd x0 x1 x2 x3 x4 o.1 o.2.1 o.2.2.1 o.2.2.2.1 o.2.2.2.2.1 o.2.2.2.2.2.1 o.2.2.2.2.2.2.1) := by
  obtain ⟨t5, t6, t7, t8, t9, t10, t11, t12, t13⟩ :=
    step_tile Xs Xt Ws Wt lab i j wd x0 x1 x2 x3 x4 hwd hx0 hx1 hx2 hx3 hx4
      o.1 o.2.1 o.2.2.1 o.2.2.2.1 o.2.2.2.2.1 o.2.2.2.2.2.1 o.2.2.2.2.2.2.1
  obtain ⟨o5, o6, o7, o8, o9, o10, o11, -, -⟩ := ho
  subst hj
  refine ⟨fun r => ?_, fun r => ?_, fun r => ?_, fun r => ?_, fun r => ?_, fun r => ?_, fun r => ?_, t12, t13⟩
  · rw [t5 r, o5 r]; rfl
  · rw [t6 r, o5 r, o6 r]; rfl
  · rw [t7 r, o7 r]; rfl
  · rw [t8 r, o7 r, o8 r]; rfl
  · rw [t9 r, o9 r]; rfl
  · rw [t10 r, o9 r, o10 r]; rfl
  · rw [t11 r, o11 r]; rfl

end Step

/-! ## Every point of the run, and the arrays after it -/

section Run

variable (V : (c : Dev nD) → (b : Ref sig .tc) → Buf (Elt Ideal) ((c : Thread nD τ).loc b)) (c : Dev nD)
  (Xs Xt Ws Wt : ℕ → ℕ → EReal) (lab : ℕ → BitVec 32)
  (h0 : (V c main_v0 : S2048x2048.Idx → EReal) = fun i => Xs (i 0).val (i 1).val)
  (h1 : (V c main_v1 : S2048x4096.Idx → EReal) = fun i => Xt (i 0).val (i 1).val)
  (h2 : (V c main_v2 : S32000x2048.Idx → EReal) = fun i => Ws (i 0).val (i 1).val)
  (h3 : (V c main_v3 : S32000x4096.Idx → EReal) = fun i => Wt (i 0).val (i 1).val)
  (h4 : (V c main_v7 : S2048x1.Idx → BitVec 32) = fun i => lab (i 0).val)

include h0 h1 h2 h3 h4

/-- Point `n` (row tile `n / 125`, column tile `n % 125`) leaves the recursions at `n % 125`: by induction along the
    run, a row tile's first point starting from the resets and every other continuing the point before. -/
private theorem leaves_all : ∀ (n : ℕ) (hn : n < cfg0.N),
    Leaves Xs Xt Ws Wt lab (n / 125) (n % 125) (outsAt0 V c n hn) := by
  intro n
  induction n using Nat.strong_induction_on with
  | _ n ih =>
    intro hn
    have hwd : BitVec.ofNat 32 ((grid0.coords (⟨n, hn⟩ : Fin cfg0.N)) 1).val = BitVec.ofNat 32 (n % 125) :=
      congrArg (BitVec.ofNat 32) (coord1 ⟨n, hn⟩)
    by_cases hz : n % 125 = 0
    · have e : outsAt0 V c n hn = _ := outsAt_A V c ⟨n, hn⟩ hz
      rw [e]
      exact leaves_first Xs Xt Ws Wt lab (n / 125) (n % 125)
        (BitVec.ofNat 32 ((grid0.coords (⟨n, hn⟩ : Fin cfg0.N)) 1).val)
        (iblk0 V c 0 ⟨n, hn⟩) (iblk0 V c 1 ⟨n, hn⟩) (iblk0 V c 2 ⟨n, hn⟩) (iblk0 V c 3 ⟨n, hn⟩) (iblk0 V c 4 ⟨n, hn⟩)
        hwd (iblk_0 V c Xs h0 ⟨n, hn⟩) (iblk_1 V c Xt h1 ⟨n, hn⟩) (iblk_2 V c Ws h2 ⟨n, hn⟩) (iblk_3 V c Wt h3 ⟨n, hn⟩)
        (iblk_4 V c lab h4 ⟨n, hn⟩) hz
    · have e : outsAt0 V c n hn = _ := outsAt_B V c ⟨n, hn⟩ hz
      rw [e]
      have ih' := ih (n - 1) (by omega) (Nat.lt_of_le_of_lt (Nat.sub_le _ _) hn)
      have e1 : (n - 1) / 125 = n / 125 := by omega
      rw [e1] at ih'
      exact leaves_next Xs Xt Ws Wt lab (n / 125) (n % 125)
        (BitVec.ofNat 32 ((grid0.coords (⟨n, hn⟩ : Fin cfg0.N)) 1).val)
        (iblk0 V c 0 ⟨n, hn⟩) (iblk0 V c 1 ⟨n, hn⟩) (iblk0 V c 2 ⟨n, hn⟩) (iblk0 V c 3 ⟨n, hn⟩) (iblk0 V c 4 ⟨n, hn⟩)
        hwd (iblk_0 V c Xs h0 ⟨n, hn⟩) (iblk_1 V c Xt h1 ⟨n, hn⟩) (iblk_2 V c Ws h2 ⟨n, hn⟩) (iblk_3 V c Wt h3 ⟨n, hn⟩)
        (iblk_4 V c lab h4 ⟨n, hn⟩) ((n - 1) % 125) (by omega)
        (outsAt0 V c (n - 1) (Nat.lt_of_le_of_lt (Nat.sub_le _ _) hn)) ih'

end Run

/-- THE FIRST PASS'S ARRAYS after its run, from the arrays it is entered with: per row the running maximum and running
    sum after the last column tile (raw student, scaled student, scaled teacher), the one-hot pick of the label column,
    and the two logit caches. -/
theorem final (V : (c : Dev nD) → (b : Ref sig .tc) → Buf (Elt Ideal) ((c : Thread nD τ).loc b)) (c : Dev nD)
    (Xs Xt Ws Wt : ℕ → ℕ → EReal) (lab : ℕ → BitVec 32)
    (h0 : (V c main_v0 : S2048x2048.Idx → EReal) = fun i => Xs (i 0).val (i 1).val)
    (h1 : (V c main_v1 : S2048x4096.Idx → EReal) = fun i => Xt (i 0).val (i 1).val)
    (h2 : (V c main_v2 : S32000x2048.Idx → EReal) = fun i => Ws (i 0).val (i 1).val)
    (h3 : (V c main_v3 : S32000x4096.Idx → EReal) = fun i => Wt (i 0).val (i 1).val)
    (h4 : (V c main_v7 : S2048x1.Idx → BitVec 32) = fun i => lab (i 0).val) :
    ((dat0 V c).arrAt 5 cfg0.N : S2048x1.Idx → EReal) = (fun i => Mrun (dotRow 2048 Xs Ws (i 0).val) 124)
    ∧ ((dat0 V c).arrAt 6 cfg0.N : S2048x1.Idx → EReal) = (fun i => Lrun (dotRow 2048 Xs Ws (i 0).val) 124)
    ∧ ((dat0 V c).arrAt 7 cfg0.N : S2048x1.Idx → EReal) = (fun i => Mrun (dotRow 2048 Xs Ws (i 0).val) 124)
    ∧ ((dat0 V c).arrAt 8 cfg0.N : S2048x1.Idx → EReal) = (fun i => Lrun (dotRow 2048 Xs Ws (i 0).val) 124)
    ∧ ((dat0 V c).arrAt 9 cfg0.N : S2048x1.Idx → EReal) = (fun i => Mrun (dotRow 4096 Xt Wt (i 0).val) 124)
    ∧ ((dat0 V c).arrAt 10 cfg0.N : S2048x1.Idx → EReal) = (fun i => Lrun (dotRow 4096 Xt Wt (i 0).val) 124)
    ∧ ((dat0 V c).arrAt 11 cfg0.N : S2048x1.Idx → EReal) = (fun i => Grun (dotRow 2048 Xs Ws (i 0).val) (lab (i 0).val) 124)
    ∧ ((dat0 V c).arrAt 12 cfg0.N : S2048x32000.Idx → EReal) = (fun i => dotRow 2048 Xs Ws (i 0).val (i 1).val)
    ∧ ((dat0 V c).arrAt 13 cfg0.N : S2048x32000.Idx → EReal) = (fun i => dotRow 4096 Xt Wt (i 0).val (i 1).val) := by
  have L := leaves_all V c Xs Xt Ws Wt lab h0 h1 h2 h3 h4
  exact ⟨final_5 V c (fun n j => Mrun (dotRow 2048 Xs Ws n) j) (fun t r => (L t.val t.isLt).1 r),
    final_6 V c (fun n j => Lrun (dotRow 2048 Xs Ws n) j) (fun t r => (L t.val t.isLt).2.1 r),
    final_7 V c (fun n j => Mrun (dotRow 2048 Xs Ws n) j) (fun t r => (L t.val t.isLt).2.2.1 r),
    final_8 V c (fun n j => Lrun (dotRow 2048 Xs Ws n) j) (fun t r => (L t.val t.isLt).2.2.2.1 r),
    final_9 V c (fun n j => Mrun (dotRow 4096 Xt Wt n) j) (fun t r => (L t.val t.isLt).2.2.2.2.1 r),
    final_10 V c (fun n j => Lrun (dotRow 4096 Xt Wt n) j) (fun t r => (L t.val t.isLt).2.2.2.2.2.1 r),
    final_11 V c (fun n j => Grun (dotRow 2048 Xs Ws n) (lab n) j) (fun t r => (L t.val t.isLt).2.2.2.2.2.2.1 r),
    final_12 V c (fun n v => dotRow 2048 Xs Ws n v) (fun t r l => (L t.val t.isLt).2.2.2.2.2.2.2.1 r l),
    final_13 V c (fun n v => dotRow 4096 Xt Wt n v) (fun t r l => (L t.val t.isLt).2.2.2.2.2.2.2.2 r l)⟩

end Cert.KernelIdeal.R0

end
-- ==== Proof.R1Body.lean ====
import proofs.«430291_j37958920962546_2_alg».proof.Proof.Gen.KernelIdeal.Frame
import proofs.«430291_j37958920962546_2_alg».proof.Proof.Spec
import proofs.«430291_j37958920962546_2_alg».proof.Proof.Consts
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx

namespace Cert.KernelIdeal.R1

open Cert.KernelIdeal Cert.KernelIdeal.Gen Cert.Distill

section Generic

variable {F : FTy → Type} [FloatOps F]

/-- One grid point of the second pass: from the two cached logit blocks, the two log-sum-exp columns and the running
    row sum as the point before left it, the row-sum block the body leaves. -/
def step1 (x0 x1 : Vec F S512x256 .f32) (x2 x3 p4 : Vec F S512x1 .f32) : Vec F S512x1 .f32 :=
  k1_pay1 (k1_pay3 p4) (k1_pay4 x0 x2 x1 x3)

/-- The offset of a whole block: zero on both axes. -/
private theorem hz : (![0, 0] : Fin 2 → Nat) = fun _ => 0 := funext fun a => by fin_cases a <;> rfl

/-- Away from a first column tile the body's one store covers the row-sum block, and every load reads a whole block:
    what it leaves is the step at the four input blocks and the block's previous contents. -/
private theorem out_B (c : Dev nD) (i : grid1.Coords) (a2 : Memref sig .tc .vmem S512x256 .f32) (h2 : a2.IsWhole)
    (a3 : Memref sig .tc .vmem S512x256 .f32) (h3 : a3.IsWhole) (a4 : Memref sig .tc .vmem S512x1 .f32) (h4 : a4.IsWhole)
    (a5 : Memref sig .tc .vmem S512x1 .f32) (h5 : a5.IsWhole) (a6 : Memref sig .tc .vmem S512x1 .f32) (h6 : a6.IsWhole)
    (hc : ¬cond1_0 i) (x0 x1 : Vec F S512x256 .f32) (x2 x3 xo : Vec F S512x1 .f32) :
    out1_B_4 c i a2 h2 a3 h3 a4 h4 a5 h5 a6 h6 hc x0 x1 x2 x3 xo = step1 x0 x1 x2 x3 xo := by
  unfold out1_B_4
  rw [View.read_writes_eq_canon _ _ _ (cover1_B_4 c i a2 h2 a3 h3 a4 h4 a5 h5 a6 h6 hc x0 x1 x2 x3 xo)]
  unfold kernelRun1_B
  dsimp only
  sl_unfold_words
  rw [View.canon_unit_zero hz]
  unfold step1
  simp only [View.readAt_eq_ld, h2.read_unread, h3.read_unread, h4.read_unread, h5.read_unread, h6.read_unread,
    View.ld_unit_zero (S := S512x1) hz, View.ld_unit_zero (S := S512x256) hz]

/-- At a first column tile the body first stores the zero block over the row-sum block, reads it back, and stores the
    update over it: what it leaves is the step at the four input blocks and the zero block. -/
private theorem out_A (c : Dev nD) (i : grid1.Coords) (a2 : Memref sig .tc .vmem S512x256 .f32) (h2 : a2.IsWhole)
    (a3 : Memref sig .tc .vmem S512x256 .f32) (h3 : a3.IsWhole) (a4 : Memref sig .tc .vmem S512x1 .f32) (h4 : a4.IsWhole)
    (a5 : Memref sig .tc .vmem S512x1 .f32) (h5 : a5.IsWhole) (a6 : Memref sig .tc .vmem S512x1 .f32) (h6 : a6.IsWhole)
    (hc : cond1_0 i) (x0 x1 : Vec F S512x256 .f32) (x2 x3 : Vec F S512x1 .f32) :
    out1_A_4 c i a2 h2 a3 h3 a4 h4 a5 h5 a6 h6 hc x0 x1 x2 x3 = step1 x0 x1 x2 x3 k1_pay2 := by
  unfold out1_A_4
  rw [View.read_writes_eq_canon _ _ _ (cover1_A_4 c i a2 h2 a3 h3 a4 h4 a5 h5 a6 h6 hc x0 x1 x2 x3)]
  unfold kernelRun1_A
  dsimp only
  sl_unfold_words
  rw [View.canon_cons_unit_zero (S := S512x1) hz]
  unfold step1
  simp only [View.readAt_eq_ld, h2.read_unread, h3.read_unread, h4.read_unread, h5.read_unread,
    View.readCov_unit_zero (S := S512x1) _ hz, View.ld_unit_zero (S := S512x1) hz, View.ld_unit_zero (S := S512x256) hz]

variable (V : (c : Dev nD) → (b : Ref sig .tc) → Buf (Elt F) ((c : Thread nD τ).loc b))

/-- At the first column tile of a row tile the row sum starts from zero. -/
theorem outsAt_A (c : Dev nD) (t : Fin cfg1.N) (h0 : t.val % 125 = 0) :
    outsAt1 V c t.val t.isLt = step1 (iblk1 V c 0 t) (iblk1 V c 1 t) (iblk1 V c 2 t) (iblk1 V c 3 t) k1_pay2 :=
  (outsAt1_A V c t h0).trans
    (out_A c (grid1.coords t) (ms1_0 t) (hs1_0 t) (ms1_1 t) (hs1_1 t) (ms1_2 t) (hs1_2 t) (ms1_3 t) (hs1_3 t) (ms1_4 t) (hs1_4 t)
      ((hcond1_0 t).mpr h0) (iblk1 V c 0 t) (iblk1 V c 1 t) (iblk1 V c 2 t) (iblk1 V c 3 t))

/-- At every other column tile it continues from what the point before left. -/
theorem outsAt_B (c : Dev nD) (t : Fin cfg1.N) (h0 : ¬t.val % 125 = 0) :
    outsAt1 V c t.val t.isLt = step1 (iblk1 V c 0 t) (iblk1 V c 1 t) (iblk1 V c 2 t) (iblk1 V c 3 t)
      (outsAt1 V c (t.val - 1) (Nat.lt_of_le_of_lt (Nat.sub_le _ _) t.isLt)) :=
  (outsAt1_B V c t h0).trans
    (out_B c (grid1.coords t) (ms1_0 t) (hs1_0 t) (ms1_1 t) (hs1_1 t) (ms1_2 t) (hs1_2 t) (ms1_3 t) (hs1_3 t) (ms1_4 t) (hs1_4 t)
      (fun h => h0 ((hcond1_0 t).mp h)) (iblk1 V c 0 t) (iblk1 V c 1 t) (iblk1 V c 2 t) (iblk1 V c 3 t)
      (outsAt1 V c (t.val - 1) (Nat.lt_of_le_of_lt (Nat.sub_le _ _) t.isLt)))

end Generic

/-- A vector `[a]` cast to the column `[a, 1]` reads, at `(i, u)`, the operand at `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An exponential at an index is the exponential of the element. -/
private theorem exp_apply {s : Shape} {φ : FTy} (a : FVec Ideal s φ) (i : s.Idx) : exp a i = FloatOps.exp (a i) := rfl
/-- A logarithm at an index is the logarithm of the element. -/
private theorem log_apply {s : Shape} {φ : FTy} (a : FVec Ideal s φ) (i : s.Idx) : log a i = FloatOps.log (a i) := rfl

/-- The index a sum over the lanes reads at row `r`, lane `l`. -/
private theorem lift_row (r : Fin 512) (l : Fin 256) :
    reduces_S512x256_S512.lift (ix1 r) l = ix2 r l := by
  funext a; match a with | ⟨0, _⟩ => rfl | ⟨1, _⟩ => rfl

/-- Read at a row, at the ideal values: the running sum plus the tile's sum of the divergence integrand. -/
theorem step1_apply (x0 x1 : Vec Ideal S512x256 .f32) (x2 x3 p4 : Vec Ideal S512x1 .f32) (r : Fin 512) :
    step1 x0 x1 x2 x3 p4 (ix2 r (0 : Fin 1))
      = p4 (ix2 r (0 : Fin 1))
        + ∑ l : Fin 256, jsdTerm (x0 (ix2 r l)) (x2 (ix2 r (0 : Fin 1))) (x1 (ix2 r l)) (x3 (ix2 r (0 : Fin 1))) := by
  unfold step1 k1_pay1 k1_pay3 k1_pay4
  dsimp only
  simp only [shapeCast_self]
  refine (addf_apply _ _ _).trans ?_
  refine congrArg (p4 (ix2 r (0 : Fin 1)) + ·) ?_
  refine (shapeCast_a_a1_apply _ _ r 0).trans ?_
  refine (Ideal.multiReduction_add_single _ _ _ _ _ (ix1 r)).trans ?_
  refine Finset.sum_congr rfl fun (l : Fin 256) _ => ?_
  rw [lift_row r l]
  simp only [select_apply, cmpf_apply, mulf_apply, addf_apply, subf_apply, exp_apply, log_apply, broadcast_apply,
    broadcastTo_a1_ab_apply, Ideal.ofBits_def, Ideal.exp_def, Ideal.log_def, Ideal.cmpf_def,
    Consts.ofBits_half, Consts.ofBits_zero, Consts.ofBits_one, Consts.ofBits_two]
  unfold jsdTerm kMean
  rfl

/-- The reset read at a row: zero. -/
theorem reset1 (r : Fin 512) : (k1_pay2 (F := Ideal)) (ix2 r (0 : Fin 1)) = 0 := by
  unfold k1_pay2
  exact Consts.ofBits_zero

end Cert.KernelIdeal.R1

end
-- ==== Proof.R1Final.lean ====
import proofs.«430291_j37958920962546_2_alg».proof.Proof.R1Body
import proofs.«430291_j37958920962546_2_alg».proof.Proof.Spec

set_option maxRecDepth 16384

noncomputable section

open Idealize.ShloMosaic Idealize.ShloMosaic.TcCoe Idealize.SL.Sem Idealize.ShloMosaic.ValueIdx
open Idealize.ShloMosaic.Pipeline (Dat)

namespace Cert.KernelIdeal.R1

open Cert.KernelIdeal Cert.KernelIdeal.Gen Cert.Distill

/-- The five index maps over the 4 × 125 grid: the row tile is the point's quotient by 125; the two cached blocks move
    with the column tile, the point's remainder; the three columns stay at column block 0. -/
private theorem idx_facts : ∀ t : Fin cfg1.N,
    win1_0.index t (0 : Fin 2) = t.val / 125 ∧ win1_0.index t (1 : Fin 2) = t.val % 125
    ∧ win1_1.index t (0 : Fin 2) = t.val / 125 ∧ win1_1.index t (1 : Fin 2) = t.val % 125
    ∧ win1_2.index t (0 : Fin 2) = t.val / 125 ∧ win1_2.index t (1 : Fin 2) = 0
    ∧ win1_3.index t (0 : Fin 2) = t.val / 125 ∧ win1_3.index t (1 : Fin 2) = 0
    ∧ win1_4.index t (0 : Fin 2) = t.val / 125 ∧ win1_4.index t (1 : Fin 2) = 0 :=
  (by decide +kernel : ∀ t : Fin grid1.N, _)

/-- One grid point at a row, once the blocks' entries at that row are known as entries of the row's two logit rows and
    its two log-sum-exps: the running sum grows by column tile `j`'s share of the divergence sum. -/
private theorem step1_tile (x0 x1 : Vec Ideal S512x256 .f32) (x2 x3 p4 : Vec Ideal S512x1 .f32)
    (cs ct : ℕ → EReal) (ls lt : EReal) (j : ℕ) (r : Fin 512)
    (e0 : ∀ l : Fin 256, x0 (ix2 r l) = cs (256 * j + l.val))
    (e1 : ∀ l : Fin 256, x1 (ix2 r l) = ct (256 * j + l.val))
    (e2 : x2 (ix2 r (0 : Fin 1)) = ls) (e3 : x3 (ix2 r (0 : Fin 1)) = lt) :
    step1 x0 x1 x2 x3 p4 (ix2 r (0 : Fin 1)) = p4 (ix2 r (0 : Fin 1)) + tileTerm cs ct ls lt j := by
  rw [step1_apply]
  unfold tileTerm
  congr 1
  exact Finset.sum_congr rfl fun l _ => by rw [e0 l, e1 l, e2, e3]

section Blocks

variable (V : (c : Dev nD) → (b : Ref sig .tc) → Buf (Elt Ideal) ((c : Thread nD τ).loc b)) (c : Dev nD)
variable (Cs Ct : ℕ → ℕ → EReal) (Ls Lt : ℕ → EReal)

/-- The student cache's block at a point: rows 512·(t / 125) …, columns 256·(t % 125) … of the cached logits. -/
private theorem blk0 (h0 : (V c main_v8_7 : S2048x32000.Idx → EReal) = fun i => Cs (i 0).val (i 1).val) (t : Fin cfg1.N) :
    (iblk1 V c 0 t : S512x256.Idx → EReal)
      = fun y => Cs (512 * (t.val / 125) + (y 0).val) (256 * (t.val % 125) + (y 1).val) := by
  obtain ⟨e0, e1, -⟩ := idx_facts t
  funext y
  unfold iblk1
  rw [View.read_apply]
  show V c main_v8_7 (((cfg1.win 0).blk t).view.emb y) = _
  rw [h0]
  have a0 : ((((cfg1.win 0).blk t).view.emb y) 0).val = 512 * (t.val / 125) + (y 0).val := by
    show win1_0.index t (0 : Fin 2) * 512 + 1 * (y 0).val = _
    rw [e0]; omega
  have a1 : ((((cfg1.win 0).blk t).view.emb y) 1).val = 256 * (t.val % 125) + (y 1).val := by
    show win1_0.index t (1 : Fin 2) * 256 + 1 * (y 1).val = _
    rw [e1]; omega
  show Cs ((((cfg1.win 0).blk t).view.emb y) 0).val ((((cfg1.win 0).blk t).view.emb y) 1).val = _
  rw [a0, a1]

/-- The teacher cache's block at a point, likewise. -/
private theorem blk1 (h1 : (V c main_v8_8 : S2048x32000.Idx → EReal) = fun i => Ct (i 0).val (i 1).val) (t : Fin cfg1.N) :
    (iblk1 V c 1 t : S512x256.Idx → EReal)
      = fun y => Ct (512 * (t.val / 125) + (y 0).val) (256 * (t.val % 125) + (y 1).val) := by
  obtain ⟨-, -, e0, e1, -⟩ := idx_facts t
  funext y
  unfold iblk1
  rw [View.read_apply]
  show V c main_v8_8 (((cfg1.win 1).blk t).view.emb y) = _
  rw [h1]
  have a0 : ((((cfg1.win 1).blk t).view.emb y) 0).val = 512 * (t.val / 125) + (y 0).val := by
    show win1_1.index t (0 : Fin 2) * 512 + 1 * (y 0).val = _
    rw [e0]; omega
  have a1 : ((((cfg1.win 1).blk t).view.emb y) 1).val = 256 * (t.val % 125) + (y 1).val := by
    show win1_1.index t (1 : Fin 2) * 256 + 1 * (y 1).val = _
    rw [e1]; omega
  show Ct ((((cfg1.win 1).blk t).view.emb y) 0).val ((((cfg1.win 1).blk t).view.emb y) 1).val = _
  rw [a0, a1]

/-- The student log-sum-exp column's block at a point: rows 512·(t / 125) …. -/
private theorem blk2 (h2 : (V c main_v12 : S2048x1.Idx → EReal) = fun i => Ls (i 0).val) (t : Fin cfg1.N) :
    (iblk1 V c 2 t : S512x1.Idx → EReal) = fun y => Ls (512 * (t.val / 125) + (y 0).val) := by
  obtain ⟨-, -, -, -, e0, -⟩ := idx_facts t
  funext y
  unfold iblk1
  rw [View.read_apply]
  show V c main_v12 (((cfg1.win 2).blk t).view.emb y) = _
  rw [h2]
  have a0 : ((((cfg1.win 2).blk t).view.emb y) 0).val = 512 * (t.val / 125) + (y 0).val := by
    show win1_2.index t (0 : Fin 2) * 512 + 1 * (y 0).val = _
    rw [e0]; omega
  show Ls ((((cfg1.win 2).blk t).view.emb y) 0).val = _
  rw [a0]

/-- The teacher log-sum-exp column's block at a point, likewise. -/
private theorem blk3 (h3 : (V c main_v14 : S2048x1.Idx → EReal) = fun i => Lt (i 0).val) (t : Fin cfg1.N) :
    (iblk1 V c 3 t : S512x1.Idx → EReal) = fun y => Lt (512 * (t.val / 125) + (y 0).val) := by
  obtain ⟨-, -, -, -, -, -, e0, -⟩ := idx_facts t
  funext y
  unfold iblk1
  rw [View.read_apply]
  show V c main_v14 (((cfg1.win 3).blk t).view.emb y) = _
  rw [h3]
  have a0 : ((((cfg1.win 3).blk t).view.emb y) 0).val = 512 * (t.val / 125) + (y 0).val := by
    show win1_3.index t (0 : Fin 2) * 512 + 1 * (y 0).val = _
    rw [e0]; omega
  show Lt ((((cfg1.win 3).blk t).view.emb y) 0).val = _
  rw [a0]

/-- THE RUNNING SUM: after point `n` the row-sum block holds, at row `r`, the divergence sum of row 512·(n / 125) + r over
    column tiles 0 … n % 125 — by induction on the point, the first column tile of a row tile starting from zero. -/
private theorem running (h0 : (V c main_v8_7 : S2048x32000.Idx → EReal) = fun i => Cs (i 0).val (i 1).val)
    (h1 : (V c main_v8_8 : S2048x32000.Idx → EReal) = fun i => Ct (i 0).val (i 1).val)
    (h2 : (V c main_v12 : S2048x1.Idx → EReal) = fun i => Ls (i 0).val)
    (h3 : (V c main_v14 : S2048x1.Idx → EReal) = fun i => Lt (i 0).val) :
    ∀ (n : ℕ) (hn : n < cfg1.N) (r : Fin 512),
      outsAt1 V c n hn (ix2 r (0 : Fin 1))
        = Rrun (Cs (512 * (n / 125) + r.val)) (Ct (512 * (n / 125) + r.val)) (Ls (512 * (n / 125) + r.val))
            (Lt (512 * (n / 125) + r.val)) (n % 125) := by
  intro n
  induction n using Nat.strong_induction_on with
  | _ n ih =>
    intro hn r
    by_cases hm : n % 125 = 0
    · refine (congrFun (outsAt_A V c ⟨n, hn⟩ hm) (ix2 r (0 : Fin 1))).trans ?_
      refine (step1_tile (iblk1 V c 0 ⟨n, hn⟩) (iblk1 V c 1 ⟨n, hn⟩) (iblk1 V c 2 ⟨n, hn⟩) (iblk1 V c 3 ⟨n, hn⟩)
        (k1_pay2 (F := Ideal)) (Cs (512 * (n / 125) + r.val)) (Ct (512 * (n / 125) + r.val)) (Ls (512 * (n / 125) + r.val))
        (Lt (512 * (n / 125) + r.val)) (n % 125) r
        (fun l => congrFun (blk0 V c Cs h0 ⟨n, hn⟩) (ix2 r l))
        (fun l => congrFun (blk1 V c Ct h1 ⟨n, hn⟩) (ix2 r l))
        (congrFun (blk2 V c Ls h2 ⟨n, hn⟩) (ix2 r (0 : Fin 1)))
        (congrFun (blk3 V c Lt h3 ⟨n, hn⟩) (ix2 r (0 : Fin 1)))).trans ?_
      rw [reset1, zero_add, hm]
      rfl
    · refine (congrFun (outsAt_B V c ⟨n, hn⟩ hm) (ix2 r (0 : Fin 1))).trans ?_
      refine (step1_tile (iblk1 V c 0 ⟨n, hn⟩) (iblk1 V c 1 ⟨n, hn⟩) (iblk1 V c 2 ⟨n, hn⟩) (iblk1 V c 3 ⟨n, hn⟩)
        (outsAt1 V c (n - 1) (Nat.lt_of_le_of_lt (Nat.sub_le _ _) hn))
        (Cs (512 * (n / 125) + r.val)) (Ct (512 * (n / 125) + r.val)) (Ls (512 * (n / 125) + r.val))
        (Lt (512 * (n / 125) + r.val)) (n % 125) r
        (fun l => congrFun (blk0 V c Cs h0 ⟨n, hn⟩) (ix2 r l))
        (fun l => congrFun (blk1 V c Ct h1 ⟨n, hn⟩) (ix2 r l))
        (congrFun (blk2 V c Ls h2 ⟨n, hn⟩) (ix2 r (0 : Fin 1)))
        (congrFun (blk3 V c Lt h3 ⟨n, hn⟩) (ix2 r (0 : Fin 1)))).trans ?_
      rw [ih (n - 1) (by omega) (Nat.lt_of_le_of_lt (Nat.sub_le _ _) hn) r]
      have q : (n - 1) / 125 = n / 125 := by omega
      have m : n % 125 = (n - 1) % 125 + 1 := by omega
      rw [q, m]
      rfl

/-- The array the second pass leaves: per row the divergence sum over all 125 column tiles. -/
private abbrev total : S2048x1.Idx → EReal :=
  fun i => Rrun (Cs (i 0).val) (Ct (i 0).val) (Ls (i 0).val) (Lt (i 0).val) 124

/-- An index of the array is in point `t`'s output block iff each coordinate is in the block's range on its axis. -/
private theorem mem_blk (t : Fin cfg1.N) (i : S2048x1.Idx) :
    i ∈ ((cfg1.win 4).blk t).view.set ↔ ∀ a : Fin 2, win1_4.index t a * S512x1.size a ≤ (i a).val ∧ (i a).val < win1_4.index t a * S512x1.size a + S512x1.size a := by
  show i ∈ ((View.whole main_v25).slice (win1_4.rect t)).set ↔ _
  rw [View.set_slice_whole, Rect.mem_set_unit]
  exact Iff.rfl

/-- What a writing point writes back — the last column tile of a row tile — is that row tile's block of the totals. -/
private theorem flushed_eq (h0 : (V c main_v8_7 : S2048x32000.Idx → EReal) = fun i => Cs (i 0).val (i 1).val)
    (h1 : (V c main_v8_8 : S2048x32000.Idx → EReal) = fun i => Ct (i 0).val (i 1).val)
    (h2 : (V c main_v12 : S2048x1.Idx → EReal) = fun i => Ls (i 0).val)
    (h3 : (V c main_v14 : S2048x1.Idx → EReal) = fun i => Lt (i 0).val)
    (t : Fin cfg1.N) (hf : (cfg1.win 4).flush t = true) :
    (dat1 V c).flushed 4 t = ((cfg1.win 4).blk t).view.read (Elt Ideal) (total Cs Ct Ls Lt) := by
  have h124 : t.val % 125 = 124 := (flush1_4 t).mp hf
  obtain ⟨-, -, -, -, -, -, -, -, e0, -⟩ := idx_facts t
  show (cfg1.win 4).cut (grid1.coords t) ((dat1 V c).after 4 t) = _
  rw [after1_4]
  show (outsAt1 V c t.val t.isLt : S512x1.Idx → EReal) = fun y => total Cs Ct Ls Lt (((cfg1.win 4).blk t).view.emb y)
  funext y
  obtain ⟨r, q, rfl⟩ : ∃ (r : Fin 512) (q : Fin 1), y = ix2 r q := ⟨y 0, y 1, eq_ix2 y⟩
  obtain rfl : q = 0 := Subsingleton.elim _ _
  rw [running V c Cs Ct Ls Lt h0 h1 h2 h3 t.val t.isLt r, h124]
  have a0 : ((((cfg1.win 4).blk t).view.emb (ix2 r (0 : Fin 1))) 0).val = 512 * (t.val / 125) + r.val := by
    show win1_4.index t (0 : Fin 2) * 512 + 1 * r.val = _
    rw [e0]; omega
  show _ = Rrun (Cs ((((cfg1.win 4).blk t).view.emb (ix2 r (0 : Fin 1))) 0).val) (Ct ((((cfg1.win 4).blk t).view.emb (ix2 r (0 : Fin 1))) 0).val)
    (Ls ((((cfg1.win 4).blk t).view.emb (ix2 r (0 : Fin 1))) 0).val) (Lt ((((cfg1.win 4).blk t).view.emb (ix2 r (0 : Fin 1))) 0).val) 124
  rw [a0]

/-- Every row of the array lies in the output block of the last column tile of its row tile. -/
private theorem cover (i : S2048x1.Idx) :
    ∃ t : Fin cfg1.N, (cfg1.win 4).flush t = true ∧ i ∈ ((cfg1.win 4).blk t).view.set := by
  have hN : cfg1.N = 500 := N_1
  have hi0 : (i 0).val < 2048 := (i 0).isLt
  have hi1 : (i 1).val < 1 := (i 1).isLt
  have ht : 125 * ((i 0).val / 512) + 124 < cfg1.N := by rw [hN]; omega
  obtain ⟨-, -, -, -, -, -, -, -, e0, e1⟩ := idx_facts ⟨125 * ((i 0).val / 512) + 124, ht⟩
  dsimp only at e0 e1
  refine ⟨⟨125 * ((i 0).val / 512) + 124, ht⟩,
    (flush1_4 _).mpr (by show (125 * ((i 0).val / 512) + 124) % 125 = 124; omega), ?_⟩
  rw [mem_blk]
  intro a
  match a with
  | ⟨0, _⟩ =>
    show win1_4.index ⟨125 * ((i 0).val / 512) + 124, ht⟩ (0 : Fin 2) * 512 ≤ (i 0).val
      ∧ (i 0).val < win1_4.index ⟨125 * ((i 0).val / 512) + 124, ht⟩ (0 : Fin 2) * 512 + 512
    rw [e0]; omega
  | ⟨1, _⟩ =>
    show win1_4.index ⟨125 * ((i 0).val / 512) + 124, ht⟩ (1 : Fin 2) * 1 ≤ (i 1).val
      ∧ (i 1).val < win1_4.index ⟨125 * ((i 0).val / 512) + 124, ht⟩ (1 : Fin 2) * 1 + 1
    rw [e1]; omega

end Blocks

/-- THE SECOND PASS'S ARRAY after its run, from the arrays it is entered with: per row the divergence sum over all
    125 column tiles of the two cached logit rows against their log-sum-exps. -/
theorem final (V : (c : Dev nD) → (b : Ref sig .tc) → Buf (Elt Ideal) ((c : Thread nD τ).loc b)) (c : Dev nD)
    (Cs Ct : ℕ → ℕ → EReal) (Ls Lt : ℕ → EReal)
    (h0 : (V c main_v8_7 : S2048x32000.Idx → EReal) = fun i => Cs (i 0).val (i 1).val)
    (h1 : (V c main_v8_8 : S2048x32000.Idx → EReal) = fun i => Ct (i 0).val (i 1).val)
    (h2 : (V c main_v12 : S2048x1.Idx → EReal) = fun i => Ls (i 0).val)
    (h3 : (V c main_v14 : S2048x1.Idx → EReal) = fun i => Lt (i 0).val) :
    ((dat1 V c).arrAt 4 cfg1.N : S2048x1.Idx → EReal)
      = fun i => Rrun (Cs (i 0).val) (Ct (i 0).val) (Ls (i 0).val) (Lt (i 0).val) 124 :=
  (dat1 V c).arrAt_eq_of_cover 4 (total Cs Ct Ls Lt) (fun t hf => flushed_eq V c Cs Ct Ls Lt h0 h1 h2 h3 t hf) cover

end Cert.KernelIdeal.R1

end
-- ==== Proof.Glue.lean ====
import proofs.«430291_j37958920962546_2_alg».proof.Proof.Gen.KernelIdeal.Frame
import proofs.«430291_j37958920962546_2_alg».proof.Proof.R0Final
import proofs.«430291_j37958920962546_2_alg».proof.Proof.R1Final
import proofs.«430291_j37958920962546_2_alg».proof.Proof.Spec
import proofs.«430291_j37958920962546_2_alg».proof.Proof.Consts
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Glue

open Cert.KernelIdeal Cert.KernelIdeal.Gen Cert.Distill

/-! ## The arguments as the first pass is entered

The host operations before the first pass change the four float arguments' format, which on extended reals is the identity,
and form the looked-up label column: the target where it is not the ignore index, column 0 otherwise. -/

section Walk

variable (m : (ℓ : Loc nD τ sig) → Buf (Elt Ideal) ℓ) (ρ : Dev nD → PrngReg) (c : Dev nD)

/-- The five argument arrays as launched. -/
private abbrev a0 : S2048x2048.Idx → EReal := m ((c.tc : Thread nD τ).loc main_arg0)
private abbrev a1 : S2048x4096.Idx → EReal := m ((c.tc : Thread nD τ).loc main_arg1)
private abbrev a2 : S32000x2048.Idx → EReal := m ((c.tc : Thread nD τ).loc main_arg2)
private abbrev a3 : S32000x4096.Idx → EReal := m ((c.tc : Thread nD τ).loc main_arg3)
private abbrev a4 : S2048.Idx → BitVec 32 := m ((c.tc : Thread nD τ).loc main_arg4)

private theorem v0_eq : (V3 m ρ c main_v0 : S2048x2048.Idx → EReal) = fun i => nat2 (a0 m c) (i 0).val (i 1).val := by
  show StableHlo.after hostOps0_2 (StableHlo.after hostOps0_1 (StableHlo.after hostOps0 (W0 m ρ c))) (Proc.devRef .tc main_v0) = _
  after_results
  funext i
  exact (nat2_apply (a0 m c) i).symm
private theorem v1_eq : (V3 m ρ c main_v1 : S2048x4096.Idx → EReal) = fun i => nat2 (a1 m c) (i 0).val (i 1).val := by
  show StableHlo.after hostOps0_2 (StableHlo.after hostOps0_1 (StableHlo.after hostOps0 (W0 m ρ c))) (Proc.devRef .tc main_v1) = _
  after_results
  funext i
  exact (nat2_apply (a1 m c) i).symm
private theorem v2_eq : (V3 m ρ c main_v2 : S32000x2048.Idx → EReal) = fun i => nat2 (a2 m c) (i 0).val (i 1).val := by
  show StableHlo.after hostOps0_2 (StableHlo.after hostOps0_1 (StableHlo.after hostOps0 (W0 m ρ c))) (Proc.devRef .tc main_v2) = _
  after_results
  funext i
  exact (nat2_apply (a2 m c) i).symm
private theorem v3_eq : (V3 m ρ c main_v3 : S32000x4096.Idx → EReal) = fun i => nat2 (a3 m c) (i 0).val (i 1).val := by
  show StableHlo.after hostOps0_2 (StableHlo.after hostOps0_1 (StableHlo.after hostOps0 (W0 m ρ c))) (Proc.devRef .tc main_v3) = _
  after_results
  funext i
  exact (nat2_apply (a3 m c) i).symm

/-- The looked-up label column at row n: the reshape reads the select at position n. -/
private theorem lab_at (A : (⟨1, ![2048]⟩ : Shape).Idx → BitVec 32) (i : (⟨2, ![2048, 1]⟩ : Shape).Idx) :
    shapeCast (⟨2, ![2048, 1]⟩ : Shape)
      (select (cmpi .ne A (broadcastInDim S2048 ![] bcast_S_S2048 (constantI S_ 32 4294967196#32))) A
        (broadcastInDim S2048 ![] bcast_S_S2048 (constantI S_ 32 0#32))) shapeCasts_S2048_S2048x1 i
      = safeLab (nat1 A (i 0).val) := by
  have h1 : (i 1).val < 1 := idx2_lt1 i
  have h0 : (i 0).val < 2048 := idx2_lt0 i
  rw [shapeCast_apply _ shapeCasts_S2048_S2048x1 i (ix1 ⟨(i 0).val, h0⟩)
    (by rw [Shape.rowMajor_val_one, Shape.rowMajor_val_two]; show (i 0).val = (i 0).val * 1 + (i 1).val; omega)]
  rw [select_apply]
  have hn : nat1 A (i 0).val = A (ix1 ⟨(i 0).val, h0⟩) := nat1_apply A (ix1 ⟨(i 0).val, h0⟩)
  rw [hn]
  rfl

private theorem v7_eq : (V3 m ρ c main_v7 : S2048x1.Idx → BitVec 32) = fun i => safeLab (nat1 (a4 m c) (i 0).val) := by
  show StableHlo.after hostOps0_2 (StableHlo.after hostOps0_1 (StableHlo.after hostOps0 (W0 m ρ c))) (Proc.devRef .tc main_v7) = _
  after_results
  funext i
  exact lab_at (a4 m c) i

/-- The validity bits, as every later stretch reads them. -/
private theorem v5_eq : (W4 m ρ c (Proc.devRef .tc main_v5) : S2048.Idx → BitVec 1) = fun i => validBit (a4 m c i) := by
  rw [W4_of_ne m ρ c main_v5 (by decide)]
  show StableHlo.after hostOps0_2 (StableHlo.after hostOps0_1 (StableHlo.after hostOps0 (W0 m ρ c))) (Proc.devRef .tc main_v5) = _
  after_results
  rfl

/-! ## One stretch of host operations at a time

What each stretch leaves at the buffers read later, from arbitrary contents `X` at its entry: the operations' own terms at
the buffers they write, `X` itself at those they do not. -/

section Stretches
variable (X : Valuation τ sig (Elt Ideal))

private theorem s12_v24 : (StableHlo.after hostOps1_2 X (Proc.devRef .tc main_v24) : S_.Idx → EReal)
    = Host.divf (F := Ideal) (Host.negf (F := Ideal) (Host.reduceAdd (F := Ideal) (X (Proc.devRef .tc main_v21) : S2048x1.Idx → EReal)
        (constant (F := Ideal) S_ .f32 0x00000000#32) reducesTo_S2048x1_S_d0_1 h_S_)) (X (Proc.devRef .tc main_v19) : S_.Idx → EReal) := by
  after_results
private theorem s12_v12 : (StableHlo.after hostOps1_2 X (Proc.devRef .tc main_v12)) = X (Proc.devRef .tc main_v12) := by
  after_results
private theorem s12_v14 : (StableHlo.after hostOps1_2 X (Proc.devRef .tc main_v14)) = X (Proc.devRef .tc main_v14) := by
  after_results
private theorem s12_v87 : (StableHlo.after hostOps1_2 X (Proc.devRef .tc main_v8_7)) = X (Proc.devRef .tc main_v8_7) := by
  after_results
private theorem s12_v88 : (StableHlo.after hostOps1_2 X (Proc.devRef .tc main_v8_8)) = X (Proc.devRef .tc main_v8_8) := by
  after_results

private theorem s11_v21 : (StableHlo.after hostOps1_1 X (Proc.devRef .tc main_v21) : S2048x1.Idx → EReal)
    = select (X (Proc.devRef .tc main_v20) : S2048x1.Idx → BitVec 1) (X (Proc.devRef .tc main_v15) : S2048x1.Idx → EReal)
        (broadcastInDim S2048x1 ![] bcast_S_S2048x1 (X (Proc.devRef .tc main_cst) : S_.Idx → EReal)) := by
  after_results
  rfl
private theorem s11_v19 : (StableHlo.after hostOps1_1 X (Proc.devRef .tc main_v19)) = X (Proc.devRef .tc main_v19) := by
  after_results
private theorem s11_v12 : (StableHlo.after hostOps1_1 X (Proc.devRef .tc main_v12)) = X (Proc.devRef .tc main_v12) := by
  after_results
private theorem s11_v14 : (StableHlo.after hostOps1_1 X (Proc.devRef .tc main_v14)) = X (Proc.devRef .tc main_v14) := by
  after_results
private theorem s11_v87 : (StableHlo.after hostOps1_1 X (Proc.devRef .tc main_v8_7)) = X (Proc.devRef .tc main_v8_7) := by
  after_results
private theorem s11_v88 : (StableHlo.after hostOps1_1 X (Proc.devRef .tc main_v8_8)) = X (Proc.devRef .tc main_v8_8) := by
  after_results

private theorem s1_v12 : (StableHlo.after hostOps1 X (Proc.devRef .tc main_v12) : S2048x1.Idx → EReal)
    = addf (F := Ideal) (s := S2048x1) (φ := .f32) (X (Proc.devRef .tc main_v8_2)) (Host.log (F := Ideal) (s := S2048x1) (φ := .f32) (X (Proc.devRef .tc main_v8_3))) := by
  after_results
private theorem s1_v14 : (StableHlo.after hostOps1 X (Proc.devRef .tc main_v14) : S2048x1.Idx → EReal)
    = addf (F := Ideal) (s := S2048x1) (φ := .f32) (X (Proc.devRef .tc main_v8_4)) (Host.log (F := Ideal) (s := S2048x1) (φ := .f32) (X (Proc.devRef .tc main_v8_5))) := by
  after_results
private theorem s1_v15 : (StableHlo.after hostOps1 X (Proc.devRef .tc main_v15) : S2048x1.Idx → EReal)
    = subf (F := Ideal) (s := S2048x1) (φ := .f32) (X (Proc.devRef .tc main_v8_6))
        (addf (F := Ideal) (s := S2048x1) (φ := .f32) (X (Proc.devRef .tc main_v8_0)) (Host.log (F := Ideal) (s := S2048x1) (φ := .f32) (X (Proc.devRef .tc main_v8_1)))) := by
  after_results
private theorem s1_v19 : (StableHlo.after hostOps1 X (Proc.devRef .tc main_v19) : S_.Idx → EReal)
    = sitofp (F := Ideal) .f32 (maxsi (Host.reduce IntOp.addi (extui 32 (X (Proc.devRef .tc main_v5) : S2048.Idx → BitVec 1) natLt_1_32)
        (constantI S_ 32 0#32) reducesTo_S2048_S_d0 h_S_) (constantI S_ 32 1#32)) := by
  after_results
private theorem s1_v20 : (StableHlo.after hostOps1 X (Proc.devRef .tc main_v20) : S2048x1.Idx → BitVec 1)
    = shapeCast S2048x1 (X (Proc.devRef .tc main_v5) : S2048.Idx → BitVec 1) shapeCasts_S2048_S2048x1 := by
  after_results
  rfl
private theorem s1_cst : (StableHlo.after hostOps1 X (Proc.devRef .tc main_cst) : S_.Idx → EReal)
    = constant (F := Ideal) S_ .f32 0x00000000#32 := by
  after_results
private theorem s1_v87 : (StableHlo.after hostOps1 X (Proc.devRef .tc main_v8_7)) = X (Proc.devRef .tc main_v8_7) := by
  after_results
private theorem s1_v88 : (StableHlo.after hostOps1 X (Proc.devRef .tc main_v8_8)) = X (Proc.devRef .tc main_v8_8) := by
  after_results

private theorem s2_v30 : (StableHlo.after hostOps2 X (Proc.devRef .tc main_v30) : S_.Idx → EReal)
    = addf (F := Ideal) (mulf (F := Ideal) (constant (F := Ideal) S_ .f32 0x3F000000#32) (X (Proc.devRef .tc main_v24) : S_.Idx → EReal))
        (mulf (F := Ideal) (constant (F := Ideal) S_ .f32 0x3F000000#32)
          (Host.divf (F := Ideal) (Host.reduceAdd (F := Ideal) (X (Proc.devRef .tc main_v25) : S2048x1.Idx → EReal)
            (constant (F := Ideal) S_ .f32 0x00000000#32) reducesTo_S2048x1_S_d0_1 h_S_) (constant (F := Ideal) S_ .f32 0x45800000#32))) := by
  after_results

end Stretches

/-! ## The arrays between the passes -/

/-- Student and teacher logits by row and column number. -/
private abbrev Sg : ℕ → ℕ → EReal := logitsS (a0 m c) (a2 m c)
private abbrev Tg : ℕ → ℕ → EReal := logitsT (a1 m c) (a3 m c)
/-- The target words by row number. -/
private abbrev tg : ℕ → BitVec 32 := targets (a4 m c)

private theorem r0 :
    ((dat0 (V3 m ρ) c).arrAt 5 cfg0.N : S2048x1.Idx → EReal) = (fun i => Mrun (Sg m c (i 0).val) 124)
    ∧ ((dat0 (V3 m ρ) c).arrAt 6 cfg0.N : S2048x1.Idx → EReal) = (fun i => Lrun (Sg m c (i 0).val) 124)
    ∧ ((dat0 (V3 m ρ) c).arrAt 7 cfg0.N : S2048x1.Idx → EReal) = (fun i => Mrun (Sg m c (i 0).val) 124)
    ∧ ((dat0 (V3 m ρ) c).arrAt 8 cfg0.N : S2048x1.Idx → EReal) = (fun i => Lrun (Sg m c (i 0).val) 124)
    ∧ ((dat0 (V3 m ρ) c).arrAt 9 cfg0.N : S2048x1.Idx → EReal) = (fun i => Mrun (Tg m c (i 0).val) 124)
    ∧ ((dat0 (V3 m ρ) c).arrAt 10 cfg0.N : S2048x1.Idx → EReal) = (fun i => Lrun (Tg m c (i 0).val) 124)
    ∧ ((dat0 (V3 m ρ) c).arrAt 11 cfg0.N : S2048x1.Idx → EReal)
        = (fun i => Grun (Sg m c (i 0).val) (safeLab (tg m c (i 0).val)) 124)
    ∧ ((dat0 (V3 m ρ) c).arrAt 12 cfg0.N : S2048x32000.Idx → EReal) = (fun i => Sg m c (i 0).val (i 1).val)
    ∧ ((dat0 (V3 m ρ) c).arrAt 13 cfg0.N : S2048x32000.Idx → EReal) = (fun i => Tg m c (i 0).val (i 1).val) :=
  R0.final (V3 m ρ) c (nat2 (a0 m c)) (nat2 (a1 m c)) (nat2 (a2 m c)) (nat2 (a3 m c))
    (fun n => safeLab (nat1 (a4 m c) n)) (v0_eq m ρ c) (v1_eq m ρ c) (v2_eq m ρ c) (v3_eq m ρ c) (v7_eq m ρ c)

private theorem w4_v80 : (W4 m ρ c (Proc.devRef .tc main_v8_0) : S2048x1.Idx → EReal) = fun i => Mrun (Sg m c (i 0).val) 124 :=
  (W4_arr m ρ c 5).trans (r0 m ρ c).1
private theorem w4_v81 : (W4 m ρ c (Proc.devRef .tc main_v8_1) : S2048x1.Idx → EReal) = fun i => Lrun (Sg m c (i 0).val) 124 :=
  (W4_arr m ρ c 6).trans (r0 m ρ c).2.1
private theorem w4_v82 : (W4 m ρ c (Proc.devRef .tc main_v8_2) : S2048x1.Idx → EReal) = fun i => Mrun (Sg m c (i 0).val) 124 :=
  (W4_arr m ρ c 7).trans (r0 m ρ c).2.2.1
private theorem w4_v83 : (W4 m ρ c (Proc.devRef .tc main_v8_3) : S2048x1.Idx → EReal) = fun i => Lrun (Sg m c (i 0).val) 124 :=
  (W4_arr m ρ c 8).trans (r0 m ρ c).2.2.2.1
private theorem w4_v84 : (W4 m ρ c (Proc.devRef .tc main_v8_4) : S2048x1.Idx → EReal) = fun i => Mrun (Tg m c (i 0).val) 124 :=
  (W4_arr m ρ c 9).trans (r0 m ρ c).2.2.2.2.1
private theorem w4_v85 : (W4 m ρ c (Proc.devRef .tc main_v8_5) : S2048x1.Idx → EReal) = fun i => Lrun (Tg m c (i 0).val) 124 :=
  (W4_arr m ρ c 10).trans (r0 m ρ c).2.2.2.2.2.1
private theorem w4_v86 : (W4 m ρ c (Proc.devRef .tc main_v8_6) : S2048x1.Idx → EReal)
    = fun i => Grun (Sg m c (i 0).val) (safeLab (tg m c (i 0).val)) 124 :=
  (W4_arr m ρ c 11).trans (r0 m ρ c).2.2.2.2.2.2.1
private theorem w4_v87 : (W4 m ρ c (Proc.devRef .tc main_v8_7) : S2048x32000.Idx → EReal) = fun i => Sg m c (i 0).val (i 1).val :=
  (W4_arr m ρ c 12).trans (r0 m ρ c).2.2.2.2.2.2.2.1
private theorem w4_v88 : (W4 m ρ c (Proc.devRef .tc main_v8_8) : S2048x32000.Idx → EReal) = fun i => Tg m c (i 0).val (i 1).val :=
  (W4_arr m ρ c 13).trans (r0 m ρ c).2.2.2.2.2.2.2.2

/-! ## Between the passes: the log-sum-exps, the hard loss -/

/-- A reshaped vector's column reads the vector at the row. -/
private theorem col_at {α : Type} (f : (⟨1, ![2048]⟩ : Shape).Idx → α) (i : (⟨2, ![2048, 1]⟩ : Shape).Idx) :
    shapeCast (⟨2, ![2048, 1]⟩ : Shape) f shapeCasts_S2048_S2048x1 i = f (ix1 ⟨(i 0).val, idx2_lt0 i⟩) := by
  have h1 : (i 1).val < 1 := idx2_lt1 i
  exact shapeCast_apply f shapeCasts_S2048_S2048x1 i (ix1 ⟨(i 0).val, idx2_lt0 i⟩)
    (by rw [Shape.rowMajor_val_one, Shape.rowMajor_val_two]; show (i 0).val = (i 0).val * 1 + (i 1).val; omega)

private theorem w5_v15 : (W5 m ρ c (Proc.devRef .tc main_v15) : S2048x1.Idx → EReal)
    = fun i => Grun (Sg m c (i 0).val) (safeLab (tg m c (i 0).val)) 124 - kLse (Sg m c (i 0).val) := by
  refine (s1_v15 (W4 m ρ c)).trans ?_
  rw [w4_v86, w4_v80, w4_v81]
  rfl

private theorem w5_v20 : (W5 m ρ c (Proc.devRef .tc main_v20) : S2048x1.Idx → BitVec 1) = fun i => validBit (tg m c (i 0).val) := by
  refine (s1_v20 (W4 m ρ c)).trans ?_
  rw [v5_eq]
  funext i
  rw [col_at]
  exact congrArg validBit (nat1_apply (a4 m c) (ix1 ⟨(i 0).val, idx2_lt0 i⟩)).symm

private theorem w5_v19 : (W5 m ρ c (Proc.devRef .tc main_v19) : S_.Idx → EReal)
    = fun _ => denom (a4 m c) reducesTo_S2048_S_d0 h_S_ := by
  refine (s1_v19 (W4 m ρ c)).trans ?_
  rw [v5_eq]
  funext j
  rw [eq_ix0 j]
  rfl

private theorem w5_cst : (W5 m ρ c (Proc.devRef .tc main_cst) : S_.Idx → EReal) = fun _ => (0 : EReal) := by
  refine (s1_cst (W4 m ρ c)).trans ?_
  funext j
  exact Consts.ofBits_zero

/-- One row's share of the hard loss's numerator. -/
private abbrev hardTerm (n : ℕ) : EReal :=
  Scalar.select (validBit (tg m c n)) (Grun (Sg m c n) (safeLab (tg m c n)) 124 - kLse (Sg m c n)) 0
/-- One row's divergence sum. -/
private abbrev jsdRow (n : ℕ) : EReal := Rrun (Sg m c n) (Tg m c n) (kLse (Sg m c n)) (kLse (Tg m c n)) 124

private theorem w6_v21 : (W6 m ρ c (Proc.devRef .tc main_v21) : S2048x1.Idx → EReal) = fun i => hardTerm m c (i 0).val := by
  refine (s11_v21 (W5 m ρ c)).trans ?_
  rw [w5_v20, w5_v15, w5_cst]
  rfl
private theorem w6_v19 : (W6 m ρ c (Proc.devRef .tc main_v19) : S_.Idx → EReal)
    = fun _ => denom (a4 m c) reducesTo_S2048_S_d0 h_S_ :=
  (s11_v19 (W5 m ρ c)).trans (w5_v19 m ρ c)

/-- The sum over a one-column array of a function of the row number, from zero, is the sum over the rows. -/
private theorem total_rows (g : ℕ → EReal) (j : S_.Idx) :
    Host.reduceAdd (F := Ideal) (fun i : S2048x1.Idx => g (i 0).val) (constant (F := Ideal) S_ .f32 0x00000000#32)
      reducesTo_S2048x1_S_d0_1 h_S_ j = ∑ n : Fin 2048, g n.val := by
  show Ideal.hostReduceAdd reducesTo_S2048x1_S_d0_1 (fun i : S2048x1.Idx => g (i 0).val) (Ideal.ofBits .f32 0x00000000#32) j = _
  rw [Ideal.hostReduceAdd_total reducesTo_S2048x1_S_d0_1 (fun b => b.elim0), Consts.ofBits_zero, zero_add]
  refine (sum_idx2 (n0 := 2048) (n1 := 1) (fun i => g (i 0).val)).trans ?_
  exact Finset.sum_congr rfl fun a _ => Fin.sum_univ_one _

private theorem v24_eq : (V7 m ρ c main_v24 : S_.Idx → EReal)
    = fun _ => Ideal.div (-(kHardNum (Sg m c) (tg m c))) (denom (a4 m c) reducesTo_S2048_S_d0 h_S_) := by
  refine (s12_v24 (W6 m ρ c)).trans ?_
  rw [w6_v21, w6_v19]
  funext j
  show Ideal.div (-(Host.reduceAdd (F := Ideal) (fun i : S2048x1.Idx => hardTerm m c (i 0).val)
    (constant (F := Ideal) S_ .f32 0x00000000#32) reducesTo_S2048x1_S_d0_1 h_S_ j)) (denom (a4 m c) reducesTo_S2048_S_d0 h_S_) = _
  rw [total_rows (hardTerm m c)]
  rfl

/-! ## The second pass's entry and its result -/

private theorem w7_v87 : (V7 m ρ c main_v8_7 : S2048x32000.Idx → EReal) = fun i => Sg m c (i 0).val (i 1).val :=
  (s12_v87 (W6 m ρ c)).trans ((s11_v87 (W5 m ρ c)).trans ((s1_v87 (W4 m ρ c)).trans (w4_v87 m ρ c)))
private theorem w7_v88 : (V7 m ρ c main_v8_8 : S2048x32000.Idx → EReal) = fun i => Tg m c (i 0).val (i 1).val :=
  (s12_v88 (W6 m ρ c)).trans ((s11_v88 (W5 m ρ c)).trans ((s1_v88 (W4 m ρ c)).trans (w4_v88 m ρ c)))
private theorem w7_v12 : (V7 m ρ c main_v12 : S2048x1.Idx → EReal) = fun i => kLse (Sg m c (i 0).val) := by
  refine (s12_v12 (W6 m ρ c)).trans ((s11_v12 (W5 m ρ c)).trans ((s1_v12 (W4 m ρ c)).trans ?_))
  rw [w4_v82, w4_v83]
  rfl
private theorem w7_v14 : (V7 m ρ c main_v14 : S2048x1.Idx → EReal) = fun i => kLse (Tg m c (i 0).val) := by
  refine (s12_v14 (W6 m ρ c)).trans ((s11_v14 (W5 m ρ c)).trans ((s1_v14 (W4 m ρ c)).trans ?_))
  rw [w4_v84, w4_v85]
  rfl

private theorem w8_v25 : (W8 m ρ c (Proc.devRef .tc main_v25) : S2048x1.Idx → EReal) = fun i => jsdRow m c (i 0).val :=
  (W8_arr m ρ c 4).trans (R1.final (V7 m ρ) c (Sg m c) (Tg m c) (fun n => kLse (Sg m c n)) (fun n => kLse (Tg m c n))
    (w7_v87 m ρ c) (w7_v88 m ρ c) (w7_v12 m ρ c) (w7_v14 m ρ c))
private theorem w8_v24 : (W8 m ρ c (Proc.devRef .tc main_v24) : S_.Idx → EReal)
    = fun _ => Ideal.div (-(kHardNum (Sg m c) (tg m c))) (denom (a4 m c) reducesTo_S2048_S_d0 h_S_) :=
  (W8_of_ne m ρ c main_v24 (by decide)).trans (v24_eq m ρ c)

end Walk

/-- THE TILED PROGRAM'S RESULT as a function of its arguments: the host operations before the first pass hand it the
    arguments (their change of float format is the identity) and the looked-up label column; between the passes they form
    the three log-sum-exps and the hard loss; after the second pass they sum its rows and combine the two losses. -/
theorem value (m : (ℓ : Loc nD τ sig) → Buf (Elt Ideal) ℓ) (ρ : Dev nD → PrngReg) (c : Dev nD) :
    (W9 m ρ c (Proc.devRef .tc main_v30) : S_.Idx → EReal)
      = fun _ => kernelValue (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) reducesTo_S2048_S_d0 h_S_ := by
  refine (s2_v30 (W8 m ρ c)).trans ?_
  rw [w8_v24, w8_v25]
  funext j
  show Ideal.ofBits .f32 0x3F000000#32 * Ideal.div (-(kHardNum (Sg m c) (tg m c))) (denom (a4 m c) reducesTo_S2048_S_d0 h_S_)
      + Ideal.ofBits .f32 0x3F000000#32 * Ideal.div (Host.reduceAdd (F := Ideal) (fun i : S2048x1.Idx => jsdRow m c (i 0).val)
          (constant (F := Ideal) S_ .f32 0x00000000#32) reducesTo_S2048x1_S_d0_1 h_S_ j) (Ideal.ofBits .f32 0x45800000#32) = _
  rw [total_rows (jsdRow m c), Consts.ofBits_half, Consts.ofBits_4096]
  rfl

end Cert.KernelIdeal.Glue

end
-- ==== Proof.RefRun.lean ====
import proofs.«430291_j37958920962546_2_alg».proof.Proof.Gen.ReferenceIdeal
import proofs.«430291_j37958920962546_2_alg».proof.Proof.RefReadP
import Idealize.ShloMosaic.Lib.StableHlo.Run

noncomputable section

open Idealize.ShloMosaic Idealize.ShloMosaic.TcCoe Idealize.SL.Sem Idealize.ShloMosaic.StableHlo

namespace Cert.ReferenceIdeal.RefValue

open Cert.ReferenceIdeal Cert.ReferenceIdeal.Gen Cert.ReferenceIdeal.ReadP

variable {F : FTy → Type} [FloatOps F]

/-- @main's 154 operations, in order (a called function's operations stand in its call's place, spelt `TRef.…`). -/
abbrev ops : List (HloOp τ sig (Elt F)) :=
  [ binary main_arg0 main_arg2 main_v0 ((fun l r => Host.dotGeneral dot_S2048x2048_S32000x2048_S2048x32000_1_1_0_0_n_n none l r) : (⟨S2048x2048, .f32⟩ : BufTy).Contents (Elt F) → (⟨S32000x2048, .f32⟩ : BufTy).Contents (Elt F) → (⟨S2048x32000, .f32⟩ : BufTy).Contents (Elt F)),
    binary main_arg1 main_arg3 main_v1 ((fun l r => Host.dotGeneral dot_S2048x4096_S32000x4096_S2048x32000_1_1_0_0_n_n none l r) : (⟨S2048x4096, .f32⟩ : BufTy).Contents (Elt F) → (⟨S32000x4096, .f32⟩ : BufTy).Contents (Elt F) → (⟨S2048x32000, .f32⟩ : BufTy).Contents (Elt F)),
    nullary main_c (constantI S_ 32 4294967196#32),
    unary main_c main_v2 (broadcastInDim S2048 ![] bcast_S_S2048 : (⟨S_, .i32⟩ : BufTy).Contents (Elt F) → (⟨S2048, .i32⟩ : BufTy).Contents (Elt F)),
    binary main_arg4 main_v2 main_v3 (cmpi .ne : (⟨S2048, .i32⟩ : BufTy).Contents (Elt F) → (⟨S2048, .i32⟩ : BufTy).Contents (Elt F) → (⟨S2048, .i1⟩ : BufTy).Contents (Elt F)),
    nullary main_c_0 (constantI S_ 32 0#32),
    TRef.unary (TRef.of (T := ⟨S_, .i32⟩) main_c_0) (TRef.of (T := ⟨S_, .i32⟩) main_call0_v0) id,
    TRef.unary (TRef.of (T := ⟨S_, .i32⟩) main_call0_v0) (TRef.of (T := ⟨S2048, .i32⟩) main_call0_v1) (broadcastInDim S2048 ![] bcast_S_S2048),
    TRef.ternary (TRef.of (T := ⟨S2048, .i1⟩) main_v3) (TRef.of (T := ⟨S2048, .i32⟩) main_arg4) (TRef.of (T := ⟨S2048, .i32⟩) main_call0_v1) (TRef.of (T := ⟨S2048, .i32⟩) main_v4) select,
    TRef.nullary (TRef.of (T := ⟨S_, .f32⟩) main_call1_cst) (constant S_ .f32 0xFF800000#32),
    TRef.binary (TRef.of (T := ⟨S2048x32000, .f32⟩) main_v0) (TRef.of (T := ⟨S_, .f32⟩) main_call1_cst) (TRef.of (T := ⟨S2048, .f32⟩) main_call1_v0) (fun x v => Host.reduce FloatOps.maximumf x v reducesTo_S2048x32000_S2048_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S2048, .f32⟩) main_call1_v1) (broadcastInDim S2048 ![] bcast_S_S2048),
    TRef.binary (TRef.of (T := ⟨S2048, .f32⟩) main_call1_v1) (TRef.of (T := ⟨S2048, .f32⟩) main_call1_v0) (TRef.of (T := ⟨S2048, .f32⟩) main_call1_v2) maximumf,
    TRef.unary (TRef.of (T := ⟨S2048, .f32⟩) main_call1_v2) (TRef.of (T := ⟨S2048x1, .f32⟩) main_call1_v3) (broadcastInDim S2048x1 ![0] bcast_S2048_S2048x1_0),
    TRef.unary (TRef.of (T := ⟨S2048x1, .f32⟩) main_call1_v3) (TRef.of (T := ⟨S2048x32000, .f32⟩) main_call1_v4) (broadcastInDim S2048x32000 ![0, 1] bcast_S2048x1_S2048x32000_0_1),
    TRef.binary (TRef.of (T := ⟨S2048x32000, .f32⟩) main_v0) (TRef.of (T := ⟨S2048x32000, .f32⟩) main_call1_v4) (TRef.of (T := ⟨S2048x32000, .f32⟩) main_call1_v5) subf,
    TRef.unary (TRef.of (T := ⟨S2048x32000, .f32⟩) main_call1_v5) (TRef.of (T := ⟨S2048x32000, .f32⟩) main_call1_v6) Host.exp,
    TRef.nullary (TRef.of (T := ⟨S_, .f32⟩) main_call1_cst_1) (constant S_ .f32 0x00000000#32),
    TRef.binary (TRef.of (T := ⟨S2048x32000, .f32⟩) main_call1_v6) (TRef.of (T := ⟨S_, .f32⟩) main_call1_cst_1) (TRef.of (T := ⟨S2048, .f32⟩) main_call1_v7) (fun x v => Host.reduceAdd x v reducesTo_S2048x32000_S2048_d1 h_S_),
    TRef.unary (TRef.of (T := ⟨S2048, .f32⟩) main_call1_v7) (TRef.of (T := ⟨S2048x1, .f32⟩) main_call1_v8) (broadcastInDim S2048x1 ![0] bcast_S2048_S2048x1_0),
    TRef.unary (TRef.of (T := ⟨S2048x1, .f32⟩) main_call1_v8) (TRef.of (T := ⟨S2048x1, .f32⟩) main_call1_v9) Host.log,
    TRef.unary (TRef.of (T := ⟨S2048x1, .f32⟩) main_call1_v9) (TRef.of (T := ⟨S2048x32000, .f32⟩) main_call1_v10) (broadcastInDim S2048x32000 ![0, 1] bcast_S2048x1_S2048x32000_0_1),
    TRef.binary (TRef.of (T := ⟨S2048x32000, .f32⟩) main_call1_v5) (TRef.of (T := ⟨S2048x32000, .f32⟩) main_call1_v10) (TRef.of (T := ⟨S2048x32000, .f32⟩) main_v5) subf,
    unary main_v4 main_v6 (broadcastInDim S2048x1 ![0] bcast_S2048_S2048x1_0 : (⟨S2048, .i32⟩ : BufTy).Contents (Elt F) → (⟨S2048x1, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S2048x1, .i32⟩) main_call2_v0) (broadcastInDim S2048x1 ![] bcast_S_S2048x1),
    TRef.binary (TRef.of (T := ⟨S2048x1, .i32⟩) main_v6) (TRef.of (T := ⟨S2048x1, .i32⟩) main_call2_v0) (TRef.of (T := ⟨S2048x1, .i1⟩) main_call2_v1) (cmpi .slt),
    TRef.nullary (TRef.of (T := ⟨S_, .i32⟩) main_call2_c_0) (constantI S_ 32 32000#32),
    TRef.unary (TRef.of (T := ⟨S_, .i32⟩) main_call2_c_0) (TRef.of (T := ⟨S2048x1, .i32⟩) main_call2_v2) (broadcastInDim S2048x1 ![] bcast_S_S2048x1),
    TRef.binary (TRef.of (T := ⟨S2048x1, .i32⟩) main_v6) (TRef.of (T := ⟨S2048x1, .i32⟩) main_call2_v2) (TRef.of (T := ⟨S2048x1, .i32⟩) main_call2_v3) addi,
    TRef.ternary (TRef.of (T := ⟨S2048x1, .i1⟩) main_call2_v1) (TRef.of (T := ⟨S2048x1, .i32⟩) main_call2_v3) (TRef.of (T := ⟨S2048x1, .i32⟩) main_v6) (TRef.of (T := ⟨S2048x1, .i32⟩) main_call2_v4) select,
    TRef.reshape (TRef.of (T := ⟨S2048x1, .i32⟩) main_call2_v4) (TRef.of (T := ⟨S2048x1x1, .i32⟩) main_call2_v5) rfl shapeCasts_S2048x1_S2048x1x1,
    TRef.nullary (TRef.of (T := ⟨S1, .i32⟩) main_call2_c_1) (constantI S1 32 31999#32),
    TRef.nullary (TRef.of (T := ⟨S_, .i32⟩) main_call2_c_2) (constantI S_ 32 0#32),
    TRef.unary (TRef.of (T := ⟨S_, .i32⟩) main_call2_c_2) (TRef.of (T := ⟨S2048x1x1, .i32⟩) main_call2_v6) (broadcastInDim S2048x1x1 ![] bcast_S_S2048x1x1),
    TRef.binary (TRef.of (T := ⟨S2048x1x1, .i32⟩) main_call2_v5) (TRef.of (T := ⟨S2048x1x1, .i32⟩) main_call2_v6) (TRef.of (T := ⟨S2048x1x1, .i1⟩) main_call2_v7) (cmpi .sge),
    TRef.unary (TRef.of (T := ⟨S1, .i32⟩) main_call2_c_1) (TRef.of (T := ⟨S1x1x1, .i32⟩) main_call2_v8) (broadcastInDim S1x1x1 ![2] bcast_S1_S1x1x1_2),
    TRef.unary (TRef.of (T := ⟨S1x1x1, .i32⟩) main_call2_v8) (TRef.of (T := ⟨S2048x1x1, .i32⟩) main_call2_v9) (broadcastInDim S2048x1x1 ![0, 1, 2] bcast_S1x1x1_S2048x1x1_0_1_2),
    TRef.binary (TRef.of (T := ⟨S2048x1x1, .i32⟩) main_call2_v5) (TRef.of (T := ⟨S2048x1x1, .i32⟩) main_call2_v9) (TRef.of (T := ⟨S2048x1x1, .i1⟩) main_call2_v10) (cmpi .sle),
    TRef.binary (TRef.of (T := ⟨S2048x1x1, .i1⟩) main_call2_v7) (TRef.of (T := ⟨S2048x1x1, .i1⟩) main_call2_v10) (TRef.of (T := ⟨S2048x1x1, .i1⟩) main_call2_v11) andi,
    TRef.nullary (TRef.of (T := ⟨S_, .i1⟩) main_call2_c_3) (constantI S_ 1 1#1),
    TRef.binary (TRef.of (T := ⟨S2048x1x1, .i1⟩) main_call2_v11) (TRef.of (T := ⟨S_, .i1⟩) main_call2_c_3) (TRef.of (T := ⟨S2048x1, .i1⟩) main_call2_v12) (fun x v => Host.reduce IntOp.andi x v reducesTo_S2048x1x1_S2048x1_d2 h_S_),
    TRef.binary (TRef.of (T := ⟨S2048x32000, .f32⟩) main_v5) (TRef.of (T := ⟨S2048x1x1, .i32⟩) main_call2_v5) (TRef.of (T := ⟨S2048x1, .f32⟩) main_call2_v13) (fun x i => Host.gather gather_S2048x32000_S2048x1x1_S2048x1_n_1_0_0_1_2_11 x i),
    TRef.nullary (TRef.of (T := ⟨S_, .f32⟩) main_call2_cst) (constant S_ .f32 0x7FC00000#32),
    TRef.unary (TRef.of (T := ⟨S_, .f32⟩) main_call2_cst) (TRef.of (T := ⟨S2048x1, .f32⟩) main_call2_v14) (broadcastInDim S2048x1 ![] bcast_S_S2048x1),
    TRef.ternary (TRef.of (T := ⟨S2048x1, .i1⟩) main_call2_v12) (TRef.of (T := ⟨S2048x1, .f32⟩) main_call2_v13) (TRef.of (T := ⟨S2048x1, .f32⟩) main_call2_v14) (TRef.of (T := ⟨S2048x1, .f32⟩) main_v7) select,
    reshape main_v7 main_v8 rfl shapeCasts_S2048x1_S2048,
    unary main_v3 main_v9 ((extui 32 · natLt_1_32) : (⟨S2048, .i1⟩ : BufTy).Contents (Elt F) → (⟨S2048, .i32⟩ : BufTy).Contents (Elt F)),
    nullary main_c_1 (constantI S_ 32 0#32),
    binary main_v9 main_c_1 main_v10 ((fun x v => Host.reduce IntOp.addi x v reducesTo_S2048_S_d0 h_S_) : (⟨S2048, .i32⟩ : BufTy).Contents (Elt F) → (⟨S_, .i32⟩ : BufTy).Contents (Elt F) → (⟨S_, .i32⟩ : BufTy).Contents (Elt F)),
    nullary main_c_2 (constantI S_ 32 1#32),
    binary main_v10 main_c_2 main_v11 (maxsi : (⟨S_, .i32⟩ : BufTy).Contents (Elt F) → (⟨S_, .i32⟩ : BufTy).Contents (Elt F) → (⟨S_, .i32⟩ : BufTy).Contents (Elt F)),
    nullary main_cst (constant S_ .f32 0x00000000#32),
    TRef.unary (TRef.of (T := ⟨S_, .f32⟩) main_cst) (TRef.of (T := ⟨S_, .f32⟩) main_call3_v0) id,
    TRef.unary (TRef.of (T := ⟨S_, .f32⟩) main_call3_v0) (TRef.of (T := ⟨S2048, .f32⟩) main_call3_v1) (broadcastInDim S2048 ![] bcast_S_S2048),
    TRef.ternary (TRef.of (T := ⟨S2048, .i1⟩) main_v3) (TRef.of (T := ⟨S2048, .f32⟩) main_v8) (TRef.of (T := ⟨S2048, .f32⟩) main_call3_v1) (TRef.of (T := ⟨S2048, .f32⟩) main_v12) select,
    nullary main_cst_3 (constant S_ .f32 0x00000000#32),
    binary main_v12 main_cst_3 main_v13 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    unary main_v13 main_v14 (Host.negf : (⟨S_, .f32⟩ : BufTy).Contents (Elt F) → (⟨S_, .f32⟩ : BufTy).Contents (Elt F)),
    unary main_v11 main_v15 (sitofp .f32 : (⟨S_, .i32⟩ : BufTy).Contents (Elt F) → (⟨S_, .f32⟩ : BufTy).Contents (Elt F)),
    binary main_v14 main_v15 main_v16 (Host.divf : (⟨S_, .f32⟩ : BufTy).Contents (Elt F) → (⟨S_, .f32⟩ : BufTy).Contents (Elt F) → (⟨S_, .f32⟩ : BufTy).Contents (Elt F)),
    nullary main_cst_4 (constant S_ .f32 0x3F800000#32),
    unary main_cst_4 main_v17 (broadcastInDim S2048x32000 ![] bcast_S_S2048x32000 : (⟨S_, .f32⟩ : BufTy).Contents (Elt F) → (⟨S2048x32000, .f32⟩ : BufTy).Contents (Elt F)),
    binary main_v0 main_v17 main_v18 (Host.divf : (⟨S2048x32000, .f32⟩ : BufTy).Contents (Elt F) → (⟨S2048x32000, .f32⟩ : BufTy).Contents (Elt F) → (⟨S2048x32000, .f32⟩ : BufTy).Contents (Elt F)),
    TRef.nullary (TRef.of (T := ⟨S_, .f32⟩) main_call4_cst) (constant S_ .f32 0xFF800000#32),
    TRef.binary (TRef.of (T := ⟨S2048x32000, .f32⟩) main_v18) (TRef.of (T := ⟨S_, .f32⟩) main_call4_cst) (TRef.of (T := ⟨S2048, .f32⟩) main_call4_v0) (fun x v => Host.reduce FloatOps.maximumf x v reducesTo_S2048x32000_S2048_d1 h_S_),
    TRef.nullary (TRef.of (T := ⟨S_, .f32⟩) main_call4_cst_0) (constant S_ .f32 0xFF800000#32),
    TRef.unary (TRef.of (T := ⟨S_, .f32⟩) main_call4_cst_0) (TRef.of (T := ⟨S2048, .f32⟩) main_call4_v1) (broadcastInDim S2048 ![] bcast_S_S2048),
    TRef.binary (TRef.of (T := ⟨S2048, .f32⟩) main_call4_v1) (TRef.of (T := ⟨S2048, .f32⟩) main_call4_v0) (TRef.of (T := ⟨S2048, .f32⟩) main_call4_v2) maximumf,
    TRef.unary (TRef.of (T := ⟨S2048, .f32⟩) main_call4_v2) (TRef.of (T := ⟨S2048x1, .f32⟩) main_call4_v3) (broadcastInDim S2048x1 ![0] bcast_S2048_S2048x1_0),
    TRef.unary (TRef.of (T := ⟨S2048x1, .f32⟩) main_call4_v3) (TRef.of (T := ⟨S2048x32000, .f32⟩) main_call4_v4) (broadcastInDim S2048x32000 ![0, 1] bcast_S2048x1_S2048x32000_0_1),
    TRef.binary (TRef.of (T := ⟨S2048x32000, .f32⟩) main_v18) (TRef.of (T := ⟨S2048x32000, .f32⟩) main_call4_v4) (TRef.of (T := ⟨S2048x32000, .f32⟩) main_call4_v5) subf,
    TRef.unary (TRef.of (T := ⟨S2048x32000, .f32⟩) main_call4_v5) (TRef.of (T := ⟨S2048x32000, .f32⟩) main_call4_v6) Host.exp,
    TRef.nullary (TRef.of (T := ⟨S_, .f32⟩) main_call4_cst_1) (constant S_ .f32 0x00000000#32),
    TRef.binary (TRef.of (T := ⟨S2048x32000, .f32⟩) main_call4_v6) (TRef.of (T := ⟨S_, .f32⟩) main_call4_cst_1) (TRef.of (T := ⟨S2048, .f32⟩) main_call4_v7) (fun x v => Host.reduceAdd x v reducesTo_S2048x32000_S2048_d1 h_S_),
    TRef.unary (TRef.of (T := ⟨S2048, .f32⟩) main_call4_v7) (TRef.of (T := ⟨S2048x1, .f32⟩) main_call4_v8) (broadcastInDim S2048x1 ![0] bcast_S2048_S2048x1_0),
    TRef.unary (TRef.of (T := ⟨S2048x1, .f32⟩) main_call4_v8) (TRef.of (T := ⟨S2048x1, .f32⟩) main_call4_v9) Host.log,
    TRef.unary (TRef.of (T := ⟨S2048x1, .f32⟩) main_call4_v9) (TRef.of (T := ⟨S2048x32000, .f32⟩) main_call4_v10) (broadcastInDim S2048x32000 ![0, 1] bcast_S2048x1_S2048x32000_0_1),
    TRef.binary (TRef.of (T := ⟨S2048x32000, .f32⟩) main_call4_v5) (TRef.of (T := ⟨S2048x32000, .f32⟩) main_call4_v10) (TRef.of (T := ⟨S2048x32000, .f32⟩) main_v19) subf,
    nullary main_cst_5 (constant S_ .f32 0x3F800000#32),
    unary main_cst_5 main_v20 (broadcastInDim S2048x32000 ![] bcast_S_S2048x32000 : (⟨S_, .f32⟩ : BufTy).Contents (Elt F) → (⟨S2048x32000, .f32⟩ : BufTy).Contents (Elt F)),
    binary main_v1 main_v20 main_v21 (Host.divf : (⟨S2048x32000, .f32⟩ : BufTy).Contents (Elt F) → (⟨S2048x32000, .f32⟩ : BufTy).Contents (Elt F) → (⟨S2048x32000, .f32⟩ : BufTy).Contents (Elt F)),
    TRef.nullary (TRef.of (T := ⟨S_, .f32⟩) main_call5_cst) (constant S_ .f32 0xFF800000#32),
    TRef.binary (TRef.of (T := ⟨S2048x32000, .f32⟩) main_v21) (TRef.of (T := ⟨S_, .f32⟩) main_call5_cst) (TRef.of (T := ⟨S2048, .f32⟩) main_call5_v0) (fun x v => Host.reduce FloatOps.maximumf x v reducesTo_S2048x32000_S2048_d1 h_S_),
    TRef.nullary (TRef.of (T := ⟨S_, .f32⟩) main_call5_cst_0) (constant S_ .f32 0xFF800000#32),
    TRef.unary (TRef.of (T := ⟨S_, .f32⟩) main_call5_cst_0) (TRef.of (T := ⟨S2048, .f32⟩) main_call5_v1) (broadcastInDim S2048 ![] bcast_S_S2048),
    TRef.binary (TRef.of (T := ⟨S2048, .f32⟩) main_call5_v1) (TRef.of (T := ⟨S2048, .f32⟩) main_call5_v0) (TRef.of (T := ⟨S2048, .f32⟩) main_call5_v2) maximumf,
    TRef.unary (TRef.of (T := ⟨S2048, .f32⟩) main_call5_v2) (TRef.of (T := ⟨S2048x1, .f32⟩) main_call5_v3) (broadcastInDim S2048x1 ![0] bcast_S2048_S2048x1_0),
    TRef.unary (TRef.of (T := ⟨S2048x1, .f32⟩) main_call5_v3) (TRef.of (T := ⟨S2048x32000, .f32⟩) main_call5_v4) (broadcastInDim S2048x32000 ![0, 1] bcast_S2048x1_S2048x32000_0_1),
    TRef.binary (TRef.of (T := ⟨S2048x32000, .f32⟩) main_v21) (TRef.of (T := ⟨S2048x32000, .f32⟩) main_call5_v4) (TRef.of (T := ⟨S2048x32000, .f32⟩) main_call5_v5) subf,
    TRef.unary (TRef.of (T := ⟨S2048x32000, .f32⟩) main_call5_v5) (TRef.of (T := ⟨S2048x32000, .f32⟩) main_call5_v6) Host.exp,
    TRef.nullary (TRef.of (T := ⟨S_, .f32⟩) main_call5_cst_1) (constant S_ .f32 0x00000000#32),
    TRef.binary (TRef.of (T := ⟨S2048x32000, .f32⟩) main_call5_v6) (TRef.of (T := ⟨S_, .f32⟩) main_call5_cst_1) (TRef.of (T := ⟨S2048, .f32⟩) main_call5_v7) (fun x v => Host.reduceAdd x v reducesTo_S2048x32000_S2048_d1 h_S_),
    TRef.unary (TRef.of (T := ⟨S2048, .f32⟩) main_call5_v7) (TRef.of (T := ⟨S2048x1, .f32⟩) main_call5_v8) (broadcastInDim S2048x1 ![0] bcast_S2048_S2048x1_0),
    TRef.unary (TRef.of (T := ⟨S2048x1, .f32⟩) main_call5_v8) (TRef.of (T := ⟨S2048x1, .f32⟩) main_call5_v9) Host.log,
    TRef.unary (TRef.of (T := ⟨S2048x1, .f32⟩) main_call5_v9) (TRef.of (T := ⟨S2048x32000, .f32⟩) main_call5_v10) (broadcastInDim S2048x32000 ![0, 1] bcast_S2048x1_S2048x32000_0_1),
    TRef.binary (TRef.of (T := ⟨S2048x32000, .f32⟩) main_call5_v5) (TRef.of (T := ⟨S2048x32000, .f32⟩) main_call5_v10) (TRef.of (T := ⟨S2048x32000, .f32⟩) main_v22) subf,
    unary main_v19 main_v23 (Host.exp : (⟨S2048x32000, .f32⟩ : BufTy).Contents (Elt F) → (⟨S2048x32000, .f32⟩ : BufTy).Contents (Elt F)),
    unary main_v22 main_v24 (Host.exp : (⟨S2048x32000, .f32⟩ : BufTy).Contents (Elt F) → (⟨S2048x32000, .f32⟩ : BufTy).Contents (Elt F)),
    binary main_v23 main_v24 main_v25 (addf : (⟨S2048x32000, .f32⟩ : BufTy).Contents (Elt F) → (⟨S2048x32000, .f32⟩ : BufTy).Contents (Elt F) → (⟨S2048x32000, .f32⟩ : BufTy).Contents (Elt F)),
    nullary main_cst_6 (constant S_ .f32 0x40000000#32),
    unary main_cst_6 main_v26 (broadcastInDim S2048x32000 ![] bcast_S_S2048x32000 : (⟨S_, .f32⟩ : BufTy).Contents (Elt F) → (⟨S2048x32000, .f32⟩ : BufTy).Contents (Elt F)),
    binary main_v25 main_v26 main_v27 (Host.divf : (⟨S2048x32000, .f32⟩ : BufTy).Contents (Elt F) → (⟨S2048x32000, .f32⟩ : BufTy).Contents (Elt F) → (⟨S2048x32000, .f32⟩ : BufTy).Contents (Elt F)),
    nullary main_cst_7 (constant S_ .f32 0x00000000#32),
    unary main_cst_7 main_v28 (broadcastInDim S2048x32000 ![] bcast_S_S2048x32000 : (⟨S_, .f32⟩ : BufTy).Contents (Elt F) → (⟨S2048x32000, .f32⟩ : BufTy).Contents (Elt F)),
    binary main_v27 main_v28 main_v29 (cmpf .ogt : (⟨S2048x32000, .f32⟩ : BufTy).Contents (Elt F) → (⟨S2048x32000, .f32⟩ : BufTy).Contents (Elt F) → (⟨S2048x32000, .i1⟩ : BufTy).Contents (Elt F)),
    nullary main_cst_8 (constant S_ .f32 0x3F800000#32),
    TRef.unary (TRef.of (T := ⟨S_, .f32⟩) main_cst_8) (TRef.of (T := ⟨S_, .f32⟩) main_call6_v0) id,
    TRef.unary (TRef.of (T := ⟨S_, .f32⟩) main_call6_v0) (TRef.of (T := ⟨S2048x32000, .f32⟩) main_call6_v1) (broadcastInDim S2048x32000 ![] bcast_S_S2048x32000),
    TRef.ternary (TRef.of (T := ⟨S2048x32000, .i1⟩) main_v29) (TRef.of (T := ⟨S2048x32000, .f32⟩) main_v27) (TRef.of (T := ⟨S2048x32000, .f32⟩) main_call6_v1) (TRef.of (T := ⟨S2048x32000, .f32⟩) main_v30) select,
    unary main_v30 main_v31 (Host.log : (⟨S2048x32000, .f32⟩ : BufTy).Contents (Elt F) → (⟨S2048x32000, .f32⟩ : BufTy).Contents (Elt F)),
    nullary main_cst_9 (constant S_ .f32 0x00000000#32),
    unary main_cst_9 main_v32 (broadcastInDim S2048x32000 ![] bcast_S_S2048x32000 : (⟨S_, .f32⟩ : BufTy).Contents (Elt F) → (⟨S2048x32000, .f32⟩ : BufTy).Contents (Elt F)),
    binary main_v27 main_v32 main_v33 (cmpf .ogt : (⟨S2048x32000, .f32⟩ : BufTy).Contents (Elt F) → (⟨S2048x32000, .f32⟩ : BufTy).Contents (Elt F) → (⟨S2048x32000, .i1⟩ : BufTy).Contents (Elt F)),
    binary main_v31 main_v19 main_v34 (subf : (⟨S2048x32000, .f32⟩ : BufTy).Contents (Elt F) → (⟨S2048x32000, .f32⟩ : BufTy).Contents (Elt F) → (⟨S2048x32000, .f32⟩ : BufTy).Contents (Elt F)),
    binary main_v27 main_v34 main_v35 (mulf : (⟨S2048x32000, .f32⟩ : BufTy).Contents (Elt F) → (⟨S2048x32000, .f32⟩ : BufTy).Contents (Elt F) → (⟨S2048x32000, .f32⟩ : BufTy).Contents (Elt F)),
    nullary main_cst_10 (constant S_ .f32 0x00000000#32),
    TRef.unary (TRef.of (T := ⟨S_, .f32⟩) main_cst_10) (TRef.of (T := ⟨S_, .f32⟩) main_call7_v0) id,
    TRef.unary (TRef.of (T := ⟨S_, .f32⟩) main_call7_v0) (TRef.of (T := ⟨S2048x32000, .f32⟩) main_call7_v1) (broadcastInDim S2048x32000 ![] bcast_S_S2048x32000),
    TRef.ternary (TRef.of (T := ⟨S2048x32000, .i1⟩) main_v33) (TRef.of (T := ⟨S2048x32000, .f32⟩) main_v35) (TRef.of (T := ⟨S2048x32000, .f32⟩) main_call7_v1) (TRef.of (T := ⟨S2048x32000, .f32⟩) main_v36) select,
    nullary main_cst_11 (constant S_ .f32 0x00000000#32),
    binary main_v36 main_cst_11 main_v37 ((fun x v => Host.reduceAdd x v reducesTo_S2048x32000_S_d0_1 h_S_) : (⟨S2048x32000, .f32⟩ : BufTy).Contents (Elt F) → (⟨S_, .f32⟩ : BufTy).Contents (Elt F) → (⟨S_, .f32⟩ : BufTy).Contents (Elt F)),
    nullary main_cst_12 (constant S_ .f32 0x45000000#32),
    binary main_v37 main_cst_12 main_v38 (Host.divf : (⟨S_, .f32⟩ : BufTy).Contents (Elt F) → (⟨S_, .f32⟩ : BufTy).Contents (Elt F) → (⟨S_, .f32⟩ : BufTy).Contents (Elt F)),
    nullary main_cst_13 (constant S_ .f32 0x00000000#32),
    unary main_cst_13 main_v39 (broadcastInDim S2048x32000 ![] bcast_S_S2048x32000 : (⟨S_, .f32⟩ : BufTy).Contents (Elt F) → (⟨S2048x32000, .f32⟩ : BufTy).Contents (Elt F)),
    binary main_v27 main_v39 main_v40 (cmpf .ogt : (⟨S2048x32000, .f32⟩ : BufTy).Contents (Elt F) → (⟨S2048x32000, .f32⟩ : BufTy).Contents (Elt F) → (⟨S2048x32000, .i1⟩ : BufTy).Contents (Elt F)),
    nullary main_cst_14 (constant S_ .f32 0x3F800000#32),
    TRef.unary (TRef.of (T := ⟨S_, .f32⟩) main_cst_14) (TRef.of (T := ⟨S_, .f32⟩) main_call8_v0) id,
    TRef.unary (TRef.of (T := ⟨S_, .f32⟩) main_call8_v0) (TRef.of (T := ⟨S2048x32000, .f32⟩) main_call8_v1) (broadcastInDim S2048x32000 ![] bcast_S_S2048x32000),
    TRef.ternary (TRef.of (T := ⟨S2048x32000, .i1⟩) main_v40) (TRef.of (T := ⟨S2048x32000, .f32⟩) main_v27) (TRef.of (T := ⟨S2048x32000, .f32⟩) main_call8_v1) (TRef.of (T := ⟨S2048x32000, .f32⟩) main_v41) select,
    unary main_v41 main_v42 (Host.log : (⟨S2048x32000, .f32⟩ : BufTy).Contents (Elt F) → (⟨S2048x32000, .f32⟩ : BufTy).Contents (Elt F)),
    nullary main_cst_15 (constant S_ .f32 0x00000000#32),
    unary main_cst_15 main_v43 (broadcastInDim S2048x32000 ![] bcast_S_S2048x32000 : (⟨S_, .f32⟩ : BufTy).Contents (Elt F) → (⟨S2048x32000, .f32⟩ : BufTy).Contents (Elt F)),
    binary main_v27 main_v43 main_v44 (cmpf .ogt : (⟨S2048x32000, .f32⟩ : BufTy).Contents (Elt F) → (⟨S2048x32000, .f32⟩ : BufTy).Contents (Elt F) → (⟨S2048x32000, .i1⟩ : BufTy).Contents (Elt F)),
    binary main_v42 main_v22 main_v45 (subf : (⟨S2048x32000, .f32⟩ : BufTy).Contents (Elt F) → (⟨S2048x32000, .f32⟩ : BufTy).Contents (Elt F) → (⟨S2048x32000, .f32⟩ : BufTy).Contents (Elt F)),
    binary main_v27 main_v45 main_v46 (mulf : (⟨S2048x32000, .f32⟩ : BufTy).Contents (Elt F) → (⟨S2048x32000, .f32⟩ : BufTy).Contents (Elt F) → (⟨S2048x32000, .f32⟩ : BufTy).Contents (Elt F)),
    nullary main_cst_16 (constant S_ .f32 0x00000000#32),
    TRef.unary (TRef.of (T := ⟨S_, .f32⟩) main_cst_16) (TRef.of (T := ⟨S_, .f32⟩) main_call9_v0) id,
    TRef.unary (TRef.of (T := ⟨S_, .f32⟩) main_call9_v0) (TRef.of (T := ⟨S2048x32000, .f32⟩) main_call9_v1) (broadcastInDim S2048x32000 ![] bcast_S_S2048x32000),
    TRef.ternary (TRef.of (T := ⟨S2048x32000, .i1⟩) main_v44) (TRef.of (T := ⟨S2048x32000, .f32⟩) main_v46) (TRef.of (T := ⟨S2048x32000, .f32⟩) main_call9_v1) (TRef.of (T := ⟨S2048x32000, .f32⟩) main_v47) select,
    nullary main_cst_17 (constant S_ .f32 0x00000000#32),
    binary main_v47 main_cst_17 main_v48 ((fun x v => Host.reduceAdd x v reducesTo_S2048x32000_S_d0_1 h_S_) : (⟨S2048x32000, .f32⟩ : BufTy).Contents (Elt F) → (⟨S_, .f32⟩ : BufTy).Contents (Elt F) → (⟨S_, .f32⟩ : BufTy).Contents (Elt F)),
    nullary main_cst_18 (constant S_ .f32 0x45000000#32),
    binary main_v48 main_cst_18 main_v49 (Host.divf : (⟨S_, .f32⟩ : BufTy).Contents (Elt F) → (⟨S_, .f32⟩ : BufTy).Contents (Elt F) → (⟨S_, .f32⟩ : BufTy).Contents (Elt F)),
    binary main_v38 main_v49 main_v50 (addf : (⟨S_, .f32⟩ : BufTy).Contents (Elt F) → (⟨S_, .f32⟩ : BufTy).Contents (Elt F) → (⟨S_, .f32⟩ : BufTy).Contents (Elt F)),
    nullary main_cst_19 (constant S_ .f32 0x40000000#32),
    binary main_v50 main_cst_19 main_v51 (Host.divf : (⟨S_, .f32⟩ : BufTy).Contents (Elt F) → (⟨S_, .f32⟩ : BufTy).Contents (Elt F) → (⟨S_, .f32⟩ : BufTy).Contents (Elt F)),
    nullary main_cst_20 (constant S_ .f32 0x3F000000#32),
    binary main_cst_20 main_v16 main_v52 (mulf : (⟨S_, .f32⟩ : BufTy).Contents (Elt F) → (⟨S_, .f32⟩ : BufTy).Contents (Elt F) → (⟨S_, .f32⟩ : BufTy).Contents (Elt F)),
    nullary main_cst_21 (constant S_ .f32 0x3F000000#32),
    binary main_cst_21 main_v51 main_v53 (mulf : (⟨S_, .f32⟩ : BufTy).Contents (Elt F) → (⟨S_, .f32⟩ : BufTy).Contents (Elt F) → (⟨S_, .f32⟩ : BufTy).Contents (Elt F)),
    binary main_v52 main_v53 main_v54 (addf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., nullary_bufs_sub .., binary_bufs_sub .., nullary_bufs_sub .., binary_bufs_sub .., nullary_bufs_sub .., unary_bufs_sub .., unary_bufs_sub .., ternary_bufs_sub .., nullary_bufs_sub .., binary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., binary_bufs_sub .., binary_bufs_sub .., nullary_bufs_sub .., unary_bufs_sub .., unary_bufs_sub .., ternary_bufs_sub .., nullary_bufs_sub .., binary_bufs_sub .., nullary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., binary_bufs_sub .., binary_bufs_sub .., nullary_bufs_sub .., unary_bufs_sub .., unary_bufs_sub .., ternary_bufs_sub .., nullary_bufs_sub .., binary_bufs_sub .., nullary_bufs_sub .., binary_bufs_sub .., binary_bufs_sub .., nullary_bufs_sub .., binary_bufs_sub .., nullary_bufs_sub .., binary_bufs_sub .., nullary_bufs_sub .., binary_bufs_sub .., binary_bufs_sub ..⟩

/-- Operations, piece 1 of 10. The two matrix products, the validity word and the safe label. -/
def ops_1 : List (HloOp τ sig (Elt F)) :=
  [ binary main_arg0 main_arg2 main_v0 ((fun l r => Host.dotGeneral dot_S2048x2048_S32000x2048_S2048x32000_1_1_0_0_n_n none l r) : (⟨S2048x2048, .f32⟩ : BufTy).Contents (Elt F) → (⟨S32000x2048, .f32⟩ : BufTy).Contents (Elt F) → (⟨S2048x32000, .f32⟩ : BufTy).Contents (Elt F)),
    binary main_arg1 main_arg3 main_v1 ((fun l r => Host.dotGeneral dot_S2048x4096_S32000x4096_S2048x32000_1_1_0_0_n_n none l r) : (⟨S2048x4096, .f32⟩ : BufTy).Contents (Elt F) → (⟨S32000x4096, .f32⟩ : BufTy).Contents (Elt F) → (⟨S2048x32000, .f32⟩ : BufTy).Contents (Elt F)),
    nullary main_c (constantI S_ 32 4294967196#32),
    unary main_c main_v2 (broadcastInDim S2048 ![] bcast_S_S2048 : (⟨S_, .i32⟩ : BufTy).Contents (Elt F) → (⟨S2048, .i32⟩ : BufTy).Contents (Elt F)),
    binary main_arg4 main_v2 main_v3 (cmpi .ne : (⟨S2048, .i32⟩ : BufTy).Contents (Elt F) → (⟨S2048, .i32⟩ : BufTy).Contents (Elt F) → (⟨S2048, .i1⟩ : BufTy).Contents (Elt F)),
    nullary main_c_0 (constantI S_ 32 0#32),
    TRef.unary (TRef.of (T := ⟨S_, .i32⟩) main_c_0) (TRef.of (T := ⟨S_, .i32⟩) main_call0_v0) id,
    TRef.unary (TRef.of (T := ⟨S_, .i32⟩) main_call0_v0) (TRef.of (T := ⟨S2048, .i32⟩) main_call0_v1) (broadcastInDim S2048 ![] bcast_S_S2048),
    TRef.ternary (TRef.of (T := ⟨S2048, .i1⟩) main_v3) (TRef.of (T := ⟨S2048, .i32⟩) main_arg4) (TRef.of (T := ⟨S2048, .i32⟩) main_call0_v1) (TRef.of (T := ⟨S2048, .i32⟩) main_v4) select ]

/-- Operations, piece 2 of 10. The log-softmax of the first product's rows. -/
def ops_2 : List (HloOp τ sig (Elt F)) :=
  [ TRef.nullary (TRef.of (T := ⟨S_, .f32⟩) main_call1_cst) (constant S_ .f32 0xFF800000#32),
    TRef.binary (TRef.of (T := ⟨S2048x32000, .f32⟩) main_v0) (TRef.of (T := ⟨S_, .f32⟩) main_call1_cst) (TRef.of (T := ⟨S2048, .f32⟩) main_call1_v0) (fun x v => Host.reduce FloatOps.maximumf x v reducesTo_S2048x32000_S2048_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S2048, .f32⟩) main_call1_v1) (broadcastInDim S2048 ![] bcast_S_S2048),
    TRef.binary (TRef.of (T := ⟨S2048, .f32⟩) main_call1_v1) (TRef.of (T := ⟨S2048, .f32⟩) main_call1_v0) (TRef.of (T := ⟨S2048, .f32⟩) main_call1_v2) maximumf,
    TRef.unary (TRef.of (T := ⟨S2048, .f32⟩) main_call1_v2) (TRef.of (T := ⟨S2048x1, .f32⟩) main_call1_v3) (broadcastInDim S2048x1 ![0] bcast_S2048_S2048x1_0),
    TRef.unary (TRef.of (T := ⟨S2048x1, .f32⟩) main_call1_v3) (TRef.of (T := ⟨S2048x32000, .f32⟩) main_call1_v4) (broadcastInDim S2048x32000 ![0, 1] bcast_S2048x1_S2048x32000_0_1),
    TRef.binary (TRef.of (T := ⟨S2048x32000, .f32⟩) main_v0) (TRef.of (T := ⟨S2048x32000, .f32⟩) main_call1_v4) (TRef.of (T := ⟨S2048x32000, .f32⟩) main_call1_v5) subf,
    TRef.unary (TRef.of (T := ⟨S2048x32000, .f32⟩) main_call1_v5) (TRef.of (T := ⟨S2048x32000, .f32⟩) main_call1_v6) Host.exp,
    TRef.nullary (TRef.of (T := ⟨S_, .f32⟩) main_call1_cst_1) (constant S_ .f32 0x00000000#32),
    TRef.binary (TRef.of (T := ⟨S2048x32000, .f32⟩) main_call1_v6) (TRef.of (T := ⟨S_, .f32⟩) main_call1_cst_1) (TRef.of (T := ⟨S2048, .f32⟩) main_call1_v7) (fun x v => Host.reduceAdd x v reducesTo_S2048x32000_S2048_d1 h_S_),
    TRef.unary (TRef.of (T := ⟨S2048, .f32⟩) main_call1_v7) (TRef.of (T := ⟨S2048x1, .f32⟩) main_call1_v8) (broadcastInDim S2048x1 ![0] bcast_S2048_S2048x1_0),
    TRef.unary (TRef.of (T := ⟨S2048x1, .f32⟩) main_call1_v8) (TRef.of (T := ⟨S2048x1, .f32⟩) main_call1_v9) Host.log,
    TRef.unary (TRef.of (T := ⟨S2048x1, .f32⟩) main_call1_v9) (TRef.of (T := ⟨S2048x32000, .f32⟩) main_call1_v10) (broadcastInDim S2048x32000 ![0, 1] bcast_S2048x1_S2048x32000_0_1),
    TRef.binary (TRef.of (T := ⟨S2048x32000, .f32⟩) main_call1_v5) (TRef.of (T := ⟨S2048x32000, .f32⟩) main_call1_v10) (TRef.of (T := ⟨S2048x32000, .f32⟩) main_v5) subf ]

/-- Operations, piece 3 of 10. The safe label as a column, and the entry of the log-softmax gathered at it in each row, as a vector. -/
def ops_3 : List (HloOp τ sig (Elt F)) :=
  [ unary main_v4 main_v6 (broadcastInDim S2048x1 ![0] bcast_S2048_S2048x1_0 : (⟨S2048, .i32⟩ : BufTy).Contents (Elt F) → (⟨S2048x1, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S2048x1, .i32⟩) main_call2_v0) (broadcastInDim S2048x1 ![] bcast_S_S2048x1),
    TRef.binary (TRef.of (T := ⟨S2048x1, .i32⟩) main_v6) (TRef.of (T := ⟨S2048x1, .i32⟩) main_call2_v0) (TRef.of (T := ⟨S2048x1, .i1⟩) main_call2_v1) (cmpi .slt),
    TRef.nullary (TRef.of (T := ⟨S_, .i32⟩) main_call2_c_0) (constantI S_ 32 32000#32),
    TRef.unary (TRef.of (T := ⟨S_, .i32⟩) main_call2_c_0) (TRef.of (T := ⟨S2048x1, .i32⟩) main_call2_v2) (broadcastInDim S2048x1 ![] bcast_S_S2048x1),
    TRef.binary (TRef.of (T := ⟨S2048x1, .i32⟩) main_v6) (TRef.of (T := ⟨S2048x1, .i32⟩) main_call2_v2) (TRef.of (T := ⟨S2048x1, .i32⟩) main_call2_v3) addi,
    TRef.ternary (TRef.of (T := ⟨S2048x1, .i1⟩) main_call2_v1) (TRef.of (T := ⟨S2048x1, .i32⟩) main_call2_v3) (TRef.of (T := ⟨S2048x1, .i32⟩) main_v6) (TRef.of (T := ⟨S2048x1, .i32⟩) main_call2_v4) select,
    TRef.reshape (TRef.of (T := ⟨S2048x1, .i32⟩) main_call2_v4) (TRef.of (T := ⟨S2048x1x1, .i32⟩) main_call2_v5) rfl shapeCasts_S2048x1_S2048x1x1,
    TRef.nullary (TRef.of (T := ⟨S1, .i32⟩) main_call2_c_1) (constantI S1 32 31999#32),
    TRef.nullary (TRef.of (T := ⟨S_, .i32⟩) main_call2_c_2) (constantI S_ 32 0#32),
    TRef.unary (TRef.of (T := ⟨S_, .i32⟩) main_call2_c_2) (TRef.of (T := ⟨S2048x1x1, .i32⟩) main_call2_v6) (broadcastInDim S2048x1x1 ![] bcast_S_S2048x1x1),
    TRef.binary (TRef.of (T := ⟨S2048x1x1, .i32⟩) main_call2_v5) (TRef.of (T := ⟨S2048x1x1, .i32⟩) main_call2_v6) (TRef.of (T := ⟨S2048x1x1, .i1⟩) main_call2_v7) (cmpi .sge),
    TRef.unary (TRef.of (T := ⟨S1, .i32⟩) main_call2_c_1) (TRef.of (T := ⟨S1x1x1, .i32⟩) main_call2_v8) (broadcastInDim S1x1x1 ![2] bcast_S1_S1x1x1_2),
    TRef.unary (TRef.of (T := ⟨S1x1x1, .i32⟩) main_call2_v8) (TRef.of (T := ⟨S2048x1x1, .i32⟩) main_call2_v9) (broadcastInDim S2048x1x1 ![0, 1, 2] bcast_S1x1x1_S2048x1x1_0_1_2),
    TRef.binary (TRef.of (T := ⟨S2048x1x1, .i32⟩) main_call2_v5) (TRef.of (T := ⟨S2048x1x1, .i32⟩) main_call2_v9) (TRef.of (T := ⟨S2048x1x1, .i1⟩) main_call2_v10) (cmpi .sle),
    TRef.binary (TRef.of (T := ⟨S2048x1x1, .i1⟩) main_call2_v7) (TRef.of (T := ⟨S2048x1x1, .i1⟩) main_call2_v10) (TRef.of (T := ⟨S2048x1x1, .i1⟩) main_call2_v11) andi,
    TRef.nullary (TRef.of (T := ⟨S_, .i1⟩) main_call2_c_3) (constantI S_ 1 1#1),
    TRef.binary (TRef.of (T := ⟨S2048x1x1, .i1⟩) main_call2_v11) (TRef.of (T := ⟨S_, .i1⟩) main_call2_c_3) (TRef.of (T := ⟨S2048x1, .i1⟩) main_call2_v12) (fun x v => Host.reduce IntOp.andi x v reducesTo_S2048x1x1_S2048x1_d2 h_S_),
    TRef.binary (TRef.of (T := ⟨S2048x32000, .f32⟩) main_v5) (TRef.of (T := ⟨S2048x1x1, .i32⟩) main_call2_v5) (TRef.of (T := ⟨S2048x1, .f32⟩) main_call2_v13) (fun x i => Host.gather gather_S2048x32000_S2048x1x1_S2048x1_n_1_0_0_1_2_11 x i),
    TRef.nullary (TRef.of (T := ⟨S_, .f32⟩) main_call2_cst) (constant S_ .f32 0x7FC00000#32),
    TRef.unary (TRef.of (T := ⟨S_, .f32⟩) main_call2_cst) (TRef.of (T := ⟨S2048x1, .f32⟩) main_call2_v14) (broadcastInDim S2048x1 ![] bcast_S_S2048x1),
    TRef.ternary (TRef.of (T := ⟨S2048x1, .i1⟩) main_call2_v12) (TRef.of (T := ⟨S2048x1, .f32⟩) main_call2_v13) (TRef.of (T := ⟨S2048x1, .f32⟩) main_call2_v14) (TRef.of (T := ⟨S2048x1, .f32⟩) main_v7) select,
    reshape main_v7 main_v8 rfl shapeCasts_S2048x1_S2048 ]

/-- Operations, piece 4 of 10. The count of valid rows, the masked sum of the gathered entries, and the hard loss. -/
def ops_4 : List (HloOp τ sig (Elt F)) :=
  [ unary main_v3 main_v9 ((extui 32 · natLt_1_32) : (⟨S2048, .i1⟩ : BufTy).Contents (Elt F) → (⟨S2048, .i32⟩ : BufTy).Contents (Elt F)),
    nullary main_c_1 (constantI S_ 32 0#32),
    binary main_v9 main_c_1 main_v10 ((fun x v => Host.reduce IntOp.addi x v reducesTo_S2048_S_d0 h_S_) : (⟨S2048, .i32⟩ : BufTy).Contents (Elt F) → (⟨S_, .i32⟩ : BufTy).Contents (Elt F) → (⟨S_, .i32⟩ : BufTy).Contents (Elt F)),
    nullary main_c_2 (constantI S_ 32 1#32),
    binary main_v10 main_c_2 main_v11 (maxsi : (⟨S_, .i32⟩ : BufTy).Contents (Elt F) → (⟨S_, .i32⟩ : BufTy).Contents (Elt F) → (⟨S_, .i32⟩ : BufTy).Contents (Elt F)),
    nullary main_cst (constant S_ .f32 0x00000000#32),
    TRef.unary (TRef.of (T := ⟨S_, .f32⟩) main_cst) (TRef.of (T := ⟨S_, .f32⟩) main_call3_v0) id,
    TRef.unary (TRef.of (T := ⟨S_, .f32⟩) main_call3_v0) (TRef.of (T := ⟨S2048, .f32⟩) main_call3_v1) (broadcastInDim S2048 ![] bcast_S_S2048),
    TRef.ternary (TRef.of (T := ⟨S2048, .i1⟩) main_v3) (TRef.of (T := ⟨S2048, .f32⟩) main_v8) (TRef.of (T := ⟨S2048, .f32⟩) main_call3_v1) (TRef.of (T := ⟨S2048, .f32⟩) main_v12) select,
    nullary main_cst_3 (constant S_ .f32 0x00000000#32),
    binary main_v12 main_cst_3 main_v13 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    unary main_v13 main_v14 (Host.negf : (⟨S_, .f32⟩ : BufTy).Contents (Elt F) → (⟨S_, .f32⟩ : BufTy).Contents (Elt F)),
    unary main_v11 main_v15 (sitofp .f32 : (⟨S_, .i32⟩ : BufTy).Contents (Elt F) → (⟨S_, .f32⟩ : BufTy).Contents (Elt F)),
    binary main_v14 main_v15 main_v16 (Host.divf : (⟨S_, .f32⟩ : BufTy).Contents (Elt F) → (⟨S_, .f32⟩ : BufTy).Contents (Elt F) → (⟨S_, .f32⟩ : BufTy).Contents (Elt F)) ]

/-- Operations, piece 5 of 10. The first product over the temperature, and its rows' log-softmax. -/
def ops_5 : List (HloOp τ sig (Elt F)) :=
  [ nullary main_cst_4 (constant S_ .f32 0x3F800000#32),
    unary main_cst_4 main_v17 (broadcastInDim S2048x32000 ![] bcast_S_S2048x32000 : (⟨S_, .f32⟩ : BufTy).Contents (Elt F) → (⟨S2048x32000, .f32⟩ : BufTy).Contents (Elt F)),
    binary main_v0 main_v17 main_v18 (Host.divf : (⟨S2048x32000, .f32⟩ : BufTy).Contents (Elt F) → (⟨S2048x32000, .f32⟩ : BufTy).Contents (Elt F) → (⟨S2048x32000, .f32⟩ : BufTy).Contents (Elt F)),
    TRef.nullary (TRef.of (T := ⟨S_, .f32⟩) main_call4_cst) (constant S_ .f32 0xFF800000#32),
    TRef.binary (TRef.of (T := ⟨S2048x32000, .f32⟩) main_v18) (TRef.of (T := ⟨S_, .f32⟩) main_call4_cst) (TRef.of (T := ⟨S2048, .f32⟩) main_call4_v0) (fun x v => Host.reduce FloatOps.maximumf x v reducesTo_S2048x32000_S2048_d1 h_S_),
    TRef.nullary (TRef.of (T := ⟨S_, .f32⟩) main_call4_cst_0) (constant S_ .f32 0xFF800000#32),
    TRef.unary (TRef.of (T := ⟨S_, .f32⟩) main_call4_cst_0) (TRef.of (T := ⟨S2048, .f32⟩) main_call4_v1) (broadcastInDim S2048 ![] bcast_S_S2048),
    TRef.binary (TRef.of (T := ⟨S2048, .f32⟩) main_call4_v1) (TRef.of (T := ⟨S2048, .f32⟩) main_call4_v0) (TRef.of (T := ⟨S2048, .f32⟩) main_call4_v2) maximumf,
    TRef.unary (TRef.of (T := ⟨S2048, .f32⟩) main_call4_v2) (TRef.of (T := ⟨S2048x1, .f32⟩) main_call4_v3) (broadcastInDim S2048x1 ![0] bcast_S2048_S2048x1_0),
    TRef.unary (TRef.of (T := ⟨S2048x1, .f32⟩) main_call4_v3) (TRef.of (T := ⟨S2048x32000, .f32⟩) main_call4_v4) (broadcastInDim S2048x32000 ![0, 1] bcast_S2048x1_S2048x32000_0_1),
    TRef.binary (TRef.of (T := ⟨S2048x32000, .f32⟩) main_v18) (TRef.of (T := ⟨S2048x32000, .f32⟩) main_call4_v4) (TRef.of (T := ⟨S2048x32000, .f32⟩) main_call4_v5) subf,
    TRef.unary (TRef.of (T := ⟨S2048x32000, .f32⟩) main_call4_v5) (TRef.of (T := ⟨S2048x32000, .f32⟩) main_call4_v6) Host.exp,
    TRef.nullary (TRef.of (T := ⟨S_, .f32⟩) main_call4_cst_1) (constant S_ .f32 0x00000000#32),
    TRef.binary (TRef.of (T := ⟨S2048x32000, .f32⟩) main_call4_v6) (TRef.of (T := ⟨S_, .f32⟩) main_call4_cst_1) (TRef.of (T := ⟨S2048, .f32⟩) main_call4_v7) (fun x v => Host.reduceAdd x v reducesTo_S2048x32000_S2048_d1 h_S_),
    TRef.unary (TRef.of (T := ⟨S2048, .f32⟩) main_call4_v7) (TRef.of (T := ⟨S2048x1, .f32⟩) main_call4_v8) (broadcastInDim S2048x1 ![0] bcast_S2048_S2048x1_0),
    TRef.unary (TRef.of (T := ⟨S2048x1, .f32⟩) main_call4_v8) (TRef.of (T := ⟨S2048x1, .f32⟩) main_call4_v9) Host.log,
    TRef.unary (TRef.of (T := ⟨S2048x1, .f32⟩) main_call4_v9) (TRef.of (T := ⟨S2048x32000, .f32⟩) main_call4_v10) (broadcastInDim S2048x32000 ![0, 1] bcast_S2048x1_S2048x32000_0_1),
    TRef.binary (TRef.of (T := ⟨S2048x32000, .f32⟩) main_call4_v5) (TRef.of (T := ⟨S2048x32000, .f32⟩) main_call4_v10) (TRef.of (T := ⟨S2048x32000, .f32⟩) main_v19) subf ]

/-- Operations, piece 6 of 10. The second product over the temperature, and its rows' log-softmax. -/
def ops_6 : List (HloOp τ sig (Elt F)) :=
  [ nullary main_cst_5 (constant S_ .f32 0x3F800000#32),
    unary main_cst_5 main_v20 (broadcastInDim S2048x32000 ![] bcast_S_S2048x32000 : (⟨S_, .f32⟩ : BufTy).Contents (Elt F) → (⟨S2048x32000, .f32⟩ : BufTy).Contents (Elt F)),
    binary main_v1 main_v20 main_v21 (Host.divf : (⟨S2048x32000, .f32⟩ : BufTy).Contents (Elt F) → (⟨S2048x32000, .f32⟩ : BufTy).Contents (Elt F) → (⟨S2048x32000, .f32⟩ : BufTy).Contents (Elt F)),
    TRef.nullary (TRef.of (T := ⟨S_, .f32⟩) main_call5_cst) (constant S_ .f32 0xFF800000#32),
    TRef.binary (TRef.of (T := ⟨S2048x32000, .f32⟩) main_v21) (TRef.of (T := ⟨S_, .f32⟩) main_call5_cst) (TRef.of (T := ⟨S2048, .f32⟩) main_call5_v0) (fun x v => Host.reduce FloatOps.maximumf x v reducesTo_S2048x32000_S2048_d1 h_S_),
    TRef.nullary (TRef.of (T := ⟨S_, .f32⟩) main_call5_cst_0) (constant S_ .f32 0xFF800000#32),
    TRef.unary (TRef.of (T := ⟨S_, .f32⟩) main_call5_cst_0) (TRef.of (T := ⟨S2048, .f32⟩) main_call5_v1) (broadcastInDim S2048 ![] bcast_S_S2048),
    TRef.binary (TRef.of (T := ⟨S2048, .f32⟩) main_call5_v1) (TRef.of (T := ⟨S2048, .f32⟩) main_call5_v0) (TRef.of (T := ⟨S2048, .f32⟩) main_call5_v2) maximumf,
    TRef.unary (TRef.of (T := ⟨S2048, .f32⟩) main_call5_v2) (TRef.of (T := ⟨S2048x1, .f32⟩) main_call5_v3) (broadcastInDim S2048x1 ![0] bcast_S2048_S2048x1_0),
    TRef.unary (TRef.of (T := ⟨S2048x1, .f32⟩) main_call5_v3) (TRef.of (T := ⟨S2048x32000, .f32⟩) main_call5_v4) (broadcastInDim S2048x32000 ![0, 1] bcast_S2048x1_S2048x32000_0_1),
    TRef.binary (TRef.of (T := ⟨S2048x32000, .f32⟩) main_v21) (TRef.of (T := ⟨S2048x32000, .f32⟩) main_call5_v4) (TRef.of (T := ⟨S2048x32000, .f32⟩) main_call5_v5) subf,
    TRef.unary (TRef.of (T := ⟨S2048x32000, .f32⟩) main_call5_v5) (TRef.of (T := ⟨S2048x32000, .f32⟩) main_call5_v6) Host.exp,
    TRef.nullary (TRef.of (T := ⟨S_, .f32⟩) main_call5_cst_1) (constant S_ .f32 0x00000000#32),
    TRef.binary (TRef.of (T := ⟨S2048x32000, .f32⟩) main_call5_v6) (TRef.of (T := ⟨S_, .f32⟩) main_call5_cst_1) (TRef.of (T := ⟨S2048, .f32⟩) main_call5_v7) (fun x v => Host.reduceAdd x v reducesTo_S2048x32000_S2048_d1 h_S_),
    TRef.unary (TRef.of (T := ⟨S2048, .f32⟩) main_call5_v7) (TRef.of (T := ⟨S2048x1, .f32⟩) main_call5_v8) (broadcastInDim S2048x1 ![0] bcast_S2048_S2048x1_0),
    TRef.unary (TRef.of (T := ⟨S2048x1, .f32⟩) main_call5_v8) (TRef.of (T := ⟨S2048x1, .f32⟩) main_call5_v9) Host.log,
    TRef.unary (TRef.of (T := ⟨S2048x1, .f32⟩) main_call5_v9) (TRef.of (T := ⟨S2048x32000, .f32⟩) main_call5_v10) (broadcastInDim S2048x32000 ![0, 1] bcast_S2048x1_S2048x32000_0_1),
    TRef.binary (TRef.of (T := ⟨S2048x32000, .f32⟩) main_call5_v5) (TRef.of (T := ⟨S2048x32000, .f32⟩) main_call5_v10) (TRef.of (T := ⟨S2048x32000, .f32⟩) main_v22) subf ]

/-- Operations, piece 7 of 10. The mixture: half the sum of the two softmaxes. -/
def ops_7 : List (HloOp τ sig (Elt F)) :=
  [ unary main_v19 main_v23 (Host.exp : (⟨S2048x32000, .f32⟩ : BufTy).Contents (Elt F) → (⟨S2048x32000, .f32⟩ : BufTy).Contents (Elt F)),
    unary main_v22 main_v24 (Host.exp : (⟨S2048x32000, .f32⟩ : BufTy).Contents (Elt F) → (⟨S2048x32000, .f32⟩ : BufTy).Contents (Elt F)),
    binary main_v23 main_v24 main_v25 (addf : (⟨S2048x32000, .f32⟩ : BufTy).Contents (Elt F) → (⟨S2048x32000, .f32⟩ : BufTy).Contents (Elt F) → (⟨S2048x32000, .f32⟩ : BufTy).Contents (Elt F)),
    nullary main_cst_6 (constant S_ .f32 0x40000000#32),
    unary main_cst_6 main_v26 (broadcastInDim S2048x32000 ![] bcast_S_S2048x32000 : (⟨S_, .f32⟩ : BufTy).Contents (Elt F) → (⟨S2048x32000, .f32⟩ : BufTy).Contents (Elt F)),
    binary main_v25 main_v26 main_v27 (Host.divf : (⟨S2048x32000, .f32⟩ : BufTy).Contents (Elt F) → (⟨S2048x32000, .f32⟩ : BufTy).Contents (Elt F) → (⟨S2048x32000, .f32⟩ : BufTy).Contents (Elt F)) ]

/-- Operations, piece 8 of 10. The mixture's divergence from the first distribution, summed and divided by the number of rows. -/
def ops_8 : List (HloOp τ sig (Elt F)) :=
  [ nullary main_cst_7 (constant S_ .f32 0x00000000#32),
    unary main_cst_7 main_v28 (broadcastInDim S2048x32000 ![] bcast_S_S2048x32000 : (⟨S_, .f32⟩ : BufTy).Contents (Elt F) → (⟨S2048x32000, .f32⟩ : BufTy).Contents (Elt F)),
    binary main_v27 main_v28 main_v29 (cmpf .ogt : (⟨S2048x32000, .f32⟩ : BufTy).Contents (Elt F) → (⟨S2048x32000, .f32⟩ : BufTy).Contents (Elt F) → (⟨S2048x32000, .i1⟩ : BufTy).Contents (Elt F)),
    nullary main_cst_8 (constant S_ .f32 0x3F800000#32),
    TRef.unary (TRef.of (T := ⟨S_, .f32⟩) main_cst_8) (TRef.of (T := ⟨S_, .f32⟩) main_call6_v0) id,
    TRef.unary (TRef.of (T := ⟨S_, .f32⟩) main_call6_v0) (TRef.of (T := ⟨S2048x32000, .f32⟩) main_call6_v1) (broadcastInDim S2048x32000 ![] bcast_S_S2048x32000),
    TRef.ternary (TRef.of (T := ⟨S2048x32000, .i1⟩) main_v29) (TRef.of (T := ⟨S2048x32000, .f32⟩) main_v27) (TRef.of (T := ⟨S2048x32000, .f32⟩) main_call6_v1) (TRef.of (T := ⟨S2048x32000, .f32⟩) main_v30) select,
    unary main_v30 main_v31 (Host.log : (⟨S2048x32000, .f32⟩ : BufTy).Contents (Elt F) → (⟨S2048x32000, .f32⟩ : BufTy).Contents (Elt F)),
    nullary main_cst_9 (constant S_ .f32 0x00000000#32),
    unary main_cst_9 main_v32 (broadcastInDim S2048x32000 ![] bcast_S_S2048x32000 : (⟨S_, .f32⟩ : BufTy).Contents (Elt F) → (⟨S2048x32000, .f32⟩ : BufTy).Contents (Elt F)),
    binary main_v27 main_v32 main_v33 (cmpf .ogt : (⟨S2048x32000, .f32⟩ : BufTy).Contents (Elt F) → (⟨S2048x32000, .f32⟩ : BufTy).Contents (Elt F) → (⟨S2048x32000, .i1⟩ : BufTy).Contents (Elt F)),
    binary main_v31 main_v19 main_v34 (subf : (⟨S2048x32000, .f32⟩ : BufTy).Contents (Elt F) → (⟨S2048x32000, .f32⟩ : BufTy).Contents (Elt F) → (⟨S2048x32000, .f32⟩ : BufTy).Contents (Elt F)),
    binary main_v27 main_v34 main_v35 (mulf : (⟨S2048x32000, .f32⟩ : BufTy).Contents (Elt F) → (⟨S2048x32000, .f32⟩ : BufTy).Contents (Elt F) → (⟨S2048x32000, .f32⟩ : BufTy).Contents (Elt F)),
    nullary main_cst_10 (constant S_ .f32 0x00000000#32),
    TRef.unary (TRef.of (T := ⟨S_, .f32⟩) main_cst_10) (TRef.of (T := ⟨S_, .f32⟩) main_call7_v0) id,
    TRef.unary (TRef.of (T := ⟨S_, .f32⟩) main_call7_v0) (TRef.of (T := ⟨S2048x32000, .f32⟩) main_call7_v1) (broadcastInDim S2048x32000 ![] bcast_S_S2048x32000),
    TRef.ternary (TRef.of (T := ⟨S2048x32000, .i1⟩) main_v33) (TRef.of (T := ⟨S2048x32000, .f32⟩) main_v35) (TRef.of (T := ⟨S2048x32000, .f32⟩) main_call7_v1) (TRef.of (T := ⟨S2048x32000, .f32⟩) main_v36) select,
    nullary main_cst_11 (constant S_ .f32 0x00000000#32),
    binary main_v36 main_cst_11 main_v37 ((fun x v => Host.reduceAdd x v reducesTo_S2048x32000_S_d0_1 h_S_) : (⟨S2048x32000, .f32⟩ : BufTy).Contents (Elt F) → (⟨S_, .f32⟩ : BufTy).Contents (Elt F) → (⟨S_, .f32⟩ : BufTy).Contents (Elt F)),
    nullary main_cst_12 (constant S_ .f32 0x45000000#32),
    binary main_v37 main_cst_12 main_v38 (Host.divf : (⟨S_, .f32⟩ : BufTy).Contents (Elt F) → (⟨S_, .f32⟩ : BufTy).Contents (Elt F) → (⟨S_, .f32⟩ : BufTy).Contents (Elt F)) ]

/-- Operations, piece 9 of 10. The mixture's divergence from the second distribution, summed and divided by the number of rows. -/
def ops_9 : List (HloOp τ sig (Elt F)) :=
  [ nullary main_cst_13 (constant S_ .f32 0x00000000#32),
    unary main_cst_13 main_v39 (broadcastInDim S2048x32000 ![] bcast_S_S2048x32000 : (⟨S_, .f32⟩ : BufTy).Contents (Elt F) → (⟨S2048x32000, .f32⟩ : BufTy).Contents (Elt F)),
    binary main_v27 main_v39 main_v40 (cmpf .ogt : (⟨S2048x32000, .f32⟩ : BufTy).Contents (Elt F) → (⟨S2048x32000, .f32⟩ : BufTy).Contents (Elt F) → (⟨S2048x32000, .i1⟩ : BufTy).Contents (Elt F)),
    nullary main_cst_14 (constant S_ .f32 0x3F800000#32),
    TRef.unary (TRef.of (T := ⟨S_, .f32⟩) main_cst_14) (TRef.of (T := ⟨S_, .f32⟩) main_call8_v0) id,
    TRef.unary (TRef.of (T := ⟨S_, .f32⟩) main_call8_v0) (TRef.of (T := ⟨S2048x32000, .f32⟩) main_call8_v1) (broadcastInDim S2048x32000 ![] bcast_S_S2048x32000),
    TRef.ternary (TRef.of (T := ⟨S2048x32000, .i1⟩) main_v40) (TRef.of (T := ⟨S2048x32000, .f32⟩) main_v27) (TRef.of (T := ⟨S2048x32000, .f32⟩) main_call8_v1) (TRef.of (T := ⟨S2048x32000, .f32⟩) main_v41) select,
    unary main_v41 main_v42 (Host.log : (⟨S2048x32000, .f32⟩ : BufTy).Contents (Elt F) → (⟨S2048x32000, .f32⟩ : BufTy).Contents (Elt F)),
    nullary main_cst_15 (constant S_ .f32 0x00000000#32),
    unary main_cst_15 main_v43 (broadcastInDim S2048x32000 ![] bcast_S_S2048x32000 : (⟨S_, .f32⟩ : BufTy).Contents (Elt F) → (⟨S2048x32000, .f32⟩ : BufTy).Contents (Elt F)),
    binary main_v27 main_v43 main_v44 (cmpf .ogt : (⟨S2048x32000, .f32⟩ : BufTy).Contents (Elt F) → (⟨S2048x32000, .f32⟩ : BufTy).Contents (Elt F) → (⟨S2048x32000, .i1⟩ : BufTy).Contents (Elt F)),
    binary main_v42 main_v22 main_v45 (subf : (⟨S2048x32000, .f32⟩ : BufTy).Contents (Elt F) → (⟨S2048x32000, .f32⟩ : BufTy).Contents (Elt F) → (⟨S2048x32000, .f32⟩ : BufTy).Contents (Elt F)),
    binary main_v27 main_v45 main_v46 (mulf : (⟨S2048x32000, .f32⟩ : BufTy).Contents (Elt F) → (⟨S2048x32000, .f32⟩ : BufTy).Contents (Elt F) → (⟨S2048x32000, .f32⟩ : BufTy).Contents (Elt F)),
    nullary main_cst_16 (constant S_ .f32 0x00000000#32),
    TRef.unary (TRef.of (T := ⟨S_, .f32⟩) main_cst_16) (TRef.of (T := ⟨S_, .f32⟩) main_call9_v0) id,
    TRef.unary (TRef.of (T := ⟨S_, .f32⟩) main_call9_v0) (TRef.of (T := ⟨S2048x32000, .f32⟩) main_call9_v1) (broadcastInDim S2048x32000 ![] bcast_S_S2048x32000),
    TRef.ternary (TRef.of (T := ⟨S2048x32000, .i1⟩) main_v44) (TRef.of (T := ⟨S2048x32000, .f32⟩) main_v46) (TRef.of (T := ⟨S2048x32000, .f32⟩) main_call9_v1) (TRef.of (T := ⟨S2048x32000, .f32⟩) main_v47) select,
    nullary main_cst_17 (constant S_ .f32 0x00000000#32),
    binary main_v47 main_cst_17 main_v48 ((fun x v => Host.reduceAdd x v reducesTo_S2048x32000_S_d0_1 h_S_) : (⟨S2048x32000, .f32⟩ : BufTy).Contents (Elt F) → (⟨S_, .f32⟩ : BufTy).Contents (Elt F) → (⟨S_, .f32⟩ : BufTy).Contents (Elt F)),
    nullary main_cst_18 (constant S_ .f32 0x45000000#32),
    binary main_v48 main_cst_18 main_v49 (Host.divf : (⟨S_, .f32⟩ : BufTy).Contents (Elt F) → (⟨S_, .f32⟩ : BufTy).Contents (Elt F) → (⟨S_, .f32⟩ : BufTy).Contents (Elt F)) ]

/-- Operations, piece 10 of 10. The two divergences averaged, and the result: half the hard loss plus half that average. -/
def ops_10 : List (HloOp τ sig (Elt F)) :=
  [ binary main_v38 main_v49 main_v50 (addf : (⟨S_, .f32⟩ : BufTy).Contents (Elt F) → (⟨S_, .f32⟩ : BufTy).Contents (Elt F) → (⟨S_, .f32⟩ : BufTy).Contents (Elt F)),
    nullary main_cst_19 (constant S_ .f32 0x40000000#32),
    binary main_v50 main_cst_19 main_v51 (Host.divf : (⟨S_, .f32⟩ : BufTy).Contents (Elt F) → (⟨S_, .f32⟩ : BufTy).Contents (Elt F) → (⟨S_, .f32⟩ : BufTy).Contents (Elt F)),
    nullary main_cst_20 (constant S_ .f32 0x3F000000#32),
    binary main_cst_20 main_v16 main_v52 (mulf : (⟨S_, .f32⟩ : BufTy).Contents (Elt F) → (⟨S_, .f32⟩ : BufTy).Contents (Elt F) → (⟨S_, .f32⟩ : BufTy).Contents (Elt F)),
    nullary main_cst_21 (constant S_ .f32 0x3F000000#32),
    binary main_cst_21 main_v51 main_v53 (mulf : (⟨S_, .f32⟩ : BufTy).Contents (Elt F) → (⟨S_, .f32⟩ : BufTy).Contents (Elt F) → (⟨S_, .f32⟩ : BufTy).Contents (Elt F)),
    binary main_v52 main_v53 main_v54 (addf : (⟨S_, .f32⟩ : BufTy).Contents (Elt F) → (⟨S_, .f32⟩ : BufTy).Contents (Elt F) → (⟨S_, .f32⟩ : BufTy).Contents (Elt F)) ]

/-- Contents stored at a typed reference and read back are the contents. -/
theorem ofBuf_toBuf {T : BufTy} (x : TRef sig T) (v : T.Contents (Elt F)) : x.ofBuf (x.toBuf v) = v := by
  obtain ⟨ref, rfl, a, b⟩ := x
  rfl

set_option maxRecDepth 8192 in
/-- From the arguments: the two products, the validity word and the safe label. -/
theorem chunk1 (W : Valuation τ sig (Elt F)) :
    after ops_1 W (Proc.devRef .tc main_v0) = val_main_v0 (F := F) (W (Proc.devRef .tc main_arg0)) (W (Proc.devRef .tc main_arg2))
    ∧ after ops_1 W (Proc.devRef .tc main_v1) = val_main_v1 (F := F) (W (Proc.devRef .tc main_arg1)) (W (Proc.devRef .tc main_arg3))
    ∧ after ops_1 W (Proc.devRef .tc main_v3) = val_main_v3 (F := F) (W (Proc.devRef .tc main_arg4))
    ∧ after ops_1 W (Proc.devRef .tc main_v4) = val_main_v4 (F := F) (W (Proc.devRef .tc main_arg4)) := by
  unfold ops_1
  refine ⟨?_, ?_, ?_, ?_⟩ <;> after_results_simp <;> (try simp only [ofBuf_toBuf]) <;> rfl

set_option maxRecDepth 8192 in
/-- From the first product, the log-softmax of its rows; the products, the validity word and the safe label stay. -/
theorem chunk2 (W : Valuation τ sig (Elt F)) (x0 : (⟨S2048x2048, .f32⟩ : BufTy).Contents (Elt F)) (x2 : (⟨S32000x2048, .f32⟩ : BufTy).Contents (Elt F))
    (h0 : W (Proc.devRef .tc main_v0) = val_main_v0 x0 x2) :
    after ops_2 W (Proc.devRef .tc main_v5) = val_main_v5 x0 x2
    ∧ after ops_2 W (Proc.devRef .tc main_v0) = W (Proc.devRef .tc main_v0)
    ∧ after ops_2 W (Proc.devRef .tc main_v1) = W (Proc.devRef .tc main_v1)
    ∧ after ops_2 W (Proc.devRef .tc main_v3) = W (Proc.devRef .tc main_v3)
    ∧ after ops_2 W (Proc.devRef .tc main_v4) = W (Proc.devRef .tc main_v4) := by
  unfold ops_2
  refine ⟨?_, ?_, ?_, ?_, ?_⟩
  · after_results_simp
    try simp only [ofBuf_toBuf]
    rw [h0]
    rfl
  all_goals (after_results_simp <;> rfl)

set_option maxRecDepth 8192 in
/-- From the safe label and the log-softmax, the gathered entry of each row; the products and the validity word stay. -/
theorem chunk3 (W : Valuation τ sig (Elt F)) (x0 : (⟨S2048x2048, .f32⟩ : BufTy).Contents (Elt F)) (x2 : (⟨S32000x2048, .f32⟩ : BufTy).Contents (Elt F)) (x4 : (⟨S2048, .i32⟩ : BufTy).Contents (Elt F))
    (h4 : W (Proc.devRef .tc main_v4) = val_main_v4 x4) (h5 : W (Proc.devRef .tc main_v5) = val_main_v5 x0 x2) :
    after ops_3 W (Proc.devRef .tc main_v8) = val_main_v8 x0 x2 x4
    ∧ after ops_3 W (Proc.devRef .tc main_v0) = W (Proc.devRef .tc main_v0)
    ∧ after ops_3 W (Proc.devRef .tc main_v1) = W (Proc.devRef .tc main_v1)
    ∧ after ops_3 W (Proc.devRef .tc main_v3) = W (Proc.devRef .tc main_v3) := by
  unfold ops_3
  refine ⟨?_, ?_, ?_, ?_⟩
  · after_results_simp
    try simp only [ofBuf_toBuf]
    rw [h4, h5]
    rfl
  all_goals (after_results_simp <;> rfl)

set_option maxRecDepth 8192 in
/-- From the validity word and the gathered entries, the hard loss; the products stay. -/
theorem chunk4 (W : Valuation τ sig (Elt F)) (x0 : (⟨S2048x2048, .f32⟩ : BufTy).Contents (Elt F)) (x2 : (⟨S32000x2048, .f32⟩ : BufTy).Contents (Elt F)) (x4 : (⟨S2048, .i32⟩ : BufTy).Contents (Elt F))
    (h3 : W (Proc.devRef .tc main_v3) = val_main_v3 x4) (h8 : W (Proc.devRef .tc main_v8) = val_main_v8 x0 x2 x4) :
    after ops_4 W (Proc.devRef .tc main_v16) = val_main_v16 x0 x2 x4
    ∧ after ops_4 W (Proc.devRef .tc main_v0) = W (Proc.devRef .tc main_v0)
    ∧ after ops_4 W (Proc.devRef .tc main_v1) = W (Proc.devRef .tc main_v1) := by
  unfold ops_4
  refine ⟨?_, ?_, ?_⟩
  · after_results_simp
    try simp only [ofBuf_toBuf]
    rw [h3, h8]
    rfl
  all_goals (after_results_simp <;> rfl)

set_option maxRecDepth 8192 in
/-- From the first product, its tempered log-softmax; the second product and the hard loss stay. -/
theorem chunk5 (W : Valuation τ sig (Elt F)) (x0 : (⟨S2048x2048, .f32⟩ : BufTy).Contents (Elt F)) (x2 : (⟨S32000x2048, .f32⟩ : BufTy).Contents (Elt F))
    (h0 : W (Proc.devRef .tc main_v0) = val_main_v0 x0 x2) :
    after ops_5 W (Proc.devRef .tc main_v19) = val_main_v19 x0 x2
    ∧ after ops_5 W (Proc.devRef .tc main_v1) = W (Proc.devRef .tc main_v1)
    ∧ after ops_5 W (Proc.devRef .tc main_v16) = W (Proc.devRef .tc main_v16) := by
  unfold ops_5
  refine ⟨?_, ?_, ?_⟩
  · after_results_simp
    try simp only [ofBuf_toBuf]
    rw [h0]
    rfl
  all_goals (after_results_simp <;> rfl)

set_option maxRecDepth 8192 in
/-- From the second product, its tempered log-softmax; the hard loss and the first log-softmax stay. -/
theorem chunk6 (W : Valuation τ sig (Elt F)) (x1 : (⟨S2048x4096, .f32⟩ : BufTy).Contents (Elt F)) (x3 : (⟨S32000x4096, .f32⟩ : BufTy).Contents (Elt F))
    (h1 : W (Proc.devRef .tc main_v1) = val_main_v1 x1 x3) :
    after ops_6 W (Proc.devRef .tc main_v22) = val_main_v22 x1 x3
    ∧ after ops_6 W (Proc.devRef .tc main_v16) = W (Proc.devRef .tc main_v16)
    ∧ after ops_6 W (Proc.devRef .tc main_v19) = W (Proc.devRef .tc main_v19) := by
  unfold ops_6
  refine ⟨?_, ?_, ?_⟩
  · after_results_simp
    try simp only [ofBuf_toBuf]
    rw [h1]
    rfl
  all_goals (after_results_simp <;> rfl)

set_option maxRecDepth 8192 in
/-- From the two log-softmaxes, the mixture; the hard loss and the two log-softmaxes stay. -/
theorem chunk7 (W : Valuation τ sig (Elt F)) (x0 : (⟨S2048x2048, .f32⟩ : BufTy).Contents (Elt F)) (x1 : (⟨S2048x4096, .f32⟩ : BufTy).Contents (Elt F)) (x2 : (⟨S32000x2048, .f32⟩ : BufTy).Contents (Elt F)) (x3 : (⟨S32000x4096, .f32⟩ : BufTy).Contents (Elt F))
    (h19 : W (Proc.devRef .tc main_v19) = val_main_v19 x0 x2) (h22 : W (Proc.devRef .tc main_v22) = val_main_v22 x1 x3) :
    after ops_7 W (Proc.devRef .tc main_v27) = val_main_v27 x0 x1 x2 x3
    ∧ after ops_7 W (Proc.devRef .tc main_v16) = W (Proc.devRef .tc main_v16)
    ∧ after ops_7 W (Proc.devRef .tc main_v19) = W (Proc.devRef .tc main_v19)
    ∧ after ops_7 W (Proc.devRef .tc main_v22) = W (Proc.devRef .tc main_v22) := by
  unfold ops_7
  refine ⟨?_, ?_, ?_, ?_⟩
  · after_results_simp
    try simp only [ofBuf_toBuf]
    rw [h19, h22]
    rfl
  all_goals (after_results_simp <;> rfl)

set_option maxRecDepth 8192 in
/-- From the mixture and the first log-softmax, the first divergence; the hard loss, the second log-softmax and the mixture stay. -/
theorem chunk8 (W : Valuation τ sig (Elt F)) (x0 : (⟨S2048x2048, .f32⟩ : BufTy).Contents (Elt F)) (x1 : (⟨S2048x4096, .f32⟩ : BufTy).Contents (Elt F)) (x2 : (⟨S32000x2048, .f32⟩ : BufTy).Contents (Elt F)) (x3 : (⟨S32000x4096, .f32⟩ : BufTy).Contents (Elt F))
    (h27 : W (Proc.devRef .tc main_v27) = val_main_v27 x0 x1 x2 x3) (h19 : W (Proc.devRef .tc main_v19) = val_main_v19 x0 x2) :
    after ops_8 W (Proc.devRef .tc main_v38) = val_main_v38 x0 x1 x2 x3
    ∧ after ops_8 W (Proc.devRef .tc main_v16) = W (Proc.devRef .tc main_v16)
    ∧ after ops_8 W (Proc.devRef .tc main_v22) = W (Proc.devRef .tc main_v22)
    ∧ after ops_8 W (Proc.devRef .tc main_v27) = W (Proc.devRef .tc main_v27) := by
  unfold ops_8
  refine ⟨?_, ?_, ?_, ?_⟩
  · after_results_simp
    try simp only [ofBuf_toBuf]
    rw [h27, h19]
    rfl
  all_goals (after_results_simp <;> rfl)

set_option maxRecDepth 8192 in
/-- From the mixture and the second log-softmax, the second divergence; the hard loss and the first divergence stay. -/
theorem chunk9 (W : Valuation τ sig (Elt F)) (x0 : (⟨S2048x2048, .f32⟩ : BufTy).Contents (Elt F)) (x1 : (⟨S2048x4096, .f32⟩ : BufTy).Contents (Elt F)) (x2 : (⟨S32000x2048, .f32⟩ : BufTy).Contents (Elt F)) (x3 : (⟨S32000x4096, .f32⟩ : BufTy).Contents (Elt F))
    (h27 : W (Proc.devRef .tc main_v27) = val_main_v27 x0 x1 x2 x3) (h22 : W (Proc.devRef .tc main_v22) = val_main_v22 x1 x3) :
    after ops_9 W (Proc.devRef .tc main_v49) = val_main_v49 x0 x1 x2 x3
    ∧ after ops_9 W (Proc.devRef .tc main_v16) = W (Proc.devRef .tc main_v16)
    ∧ after ops_9 W (Proc.devRef .tc main_v38) = W (Proc.devRef .tc main_v38) := by
  unfold ops_9
  refine ⟨?_, ?_, ?_⟩
  · after_results_simp
    try simp only [ofBuf_toBuf]
    rw [h27, h22]
    rfl
  all_goals (after_results_simp <;> rfl)

set_option maxRecDepth 8192 in
/-- From the hard loss and the two divergences, the result. -/
theorem chunk10 (W : Valuation τ sig (Elt F)) (x0 : (⟨S2048x2048, .f32⟩ : BufTy).Contents (Elt F)) (x1 : (⟨S2048x4096, .f32⟩ : BufTy).Contents (Elt F)) (x2 : (⟨S32000x2048, .f32⟩ : BufTy).Contents (Elt F)) (x3 : (⟨S32000x4096, .f32⟩ : BufTy).Contents (Elt F)) (x4 : (⟨S2048, .i32⟩ : BufTy).Contents (Elt F))
    (h16 : W (Proc.devRef .tc main_v16) = val_main_v16 x0 x2 x4) (h38 : W (Proc.devRef .tc main_v38) = val_main_v38 x0 x1 x2 x3) (h49 : W (Proc.devRef .tc main_v49) = val_main_v49 x0 x1 x2 x3) :
    after ops_10 W (Proc.devRef .tc main_v54) = val_main_v54 x0 x1 x2 x3 x4 := by
  unfold ops_10
  after_results_simp
  try simp only [ofBuf_toBuf]
  rw [h16, h38, h49]
  rfl

/-- The fold over two lines in a row is the fold over the second of the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

set_option maxRecDepth 8192 in
/-- The operations are the ten pieces in a row. -/
theorem ops_eq : (ops : List (HloOp τ sig (Elt F)))
    = ops_1 ++ (ops_2 ++ (ops_3 ++ (ops_4 ++ (ops_5 ++ (ops_6 ++ (ops_7 ++ (ops_8 ++ (ops_9 ++ ops_10)))))))) := rfl

/-- After all the operations the result buffer holds the last stage's value of what the arguments' buffers held before:
    piece by piece, each piece's results at their stages and the earlier results it does not write carried along. -/
theorem after_ops_v54 (V : Valuation τ sig (Elt F)) :
    after ops V (Proc.devRef .tc main_v54)
      = val_main_v54 (F := F) (V (Proc.devRef .tc main_arg0)) (V (Proc.devRef .tc main_arg1)) (V (Proc.devRef .tc main_arg2))
          (V (Proc.devRef .tc main_arg3)) (V (Proc.devRef .tc main_arg4)) := by
  rw [ops_eq]
  simp only [after_app]
  obtain ⟨a0, a1, a3, a4⟩ := chunk1 V
  generalize after ops_1 V = V₁ at a0 a1 a3 a4 ⊢
  obtain ⟨b5, b0, b1, b3, b4⟩ := chunk2 V₁ _ _ a0
  generalize after ops_2 V₁ = V₂ at b5 b0 b1 b3 b4 ⊢
  obtain ⟨c8, c0, c1, c3⟩ := chunk3 V₂ _ _ _ (b4.trans a4) b5
  generalize after ops_3 V₂ = V₃ at c8 c0 c1 c3 ⊢
  obtain ⟨d16, d0, d1⟩ := chunk4 V₃ _ _ _ (c3.trans (b3.trans a3)) c8
  generalize after ops_4 V₃ = V₄ at d16 d0 d1 ⊢
  obtain ⟨e19, e1, e16⟩ := chunk5 V₄ _ _ (d0.trans (c0.trans (b0.trans a0)))
  generalize after ops_5 V₄ = V₅ at e19 e1 e16 ⊢
  obtain ⟨g22, g16, g19⟩ := chunk6 V₅ _ _ (e1.trans (d1.trans (c1.trans (b1.trans a1))))
  generalize after ops_6 V₅ = V₆ at g22 g16 g19 ⊢
  obtain ⟨h27, h16, h19, h22⟩ := chunk7 V₆ _ _ _ _ (g19.trans e19) g22
  generalize after ops_7 V₆ = V₇ at h27 h16 h19 h22 ⊢
  obtain ⟨i38, i16, i22, i27⟩ := chunk8 V₇ _ _ _ _ h27 (h19.trans (g19.trans e19))
  generalize after ops_8 V₇ = V₈ at i38 i16 i22 i27 ⊢
  obtain ⟨j49, j16, j38⟩ := chunk9 V₈ _ _ _ _ (i27.trans h27) (i22.trans (h22.trans g22))
  generalize after ops_9 V₈ = V₉ at j49 j16 j38 ⊢
  exact chunk10 V₉ _ _ _ _ _ (j16.trans (i16.trans (h16.trans (g16.trans (e16.trans d16))))) (j38.trans i38) j49

set_option maxRecDepth 8192 in
set_option maxHeartbeats 4000000 in
/-- No operation writes an argument's buffer. -/
theorem after_ops_args (V : Valuation τ sig (Elt F)) :
    after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2)
    ∧ after ops V (Proc.devRef .tc main_arg3) = V (Proc.devRef .tc main_arg3)
    ∧ after ops V (Proc.devRef .tc main_arg4) = V (Proc.devRef .tc main_arg4) := by
  refine ⟨?_, ?_, ?_, ?_, ?_⟩ <;> after_results_simp <;> rfl

set_option maxRecDepth 8192 in
set_option maxHeartbeats 4000000 in
/-- The whole-array program's run: on every device, for any float values, from any memory with zero counters, every weakly
    fair execution of its host operations terminates with the result at the last stage's value of the arguments' launch
    contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v54)
        = val_main_v54 (F := F) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v54).trans (after_ops_v54 (launchContents m c)),
      (h c main_arg0).trans (after_ops_args (launchContents m c)).1,
      (h c main_arg1).trans (after_ops_args (launchContents m c)).2.1,
      (h c main_arg2).trans (after_ops_args (launchContents m c)).2.2.1,
      (h c main_arg3).trans (after_ops_args (launchContents m c)).2.2.2.1,
      (h c main_arg4).trans (after_ops_args (launchContents m c)).2.2.2.2⟩)
    (run_seq scopedRefs_eq scopedSems_eq defs main (fun _ => ops) main_eq (fun _ => ops_sub) m ρ)

end Cert.ReferenceIdeal.RefValue

end
-- ==== Proof.RefLogSm.lean ====
import proofs.«430291_j37958920962546_2_alg».proof.Proof.RefReadP
import proofs.«430291_j37958920962546_2_alg».proof.Proof.Spec
import proofs.«430291_j37958920962546_2_alg».proof.Proof.Consts
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.ReadP Cert.Distill

variable (x0 : (⟨S2048x2048, .f32⟩ : BufTy).Contents (Elt Ideal)) (x1 : (⟨S2048x4096, .f32⟩ : BufTy).Contents (Elt Ideal))
  (x2 : (⟨S32000x2048, .f32⟩ : BufTy).Contents (Elt Ideal)) (x3 : (⟨S32000x4096, .f32⟩ : BufTy).Contents (Elt Ideal))

/-- The student logits: a row of the input against a row of the weight. -/
theorem v0_apply (i : S2048x32000.Idx) : val_main_v0 (F := Ideal) x0 x2 i = logitsS x0 x2 (i 0).val (i 1).val := by
  rw [val_main_v0_apply]
  unfold logitsS dotRow
  refine Finset.sum_congr rfl fun k _ => ?_
  have e0 : nat2 x0 (i 0).val k.val = x0 (lidx_main_v0 i k) := nat2_apply (a := 2048) (b := 2048) x0 (lidx_main_v0 i k)
  have e2 : nat2 x2 (i 1).val k.val = x2 (ridx_main_v0 i k) := nat2_apply (a := 32000) (b := 2048) x2 (ridx_main_v0 i k)
  rw [e0, e2]

/-- The teacher logits. -/
theorem v1_apply (i : S2048x32000.Idx) : val_main_v1 (F := Ideal) x1 x3 i = logitsT x1 x3 (i 0).val (i 1).val := by
  rw [val_main_v1_apply]
  unfold logitsT dotRow
  refine Finset.sum_congr rfl fun k _ => ?_
  have e1 : nat2 x1 (i 0).val k.val = x1 (lidx_main_v1 i k) := nat2_apply (a := 2048) (b := 4096) x1 (lidx_main_v1 i k)
  have e3 : nat2 x3 (i 1).val k.val = x3 (ridx_main_v1 i k) := nat2_apply (a := 32000) (b := 4096) x3 (ridx_main_v1 i k)
  rw [e1, e3]

/-- A row's maximum: the whole-array program folds `max` from -∞ over the 32000 columns of the row. -/
private theorem rowMax_of (A : (⟨S2048x32000, .f32⟩ : BufTy).Contents (Elt Ideal)) (a : ℕ → ℕ → EReal)
    (hA : ∀ i : S2048x32000.Idx, A i = a (i 0).val (i 1).val) (j : S2048.Idx) :
    Host.reduce (FloatOps.maximumf (F := Ideal) (φ := .f32)) A (constant (F := Ideal) S_ .f32 0xFF800000#32) reducesTo_S2048x32000_S2048_d1 h_S_ j
      = rMax (a (j 0).val) := by
  have h : S2048x32000.Reduces [1] S2048 := by decide
  rw [Host.reduce_eq_fold_single (FloatOps.maximumf (F := Ideal) (φ := .f32)) A _ reducesTo_S2048x32000_S2048_d1 h h_S_ j]
  unfold rMax
  have hf : (A ∘ h.lift j) = fun v : Fin 32000 => a (j 0).val v.val := funext fun k => by
    show A (h.lift j k) = _
    rw [hA]; rfl
  have hi : constant (F := Ideal) S_ .f32 0xFF800000#32 (Shape.Idx.first h_S_) = (⊥ : EReal) := Consts.ofBits_neg_inf
  rw [hi]
  exact congrArg (fun f => Finset.fold max (⊥ : EReal) f (Finset.univ : Finset (Fin 32000))) hf

/-- The row maximum this log-softmax subtracts. -/
private theorem call1_max (j : S2048.Idx) :
    val_main_call1_v2 (F := Ideal) x0 x2 j = rMax (logitsS x0 x2 (j 0).val) := by
  rw [val_main_call1_v2_apply, val_main_call1_v1_apply, val_main_call1_cst_0_apply]
  unfold val_main_call1_v0
  have hm := rowMax_of (val_main_v0 (F := Ideal) x0 x2) (logitsS x0 x2) (v0_apply x0 x2) j
  rw [Ideal.maximumf_def, Ideal.ofBits_def, Consts.ofBits_neg_inf]
  exact (max_bot_left _).trans hm

/-- The shifted logits a - max. -/
private theorem call1_sub (i : S2048x32000.Idx) :
    val_main_call1_v5 (F := Ideal) x0 x2 i
      = logitsS x0 x2 (i 0).val (i 1).val - rMax (logitsS x0 x2 (i 0).val) := by
  rw [val_main_call1_v5_apply, val_main_call1_v4_apply, val_main_call1_v3_apply, call1_max, v0_apply]
  rfl

/-- The row's sum of exp (a - max). -/
private theorem call1_sum (j : S2048.Idx) :
    val_main_call1_v7 (F := Ideal) x0 x2 j
      = ∑ u : Fin 32000, Ideal.exp (logitsS x0 x2 (j 0).val u.val - rMax (logitsS x0 x2 (j 0).val)) := by
  rw [val_main_call1_v7_apply, val_main_call1_cst_1_apply, Ideal.ofBits_def, Consts.ofBits_zero, zero_add]
  refine Finset.sum_congr rfl fun k _ => ?_
  rw [val_main_call1_v6_apply, call1_sub]
  rfl

/-- The log-softmax of the raw student logits (the hard loss's). -/
theorem v5_apply (i : S2048x32000.Idx) :
    val_main_v5 (F := Ideal) x0 x2 i = rLogSm (logitsS x0 x2 (i 0).val) (i 1).val := by
  rw [val_main_v5_apply, val_main_call1_v10_apply, val_main_call1_v9_apply, val_main_call1_v8_apply, call1_sum, call1_sub]
  have e : ((idx_main_call1_v8 (idx_main_call1_v10 i)) 0).val = (i 0).val := rfl
  rw [e, Ideal.subf_def, Ideal.hostUnary_log_def]
  unfold rLogSm
  rfl

/-- Dividing the student logits by the temperature 1 changes nothing. -/
private theorem v18_eq (i : S2048x32000.Idx) :
    val_main_v18 (F := Ideal) x0 x2 i = logitsS x0 x2 (i 0).val (i 1).val := by
  have h1 : (1 : EReal) = ((1 : ℝ) : EReal) := EReal.coe_one.symm
  rw [val_main_v18_apply, val_main_v17_apply, val_main_cst_4_apply, v0_apply, Ideal.hostDivf_def, Ideal.ofBits_def,
    Consts.ofBits_one, h1, Ideal.div_coe one_ne_zero, div_one, ← h1, mul_one]

/-- The row maximum this log-softmax subtracts. -/
private theorem call4_max (j : S2048.Idx) :
    val_main_call4_v2 (F := Ideal) x0 x2 j = rMax (logitsS x0 x2 (j 0).val) := by
  rw [val_main_call4_v2_apply, val_main_call4_v1_apply, val_main_call4_cst_0_apply]
  unfold val_main_call4_v0
  have hm := rowMax_of (val_main_v18 (F := Ideal) x0 x2) (logitsS x0 x2) (v18_eq x0 x2) j
  rw [Ideal.maximumf_def, Ideal.ofBits_def, Consts.ofBits_neg_inf]
  exact (max_bot_left _).trans hm

/-- The shifted logits a - max. -/
private theorem call4_sub (i : S2048x32000.Idx) :
    val_main_call4_v5 (F := Ideal) x0 x2 i
      = logitsS x0 x2 (i 0).val (i 1).val - rMax (logitsS x0 x2 (i 0).val) := by
  rw [val_main_call4_v5_apply, val_main_call4_v4_apply, val_main_call4_v3_apply, call4_max, v18_eq]
  rfl

/-- The row's sum of exp (a - max). -/
private theorem call4_sum (j : S2048.Idx) :
    val_main_call4_v7 (F := Ideal) x0 x2 j
      = ∑ u : Fin 32000, Ideal.exp (logitsS x0 x2 (j 0).val u.val - rMax (logitsS x0 x2 (j 0).val)) := by
  rw [val_main_call4_v7_apply, val_main_call4_cst_1_apply, Ideal.ofBits_def, Consts.ofBits_zero, zero_add]
  refine Finset.sum_congr rfl fun k _ => ?_
  rw [val_main_call4_v6_apply, call4_sub]
  rfl

/-- The log-softmax of the student logits divided by the temperature 1 (the soft loss's): the same function. -/
theorem v19_apply (i : S2048x32000.Idx) :
    val_main_v19 (F := Ideal) x0 x2 i = rLogSm (logitsS x0 x2 (i 0).val) (i 1).val := by
  rw [val_main_v19_apply, val_main_call4_v10_apply, val_main_call4_v9_apply, val_main_call4_v8_apply, call4_sum, call4_sub]
  have e : ((idx_main_call4_v8 (idx_main_call4_v10 i)) 0).val = (i 0).val := rfl
  rw [e, Ideal.subf_def, Ideal.hostUnary_log_def]
  unfold rLogSm
  rfl

/-- Dividing the teacher logits by the temperature 1 changes nothing. -/
private theorem v21_eq (i : S2048x32000.Idx) :
    val_main_v21 (F := Ideal) x1 x3 i = logitsT x1 x3 (i 0).val (i 1).val := by
  have h1 : (1 : EReal) = ((1 : ℝ) : EReal) := EReal.coe_one.symm
  rw [val_main_v21_apply, val_main_v20_apply, val_main_cst_5_apply, v1_apply, Ideal.hostDivf_def, Ideal.ofBits_def,
    Consts.ofBits_one, h1, Ideal.div_coe one_ne_zero, div_one, ← h1, mul_one]

/-- The row maximum this log-softmax subtracts. -/
private theorem call5_max (j : S2048.Idx) :
    val_main_call5_v2 (F := Ideal) x1 x3 j = rMax (logitsT x1 x3 (j 0).val) := by
  rw [val_main_call5_v2_apply, val_main_call5_v1_apply, val_main_call5_cst_0_apply]
  unfold val_main_call5_v0
  have hm := rowMax_of (val_main_v21 (F := Ideal) x1 x3) (logitsT x1 x3) (v21_eq x1 x3) j
  rw [Ideal.maximumf_def, Ideal.ofBits_def, Consts.ofBits_neg_inf]
  exact (max_bot_left _).trans hm

/-- The shifted logits a - max. -/
private theorem call5_sub (i : S2048x32000.Idx) :
    val_main_call5_v5 (F := Ideal) x1 x3 i
      = logitsT x1 x3 (i 0).val (i 1).val - rMax (logitsT x1 x3 (i 0).val) := by
  rw [val_main_call5_v5_apply, val_main_call5_v4_apply, val_main_call5_v3_apply, call5_max, v21_eq]
  rfl

/-- The row's sum of exp (a - max). -/
private theorem call5_sum (j : S2048.Idx) :
    val_main_call5_v7 (F := Ideal) x1 x3 j
      = ∑ u : Fin 32000, Ideal.exp (logitsT x1 x3 (j 0).val u.val - rMax (logitsT x1 x3 (j 0).val)) := by
  rw [val_main_call5_v7_apply, val_main_call5_cst_1_apply, Ideal.ofBits_def, Consts.ofBits_zero, zero_add]
  refine Finset.sum_congr rfl fun k _ => ?_
  rw [val_main_call5_v6_apply, call5_sub]
  rfl

/-- The log-softmax of the teacher logits divided by the temperature 1. -/
theorem v22_apply (i : S2048x32000.Idx) :
    val_main_v22 (F := Ideal) x1 x3 i = rLogSm (logitsT x1 x3 (i 0).val) (i 1).val := by
  rw [val_main_v22_apply, val_main_call5_v10_apply, val_main_call5_v9_apply, val_main_call5_v8_apply, call5_sum, call5_sub]
  have e : ((idx_main_call5_v8 (idx_main_call5_v10 i)) 0).val = (i 0).val := rfl
  rw [e, Ideal.subf_def, Ideal.hostUnary_log_def]
  unfold rLogSm
  rfl

end Cert.ReferenceIdeal.RefValue

end
-- ==== Proof.LibTakeAlongRow.lean ====
/-
  jnp's `take_along_axis(x, idx[:, None], axis=1)` on a matrix, read at a row.

  For a table `x : [N, C]` and one index per row, jax lowers the pick to a `stablehlo.gather` whose start indices are
  laid out `[N, 1, 1]`: axis 0 of the table is a batching axis paired with axis 0 of the indices, axis 1 of the table is
  collapsed and is the one axis the start index names, the index vector sits on the last axis, every slice has one
  element, and the result is `[N, 1]`.  Read at row `p` the gather is the table at row `p` and at the column the start
  index names, read signed and clamped into `[0, C - 1]` as the gather clamps every start index (`gather_rowTake_apply`).
  When the index word is already a column number below `C` the clamp does nothing (`clamp_of_lt`).
  Generic in `N`, `C`, the index width and the element type.
-/
import Idealize.ShloMosaic.PureOps.ShapeOps
import Idealize.ShloMosaic.Lib.ValueIdx
import Idealize.ShloMosaic.Lib.StableHlo.Predicate

namespace Idealize.ShloMosaic.RowTake

open Idealize.ShloMosaic Idealize.ShloMosaic.ValueIdx

variable {α : Type}

/-- The dimension numbers of the row-wise pick, for a table `[N, C]`, start indices `[N, 1, 1]` and a result `[N, 1]`. -/
abbrev rowTakeDims (N C : Nat)
    (wf : GatherDims.WF ⟨2, ![N, C]⟩ ⟨3, ![N, 1, 1]⟩ ⟨2, ![N, 1]⟩ [] [1] [0] [1] [0] 2 ![1, 1]) :
    GatherDims ⟨2, ![N, C]⟩ ⟨3, ![N, 1, 1]⟩ ⟨2, ![N, 1]⟩ where
  offsetDims := []
  collapsedSliceDims := [1]
  operandBatchingDims := [0]
  startIndicesBatchingDims := [0]
  startIndexMap := [1]
  indexVectorDim := 2
  sliceSizes := ![1, 1]
  wf := wf

/-- THE PICK READ AT ROW `p`: the table at (p, the start index of row p read signed and clamped into [0, C - 1]). -/
theorem gather_rowTake_apply {N C w : Nat} (hC : 0 < C)
    (wf : GatherDims.WF ⟨2, ![N, C]⟩ ⟨3, ![N, 1, 1]⟩ ⟨2, ![N, 1]⟩ [] [1] [0] [1] [0] 2 ![1, 1])
    (x : (⟨2, ![N, C]⟩ : Shape).Idx → α) (idx : IVec ⟨3, ![N, 1, 1]⟩ w) (p : Fin N) :
    Host.gather (rowTakeDims N C wf) x idx (ix2 p (0 : Fin 1))
      = x (ix2 p ⟨min (idx (ix3 p (0 : Fin 1) (0 : Fin 1))).toInt.toNat (C - 1), by omega⟩) := by
  unfold Host.gather
  congr 1
  funext a
  refine Fin.ext ?_
  match a with
  | ⟨0, _⟩ =>
    show (rowTakeDims N C wf).start (ix2 p (0 : Fin 1)) idx 0 + (rowTakeDims N C wf).batchCoord (ix2 p (0 : Fin 1)) 0
      + (rowTakeDims N C wf).offCoord (ix2 p (0 : Fin 1)) 0 = p.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ (rowTakeDims N C wf).operandBatchingDims from List.mem_singleton.mpr rfl)]
    rfl
  | ⟨1, _⟩ =>
    show (rowTakeDims N C wf).start (ix2 p (0 : Fin 1)) idx 1 + (rowTakeDims N C wf).batchCoord (ix2 p (0 : Fin 1)) 1
      + (rowTakeDims N C wf).offCoord (ix2 p (0 : Fin 1)) 1 = _
    rw [GatherDims.batchCoord_eq_zero _ _ _ (fun h => Nat.one_ne_zero (congrArg Fin.val (List.mem_singleton.mp h))),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (rowTakeDims N C wf).startIndexMap from List.mem_singleton.mpr rfl)]
    have hsi : (rowTakeDims N C wf).siIdx (ix2 p (0 : Fin 1)) ⟨List.idxOf (1 : Fin 2) (rowTakeDims N C wf).startIndexMap,
        List.idxOf_lt_length_iff.2 (List.mem_singleton.mpr rfl)⟩ = ix3 p (0 : Fin 1) (0 : Fin 1) := by
      funext b; refine Fin.ext ?_
      match b with
      | ⟨0, _⟩ => rfl
      | ⟨1, _⟩ => rfl
      | ⟨2, _⟩ => rfl
    rw [hsi]
    rfl

/-- An index word that is a column number below `C` (and below 2^31) is not moved by the signed read and the clamp. -/
theorem clamp_of_lt {C : Nat} (t : BitVec 32) (h : t.toNat < C) (hC : C ≤ 2 ^ 31) : min t.toInt.toNat (C - 1) = t.toNat := by
  rw [StableHlo.Predicate.toInt_eq_toNat_of_lt (by omega)]
  simp only [Int.toNat_natCast]
  omega

end Idealize.ShloMosaic.RowTake
-- ==== Proof.LibIndexWrap.lean ====
/-
  Signed index words wrapped the NumPy way, and masks that are all ones.

  An index word `s` into an axis of extent `n` is wrapped as `if s < 0 then s + n else s` (signed compare, wrapping
  add). If `-n ≤ s < n` as a signed integer, the wrapped word lies in `[0, n)`, so a range test
  `0 ≤ s' ∧ s' ≤ n - 1` of it is the bit 1 (`wrap_inRange`, `rangeTest_wrap`). A reduce by `and` from the initial
  bit 1 over bits that are all 1 is 1 at every result index (`reduce_andi_of_all`, the converse of the library's
  `Host.reduce_andi_eq_one`), and a select under a mask that is 1 everywhere is its first branch (`select_of_ones`).
-/
import Idealize.ShloMosaic.Lib.ReduceAll
import Idealize.ShloMosaic.Lib.StableHlo.Predicate

namespace Idealize.ShloMosaic.IndexWrap

open Idealize.ShloMosaic

/-- NumPy's wrap of a signed index word into an axis of extent `n`: a negative index counts from the end. -/
def wrapWord (n s : BitVec 32) : BitVec 32 := Scalar.select (IntOp.cmpi .slt s 0#32) (IntOp.addi s n) s

/-- A signed index in `[-n, n)` wraps into `[0, n)`. -/
theorem wrap_inRange (n : Nat) (hn : n < 2 ^ 30) (s : BitVec 32) (h1 : -(n : Int) ≤ s.toInt) (h2 : s.toInt < n) :
    0 ≤ (wrapWord (BitVec.ofNat 32 n) s).toInt ∧ (wrapWord (BitVec.ofNat 32 n) s).toInt < n := by
  have hz : (0#32 : BitVec 32).toInt = 0 := by decide
  have hnI : (BitVec.ofNat 32 n).toInt = n := StableHlo.Predicate.toInt_ofNat_small n (by omega)
  unfold wrapWord Scalar.select
  by_cases hs : IntOp.cmpi .slt s 0#32 = 1
  · rw [if_pos hs]
    have hneg : s.toInt < 0 := by have := IntOp.cmpi_slt.1 hs; rwa [hz] at this
    have hsum : (IntOp.addi s (BitVec.ofNat 32 n)).toInt = s.toInt + n := by
      rw [IntOp.addi, BitVec.toInt_add, hnI]
      exact Int.bmod_eq_of_le (by omega) (by omega)
    rw [hsum]; omega
  · rw [if_neg hs]
    have hnn : ¬ s.toInt < 0 := fun h => hs (IntOp.cmpi_slt.2 (by rw [hz]; exact h))
    omega

/-- The range test `0 ≤ s' ∧ s' ≤ hi` (signed) of a wrapped index, `hi` the word of `n - 1`, is the bit 1. -/
theorem rangeTest_wrap (n : Nat) (hn0 : 0 < n) (hn : n < 2 ^ 30) (hi : BitVec 32) (hhi : hi.toInt = (n : Int) - 1)
    (s : BitVec 32) (h1 : -(n : Int) ≤ s.toInt) (h2 : s.toInt < n) :
    IntOp.andi (IntOp.cmpi .sge (wrapWord (BitVec.ofNat 32 n) s) 0#32) (IntOp.cmpi .sle (wrapWord (BitVec.ofNat 32 n) s) hi) = 1#1 := by
  have hz : (0#32 : BitVec 32).toInt = 0 := by decide
  obtain ⟨h0, hlt⟩ := wrap_inRange n hn s h1 h2
  exact IntOp.andi_eq_one.2 ⟨IntOp.cmpi_sge.2 (by rw [hz]; exact h0), IntOp.cmpi_sle.2 (by rw [hhi]; omega)⟩

/-- A left fold by `and` from 1 over bits that are all 1 is 1. -/
theorem foldl_andi_ones {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    rw [List.foldl_cons]
    exact foldl_andi_ones f l _ (IntOp.andi_eq_one.2 ⟨h, hl a (List.mem_cons_self ..)⟩) (fun n hn => hl n (List.mem_cons_of_mem _ hn))

/-- A reduce by `and` from the initial bit 1 over an operand that is 1 everywhere is 1 at every result index. -/
theorem reduce_andi_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl]
  exact foldl_andi_ones x _ _ (hinit _) (fun i _ => hx i)

/-- Under a mask that is 1 everywhere a select is its first branch. -/
theorem select_of_ones {α : Type} {s : Shape} (c : IVec s 1) (a b : s.Idx → α) (hc : ∀ i, c i = 1#1) : select c a b = a :=
  funext fun i => by
    show Scalar.select (c i) (a i) (b i) = a i
    rw [hc i]; exact if_pos rfl

end Idealize.ShloMosaic.IndexWrap
-- ==== Proof.RefHard.lean ====
import proofs.«430291_j37958920962546_2_alg».proof.Proof.RefLogSm
import proofs.«430291_j37958920962546_2_alg».proof.Proof.LibTakeAlongRow
import proofs.«430291_j37958920962546_2_alg».proof.Proof.LibIndexWrap
import Idealize.ShloMosaic.Lib.StableHlo.Predicate
import Idealize.ShloMosaic.Lib.ValueIdx
import Idealize.ShloMosaic.Lib.ValueIdxRank1
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.ReadP Cert.Distill

/-! ## The label words -/

/-- The looked-up column of a target in range is a column number: the target itself when it is valid, column 0 otherwise. -/
private theorem safeLab_lt (w : BitVec 32) (hw : w = 4294967196#32 ∨ w.toNat < 32000) : (safeLab w).toNat < 32000 := by
  unfold safeLab Scalar.select
  by_cases hv : validBit w = 1
  · rw [if_pos hv]
    rcases hw with hw | hw
    · exact absurd hw (IntOp.cmpi_ne.1 (show IntOp.cmpi .ne w 4294967196#32 = 1#1 from hv))
    · exact hw
  · rw [if_neg hv]; decide

/-- A column number reads the same signed and unsigned. -/
private theorem toInt_of_lt (s : BitVec 32) (h : s.toNat < 32000) : s.toInt = s.toNat :=
  StableHlo.Predicate.toInt_eq_toNat_of_lt (by omega)

/-- A column number is not negative, so the wrap-around of negative indices leaves it alone. -/
private theorem wrap_of_lt (s : BitVec 32) (h : s.toNat < 32000) :
    Scalar.select (IntOp.cmpi .slt s 0#32) (IntOp.addi s 32000#32) s = s := by
  have hz : (0#32 : BitVec 32).toInt = 0 := by decide
  unfold Scalar.select
  rw [if_neg]
  intro hs
  have h1 := IntOp.cmpi_slt.1 hs
  rw [toInt_of_lt s h, hz] at h1
  omega

/-- A column number passes the range test 0 ≤ s ∧ s ≤ 31999. -/
private theorem range_of_lt (s : BitVec 32) (h : s.toNat < 32000) :
    IntOp.andi (IntOp.cmpi .sge s 0#32) (IntOp.cmpi .sle s 31999#32) = 1#1 := by
  have hz : (0#32 : BitVec 32).toInt = 0 := by decide
  have hhi : (31999#32 : BitVec 32).toInt = 31999 := StableHlo.Predicate.toInt_ofNat_small 31999 (by norm_num)
  have hs := toInt_of_lt s h
  exact IntOp.andi_eq_one.2 ⟨IntOp.cmpi_sge.2 (by rw [hz, hs]; omega), IntOp.cmpi_sle.2 (by rw [hhi, hs]; omega)⟩

/-! ## The whole-array program, stage by stage -/

section Stages

variable (x0 : (⟨S2048x2048, .f32⟩ : BufTy).Contents (Elt Ideal)) (x2 : (⟨S32000x2048, .f32⟩ : BufTy).Contents (Elt Ideal))
  (x4 : (⟨S2048, .i32⟩ : BufTy).Contents (Elt Ideal))

/-- The validity mask is each target's validity bit. -/
private theorem v3_eq (i : S2048.Idx) : val_main_v3 (F := Ideal) x4 i = validBit (x4 i) := by
  unfold validBit
  rw [val_main_v3_apply, val_main_v2_apply, val_main_c_apply]

/-- The column looked up in each row. -/
private theorem v4_eq (i : S2048.Idx) : val_main_v4 (F := Ideal) x4 i = safeLab (x4 i) := by
  unfold safeLab
  rw [val_main_v4_apply, v3_eq, val_main_call0_v1_apply, val_main_call0_v0_apply, val_main_c_0_apply]

/-- The looked-up columns as a one-column matrix. -/
private theorem v6_eq (k : S2048x1.Idx) :
    val_main_v6 (F := Ideal) x4 k = safeLab (x4 (ix1 (⟨(k 0).val, (k 0).isLt⟩ : Fin 2048))) := by
  rw [val_main_v6_apply, v4_eq]
  refine congrArg (fun q => safeLab (x4 q)) ?_
  funext a
  match a with
  | ⟨0, _⟩ => rfl

/-- The start indices of the pick: the wrap-around does nothing to a column number. -/
private theorem startIdx_eq (hl : LabelsOk x4) (j : S2048x1x1.Idx) :
    val_main_call2_v5 (F := Ideal) x4 j = safeLab (x4 (ix1 (⟨(j 0).val, (j 0).isLt⟩ : Fin 2048))) := by
  rw [val_main_call2_v5_apply, val_main_call2_v4_apply, val_main_call2_v1_apply, val_main_call2_v3_apply,
    val_main_call2_v0_apply, val_main_call2_c_apply, val_main_call2_v2_apply, val_main_call2_c_0_apply, v6_eq,
    wrap_of_lt _ (safeLab_lt _ (hl _))]
  refine congrArg (fun q : Fin 2048 => safeLab (x4 (ix1 q))) (Fin.ext ?_)
  have h1 : (j 1).val < 1 := (j 1).isLt
  have h2 : (j 2).val < 1 := (j 2).isLt
  show (((j 0).val * 1 + (j 1).val) * 1 + (j 2).val) / 1 = (j 0).val
  omega

/-- The in-bounds test of every start index is the bit 1. -/
private theorem inBounds_eq (hl : LabelsOk x4) (j : S2048x1x1.Idx) : val_main_call2_v11 (F := Ideal) x4 j = 1#1 := by
  rw [val_main_call2_v11_apply, val_main_call2_v7_apply, val_main_call2_v10_apply, val_main_call2_v6_apply,
    val_main_call2_c_2_apply, val_main_call2_v9_apply, val_main_call2_v8_apply, val_main_call2_c_1_apply, startIdx_eq x4 hl]
  exact range_of_lt _ (safeLab_lt _ (hl _))

/-- The in-bounds mask, reduced by and over the unit axis, is the bit 1 in every row. -/
private theorem mask_eq (hl : LabelsOk x4) (k : S2048x1.Idx) : val_main_call2_v12 (F := Ideal) x4 k = 1#1 := by
  unfold val_main_call2_v12
  exact IndexWrap.reduce_andi_of_all _ _ reducesTo_S2048x1x1_S2048x1_d2 h_S_ (fun _ => rfl) (inBounds_eq x4 hl) k

/-- The pick at row p: the log-softmax of row p at its looked-up column (the clamp does nothing to a column number). -/
private theorem pick_eq (hl : LabelsOk x4) (p : Fin 2048) :
    val_main_call2_v13 (F := Ideal) x0 x2 x4 (ix2 p (0 : Fin 1))
      = rLogSm (logitsS x0 x2 p.val) (safeLab (x4 (ix1 p))).toNat := by
  unfold val_main_call2_v13
  refine (RowTake.gather_rowTake_apply (N := 2048) (C := 32000) (by decide)
    Gen.gather_S2048x32000_S2048x1x1_S2048x1_n_1_0_0_1_2_11_wf (val_main_v5 (F := Ideal) x0 x2)
    (val_main_call2_v5 (F := Ideal) x4) p).trans ?_
  rw [v5_apply]
  show rLogSm (logitsS x0 x2 p.val)
    (min (val_main_call2_v5 (F := Ideal) x4 (ix3 p (0 : Fin 1) (0 : Fin 1))).toInt.toNat (32000 - 1)) = _
  rw [startIdx_eq x4 hl]
  show rLogSm (logitsS x0 x2 p.val) (min (safeLab (x4 (ix1 p))).toInt.toNat (32000 - 1)) = _
  rw [RowTake.clamp_of_lt _ (safeLab_lt _ (hl _)) (by norm_num)]

/-- The take at row p. -/
private theorem v7_eq (hl : LabelsOk x4) (p : Fin 2048) :
    val_main_v7 (F := Ideal) x0 x2 x4 (ix2 p (0 : Fin 1))
      = rLogSm (logitsS x0 x2 p.val) (safeLab (x4 (ix1 p))).toNat := by
  rw [val_main_v7_apply, mask_eq x4 hl, ValueIdx.select_one, pick_eq x0 x2 x4 hl]

/-- The take as a vector. -/
private theorem v8_eq (hl : LabelsOk x4) (p : Fin 2048) :
    val_main_v8 (F := Ideal) x0 x2 x4 (ix1 p) = rLogSm (logitsS x0 x2 p.val) (safeLab (x4 (ix1 p))).toNat := by
  have hi : idx_main_v8 (ix1 p) = ix2 p (0 : Fin 1) := by
    funext a
    match a with
    | ⟨0, _⟩ => exact Fin.ext (show p.val / 1 = p.val from Nat.div_one _)
    | ⟨1, _⟩ => rfl
  rw [val_main_v8_apply, hi, v7_eq x0 x2 x4 hl]

/-- The summand of the hard loss's numerator at row p. -/
private theorem v12_eq (hl : LabelsOk x4) (p : Fin 2048) :
    val_main_v12 (F := Ideal) x0 x2 x4 (ix1 p)
      = Scalar.select (validBit (x4 (ix1 p))) (rLogSm (logitsS x0 x2 p.val) (safeLab (x4 (ix1 p))).toNat) 0 := by
  rw [val_main_v12_apply, v3_eq, v8_eq x0 x2 x4 hl, val_main_call3_v1_apply, val_main_call3_v0_apply, val_main_cst_apply,
    Ideal.ofBits_def, Consts.ofBits_zero]

/-- The hard loss's numerator. -/
private theorem v13_eq (hl : LabelsOk x4) (i : S_.Idx) :
    val_main_v13 (F := Ideal) x0 x2 x4 i = rHardNum (logitsS x0 x2) (targets x4) := by
  rw [val_main_v13_apply, val_main_cst_3_apply, Ideal.ofBits_def, Consts.ofBits_zero, zero_add,
    ← Equiv.sum_comp (idxEquiv1 (n := 2048)).symm]
  unfold rHardNum
  refine Finset.sum_congr rfl fun n _ => ?_
  have ht : targets x4 n.val = x4 (ix1 n) := nat1_apply x4 (ix1 n)
  rw [ht]
  exact v12_eq x0 x2 x4 hl n

/-- The hard loss's denominator: the count of valid targets, at least one, as a float. -/
private theorem v15_eq (i : S_.Idx) : val_main_v15 (F := Ideal) x4 i = denom x4 reducesTo_S2048_S_d0 h_S_ := by
  have h9 : val_main_v9 (F := Ideal) x4 = fun i => (validBit (x4 i)).setWidth 32 :=
    funext fun i => by rw [val_main_v9_apply, v3_eq]
  rw [val_main_v15_apply, val_main_v11_apply, val_main_c_2_apply, eq_ix0 i]
  unfold denom val_main_v10
  rw [h9]
  rfl

end Stages

/-- THE HARD LOSS as the whole-array program computes it, for targets in range: minus the sum over valid rows of the
    log-softmax at the looked-up column, over the count of valid rows.  With every target the ignore index or a column
    number, the looked-up column (the target, or 0 for an ignored row) is a column number: the take's wrap-around of negative
    indices does nothing, its in-bounds mask is all ones and its clamp does nothing. -/
theorem v16_eq (x0 : (⟨S2048x2048, .f32⟩ : BufTy).Contents (Elt Ideal)) (x2 : (⟨S32000x2048, .f32⟩ : BufTy).Contents (Elt Ideal))
    (x4 : (⟨S2048, .i32⟩ : BufTy).Contents (Elt Ideal)) (hl : LabelsOk x4) :
    val_main_v16 (F := Ideal) x0 x2 x4
      = fun _ => Ideal.div (-(rHardNum (logitsS x0 x2) (targets x4))) (denom x4 reducesTo_S2048_S_d0 h_S_) := by
  funext i
  rw [val_main_v16_apply, Ideal.hostDivf_def, val_main_v14_apply, Ideal.hostNegf_def, Ideal.negf_def, v15_eq,
    v13_eq x0 x2 x4 hl]

end Cert.ReferenceIdeal.RefValue

end
-- ==== Proof.RefSoft.lean ====
import proofs.«430291_j37958920962546_2_alg».proof.Proof.RefLogSm
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.ReadP Cert.Distill

section pointwise

variable (x0 : (⟨S2048x2048, .f32⟩ : BufTy).Contents (Elt Ideal)) (x1 : (⟨S2048x4096, .f32⟩ : BufTy).Contents (Elt Ideal))
  (x2 : (⟨S32000x2048, .f32⟩ : BufTy).Contents (Elt Ideal)) (x3 : (⟨S32000x4096, .f32⟩ : BufTy).Contents (Elt Ideal))

/-- The mean of the two probabilities at one (row, column): (exp of the student's log-probability + exp of the
    teacher's) / 2. -/
private theorem mean_apply (i : S2048x32000.Idx) :
    val_main_v27 (F := Ideal) x0 x1 x2 x3 i
      = rMean (rLogSm (logitsS x0 x2 (i 0).val) (i 1).val) (rLogSm (logitsT x1 x3 (i 0).val) (i 1).val) := by
  rw [val_main_v27_apply, val_main_v25_apply, val_main_v23_apply, val_main_v24_apply, val_main_v26_apply,
    val_main_cst_6_apply, v19_apply, v22_apply]
  simp only [Ideal.hostDivf_def, Ideal.addf_def, Ideal.hostUnary_exp_def, Ideal.ofBits_def, Consts.ofBits_two]
  rfl

/-- The integrand against the student's log-probability at one (row, column). -/
private theorem termS_apply (i : S2048x32000.Idx) :
    val_main_v36 (F := Ideal) x0 x1 x2 x3 i
      = rKlTerm (rMean (rLogSm (logitsS x0 x2 (i 0).val) (i 1).val) (rLogSm (logitsT x1 x3 (i 0).val) (i 1).val))
          (rLogSm (logitsS x0 x2 (i 0).val) (i 1).val) := by
  rw [val_main_v36_apply, val_main_v33_apply, val_main_v35_apply, val_main_v34_apply, val_main_v31_apply,
    val_main_v30_apply, val_main_v29_apply, val_main_v32_apply, val_main_cst_9_apply, val_main_v28_apply,
    val_main_cst_7_apply, val_main_call6_v1_apply, val_main_call6_v0_apply, val_main_cst_8_apply,
    val_main_call7_v1_apply, val_main_call7_v0_apply, val_main_cst_10_apply, v19_apply, mean_apply]
  simp only [Ideal.cmpf_def, Ideal.mulf_def, Ideal.subf_def, Ideal.hostUnary_log_def, Ideal.ofBits_def,
    Consts.ofBits_zero, Consts.ofBits_one]
  rfl

/-- The integrand against the teacher's log-probability at one (row, column). -/
private theorem termT_apply (i : S2048x32000.Idx) :
    val_main_v47 (F := Ideal) x0 x1 x2 x3 i
      = rKlTerm (rMean (rLogSm (logitsS x0 x2 (i 0).val) (i 1).val) (rLogSm (logitsT x1 x3 (i 0).val) (i 1).val))
          (rLogSm (logitsT x1 x3 (i 0).val) (i 1).val) := by
  rw [val_main_v47_apply, val_main_v44_apply, val_main_v46_apply, val_main_v45_apply, val_main_v42_apply,
    val_main_v41_apply, val_main_v40_apply, val_main_v43_apply, val_main_cst_15_apply, val_main_v39_apply,
    val_main_cst_13_apply, val_main_call8_v1_apply, val_main_call8_v0_apply, val_main_cst_14_apply,
    val_main_call9_v1_apply, val_main_call9_v0_apply, val_main_cst_16_apply, v22_apply, mean_apply]
  simp only [Ideal.cmpf_def, Ideal.mulf_def, Ideal.subf_def, Ideal.hostUnary_log_def, Ideal.ofBits_def,
    Consts.ofBits_zero, Consts.ofBits_one]
  rfl

end pointwise

section total

variable (x0 : (⟨S2048x2048, .f32⟩ : BufTy).Contents (Elt Ideal)) (x1 : (⟨S2048x4096, .f32⟩ : BufTy).Contents (Elt Ideal))
  (x2 : (⟨S32000x2048, .f32⟩ : BufTy).Contents (Elt Ideal)) (x3 : (⟨S32000x4096, .f32⟩ : BufTy).Contents (Elt Ideal))

/-- The sum over the whole array of the integrand against the student's log-probability, as the double sum over rows
    and columns. -/
private theorem sumS_eq :
    ∑ j : S2048x32000.Idx, val_main_v36 (F := Ideal) x0 x1 x2 x3 j
      = ∑ n : Fin 2048, ∑ v : Fin 32000,
          rKlTerm (rMean (rLogSm (logitsS x0 x2 n.val) v.val) (rLogSm (logitsT x1 x3 n.val) v.val))
            (rLogSm (logitsS x0 x2 n.val) v.val) := by
  rw [ValueIdx.sum_idx2]
  exact Finset.sum_congr rfl (fun n _ => Finset.sum_congr rfl (fun v _ => termS_apply x0 x1 x2 x3 (ix2 n v)))

/-- The same for the integrand against the teacher's log-probability. -/
private theorem sumT_eq :
    ∑ j : S2048x32000.Idx, val_main_v47 (F := Ideal) x0 x1 x2 x3 j
      = ∑ n : Fin 2048, ∑ v : Fin 32000,
          rKlTerm (rMean (rLogSm (logitsS x0 x2 n.val) v.val) (rLogSm (logitsT x1 x3 n.val) v.val))
            (rLogSm (logitsT x1 x3 n.val) v.val) := by
  rw [ValueIdx.sum_idx2]
  exact Finset.sum_congr rfl (fun n _ => Finset.sum_congr rfl (fun v _ => termT_apply x0 x1 x2 x3 (ix2 n v)))

/-- The batch-mean sum against the student's log-probability. -/
private theorem v38_eq (j : S_.Idx) :
    val_main_v38 (F := Ideal) x0 x1 x2 x3 j
      = rKl (logitsS x0 x2) (logitsT x1 x3) (fun n v => rLogSm (logitsS x0 x2 n) v) := by
  rw [val_main_v38_apply, val_main_v37_apply, val_main_cst_11_apply, val_main_cst_12_apply, sumS_eq]
  simp only [Ideal.hostDivf_def, Ideal.ofBits_def, Consts.ofBits_zero, Consts.ofBits_2048, zero_add]
  rfl

/-- The batch-mean sum against the teacher's log-probability. -/
private theorem v49_eq (j : S_.Idx) :
    val_main_v49 (F := Ideal) x0 x1 x2 x3 j
      = rKl (logitsS x0 x2) (logitsT x1 x3) (fun n v => rLogSm (logitsT x1 x3 n) v) := by
  rw [val_main_v49_apply, val_main_v48_apply, val_main_cst_17_apply, val_main_cst_18_apply, sumT_eq]
  simp only [Ideal.hostDivf_def, Ideal.ofBits_def, Consts.ofBits_zero, Consts.ofBits_2048, zero_add]
  rfl

end total

/-- THE SOFT LOSS as the whole-array program computes it: the two batch-mean Kullback–Leibler sums against the mean
    distribution, halved. -/
theorem v51_eq (x0 : (⟨S2048x2048, .f32⟩ : BufTy).Contents (Elt Ideal)) (x1 : (⟨S2048x4096, .f32⟩ : BufTy).Contents (Elt Ideal))
    (x2 : (⟨S32000x2048, .f32⟩ : BufTy).Contents (Elt Ideal)) (x3 : (⟨S32000x4096, .f32⟩ : BufTy).Contents (Elt Ideal)) :
    val_main_v51 (F := Ideal) x0 x1 x2 x3
      = fun _ => Ideal.div (rKl (logitsS x0 x2) (logitsT x1 x3) (fun n v => rLogSm (logitsS x0 x2 n) v)
          + rKl (logitsS x0 x2) (logitsT x1 x3) (fun n v => rLogSm (logitsT x1 x3 n) v)) ((2 : ℝ) : EReal) := by
  funext j
  rw [val_main_v51_apply, val_main_v50_apply, val_main_cst_19_apply, v38_eq, v49_eq]
  simp only [Ideal.hostDivf_def, Ideal.addf_def, Ideal.ofBits_def, Consts.ofBits_two]

end Cert.ReferenceIdeal.RefValue

end
-- ==== Proof.RefRead.lean ====
import proofs.«430291_j37958920962546_2_alg».proof.Proof.RefHard
import proofs.«430291_j37958920962546_2_alg».proof.Proof.RefSoft
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.ReadP Cert.Distill

/-- The whole-array program's result as a function of its arguments, for targets in range: half the hard loss plus half
    the soft loss. -/
theorem value (x0 : (⟨S2048x2048, .f32⟩ : BufTy).Contents (Elt Ideal)) (x1 : (⟨S2048x4096, .f32⟩ : BufTy).Contents (Elt Ideal))
    (x2 : (⟨S32000x2048, .f32⟩ : BufTy).Contents (Elt Ideal)) (x3 : (⟨S32000x4096, .f32⟩ : BufTy).Contents (Elt Ideal))
    (x4 : (⟨S2048, .i32⟩ : BufTy).Contents (Elt Ideal)) (hl : LabelsOk x4) :
    val_main_v54 (F := Ideal) x0 x1 x2 x3 x4
      = fun _ => referenceValue x0 x1 x2 x3 x4 reducesTo_S2048_S_d0 h_S_ := by
  funext i
  rw [val_main_v54_apply, val_main_v52_apply, val_main_v53_apply, val_main_cst_20_apply, val_main_cst_21_apply,
    v16_eq x0 x2 x4 hl, v51_eq x0 x1 x2 x3]
  simp only [Ideal.ofBits_def, Consts.ofBits_half, Ideal.addf_def, Ideal.mulf_def]
  rfl

end Cert.ReferenceIdeal.RefValue

end
-- ==== Proof.SpecSoftmax.lean ====
/-
  The running maximum / running sum recursion over 125 tiles is the log-sum-exp: for a row of real logits the last running
  maximum M is a real number and the last running sum is Σ exp (a - M) over the whole row, so M + log L = log Σ exp a
  whatever M is; the whole-array log-softmax (a v - max) - log Σ exp (a - max) is a v - log Σ exp a for the same reason.
  The one-hot pick over the tiles is the logit at the label column when the label is a column number.
-/
import proofs.«430291_j37958920962546_2_alg».proof.Proof.Spec

noncomputable section

namespace Cert.Distill

open Idealize.ShloMosaic

/-- The log-sum-exp of a row of real logits over the vocabulary. -/
def lseR (r : ℕ → ℝ) : ℝ := Real.log (∑ v : Fin 32000, Real.exp (r v.val))

/-! ## Coercions of real maxima and real sums -/

private theorem coe_max' (x y : ℝ) : max ((x : ℝ) : EReal) ((y : ℝ) : EReal) = ((max x y : ℝ) : EReal) :=
  (EReal.coe_strictMono.monotone.map_max).symm

private theorem coe_sum' {ι : Type} (s : Finset ι) (f : ι → ℝ) :
    ((∑ i ∈ s, f i : ℝ) : EReal) = ∑ i ∈ s, ((f i : ℝ) : EReal) := by
  classical
  induction s using Finset.induction_on with
  | empty => simp
  | insert i s hi ih => rw [Finset.sum_insert hi, Finset.sum_insert hi, EReal.coe_add, ih]

/-- The maximum of finitely many (at least one) real numbers, taken in the extended reals from ⊥, is a real number. -/
private theorem fold_max_coe {ι : Type} (s : Finset ι) (hs : s.Nonempty) (f : ι → ℝ) :
    ∃ μ : ℝ, s.fold max ⊥ (fun i => ((f i : ℝ) : EReal)) = ((μ : ℝ) : EReal) := by
  induction hs using Finset.Nonempty.cons_induction with
  | singleton i => exact ⟨f i, by rw [Finset.fold_singleton, max_eq_left bot_le]⟩
  | cons i s hi hs ih =>
    obtain ⟨μ, hμ⟩ := ih
    exact ⟨max (f i) μ, by rw [Finset.fold_cons, hμ, coe_max']⟩

/-! ## The shift identity over the reals -/

private theorem sum_exp_pos (r : ℕ → ℝ) (n : ℕ) (hn : 0 < n) : 0 < ∑ v ∈ Finset.range n, Real.exp (r v) :=
  Finset.sum_pos (fun _ _ => Real.exp_pos _) (Finset.nonempty_range_iff.mpr hn.ne')

/-- μ + log Σ exp (r - μ) = log Σ exp r for every real μ. -/
private theorem shift_lse (r : ℕ → ℝ) (μ : ℝ) (n : ℕ) (hn : 0 < n) :
    μ + Real.log (∑ v ∈ Finset.range n, Real.exp (r v - μ)) = Real.log (∑ v ∈ Finset.range n, Real.exp (r v)) := by
  have h : ∑ v ∈ Finset.range n, Real.exp (r v - μ) = (∑ v ∈ Finset.range n, Real.exp (r v)) / Real.exp μ := by
    rw [Finset.sum_div]
    exact Finset.sum_congr rfl (fun v _ => Real.exp_sub _ _)
  rw [h, Real.log_div (sum_exp_pos r n hn).ne' (Real.exp_pos μ).ne', Real.log_exp]
  ring

private theorem lseR_range (r : ℕ → ℝ) : lseR r = Real.log (∑ v ∈ Finset.range 32000, Real.exp (r v)) := by
  unfold lseR
  rw [Fin.sum_univ_eq_sum_range (fun v => Real.exp (r v)) 32000]

/-! ## One tile of a real row -/

section Row

variable (a : ℕ → EReal) (r : ℕ → ℝ) (ha : ∀ v, v < 32000 → a v = ((r v : ℝ) : EReal))
include ha

private theorem tileMax_coe (j : ℕ) (hj : j ≤ 124) : ∃ τ : ℝ, tileMax a j = ((τ : ℝ) : EReal) := by
  obtain ⟨τ, hτ⟩ := fold_max_coe (Finset.univ : Finset (Fin 256)) Finset.univ_nonempty (fun l => r (256 * j + l.val))
  refine ⟨τ, ?_⟩
  unfold tileMax
  rw [← hτ]
  exact Finset.fold_congr (fun l _ => ha _ (by have := l.isLt; omega))

private theorem tileSumExp_coe (μ : ℝ) (j : ℕ) (hj : j ≤ 124) :
    tileSumExp a ((μ : ℝ) : EReal) j = ((∑ l ∈ Finset.range 256, Real.exp (r (256 * j + l) - μ) : ℝ) : EReal) := by
  unfold tileSumExp
  rw [← Fin.sum_univ_eq_sum_range (fun l => Real.exp (r (256 * j + l) - μ)) 256, coe_sum']
  refine Finset.sum_congr rfl (fun l _ => ?_)
  rw [ha _ (by have := l.isLt; omega), ← EReal.coe_sub, Ideal.exp_coe]

/-- After tiles 0 … j the running maximum is a real number μ and the running sum is Σ exp (r - μ) over the columns seen. -/
private theorem run_inv (j : ℕ) (hj : j ≤ 124) :
    ∃ μ : ℝ, Mrun a j = ((μ : ℝ) : EReal) ∧
      Lrun a j = ((∑ v ∈ Finset.range (256 * (j + 1)), Real.exp (r v - μ) : ℝ) : EReal) := by
  induction j with
  | zero =>
    obtain ⟨τ, hτ⟩ := tileMax_coe a r ha 0 hj
    refine ⟨τ, hτ, ?_⟩
    show tileSumExp a (Mrun a 0) 0 = _
    rw [show Mrun a 0 = tileMax a 0 from rfl, hτ, tileSumExp_coe a r ha τ 0 hj]
    simp
  | succ j ih =>
    obtain ⟨μ, hM, hL⟩ := ih (by omega)
    obtain ⟨τ, hτ⟩ := tileMax_coe a r ha (j + 1) hj
    have hM' : Mrun a (j + 1) = ((max μ τ : ℝ) : EReal) := by
      show max (Mrun a j) (tileMax a (j + 1)) = _
      rw [hM, hτ, coe_max']
    refine ⟨max μ τ, hM', ?_⟩
    show Lrun a j * Ideal.exp (Mrun a j - Mrun a (j + 1)) + tileSumExp a (Mrun a (j + 1)) (j + 1) = _
    rw [hM', hM, hL, tileSumExp_coe a r ha _ (j + 1) hj, ← EReal.coe_sub, Ideal.exp_coe, ← EReal.coe_mul, ← EReal.coe_add]
    congr 1
    rw [show 256 * (j + 1 + 1) = 256 * (j + 1) + 256 by ring, Finset.sum_range_add, Finset.sum_mul]
    congr 1
    refine Finset.sum_congr rfl (fun v _ => ?_)
    rw [← Real.exp_add]
    congr 1
    ring

end Row

/-- The tiled log-sum-exp of a row of real logits is its log-sum-exp. -/
theorem kLse_eq (a : ℕ → EReal) (r : ℕ → ℝ) (ha : ∀ v, v < 32000 → a v = ((r v : ℝ) : EReal)) :
    kLse a = ((lseR r : ℝ) : EReal) := by
  obtain ⟨μ, hM, hL⟩ := run_inv a r ha 124 le_rfl
  unfold kLse
  rw [hM, hL, Ideal.log_coe, if_neg (not_le.mpr (sum_exp_pos (fun v => r v - μ) _ (by norm_num))), ← EReal.coe_add,
    lseR_range]
  congr 1
  exact shift_lse r μ 32000 (by norm_num)

/-- The whole-array log-softmax of a row of real logits at a column is the logit minus the log-sum-exp. -/
theorem rLogSm_eq (a : ℕ → EReal) (r : ℕ → ℝ) (ha : ∀ v, v < 32000 → a v = ((r v : ℝ) : EReal)) (v : ℕ) (hv : v < 32000) :
    rLogSm a v = ((r v - lseR r : ℝ) : EReal) := by
  obtain ⟨μ, hμ⟩ := fold_max_coe (Finset.univ : Finset (Fin 32000)) Finset.univ_nonempty (fun u => r u.val)
  have hmax : rMax a = ((μ : ℝ) : EReal) := by
    unfold rMax
    rw [← hμ]
    exact Finset.fold_congr (fun u _ => ha _ u.isLt)
  have hsum : (∑ u : Fin 32000, Ideal.exp (a u.val - ((μ : ℝ) : EReal)))
      = ((∑ u ∈ Finset.range 32000, Real.exp (r u - μ) : ℝ) : EReal) := by
    rw [← Fin.sum_univ_eq_sum_range (fun u => Real.exp (r u - μ)) 32000, coe_sum']
    refine Finset.sum_congr rfl (fun u _ => ?_)
    rw [ha _ u.isLt, ← EReal.coe_sub, Ideal.exp_coe]
  unfold rLogSm
  rw [hmax, hsum, ha v hv, Ideal.log_coe, if_neg (not_le.mpr (sum_exp_pos (fun u => r u - μ) _ (by norm_num))),
    ← EReal.coe_sub, ← EReal.coe_sub, lseR_range, ← shift_lse r μ 32000 (by norm_num), sub_sub]

/-! ## The one-hot pick -/

private theorem Grun_range (a : ℕ → EReal) (lab : BitVec 32) (j : ℕ) :
    Grun a lab j = ∑ v ∈ Finset.range (256 * (j + 1)), if BitVec.ofNat 32 v = lab then a v else 0 := by
  have ht : ∀ i, tileHot a lab i = ∑ l ∈ Finset.range 256, if BitVec.ofNat 32 (256 * i + l) = lab then a (256 * i + l) else 0 :=
    fun i => Fin.sum_univ_eq_sum_range (fun l => if BitVec.ofNat 32 (256 * i + l) = lab then a (256 * i + l) else 0) 256
  induction j with
  | zero =>
    show tileHot a lab 0 = _
    rw [ht]
    simp
  | succ j ih =>
    show Grun a lab j + tileHot a lab (j + 1) = _
    rw [ih, ht, show 256 * (j + 1 + 1) = 256 * (j + 1) + 256 by ring, Finset.sum_range_add]

/-- The one-hot pick over all 125 tiles of a label that is a column number is the logit at that column. -/
theorem Grun_pick (a : ℕ → EReal) (lab : BitVec 32) (hl : lab.toNat < 32000) : Grun a lab 124 = a lab.toNat := by
  rw [Grun_range]
  have hc : ∀ v ∈ Finset.range (256 * (124 + 1)),
      (if BitVec.ofNat 32 v = lab then a v else 0) = if v = lab.toNat then a v else 0 := by
    intro v hv
    have hv' : v < 32000 := by simpa using hv
    have hiff : BitVec.ofNat 32 v = lab ↔ v = lab.toNat := by
      constructor
      · intro h
        have := congrArg BitVec.toNat h
        rw [BitVec.toNat_ofNat, Nat.mod_eq_of_lt (by omega)] at this
        exact this
      · intro h
        rw [h, BitVec.ofNat_toNat, BitVec.setWidth_eq]
    simp only [hiff]
  rw [Finset.sum_congr rfl hc, Finset.sum_ite_eq', if_pos (by simpa using hl)]

/-! ## The hard-loss numerators -/

private theorem ne_ignore_of_valid (w : BitVec 32) (h : validBit w = 1#1) : w ≠ 4294967196#32 := by
  intro hw
  rw [hw] at h
  revert h
  unfold validBit IntOp.cmpi
  decide

/-- The two hard-loss numerators agree on real logits with every target the ignore index or a column number. -/
theorem kHardNum_eq_rHardNum (S : ℕ → ℕ → EReal) (s : ℕ → ℕ → ℝ)
    (hS : ∀ n v, n < 2048 → v < 32000 → S n v = ((s n v : ℝ) : EReal)) (tgt : ℕ → BitVec 32)
    (hl : ∀ n, n < 2048 → tgt n = 4294967196#32 ∨ (tgt n).toNat < 32000) :
    kHardNum S tgt = rHardNum S tgt := by
  unfold kHardNum rHardNum
  refine Finset.sum_congr rfl (fun n _ => ?_)
  by_cases hv : validBit (tgt n.val) = 1#1
  · have hlt : (tgt n.val).toNat < 32000 := (hl n.val n.isLt).resolve_left (ne_ignore_of_valid _ hv)
    have hsafe : safeLab (tgt n.val) = tgt n.val := by
      unfold safeLab
      rw [hv, ValueIdx.select_one]
    have hrow : ∀ v, v < 32000 → S n.val v = ((s n.val v : ℝ) : EReal) := fun v h => hS n.val v n.isLt h
    rw [hv, ValueIdx.select_one, ValueIdx.select_one, hsafe, Grun_pick _ _ hlt, kLse_eq _ _ hrow,
      rLogSm_eq _ _ hrow _ hlt, hrow _ hlt, EReal.coe_sub]
  · rw [ValueIdx.eq_zero_of_ne_one hv, ValueIdx.select_zero, ValueIdx.select_zero]

end Cert.Distill

end
-- ==== Proof.SpecJsd.lean ====
/-
  The divergence: with ps = exp (s - lse s), pt = exp (t - lse t) and mean = (ps + pt) / 2 > 0, the tiled program sums
  mean · (2 log mean - log ps - log pt) over the vocabulary tile by tile and divides the total by 2 N = 4096; the whole-array
  program sums mean · (log mean - log ps) and mean · (log mean - log pt) separately, divides each by N = 2048, adds and
  halves.  All terms are real numbers, so the two are one real number by distributivity.
-/
import proofs.«430291_j37958920962546_2_alg».proof.Proof.Spec
import proofs.«430291_j37958920962546_2_alg».proof.Proof.SpecSoftmax

noncomputable section

namespace Cert.Distill

open Idealize.ShloMosaic

/-! ## Sums -/

/-- A finite sum of real numbers read in the extended reals is the sum of the numbers, read there. -/
private theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A row's running divergence sum after tiles 0 … j is the sum over the first 256 (j + 1) columns. -/
private theorem Rrun_range (cs ct : ℕ → EReal) (ls lt : EReal) (j : ℕ) :
    Rrun cs ct ls lt j = ∑ v ∈ Finset.range (256 * (j + 1)), jsdTerm (cs v) ls (ct v) lt := by
  induction j with
  | zero =>
    rw [Rrun, tileTerm, Fin.sum_univ_eq_sum_range (fun l => jsdTerm (cs (256 * 0 + l)) ls (ct (256 * 0 + l)) lt) 256]
    simp
  | succ j ih =>
    rw [Rrun, ih, tileTerm,
      Fin.sum_univ_eq_sum_range (fun l => jsdTerm (cs (256 * (j + 1) + l)) ls (ct (256 * (j + 1) + l)) lt) 256,
      show 256 * (j + 1 + 1) = 256 * (j + 1) + 256 by ring, Finset.sum_range_add]

/-- A row's running divergence sum after all 125 tiles is the sum over the vocabulary. -/
theorem Rrun_sum (cs ct : ℕ → EReal) (ls lt : EReal) :
    Rrun cs ct ls lt 124 = ∑ v : Fin 32000, jsdTerm (cs v.val) ls (ct v.val) lt := by
  rw [Rrun_range, Fin.sum_univ_eq_sum_range (fun v => jsdTerm (cs v) ls (ct v) lt) 32000]

/-! ## The integrands on real numbers -/

/-- The mean of the two probabilities exp a and exp b. -/
private def mR (a b : ℝ) : ℝ := (Real.exp a + Real.exp b) * (1 / 2)

/-- The mean of two probabilities of real log-probabilities is positive. -/
private theorem mR_pos (a b : ℝ) : 0 < mR a b :=
  mul_pos (add_pos (Real.exp_pos a) (Real.exp_pos b)) (by norm_num)

/-- The tiled program's integrand mean · (2 log mean - a - b). -/
private def jF (a b : ℝ) : ℝ := mR a b * (2 * Real.log (mR a b) - a - b)

/-- One Kullback–Leibler integrand mean · (log mean - c). -/
private def kF (a b c : ℝ) : ℝ := mR a b * (Real.log (mR a b) - c)

/-- The comparison "greater than zero" of a positive real number is the bit 1. -/
private theorem cmp_ogt_pos {m : ℝ} (hm : 0 < m) : Ideal.cmp .ogt ((m : ℝ) : EReal) 0 = 1#1 := by
  show BitVec.ofBool (decide ((0 : EReal) < ((m : ℝ) : EReal))) = 1#1
  rw [decide_eq_true (EReal.coe_pos.mpr hm)]
  rfl

/-- The tiled program's mean at real logits and real log-sum-exps. -/
private theorem kMean_coe (x lx y ly : ℝ) :
    kMean (x : EReal) (lx : EReal) (y : EReal) (ly : EReal) = ((mR (x - lx) (y - ly) : ℝ) : EReal) := by
  unfold kMean mR
  rw [← EReal.coe_sub, ← EReal.coe_sub, Ideal.exp_coe, Ideal.exp_coe, ← EReal.coe_add, ← EReal.coe_mul]

/-- The tiled program's integrand at real logits and real log-sum-exps is a real number. -/
private theorem jsdTerm_coe (x lx y ly : ℝ) :
    jsdTerm (x : EReal) (lx : EReal) (y : EReal) (ly : EReal) = ((jF (x - lx) (y - ly) : ℝ) : EReal) := by
  have hm := mR_pos (x - lx) (y - ly)
  unfold jsdTerm jF
  rw [kMean_coe, cmp_ogt_pos hm, ValueIdx.select_one, ValueIdx.select_one, Ideal.log_coe, if_neg (not_le.mpr hm),
    ← EReal.coe_sub, ← EReal.coe_sub, ← EReal.coe_mul, ← EReal.coe_sub, ← EReal.coe_sub, ← EReal.coe_mul]

/-- The whole-array program's mean at real log-probabilities. -/
private theorem rMean_coe (a b : ℝ) : rMean (a : EReal) (b : EReal) = ((mR a b : ℝ) : EReal) := by
  unfold rMean mR
  rw [Ideal.div_coe two_ne_zero, Ideal.exp_coe, Ideal.exp_coe, ← EReal.coe_add, ← EReal.coe_mul]

/-- One Kullback–Leibler integrand at real log-probabilities is a real number. -/
private theorem rKlTerm_coe (a b c : ℝ) :
    rKlTerm (rMean (a : EReal) (b : EReal)) (c : EReal) = ((kF a b c : ℝ) : EReal) := by
  have hm := mR_pos a b
  unfold rKlTerm kF
  rw [rMean_coe, cmp_ogt_pos hm, ValueIdx.select_one, ValueIdx.select_one, Ideal.log_coe, if_neg (not_le.mpr hm),
    ← EReal.coe_sub, ← EReal.coe_mul]

/-- The two Kullback–Leibler integrands add up to the tiled program's integrand. -/
private theorem jF_split (a b : ℝ) : jF a b = kF a b a + kF a b b := by
  unfold jF kF
  ring

/-! ## The two soft losses on real logits -/

/-- The tiled program's numerator on real logits is a real number: the double sum of its integrand. -/
private theorem kJsdNum_coe (S T : ℕ → ℕ → EReal) (s t : ℕ → ℕ → ℝ)
    (hS : ∀ n v, n < 2048 → v < 32000 → S n v = ((s n v : ℝ) : EReal))
    (hT : ∀ n v, n < 2048 → v < 32000 → T n v = ((t n v : ℝ) : EReal)) :
    kJsdNum S T = ((∑ n : Fin 2048, ∑ v : Fin 32000,
        jF (s n.val v.val - lseR (s n.val)) (t n.val v.val - lseR (t n.val)) : ℝ) : EReal) := by
  unfold kJsdNum
  rw [← coe_sum]
  refine Finset.sum_congr rfl (fun n _ => ?_)
  rw [Rrun_sum, kLse_eq (S n.val) (s n.val) (fun v hv => hS n.val v n.isLt hv),
    kLse_eq (T n.val) (t n.val) (fun v hv => hT n.val v n.isLt hv), ← coe_sum]
  refine Finset.sum_congr rfl (fun v _ => ?_)
  rw [hS n.val v.val n.isLt v.isLt, hT n.val v.val n.isLt v.isLt, jsdTerm_coe]

/-- One batch-mean Kullback–Leibler sum on real logits, taken from real log-probabilities c, is a real number. -/
private theorem rKl_coe (S T : ℕ → ℕ → EReal) (s t : ℕ → ℕ → ℝ)
    (hS : ∀ n v, n < 2048 → v < 32000 → S n v = ((s n v : ℝ) : EReal))
    (hT : ∀ n v, n < 2048 → v < 32000 → T n v = ((t n v : ℝ) : EReal))
    (lp : ℕ → ℕ → EReal) (c : ℕ → ℕ → ℝ)
    (hlp : ∀ n v, n < 2048 → v < 32000 → lp n v = ((c n v : ℝ) : EReal)) :
    rKl S T lp = (((∑ n : Fin 2048, ∑ v : Fin 32000,
        kF (s n.val v.val - lseR (s n.val)) (t n.val v.val - lseR (t n.val)) (c n.val v.val)) * (1 / 2048) : ℝ) : EReal) := by
  unfold rKl
  rw [Ideal.div_coe (by norm_num : (2048 : ℝ) ≠ 0), EReal.coe_mul, ← coe_sum]
  refine congrArg (fun z : EReal => z * ((1 / 2048 : ℝ) : EReal)) ?_
  refine Finset.sum_congr rfl (fun n _ => ?_)
  rw [← coe_sum]
  refine Finset.sum_congr rfl (fun v _ => ?_)
  rw [rLogSm_eq (S n.val) (s n.val) (fun v hv => hS n.val v n.isLt hv) v.val v.isLt,
    rLogSm_eq (T n.val) (t n.val) (fun v hv => hT n.val v n.isLt hv) v.val v.isLt,
    hlp n.val v.val n.isLt v.isLt, rKlTerm_coe]

/-- The real identity behind the agreement: the total of the tiled integrand over 4096 is the half-sum of the two
    Kullback–Leibler totals over 2048. -/
private theorem real_identity (a b : Fin 2048 → Fin 32000 → ℝ) :
    (∑ n : Fin 2048, ∑ v : Fin 32000, jF (a n v) (b n v)) * (1 / 4096)
      = ((∑ n : Fin 2048, ∑ v : Fin 32000, kF (a n v) (b n v) (a n v)) * (1 / 2048)
          + (∑ n : Fin 2048, ∑ v : Fin 32000, kF (a n v) (b n v) (b n v)) * (1 / 2048)) * (1 / 2) := by
  have hX : (∑ n : Fin 2048, ∑ v : Fin 32000, jF (a n v) (b n v))
      = (∑ n : Fin 2048, ∑ v : Fin 32000, kF (a n v) (b n v) (a n v))
        + (∑ n : Fin 2048, ∑ v : Fin 32000, kF (a n v) (b n v) (b n v)) := by
    rw [← Finset.sum_add_distrib]
    refine Finset.sum_congr rfl (fun n _ => ?_)
    rw [← Finset.sum_add_distrib]
    refine Finset.sum_congr rfl (fun v _ => ?_)
    exact jF_split _ _
  rw [hX]
  ring

/-- The two soft losses agree on real logits. -/
theorem jsd_eq (S T : ℕ → ℕ → EReal) (s t : ℕ → ℕ → ℝ)
    (hS : ∀ n v, n < 2048 → v < 32000 → S n v = ((s n v : ℝ) : EReal))
    (hT : ∀ n v, n < 2048 → v < 32000 → T n v = ((t n v : ℝ) : EReal)) :
    Ideal.div (kJsdNum S T) ((4096 : ℝ) : EReal)
      = Ideal.div (rKl S T (fun n v => rLogSm (S n) v) + rKl S T (fun n v => rLogSm (T n) v)) ((2 : ℝ) : EReal) := by
  rw [kJsdNum_coe S T s t hS hT,
    rKl_coe S T s t hS hT (fun n v => rLogSm (S n) v) (fun n v => s n v - lseR (s n))
      (fun n v hn hv => rLogSm_eq (S n) (s n) (fun u hu => hS n u hn hu) v hv),
    rKl_coe S T s t hS hT (fun n v => rLogSm (T n) v) (fun n v => t n v - lseR (t n))
      (fun n v hn hv => rLogSm_eq (T n) (t n) (fun u hu => hT n u hn hu) v hv),
    Ideal.div_coe (by norm_num : (4096 : ℝ) ≠ 0), Ideal.div_coe (two_ne_zero : (2 : ℝ) ≠ 0),
    ← EReal.coe_add, ← EReal.coe_mul, ← EReal.coe_mul]
  exact congrArg _ (real_identity (fun n v => s n.val v.val - lseR (s n.val)) (fun n v => t n.val v.val - lseR (t n.val)))

end Cert.Distill

end
-- ==== Proof.SpecMath.lean ====
/-
  The two programs' scalars agree on finite inputs with targets in range: logits of finite arrays are real numbers, and on
  real logits the hard-loss numerators and the soft losses agree.
-/
import proofs.«430291_j37958920962546_2_alg».proof.Proof.Spec
import proofs.«430291_j37958920962546_2_alg».proof.Proof.SpecSoftmax
import proofs.«430291_j37958920962546_2_alg».proof.Proof.SpecJsd

noncomputable section

namespace Cert.Distill

open Idealize.ShloMosaic

/-- A contraction of two arrays of real numbers is a real number. -/
theorem dotRow_real (H : ℕ) (X W : ℕ → ℕ → EReal) (hX : ∀ n k, ∃ r : ℝ, X n k = ((r : ℝ) : EReal))
    (hW : ∀ n k, ∃ r : ℝ, W n k = ((r : ℝ) : EReal)) :
    ∃ s : ℕ → ℕ → ℝ, ∀ n v, dotRow H X W n v = ((s n v : ℝ) : EReal) := by
  choose x hx using hX
  choose w hw using hW
  refine ⟨fun n v => ∑ k : Fin H, x n k.val * w v k.val, fun n v => ?_⟩
  unfold dotRow
  -- a finite sum of coerced reals is the coerced sum
  have hsum : ∀ (g : Fin H → ℝ) (s : Finset (Fin H)),
      (∑ k ∈ s, ((g k : ℝ) : EReal)) = ((∑ k ∈ s, g k : ℝ) : EReal) := by
    intro g s
    refine Finset.induction_on s (by simp) ?_
    intro a s ha ih
    rw [Finset.sum_insert ha, Finset.sum_insert ha, ih, EReal.coe_add]
  rw [← hsum]
  refine Finset.sum_congr rfl fun k _ => ?_
  rw [hx, hw, EReal.coe_mul]

/-- An array of real numbers read by row and column numbers is real everywhere (zero outside the array). -/
theorem nat2_real {a b : ℕ} (f : (⟨2, ![a, b]⟩ : Shape).Idx → EReal) (hf : FiniteArr f) (p q : ℕ) :
    ∃ r : ℝ, nat2 f p q = ((r : ℝ) : EReal) := by
  unfold nat2
  by_cases h : p < a ∧ q < b
  · rw [dif_pos h]
    obtain ⟨h1, h2⟩ := hf (ValueIdx.ix2 ⟨p, h.1⟩ ⟨q, h.2⟩)
    exact ⟨_, (EReal.coe_toReal h1 h2).symm⟩
  · rw [dif_neg h]
    exact ⟨0, EReal.coe_zero.symm⟩

/-- THE TWO RESULTS AGREE on finite inputs whose targets are the ignore index or column numbers. -/
theorem kernelValue_eq_referenceValue (x0 : (⟨2, ![2048, 2048]⟩ : Shape).Idx → EReal) (x1 : (⟨2, ![2048, 4096]⟩ : Shape).Idx → EReal)
    (x2 : (⟨2, ![32000, 2048]⟩ : Shape).Idx → EReal) (x3 : (⟨2, ![32000, 4096]⟩ : Shape).Idx → EReal)
    (x4 : (⟨1, ![2048]⟩ : Shape).Idx → BitVec 32) (h : (⟨1, ![2048]⟩ : Shape).ReducesTo [0] ⟨0, ![]⟩)
    (h0 : 0 < (⟨0, ![]⟩ : Shape).numel)
    (hf0 : FiniteArr x0) (hf1 : FiniteArr x1) (hf2 : FiniteArr x2) (hf3 : FiniteArr x3) (hl : LabelsOk x4) :
    kernelValue x0 x1 x2 x3 x4 h h0 = referenceValue x0 x1 x2 x3 x4 h h0 := by
  unfold kernelValue referenceValue kResult rResult
  -- both logit arrays are arrays of real numbers
  obtain ⟨s, hs⟩ := dotRow_real 2048 (nat2 x0) (nat2 x2) (fun n k => nat2_real x0 hf0 n k)
    (fun n k => nat2_real x2 hf2 n k)
  obtain ⟨t, ht⟩ := dotRow_real 4096 (nat2 x1) (nat2 x3) (fun n k => nat2_real x1 hf1 n k)
    (fun n k => nat2_real x3 hf3 n k)
  have hS : ∀ n v, n < 2048 → v < 32000 → logitsS x0 x2 n v = ((s n v : ℝ) : EReal) :=
    fun n v _ _ => hs n v
  have hT : ∀ n v, n < 2048 → v < 32000 → logitsT x1 x3 n v = ((t n v : ℝ) : EReal) :=
    fun n v _ _ => ht n v
  -- every target is the ignore index or a column number
  have hlab : ∀ n, n < 2048 → targets x4 n = 4294967196#32 ∨ (targets x4 n).toNat < 32000 := by
    intro n hn
    unfold targets nat1
    rw [dif_pos hn]
    exact hl _
  rw [kHardNum_eq_rHardNum (logitsS x0 x2) s hS (targets x4) hlab,
    jsd_eq (logitsS x0 x2) (logitsT x1 x3) s t hS hT]

end Cert.Distill

end
-- ==== Proof.PreDecode.lean ====
/-
  The precondition read: the printed predicate is all ones exactly when every entry of the four float arrays is a real
  number (|x| < +∞) and every target word is the ignore index -100 or lies in [0, 32000) read signed.
-/
import proofs.«430291_j37958920962546_2_alg».proof.Pre_finite_inputs
import proofs.«430291_j37958920962546_2_alg».proof.Proof.Gen.Pre_finite_inputs
import proofs.«430291_j37958920962546_2_alg».proof.Proof.Spec
import Idealize.ShloMosaic.Lib.ReduceAll
import Idealize.ShloMosaic.Lib.StableHlo.Predicate
import Idealize.ShloMosaic.Lib.ValueIdx

noncomputable section

namespace Cert.Distill

open Idealize.ShloMosaic Cert.Pre_finite_inputs

/-- The rank-0 shape has one index. -/
private theorem subsingleton_S_ : Subsingleton S_.Idx := ⟨fun _ _ => funext fun d => d.elim0⟩

/-- |x| < +∞ read back on one value: x is neither infinity. -/
private theorem real_of_abs_lt_inf (x : EReal)
    (hb : Ideal.cmp .olt (max x (-x)) (Ideal.ofBits .f32 0x7F800000#32) = 1#1) : x ≠ ⊤ ∧ x ≠ ⊥ := by
  have htop : Ideal.ofBits .f32 0x7F800000#32 = (⊤ : EReal) := by simp [Ideal.ofBits, Ideal.ieee]
  rw [htop] at hb
  have hlt : max x (-x) < ⊤ :=
    of_decide_eq_true ((StableHlo.Predicate.ofBool_eq_one_iff _).1 hb)
  constructor
  · rintro rfl
    simp at hlt
  · rintro rfl
    simp at hlt

/-- (w = -100) or (0 ≤ w and w < 32000, read signed), on one word: w is the ignore index or below 32000 read unsigned. -/
private theorem label_of_bit (w : BitVec 32)
    (hb : IntOp.ori (IntOp.cmpi .eq w 4294967196#32)
      (IntOp.andi (IntOp.cmpi .sge w 0#32) (IntOp.cmpi .slt w 32000#32)) = 1#1) :
    w = 4294967196#32 ∨ w.toNat < 32000 := by
  rcases IntOp.ori_eq_one.1 hb with h | h
  · exact Or.inl (IntOp.cmpi_eq.1 h)
  · obtain ⟨h1, h2⟩ := IntOp.andi_eq_one.1 h
    have h1' := IntOp.cmpi_sge.1 h1
    have h2' := IntOp.cmpi_slt.1 h2
    have e0 : (0#32 : BitVec 32).toInt = 0 := by decide
    have e1 : (32000#32 : BitVec 32).toInt = 32000 := by decide
    rw [e0] at h1'
    rw [e1] at h2'
    right
    rw [BitVec.toInt_eq_toNat_cond] at h1' h2'
    have hw := w.isLt
    split at h1' <;> omega

/-- Every entry's bit |x| < +∞ being one says the array holds real numbers. -/
private theorem finiteArr_of_bits {s : Shape} (x : FVec Ideal s .f32)
    (hbc : S_.BroadcastsInDim s (![] : Fin 0 → Fin s.rank))
    (hall : ∀ i, cmpf .olt (Host.absf x) (broadcastInDim s ![] hbc (constant S_ .f32 0x7F800000#32)) i = 1#1) :
    FiniteArr x :=
  fun i => real_of_abs_lt_inf (x i) (hall i)

/-- From the precondition: the four float arrays hold real numbers and the targets are in range. -/
theorem pre_decode (x0 : FVec Ideal S2048x2048 .f32) (x1 : FVec Ideal S2048x4096 .f32) (x2 : FVec Ideal S32000x2048 .f32)
    (x3 : FVec Ideal S32000x4096 .f32) (x4 : IVec S2048 32)
    (h : Cert.Pre_finite_inputs.fn (F := Ideal) x0 x1 x2 x3 x4 = fun _ => 1#1) :
    FiniteArr x0 ∧ FiniteArr x1 ∧ FiniteArr x2 ∧ FiniteArr x3 ∧ LabelsOk x4 := by
  haveI := subsingleton_S_
  have h1 := congrFun h ValueIdx.ix0
  dsimp only [fn, fn_part1, andi] at h1
  -- the five conjuncts
  obtain ⟨h1, hL⟩ := IntOp.andi_eq_one.1 h1
  obtain ⟨h1, hx3⟩ := IntOp.andi_eq_one.1 h1
  obtain ⟨h1, hx2⟩ := IntOp.andi_eq_one.1 h1
  obtain ⟨hx0, hx1⟩ := IntOp.andi_eq_one.1 h1
  refine ⟨finiteArr_of_bits x0 _ fun i => Host.reduce_andi_all _ _ _ _ _ hx0 i,
    finiteArr_of_bits x1 _ fun i => Host.reduce_andi_all _ _ _ _ _ hx1 i,
    finiteArr_of_bits x2 _ fun i => Host.reduce_andi_all _ _ _ _ _ hx2 i,
    finiteArr_of_bits x3 _ fun i => Host.reduce_andi_all _ _ _ _ _ hx3 i,
    fun i => label_of_bit (x4 i) (Host.reduce_andi_all _ _ _ _ _ hL i)⟩

end Cert.Distill

end
-- ==== Proof.lean ====
/-
  A distillation loss — half the mean cross-entropy of the student's logits at the target column (ignoring the index -100)
  plus half the Jensen–Shannon divergence between the student's and the teacher's softmax distributions, over 2048 tokens
  and a vocabulary of 32000 — computed two ways.

  The tiled program walks the vocabulary in 125 tiles of 256 columns: a first pass forms each logit tile by one matrix
  product and keeps, per row, a running maximum, a running sum of exponentials rescaled at every tile to the new maximum
  (an online softmax), and a one-hot pick of the target column's logit, and caches the logit tiles; the host forms the
  log-sum-exps and the hard loss; a second pass reads the cached tiles back and accumulates the divergence integrand
  mean · (2 log mean - log p - log q) per row; the host sums the rows and combines.  The whole-array program forms all logits,
  takes three log-softmaxes over whole rows, looks the target column up by a take along the vocabulary axis, and sums the
  two Kullback–Leibler integrands over the whole array.

  Over the extended reals, on finite inputs whose targets are the ignore index or column numbers, the two are one real
  number: the running recursion's M + log L is log Σ exp whatever the running maximum is, so it meets the whole-array
  log-softmax's shift by the true maximum; the one-hot sum is the looked-up entry; and the divergence sums agree by
  distributivity, every term being real.  Each program's value is first identified, without analysis, with an explicit
  function of the argument arrays over the extended reals (the tiled recursions on one side, the whole-row forms on the
  other); the analysis is then a statement about those functions alone.  Both programs' frames are their runs.
-/
import proofs.«430291_j37958920962546_2_alg».proof.Defs
import proofs.«430291_j37958920962546_2_alg».proof.Proof.Gen.Kernel
import proofs.«430291_j37958920962546_2_alg».proof.Proof.Gen.Kernel.Frame
import proofs.«430291_j37958920962546_2_alg».proof.Proof.Gen.KernelIdeal
import proofs.«430291_j37958920962546_2_alg».proof.Proof.Gen.KernelIdeal.Frame
import proofs.«430291_j37958920962546_2_alg».proof.Proof.Gen.ReferenceIdeal
import proofs.«430291_j37958920962546_2_alg».proof.Proof.Gen.Pre_finite_inputs
import proofs.«430291_j37958920962546_2_alg».proof.Proof.KRun
import proofs.«430291_j37958920962546_2_alg».proof.Proof.Glue
import proofs.«430291_j37958920962546_2_alg».proof.Proof.RefRun
import proofs.«430291_j37958920962546_2_alg».proof.Proof.RefRead
import proofs.«430291_j37958920962546_2_alg».proof.Proof.SpecMath
import proofs.«430291_j37958920962546_2_alg».proof.Proof.PreDecode
import Idealize.ShloMosaic.Adequacy
import Idealize.ShloMosaic.Init

noncomputable section

namespace Cert.Proof

open Idealize.ShloMosaic Idealize.SL.Sem Cert.Distill

/-- The tiled program runs, and its arguments end unchanged. -/
theorem frame_k : Cert.frame_Kernel := fun m ρ _ => Cert.Kernel.Gen.frame m ρ

/-- The same at the ideal values. -/
theorem frame_ki : Cert.frame_KernelIdeal := fun m ρ _ => Cert.KernelIdeal.Gen.frame m ρ

/-- The whole-array program runs, and its arguments end unchanged: its run with the result dropped. -/
theorem frame_ri : Cert.frame_ReferenceIdeal := fun m ρ _ =>
  (θ_run Cert.ReferenceIdeal.defs _ _).mono (fun _ h c => (h c).2) (Cert.ReferenceIdeal.RefValue.run (F := Ideal) m ρ)

/-- At the ideal values, from memories agreeing on the arguments, both programs end with the same scalar: the tiled
    program's value of the arguments, which on finite arrays with targets in range is the whole-array program's. -/
theorem algebraic : Cert.algebraic_KernelIdeal_ReferenceIdeal := by
  intro m ρ m' ρ' hpre hagree
  refine ⟨fun c => fun _ => kernelValue
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      Cert.KernelIdeal.Facts₀.reducesTo_S2048_S_d0 Cert.KernelIdeal.Facts₀.h_S_, ?_, ?_⟩
  · exact (θ_run Cert.KernelIdeal.defs _ _).mono
      (fun r h c => ⟨(h c).1.trans (Cert.KernelIdeal.Glue.value m ρ c), (h c).2⟩)
      (Cert.KernelIdeal.KRun.run (F := Ideal) m ρ)
  · refine (θ_run Cert.ReferenceIdeal.defs _ _).mono (fun r h c => ⟨(h c).1.trans ?_, (h c).2⟩)
      (Cert.ReferenceIdeal.RefValue.run (F := Ideal) m' ρ')
    obtain ⟨hf0, hf1, hf2, hf3, hl⟩ := pre_decode _ _ _ _ _ (hpre c)
    rw [(hagree c).1, (hagree c).2.1, (hagree c).2.2.1, (hagree c).2.2.2.1, (hagree c).2.2.2.2,
      Cert.ReferenceIdeal.RefValue.value _ _ _ _ _ hl]
    funext _
    exact (kernelValue_eq_referenceValue _ _ _ _ _ _ _ hf0 hf1 hf2 hf3 hl).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
